-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 2048]⟩ ⟨2, ![1024, 8192]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 2048]⟩ ⟨2, ![1024, 8192]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x1024 : Shape := ⟨2, ![1024, 1024]⟩
abbrev S1024x2048 : Shape := ⟨2, ![1024, 2048]⟩
abbrev S2048x1024 : Shape := ⟨2, ![2048, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn_part1 {F : FTy → Type} [FloatOps F] (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  main_v18

def fn {F : FTy → Type} [FloatOps F] (main_arg0 : FVec F S1024x1024 .f32) (main_arg1 : FVec F S1024x2048 .f32) (main_arg2 : FVec F S1024x2048 .f32) (main_arg3 : FVec F S2048x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_v13 main_v16
-- ==== Pre_finite_inputs_ReferenceIdeal.lean ====
abbrev S1024x1024 : Shape := ⟨2, ![1024, 1024]⟩
abbrev S1024x8192 : Shape := ⟨2, ![1024, 8192]⟩
abbrev S8192x1024 : Shape := ⟨2, ![8192, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  main_v18

def fn {F : FTy → Type} [FloatOps F] (main_arg0 : FVec F S1024x1024 .f32) (main_arg1 : FVec F S1024x8192 .f32) (main_arg2 : FVec F S1024x8192 .f32) (main_arg3 : FVec F S8192x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S1024x8192 .f32 := Host.absf main_arg2
  let main_cst_2 : FVec F S_ .f32 := constant S_ .f32 0x7F800000#32
  let main_v10 : FVec F S1024x8192 .f32 := broadcastInDim S1024x8192 ![] bcast_S_S1024x8192 main_cst_2
  let main_v11 : IVec S1024x8192 1 := cmpf .olt main_v9 main_v10
  let main_c_3 : IVec S_ 1 := constantI S_ 1 1#1
  let main_v12 : IVec S_ 1 := (fun x v => Host.reduce IntOp.andi x v reducesTo_S1024x8192_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_v13 main_v16
-- ==== Kernel.lean ====
abbrev S1024x1024 : Shape := ⟨2, ![1024, 1024]⟩
abbrev S1024x2048 : Shape := ⟨2, ![1024, 2048]⟩
abbrev S2048x1024 : Shape := ⟨2, ![2048, 1024]⟩
abbrev S6x128x1024 : Shape := ⟨3, ![6, 128, 1024]⟩
abbrev S6 : Shape := ⟨1, ![6]⟩
abbrev S_ : Shape := ⟨0, ![]⟩
abbrev S128x1024 : Shape := ⟨2, ![128, 1024]⟩
abbrev S128x2048 : Shape := ⟨2, ![128, 2048]⟩
abbrev S1x128x1024 : Shape := ⟨3, ![1, 128, 1024]⟩
abbrev S1 : Shape := ⟨1, ![1]⟩

abbrev nBuf : Space → Nat
  | .hbm => 5
  | .vmem => 10
  | .smem => 0
  | _ => 0

abbrev bufTy : (tb : Table) → Fin (tcTables nBuf tb) → BufTy
  | .hbm, ⟨0, _⟩ => ⟨S1024x1024, .f32⟩
  | .hbm, ⟨1, _⟩ => ⟨S1024x2048, .f32⟩
  | .hbm, ⟨2, _⟩ => ⟨S1024x2048, .f32⟩
  | .hbm, ⟨3, _⟩ => ⟨S2048x1024, .f32⟩
  | .hbm, ⟨4, _⟩ => ⟨S1024x1024, .bf16⟩
  | .local _ .vmem, ⟨0, _⟩ => ⟨S1024x1024, .f32⟩
  | .local _ .vmem, ⟨1, _⟩ => ⟨S1024x2048, .f32⟩
  | .local _ .vmem, ⟨2, _⟩ => ⟨S1024x2048, .f32⟩
  | .local _ .vmem, ⟨3, _⟩ => ⟨S2048x1024, .f32⟩
  | .local _ .vmem, ⟨4, _⟩ => ⟨S1024x1024, .bf16⟩
  | .local _ .vmem, ⟨5, _⟩ => ⟨S1024x2048, .bf16⟩
  | .local _ .vmem, ⟨6, _⟩ => ⟨S1024x2048, .bf16⟩
  | .local _ .vmem, ⟨7, _⟩ => ⟨S2048x1024, .bf16⟩
  | .local _ .vmem, ⟨8, _⟩ => ⟨S6x128x1024, .bf16⟩
  | .local _ .vmem, ⟨9, _⟩ => ⟨S6x128x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 1 29 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c1_i32_39 : BitVec 32) (c0_i32_46 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v61 : BitVec 32 := Scalar.addi v2 c1_i32_39
  let c4_i32_40 : BitVec 32 := 4#32
  let c0_i32_41 : BitVec 32 := 0#32
  let v62 : BitVec 1 := Scalar.cmpi .eq c4_i32_40 c0_i32_41
  let c1_i32_42 : BitVec 32 := 1#32
  let v63 : BitVec 32 := Scalar.select v62 c1_i32_42 c4_i32_40
  let v64 : BitVec 32 := Scalar.remsi v61 v63
  let c0_i32_44 : BitVec 32 := 0#32
  let v66 : BitVec 1 := Scalar.cmpi .slt v64 c0_i32_44
  let c0_i32_45 : BitVec 32 := 0#32
  let v67 : BitVec 1 := Scalar.cmpi .slt v63 c0_i32_45
  let v68 : BitVec 1 := Scalar.xori v66 v67
  let c0_i32_43 : BitVec 32 := 0#32
  let v65 : BitVec 1 := Scalar.cmpi .ne v64 c0_i32_43
  let v69 : BitVec 1 := Scalar.andi v68 v65
  let v70 : BitVec 32 := Scalar.addi v64 v63
  let v71 : BitVec 32 := Scalar.select v69 v70 v64
  let c256_i32 : BitVec 32 := 256#32
  let v72 : BitVec 32 := Scalar.muli v71 c256_i32
  let v73 : BitVec 32 := Scalar.addi v72 c0_i32_46
  let v74 : Index := Scalar.indexCast v73
  let c0_47 : Index := 0#32
  ![v74.toNat, 0]
def k0_dev4 (d0 : Dev nD) : Nat :=
  let c0_i32_64 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_39 : BitVec 32 := 1#32
  let v61 : BitVec 32 := Scalar.addi v2 c1_i32_39
  let c4_i32_40 : BitVec 32 := 4#32
  let c0_i32_41 : BitVec 32 := 0#32
  let v62 : BitVec 1 := Scalar.cmpi .eq c4_i32_40 c0_i32_41
  let c1_i32_42 : BitVec 32 := 1#32
  let v63 : BitVec 32 := Scalar.select v62 c1_i32_42 c4_i32_40
  let v64 : BitVec 32 := Scalar.remsi v61 v63
  let c0_i32_44 : BitVec 32 := 0#32
  let v66 : BitVec 1 := Scalar.cmpi .slt v64 c0_i32_44
  let c0_i32_45 : BitVec 32 := 0#32
  let v67 : BitVec 1 := Scalar.cmpi .slt v63 c0_i32_45
  let v68 : BitVec 1 := Scalar.xori v66 v67
  let c0_i32_43 : BitVec 32 := 0#32
  let v65 : BitVec 1 := Scalar.cmpi .ne v64 c0_i32_43
  let v69 : BitVec 1 := Scalar.andi v68 v65
  let v70 : BitVec 32 := Scalar.addi v64 v63
  let v71 : BitVec 32 := Scalar.select v69 v70 v64
  let c1_i32_63 : BitVec 32 := 1#32
  let v92 : BitVec 32 := Scalar.muli v71 c1_i32_63
  let v93 : BitVec 32 := Scalar.addi c0_i32_64 v92
  v93.toNat
def k0_dev5 (d0 : Dev nD) : Nat :=
  let c0_i32_95 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_69 : BitVec 32 := 2#32
  let v102 : BitVec 32 := Scalar.addi v2 c2_i32_69
  let c4_i32_70 : BitVec 32 := 4#32
  let c0_i32_71 : BitVec 32 := 0#32
  let v103 : BitVec 1 := Scalar.cmpi .eq c4_i32_70 c0_i32_71
  let c1_i32_72 : BitVec 32 := 1#32
  let v104 : BitVec 32 := Scalar.select v103 c1_i32_72 c4_i32_70
  let v105 : BitVec 32 := Scalar.remsi v102 v104
  let c0_i32_74 : BitVec 32 := 0#32
  let v107 : BitVec 1 := Scalar.cmpi .slt v105 c0_i32_74
  let c0_i32_75 : BitVec 32 := 0#32
  let v108 : BitVec 1 := Scalar.cmpi .slt v104 c0_i32_75
  let v109 : BitVec 1 := Scalar.xori v107 v108
  let c0_i32_73 : BitVec 32 := 0#32
  let v106 : BitVec 1 := Scalar.cmpi .ne v105 c0_i32_73
  let v110 : BitVec 1 := Scalar.andi v109 v106
  let v111 : BitVec 32 := Scalar.addi v105 v104
  let v112 : BitVec 32 := Scalar.select v110 v111 v105
  let c1_i32_94 : BitVec 32 := 1#32
  let v133 : BitVec 32 := Scalar.muli v112 c1_i32_94
  let v134 : BitVec 32 := Scalar.addi c0_i32_95 v133
  v134.toNat
def k0_dev6 (d0 : Dev nD) : Nat :=
  let c0_i32_126 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_100 : BitVec 32 := 3#32
  let v143 : BitVec 32 := Scalar.addi v2 c3_i32_100
  let c4_i32_101 : BitVec 32 := 4#32
  let c0_i32_102 : BitVec 32 := 0#32
  let v144 : BitVec 1 := Scalar.cmpi .eq c4_i32_101 c0_i32_102
  let c1_i32_103 : BitVec 32 := 1#32
  let v145 : BitVec 32 := Scalar.select v144 c1_i32_103 c4_i32_101
  let v146 : BitVec 32 := Scalar.remsi v143 v145
  let c0_i32_105 : BitVec 32 := 0#32
  let v148 : BitVec 1 := Scalar.cmpi .slt v146 c0_i32_105
  let c0_i32_106 : BitVec 32 := 0#32
  let v149 : BitVec 1 := Scalar.cmpi .slt v145 c0_i32_106
  let v150 : BitVec 1 := Scalar.xori v148 v149
  let c0_i32_104 : BitVec 32 := 0#32
  let v147 : BitVec 1 := Scalar.cmpi .ne v146 c0_i32_104
  let v151 : BitVec 1 := Scalar.andi v150 v147
  let v152 : BitVec 32 := Scalar.addi v146 v145
  let v153 : BitVec 32 := Scalar.select v151 v152 v146
  let c1_i32_125 : BitVec 32 := 1#32
  let v174 : BitVec 32 := Scalar.muli v153 c1_i32_125
  let v175 : BitVec 32 := Scalar.addi c0_i32_126 v174
  v175.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_131 : BitVec 32 := 256#32
  let v184 : BitVec 32 := Scalar.muli v2 c256_i32_131
  let v185 : Index := Scalar.indexCast v184
  let c0_132 : Index := 0#32
  ![v185.toNat, 0]
def k0_dev7 (d0 : Dev nD) : Nat :=
  let c0_i32_167 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_142 : BitVec 32 := 1#32
  let v199 : BitVec 32 := Scalar.addi v2 c1_i32_142
  let c4_i32_143 : BitVec 32 := 4#32
  let c0_i32_144 : BitVec 32 := 0#32
  let v200 : BitVec 1 := Scalar.cmpi .eq c4_i32_143 c0_i32_144
  let c1_i32_145 : BitVec 32 := 1#32
  let v201 : BitVec 32 := Scalar.select v200 c1_i32_145 c4_i32_143
  let v202 : BitVec 32 := Scalar.remsi v199 v201
  let c0_i32_147 : BitVec 32 := 0#32
  let v204 : BitVec 1 := Scalar.cmpi .slt v202 c0_i32_147
  let c0_i32_148 : BitVec 32 := 0#32
  let v205 : BitVec 1 := Scalar.cmpi .slt v201 c0_i32_148
  let v206 : BitVec 1 := Scalar.xori v204 v205
  let c0_i32_146 : BitVec 32 := 0#32
  let v203 : BitVec 1 := Scalar.cmpi .ne v202 c0_i32_146
  let v207 : BitVec 1 := Scalar.andi v206 v203
  let v208 : BitVec 32 := Scalar.addi v202 v201
  let v209 : BitVec 32 := Scalar.select v207 v208 v202
  let c1_i32_166 : BitVec 32 := 1#32
  let v230 : BitVec 32 := Scalar.muli v209 c1_i32_166
  let v231 : BitVec 32 := Scalar.addi c0_i32_167 v230
  v231.toNat
def k0_dev8 (d0 : Dev nD) : Nat :=
  let c0_i32_198 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_172 : BitVec 32 := 2#32
  let v240 : BitVec 32 := Scalar.addi v2 c2_i32_172
  let c4_i32_173 : BitVec 32 := 4#32
  let c0_i32_174 : BitVec 32 := 0#32
  let v241 : BitVec 1 := Scalar.cmpi .eq c4_i32_173 c0_i32_174
  let c1_i32_175 : BitVec 32 := 1#32
  let v242 : BitVec 32 := Scalar.select v241 c1_i32_175 c4_i32_173
  let v243 : BitVec 32 := Scalar.remsi v240 v242
  let c0_i32_177 : BitVec 32 := 0#32
  let v245 : BitVec 1 := Scalar.cmpi .slt v243 c0_i32_177
  let c0_i32_178 : BitVec 32 := 0#32
  let v246 : BitVec 1 := Scalar.cmpi .slt v242 c0_i32_178
  let v247 : BitVec 1 := Scalar.xori v245 v246
  let c0_i32_176 : BitVec 32 := 0#32
  let v244 : BitVec 1 := Scalar.cmpi .ne v243 c0_i32_176
  let v248 : BitVec 1 := Scalar.andi v247 v244
  let v249 : BitVec 32 := Scalar.addi v243 v242
  let v250 : BitVec 32 := Scalar.select v248 v249 v243
  let c1_i32_197 : BitVec 32 := 1#32
  let v271 : BitVec 32 := Scalar.muli v250 c1_i32_197
  let v272 : BitVec 32 := Scalar.addi c0_i32_198 v271
  v272.toNat
def k0_dev9 (d0 : Dev nD) : Nat :=
  let c0_i32_228 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_203 : BitVec 32 := 3#32
  let v281 : BitVec 32 := Scalar.addi v2 c3_i32_203
  let c4_i32_204 : BitVec 32 := 4#32
  let c0_i32_205 : BitVec 32 := 0#32
  let v282 : BitVec 1 := Scalar.cmpi .eq c4_i32_204 c0_i32_205
  let c1_i32_206 : BitVec 32 := 1#32
  let v283 : BitVec 32 := Scalar.select v282 c1_i32_206 c4_i32_204
  let v284 : BitVec 32 := Scalar.remsi v281 v283
  let c0_i32_208 : BitVec 32 := 0#32
  let v286 : BitVec 1 := Scalar.cmpi .slt v284 c0_i32_208
  let c0_i32_209 : BitVec 32 := 0#32
  let v287 : BitVec 1 := Scalar.cmpi .slt v283 c0_i32_209
  let v288 : BitVec 1 := Scalar.xori v286 v287
  let c0_i32_207 : BitVec 32 := 0#32
  let v285 : BitVec 1 := Scalar.cmpi .ne v284 c0_i32_207
  let v289 : BitVec 1 := Scalar.andi v288 v285
  let v290 : BitVec 32 := Scalar.addi v284 v283
  let v291 : BitVec 32 := Scalar.select v289 v290 v284
  let c1_i32_227 : BitVec 32 := 1#32
  let v312 : BitVec 32 := Scalar.muli v291 c1_i32_227
  let v313 : BitVec 32 := Scalar.addi c0_i32_228 v312
  v313.toNat
def k0_off3 (d0 : Dev nD) (c0_i32_273 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_272 : BitVec 32 := 256#32
  let v358 : BitVec 32 := Scalar.muli v2 c256_i32_272
  let v359 : BitVec 32 := Scalar.addi v358 c0_i32_273
  let v361 : Index := Scalar.indexCast v359
  let c0_274 : Index := 0#32
  ![v361.toNat, 0]
def k0_off4 (d0 : Dev nD) (c0_i32_273 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_272 : BitVec 32 := 256#32
  let v358 : BitVec 32 := Scalar.muli v2 c256_i32_272
  let v359 : BitVec 32 := Scalar.addi v358 c0_i32_273
  let c0_i32_286 : BitVec 32 := 0#32
  ![v359.toNat, 0]
def k0_dev10 (d0 : Dev nD) : Nat :=
  let c0_i32_285 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_275 : BitVec 32 := 1#32
  let v363 : BitVec 32 := Scalar.addi v2 c1_i32_275
  let c4_i32_276 : BitVec 32 := 4#32
  let c0_i32_277 : BitVec 32 := 0#32
  let v364 : BitVec 1 := Scalar.cmpi .eq c4_i32_276 c0_i32_277
  let c1_i32_278 : BitVec 32 := 1#32
  let v365 : BitVec 32 := Scalar.select v364 c1_i32_278 c4_i32_276
  let v366 : BitVec 32 := Scalar.remsi v363 v365
  let c0_i32_280 : BitVec 32 := 0#32
  let v368 : BitVec 1 := Scalar.cmpi .slt v366 c0_i32_280
  let c0_i32_281 : BitVec 32 := 0#32
  let v369 : BitVec 1 := Scalar.cmpi .slt v365 c0_i32_281
  let v370 : BitVec 1 := Scalar.xori v368 v369
  let c0_i32_279 : BitVec 32 := 0#32
  let v367 : BitVec 1 := Scalar.cmpi .ne v366 c0_i32_279
  let v371 : BitVec 1 := Scalar.andi v370 v367
  let v372 : BitVec 32 := Scalar.addi v366 v365
  let v373 : BitVec 32 := Scalar.select v371 v372 v366
  let c1_i32_284 : BitVec 32 := 1#32
  let v374 : BitVec 32 := Scalar.muli v373 c1_i32_284
  let v375 : BitVec 32 := Scalar.addi c0_i32_285 v374
  v375.toNat
def k0_dev11 (d0 : Dev nD) : Nat :=
  let c0_i32_298 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_288 : BitVec 32 := 2#32
  let v382 : BitVec 32 := Scalar.addi v2 c2_i32_288
  let c4_i32_289 : BitVec 32 := 4#32
  let c0_i32_290 : BitVec 32 := 0#32
  let v383 : BitVec 1 := Scalar.cmpi .eq c4_i32_289 c0_i32_290
  let c1_i32_291 : BitVec 32 := 1#32
  let v384 : BitVec 32 := Scalar.select v383 c1_i32_291 c4_i32_289
  let v385 : BitVec 32 := Scalar.remsi v382 v384
  let c0_i32_293 : BitVec 32 := 0#32
  let v387 : BitVec 1 := Scalar.cmpi .slt v385 c0_i32_293
  let c0_i32_294 : BitVec 32 := 0#32
  let v388 : BitVec 1 := Scalar.cmpi .slt v384 c0_i32_294
  let v389 : BitVec 1 := Scalar.xori v387 v388
  let c0_i32_292 : BitVec 32 := 0#32
  let v386 : BitVec 1 := Scalar.cmpi .ne v385 c0_i32_292
  let v390 : BitVec 1 := Scalar.andi v389 v386
  let v391 : BitVec 32 := Scalar.addi v385 v384
  let v392 : BitVec 32 := Scalar.select v390 v391 v385
  let c1_i32_297 : BitVec 32 := 1#32
  let v393 : BitVec 32 := Scalar.muli v392 c1_i32_297
  let v394 : BitVec 32 := Scalar.addi c0_i32_298 v393
  v394.toNat
def k0_dev12 (d0 : Dev nD) : Nat :=
  let c0_i32_311 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_301 : BitVec 32 := 3#32
  let v401 : BitVec 32 := Scalar.addi v2 c3_i32_301
  let c4_i32_302 : BitVec 32 := 4#32
  let c0_i32_303 : BitVec 32 := 0#32
  let v402 : BitVec 1 := Scalar.cmpi .eq c4_i32_302 c0_i32_303
  let c1_i32_304 : BitVec 32 := 1#32
  let v403 : BitVec 32 := Scalar.select v402 c1_i32_304 c4_i32_302
  let v404 : BitVec 32 := Scalar.remsi v401 v403
  let c0_i32_306 : BitVec 32 := 0#32
  let v406 : BitVec 1 := Scalar.cmpi .slt v404 c0_i32_306
  let c0_i32_307 : BitVec 32 := 0#32
  let v407 : BitVec 1 := Scalar.cmpi .slt v403 c0_i32_307
  let v408 : BitVec 1 := Scalar.xori v406 v407
  let c0_i32_305 : BitVec 32 := 0#32
  let v405 : BitVec 1 := Scalar.cmpi .ne v404 c0_i32_305
  let v409 : BitVec 1 := Scalar.andi v408 v405
  let v410 : BitVec 32 := Scalar.addi v404 v403
  let v411 : BitVec 32 := Scalar.select v409 v410 v404
  let c1_i32_310 : BitVec 32 := 1#32
  let v412 : BitVec 32 := Scalar.muli v411 c1_i32_310
  let v413 : BitVec 32 := Scalar.addi c0_i32_311 v412
  v413.toNat
def k0_dev13 (d0 : Dev nD) : Nat :=
  let c0_i32_378 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_368 : BitVec 32 := 1#32
  let v477 : BitVec 32 := Scalar.addi v2 c1_i32_368
  let c4_i32_369 : BitVec 32 := 4#32
  let c0_i32_370 : BitVec 32 := 0#32
  let v478 : BitVec 1 := Scalar.cmpi .eq c4_i32_369 c0_i32_370
  let c1_i32_371 : BitVec 32 := 1#32
  let v479 : BitVec 32 := Scalar.select v478 c1_i32_371 c4_i32_369
  let v480 : BitVec 32 := Scalar.remsi v477 v479
  let c0_i32_373 : BitVec 32 := 0#32
  let v482 : BitVec 1 := Scalar.cmpi .slt v480 c0_i32_373
  let c0_i32_374 : BitVec 32 := 0#32
  let v483 : BitVec 1 := Scalar.cmpi .slt v479 c0_i32_374
  let v484 : BitVec 1 := Scalar.xori v482 v483
  let c0_i32_372 : BitVec 32 := 0#32
  let v481 : BitVec 1 := Scalar.cmpi .ne v480 c0_i32_372
  let v485 : BitVec 1 := Scalar.andi v484 v481
  let v486 : BitVec 32 := Scalar.addi v480 v479
  let v487 : BitVec 32 := Scalar.select v485 v486 v480
  let c1_i32_377 : BitVec 32 := 1#32
  let v488 : BitVec 32 := Scalar.muli v487 c1_i32_377
  let v489 : BitVec 32 := Scalar.addi c0_i32_378 v488
  v489.toNat
def k0_dev14 (d0 : Dev nD) : Nat :=
  let c0_i32_391 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_381 : BitVec 32 := 2#32
  let v496 : BitVec 32 := Scalar.addi v2 c2_i32_381
  let c4_i32_382 : BitVec 32 := 4#32
  let c0_i32_383 : BitVec 32 := 0#32
  let v497 : BitVec 1 := Scalar.cmpi .eq c4_i32_382 c0_i32_383
  let c1_i32_384 : BitVec 32 := 1#32
  let v498 : BitVec 32 := Scalar.select v497 c1_i32_384 c4_i32_382
  let v499 : BitVec 32 := Scalar.remsi v496 v498
  let c0_i32_386 : BitVec 32 := 0#32
  let v501 : BitVec 1 := Scalar.cmpi .slt v499 c0_i32_386
  let c0_i32_387 : BitVec 32 := 0#32
  let v502 : BitVec 1 := Scalar.cmpi .slt v498 c0_i32_387
  let v503 : BitVec 1 := Scalar.xori v501 v502
  let c0_i32_385 : BitVec 32 := 0#32
  let v500 : BitVec 1 := Scalar.cmpi .ne v499 c0_i32_385
  let v504 : BitVec 1 := Scalar.andi v503 v500
  let v505 : BitVec 32 := Scalar.addi v499 v498
  let v506 : BitVec 32 := Scalar.select v504 v505 v499
  let c1_i32_390 : BitVec 32 := 1#32
  let v507 : BitVec 32 := Scalar.muli v506 c1_i32_390
  let v508 : BitVec 32 := Scalar.addi c0_i32_391 v507
  v508.toNat
def k0_dev15 (d0 : Dev nD) : Nat :=
  let c0_i32_404 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_394 : BitVec 32 := 3#32
  let v515 : BitVec 32 := Scalar.addi v2 c3_i32_394
  let c4_i32_395 : BitVec 32 := 4#32
  let c0_i32_396 : BitVec 32 := 0#32
  let v516 : BitVec 1 := Scalar.cmpi .eq c4_i32_395 c0_i32_396
  let c1_i32_397 : BitVec 32 := 1#32
  let v517 : BitVec 32 := Scalar.select v516 c1_i32_397 c4_i32_395
  let v518 : BitVec 32 := Scalar.remsi v515 v517
  let c0_i32_399 : BitVec 32 := 0#32
  let v520 : BitVec 1 := Scalar.cmpi .slt v518 c0_i32_399
  let c0_i32_400 : BitVec 32 := 0#32
  let v521 : BitVec 1 := Scalar.cmpi .slt v517 c0_i32_400
  let v522 : BitVec 1 := Scalar.xori v520 v521
  let c0_i32_398 : BitVec 32 := 0#32
  let v519 : BitVec 1 := Scalar.cmpi .ne v518 c0_i32_398
  let v523 : BitVec 1 := Scalar.andi v522 v519
  let v524 : BitVec 32 := Scalar.addi v518 v517
  let v525 : BitVec 32 := Scalar.select v523 v524 v518
  let c1_i32_403 : BitVec 32 := 1#32
  let v526 : BitVec 32 := Scalar.muli v525 c1_i32_403
  let v527 : BitVec 32 := Scalar.addi c0_i32_404 v526
  v527.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

class Facts₀ : Prop where
  hamt_1 : (1#32 : BitVec 32).msb = false
  hamt_3 : (3#32 : BitVec 32).msb = false
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  bitsLt_bf16_f32 : FTy.bits .bf16 < FTy.bits .f32
  packedbf16_S1024x2048_S1024x2048_0_0 : (Rect.unit (s := S1024x2048) ![0, 0] S1024x2048.size inb_S1024x2048_S1024x2048_0_0).PackedRows (EltTy.packing .bf16)
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  h_S128x1024 : 0 < S128x1024.numel
  shapeCasts_S128x1024_S128x1024 : S128x1024.ShapeCasts S128x1024
  inb_S6x128x1024_S1x128x1024_0_0_0 : ∀ a, (![0, 0, 0] : Fin 3 → Nat) a + S1x128x1024.size a ≤ S6x128x1024.size a
  h_S1x128x1024 : 0 < S1x128x1024.numel
  shapeCasts_S1x128x1024_S128x1024 : S1x128x1024.ShapeCasts S128x1024
  shapeCasts_S128x1024_S1x128x1024 : S128x1024.ShapeCasts S1x128x1024
  packedbf16_S6x128x1024_S1x128x1024_0_0_0 : (Rect.unit (s := S6x128x1024) ![0, 0, 0] S1x128x1024.size inb_S6x128x1024_S1x128x1024_0_0_0).PackedRows (EltTy.packing .bf16)
  inb_S6_S1_0 : ∀ a, (![0] : Fin 1 → Nat) a + S1.size a ≤ S6.size a
  squeezes_S1_S_ : S1.Squeezes S_
  squeezes_S1x128x1024_S128x1024 : S1x128x1024.Squeezes S128x1024
  wordsbf16_S6x128x1024_S1x128x1024_0_0_0 : (Rect.unit (s := S6x128x1024) ![0, 0, 0] S1x128x1024.size inb_S6x128x1024_S1x128x1024_0_0_0).WholeWords (EltTy.packing .bf16)
  inb_S6x128x1024_S1x128x1024_2_0_0 : ∀ a, (![2, 0, 0] : Fin 3 → Nat) a + S1x128x1024.size a ≤ S6x128x1024.size a
  packedbf16_S6x128x1024_S1x128x1024_2_0_0 : (Rect.unit (s := S6x128x1024) ![2, 0, 0] S1x128x1024.size inb_S6x128x1024_S1x128x1024_2_0_0).PackedRows (EltTy.packing .bf16)
  inb_S6_S1_2 : ∀ a, (![2] : Fin 1 → Nat) a + S1.size a ≤ S6.size a
  wordsbf16_S6x128x1024_S1x128x1024_2_0_0 : (Rect.unit (s := S6x128x1024) ![2, 0, 0] S1x128x1024.size inb_S6x128x1024_S1x128x1024_2_0_0).WholeWords (EltTy.packing .bf16)
  inb_S6x128x1024_S1x128x1024_4_0_0 : ∀ a, (![4, 0, 0] : Fin 3 → Nat) a + S1x128x1024.size a ≤ S6x128x1024.size a
  packedbf16_S6x128x1024_S1x128x1024_4_0_0 : (Rect.unit (s := S6x128x1024) ![4, 0, 0] S1x128x1024.size inb_S6x128x1024_S1x128x1024_4_0_0).PackedRows (EltTy.packing .bf16)
  inb_S6_S1_4 : ∀ a, (![4] : Fin 1 → Nat) a + S1.size a ≤ S6.size a
  wordsbf16_S6x128x1024_S1x128x1024_4_0_0 : (Rect.unit (s := S6x128x1024) ![4, 0, 0] S1x128x1024.size inb_S6x128x1024_S1x128x1024_4_0_0).WholeWords (EltTy.packing .bf16)
  inb_S6x128x1024_S1x128x1024_1_0_0 : ∀ a, (![1, 0, 0] : Fin 3 → Nat) a + S1x128x1024.size a ≤ S6x128x1024.size a
  packedbf16_S6x128x1024_S1x128x1024_1_0_0 : (Rect.unit (s := S6x128x1024) ![1, 0, 0] S1x128x1024.size inb_S6x128x1024_S1x128x1024_1_0_0).PackedRows (EltTy.packing .bf16)
  inb_S6_S1_1 : ∀ a, (![1] : Fin 1 → Nat) a + S1.size a ≤ S6.size a
  wordsbf16_S6x128x1024_S1x128x1024_1_0_0 : (Rect.unit (s := S6x128x1024) ![1, 0, 0] S1x128x1024.size inb_S6x128x1024_S1x128x1024_1_0_0).WholeWords (EltTy.packing .bf16)
  inb_S6x128x1024_S1x128x1024_3_0_0 : ∀ a, (![3, 0, 0] : Fin 3 → Nat) a + S1x128x1024.size a ≤ S6x128x1024.size a
  packedbf16_S6x128x1024_S1x128x1024_3_0_0 : (Rect.unit (s := S6x128x1024) ![3, 0, 0] S1x128x1024.size inb_S6x128x1024_S1x128x1024_3_0_0).PackedRows (EltTy.packing .bf16)
  inb_S6_S1_3 : ∀ a, (![3] : Fin 1 → Nat) a + S1.size a ≤ S6.size a
  wordsbf16_S6x128x1024_S1x128x1024_3_0_0 : (Rect.unit (s := S6x128x1024) ![3, 0, 0] S1x128x1024.size inb_S6x128x1024_S1x128x1024_3_0_0).WholeWords (EltTy.packing .bf16)
  inb_S6x128x1024_S1x128x1024_5_0_0 : ∀ a, (![5, 0, 0] : Fin 3 → Nat) a + S1x128x1024.size a ≤ S6x128x1024.size a
  packedbf16_S6x128x1024_S1x128x1024_5_0_0 : (Rect.unit (s := S6x128x1024) ![5, 0, 0] S1x128x1024.size inb_S6x128x1024_S1x128x1024_5_0_0).PackedRows (EltTy.packing .bf16)
  inb_S6_S1_5 : ∀ a, (![5] : Fin 1 → Nat) a + S1.size a ≤ S6.size a
  wordsbf16_S6x128x1024_S1x128x1024_5_0_0 : (Rect.unit (s := S6x128x1024) ![5, 0, 0] S1x128x1024.size inb_S6x128x1024_S1x128x1024_5_0_0).WholeWords (EltTy.packing .bf16)
  dot_S128x1024_S1024x2048_S128x2048_1_0_0_1_n_n_wf : DotDims.WF S128x1024 S1024x2048 S128x2048 [1] [0] [0] [1] [] []
  dot_S128x2048_S2048x1024_S128x1024_1_0_0_1_n_n_wf : DotDims.WF S128x2048 S2048x1024 S128x1024 [1] [0] [0] [1] [] []
  hcc0_scratch5 : 5 + S6.numel ≤ 29
  hcc0_scratch6 : 11 + S6.numel ≤ 29
  hcc0_scratch7 : 17 + S6.numel ≤ 29
  hcc0_scratch8 : 23 + S6.numel ≤ 29
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ (r₁ : Fin 3) (r₂ : Fin 2), ∀ a, (k0_off1 d0 (BitVec.ofNat 32 (1 + r₁.val)) (BitVec.ofNat 32 (128 * r₂.val))) a + S128x1024.size a ≤ S1024x1024.size a
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_off2_inb : ∀ d0 : Dev nD, ∀ a, (k0_off2 d0) a + S128x1024.size a ≤ S1024x1024.size a
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_off3_inb : ∀ d0 : Dev nD, ∀ (r : Fin 2), ∀ a, (k0_off3 d0 (BitVec.ofNat 32 (128 * r.val))) a + S128x1024.size a ≤ S1024x1024.size a
  k0_off3_packedbf16 : ∀ d0 : Dev nD, ∀ (r : Fin 2), (Rect.unit (s := S1024x1024) (k0_off3 d0 (BitVec.ofNat 32 (128 * r.val))) S128x1024.size (k0_off3_inb d0 r)).PackedRows (EltTy.packing .bf16)
  k0_off4_inb : ∀ d0 : Dev nD, ∀ (r : Fin 2), ∀ a, (k0_off4 d0 (BitVec.ofNat 32 (128 * r.val))) a + S128x1024.size a ≤ S1024x1024.size a
  k0_off4_wordsbf16 : ∀ d0 : Dev nD, ∀ (r : Fin 2), (Rect.unit (s := S1024x1024) (k0_off4 d0 (BitVec.ofNat 32 (128 * r.val))) S128x1024.size (k0_off4_inb d0 r)).WholeWords (EltTy.packing .bf16)
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole

variable [Facts₀]

abbrev cc0_scratch5 : DmaSems sig S6 := SemArray.consecutive 5 S6 hcc0_scratch5
abbrev cc0_scratch6 : DmaSems sig S6 := SemArray.consecutive 11 S6 hcc0_scratch6
abbrev cc0_scratch7 : DmaSems sig S6 := SemArray.consecutive 17 S6 hcc0_scratch7
abbrev cc0_scratch8 : DmaSems sig S6 := SemArray.consecutive 23 S6 hcc0_scratch8
def dot_S128x1024_S1024x2048_S128x2048_1_0_0_1_n_n : DotDims S128x1024 S1024x2048 S128x2048 where
  lhsContracting := [1]
  rhsContracting := [0]
  lhsNonContracting := [0]
  rhsNonContracting := [1]
  lhsBatch := []
  rhsBatch := []
  wf := dot_S128x1024_S1024x2048_S128x2048_1_0_0_1_n_n_wf
def dot_S128x2048_S2048x1024_S128x1024_1_0_0_1_n_n : DotDims S128x2048 S2048x1024 S128x1024 where
  lhsContracting := [1]
  rhsContracting := [0]
  lhsNonContracting := [0]
  rhsNonContracting := [1]
  lhsBatch := []
  rhsBatch := []
  wf := dot_S128x2048_S2048x1024_S128x1024_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_v1) true false (stage0_4 0) (sem0_4 0) (Memref.isWhole_whole _) (hstage0_4 0)

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x1024 : Shape := ⟨2, ![1024, 1024]⟩
abbrev S1024x8192 : Shape := ⟨2, ![1024, 8192]⟩
abbrev S8192x1024 : Shape := ⟨2, ![8192, 1024]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x8192, .f32⟩
  | .hbm, ⟨2, _⟩ => ⟨S1024x8192, .f32⟩
  | .hbm, ⟨3, _⟩ => ⟨S8192x1024, .f32⟩
  | .hbm, ⟨4, _⟩ => ⟨S1024x8192, .f32⟩
  | .hbm, ⟨5, _⟩ => ⟨S1024x8192, .f32⟩
  | .hbm, ⟨6, _⟩ => ⟨S1024x8192, .f32⟩
  | .hbm, ⟨7, _⟩ => ⟨S1024x8192, .f32⟩
  | .hbm, ⟨8, _⟩ => ⟨S_, .f32⟩
  | .hbm, ⟨9, _⟩ => ⟨S1024x8192, .f32⟩
  | .hbm, ⟨10, _⟩ => ⟨S1024x8192, .f32⟩
  | .hbm, ⟨11, _⟩ => ⟨S1024x8192, .f32⟩
  | .hbm, ⟨12, _⟩ => ⟨S1024x8192, .f32⟩
  | .hbm, ⟨13, _⟩ => ⟨S1024x1024, .f32⟩
  | .hbm, ⟨14, _⟩ => ⟨S1024x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  bcast_S_S1024x8192 : S_.BroadcastsInDim S1024x8192 (![] : Fin 0 → Fin S1024x8192.rank)
  bitsLt_bf16_f32 : FTy.bits .bf16 < FTy.bits .f32
  dot_S1024x1024_S1024x8192_S1024x8192_1_0_0_1_n_n_wf : DotDims.WF S1024x1024 S1024x8192 S1024x8192 [1] [0] [0] [1] [] []
  dot_S1024x8192_S8192x1024_S1024x1024_1_0_0_1_n_n_wf : DotDims.WF S1024x8192 S8192x1024 S1024x1024 [1] [0] [0] [1] [] []

variable [Facts₀]

def dot_S1024x1024_S1024x8192_S1024x8192_1_0_0_1_n_n : DotDims S1024x1024 S1024x8192 S1024x8192 where
  lhsContracting := [1]
  rhsContracting := [0]
  lhsNonContracting := [0]
  rhsNonContracting := [1]
  lhsBatch := []
  rhsBatch := []
  wf := dot_S1024x1024_S1024x8192_S1024x8192_1_0_0_1_n_n_wf
def dot_S1024x8192_S8192x1024_S1024x1024_1_0_0_1_n_n : DotDims S1024x8192 S8192x1024 S1024x1024 where
  lhsContracting := [1]
  rhsContracting := [0]
  lhsNonContracting := [0]
  rhsNonContracting := [1]
  lhsBatch := []
  rhsBatch := []
  wf := dot_S1024x8192_S8192x1024_S1024x1024_1_0_0_1_n_n_wf

class Facts : Prop extends Facts₀ where

variable [Facts]
-- ==== Proof.Vals.lean ====
/-
  The values the exchange moves, as pure functions of a device's argument blocks (any float instance).

  A device holds all of x, a band of 2048 columns of the gate and up projections and the matching band of
  2048 rows of the down projection. For a block of 128 rows of x its SHARE of the result rows is
  (x_rows · Wg_band) ∘ silu(x_rows · Wu_band), narrowed, times Wd_band: a partial sum of the contraction
  over the 8192 hidden columns. The owner of a row block adds its own share, kept wide, to the three
  narrowed shares it receives, and narrows the sum.
-/
import proofs.«900523_g7700000000000524_dist_gated_mlp_tp_i_m1024_h2048_d1024_v7x_i4_bf16_1_alg».proof.Proof.Gen.KernelIdeal.Skeleton

noncomputable section

namespace Cert.KernelIdeal.Vals

open Idealize.ShloMosaic Cert.KernelIdeal Cert.KernelIdeal.Gen

variable {F : FTy → Type} [FloatOps F]

/-- A device's share of one block of 128 result rows, wide: the gated product of the row block with the
    device's (narrowed) weight bands. -/
def part32 (xr : Vec F S128x1024 .f32) (wg wu : Vec F S1024x2048 .f32) (wd : Vec F S2048x1024 .f32) : FVec F S128x1024 .f32 :=
  k0_pay11 (k0_pay10 xr (k0_pay1 wg) (k0_pay2 wu)) (k0_pay3 wd)

/-- The same share narrowed, laid out as one slot of the exchange buffer. -/
def part16 (xr : Vec F S128x1024 .f32) (wg wu : Vec F S1024x2048 .f32) (wd : Vec F S2048x1024 .f32) : FVec F S1x128x1024 .bf16 :=
  k0_pay4 xr (k0_pay1 wg) (k0_pay2 wu) (k0_pay3 wd)

/-- The owner's wide share plus the three received narrow ones, in the order they are added, narrowed. -/
def red (own : FVec F S128x1024 .f32) (s0 s1 s2 : Vec F S1x128x1024 .bf16) : FVec F S128x1024 .bf16 :=
  k0_pay19 (k0_pay18 own s0 s1) s2

end Cert.KernelIdeal.Vals

end
-- ==== Proof.Proto.lean ====
/-
  The exchange protocol of the tensor-parallel gated MLP on four devices, under the rounds discipline.

  Every device c enters by signalling the barrier cell of each other device once and waiting for its own three
  units. Then, for each other device j = c + off (off = 1, 2, 3) and each half g = 0, 1 of j's 256 result rows, c
  computes its share of those 128 rows, stores it in slot (off - 1) * 2 + g of its send buffer and copies the slot
  into the same slot of j's receive buffer (send cell and receive cell of that slot). For each half g of its OWN rows
  c adds the three received slots (from c - 1, c - 2, c - 3) to its own wide share, stores the narrowed sum into its
  result rows and copies those rows into the same rows of every other device's result buffer (a second set of send
  and receive cells, same slot numbering). It leaves after all twelve receives and all twelve sends have completed.

  A barrier unit from device p tells c that p is inside the kernel, and hands c what c will write on p: the two
  receive slots c's shares land in, and c's two row blocks of p's result buffer.
-/
import proofs.«900523_g7700000000000524_dist_gated_mlp_tp_i_m1024_h2048_d1024_v7x_i4_bf16_1_alg».proof.Proof.Gen.KernelIdeal
import proofs.«900523_g7700000000000524_dist_gated_mlp_tp_i_m1024_h2048_d1024_v7x_i4_bf16_1_alg».proof.Proof.Gen.KernelIdeal.Skeleton
import proofs.«900523_g7700000000000524_dist_gated_mlp_tp_i_m1024_h2048_d1024_v7x_i4_bf16_1_alg».proof.Proof.Gen.KernelIdeal.Launch
import proofs.«900523_g7700000000000524_dist_gated_mlp_tp_i_m1024_h2048_d1024_v7x_i4_bf16_1_alg».proof.Proof.Gen.KernelIdeal.Points
import proofs.«900523_g7700000000000524_dist_gated_mlp_tp_i_m1024_h2048_d1024_v7x_i4_bf16_1_alg».proof.Proof.Vals
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

noncomputable section

namespace Cert.KernelIdeal.Px

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's (a barrier cell has three duties) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

/-! ## The mesh: device c + o -/

def pe (c : Dev nD) (o : ℕ) : Dev nD := ⟨(c.val + o) % 4, Nat.mod_lt _ (by decide)⟩

theorem pe_pe (c : Dev nD) (a b : ℕ) : pe (pe c a) b = pe c (a + b) := Fin.ext (by simp only [pe]; omega)
theorem pe_four (c : Dev nD) : pe c 4 = c := by revert c; decide
theorem pe_zero (c : Dev nD) : pe c 0 = c := by revert c; decide

theorem k0_dev1_eq : ∀ c : Dev nD, k0_dev1 c = (c.val + 1) % 4 := by decide +kernel
theorem k0_dev2_eq : ∀ c : Dev nD, k0_dev2 c = (c.val + 2) % 4 := by decide +kernel
theorem k0_dev3_eq : ∀ c : Dev nD, k0_dev3 c = (c.val + 3) % 4 := by decide +kernel
theorem k0_dev4_eq : ∀ c : Dev nD, k0_dev4 c = (c.val + 1) % 4 := by decide +kernel
theorem k0_dev5_eq : ∀ c : Dev nD, k0_dev5 c = (c.val + 2) % 4 := by decide +kernel
theorem k0_dev6_eq : ∀ c : Dev nD, k0_dev6 c = (c.val + 3) % 4 := by decide +kernel
theorem k0_dev7_eq : ∀ c : Dev nD, k0_dev7 c = (c.val + 1) % 4 := by decide +kernel
theorem k0_dev8_eq : ∀ c : Dev nD, k0_dev8 c = (c.val + 2) % 4 := by decide +kernel
theorem k0_dev9_eq : ∀ c : Dev nD, k0_dev9 c = (c.val + 3) % 4 := by decide +kernel
theorem k0_dev10_eq : ∀ c : Dev nD, k0_dev10 c = (c.val + 1) % 4 := by decide +kernel
theorem k0_dev11_eq : ∀ c : Dev nD, k0_dev11 c = (c.val + 2) % 4 := by decide +kernel
theorem k0_dev12_eq : ∀ c : Dev nD, k0_dev12 c = (c.val + 3) % 4 := by decide +kernel
theorem k0_dev13_eq : ∀ c : Dev nD, k0_dev13 c = (c.val + 1) % 4 := by decide +kernel
theorem k0_dev14_eq : ∀ c : Dev nD, k0_dev14 c = (c.val + 2) % 4 := by decide +kernel
theorem k0_dev15_eq : ∀ c : Dev nD, k0_dev15 c = (c.val + 3) % 4 := by decide +kernel

theorem dev1_eq (c : Dev nD) : (⟨k0_dev1 c, k0_dev1_lt c⟩ : Dev nD) = pe c 1 := Fin.ext (k0_dev1_eq c)
theorem dev2_eq (c : Dev nD) : (⟨k0_dev2 c, k0_dev2_lt c⟩ : Dev nD) = pe c 2 := Fin.ext (k0_dev2_eq c)
theorem dev3_eq (c : Dev nD) : (⟨k0_dev3 c, k0_dev3_lt c⟩ : Dev nD) = pe c 3 := Fin.ext (k0_dev3_eq c)
theorem dev4_eq (c : Dev nD) : (⟨k0_dev4 c, k0_dev4_lt c⟩ : Dev nD) = pe c 1 := Fin.ext (k0_dev4_eq c)
theorem dev5_eq (c : Dev nD) : (⟨k0_dev5 c, k0_dev5_lt c⟩ : Dev nD) = pe c 2 := Fin.ext (k0_dev5_eq c)
theorem dev6_eq (c : Dev nD) : (⟨k0_dev6 c, k0_dev6_lt c⟩ : Dev nD) = pe c 3 := Fin.ext (k0_dev6_eq c)
theorem dev7_eq (c : Dev nD) : (⟨k0_dev7 c, k0_dev7_lt c⟩ : Dev nD) = pe c 1 := Fin.ext (k0_dev7_eq c)
theorem dev8_eq (c : Dev nD) : (⟨k0_dev8 c, k0_dev8_lt c⟩ : Dev nD) = pe c 2 := Fin.ext (k0_dev8_eq c)
theorem dev9_eq (c : Dev nD) : (⟨k0_dev9 c, k0_dev9_lt c⟩ : Dev nD) = pe c 3 := Fin.ext (k0_dev9_eq c)
theorem dev10_eq (c : Dev nD) : (⟨k0_dev10 c, k0_dev10_lt c⟩ : Dev nD) = pe c 1 := Fin.ext (k0_dev10_eq c)
theorem dev11_eq (c : Dev nD) : (⟨k0_dev11 c, k0_dev11_lt c⟩ : Dev nD) = pe c 2 := Fin.ext (k0_dev11_eq c)
theorem dev12_eq (c : Dev nD) : (⟨k0_dev12 c, k0_dev12_lt c⟩ : Dev nD) = pe c 3 := Fin.ext (k0_dev12_eq c)
theorem dev13_eq (c : Dev nD) : (⟨k0_dev13 c, k0_dev13_lt c⟩ : Dev nD) = pe c 1 := Fin.ext (k0_dev13_eq c)
theorem dev14_eq (c : Dev nD) : (⟨k0_dev14 c, k0_dev14_lt c⟩ : Dev nD) = pe c 2 := Fin.ext (k0_dev14_eq c)
theorem dev15_eq (c : Dev nD) : (⟨k0_dev15 c, k0_dev15_lt c⟩ : Dev nD) = pe c 3 := Fin.ext (k0_dev15_eq c)

/-- The row offset of the x rows a device reads for the device off = 1 + r₁ places after it, half r₂. -/
theorem k0_off1_eq : ∀ (c : Dev nD) (r₁ : Fin 3) (r₂ : Fin 2),
    k0_off1 c (BitVec.ofNat 32 (1 + r₁.val)) (BitVec.ofNat 32 (128 * r₂.val)) = ![256 * ((c.val + 1 + r₁.val) % 4) + 128 * r₂.val, 0] := by decide +kernel

/-! ## The buffers, as the kernel's body names them -/

abbrev xM : Memref sig .tc .vmem S1024x1024 .f32 := Memref.whole cc0_stg0_0
abbrev gM : Memref sig .tc .vmem S1024x2048 .f32 := Memref.whole cc0_stg1_0
abbrev uM : Memref sig .tc .vmem S1024x2048 .f32 := Memref.whole cc0_stg2_0
abbrev dM : Memref sig .tc .vmem S2048x1024 .f32 := Memref.whole cc0_stg3_0
abbrev oM : Memref sig .tc .vmem S1024x1024 .bf16 := Memref.whole cc0_stg4_0
abbrev gbM : Memref sig .tc .vmem S1024x2048 .bf16 := Memref.whole cc0_scratch0
abbrev ubM : Memref sig .tc .vmem S1024x2048 .bf16 := Memref.whole cc0_scratch1
abbrev dbM : Memref sig .tc .vmem S2048x1024 .bf16 := Memref.whole cc0_scratch2
abbrev sndM : Memref sig .tc .vmem S6x128x1024 .bf16 := Memref.whole cc0_scratch3
abbrev rcvM : Memref sig .tc .vmem S6x128x1024 .bf16 := Memref.whole cc0_scratch4

theorem inb_slot : ∀ (k : Fin 6) (a : Fin 3), (![k.val, 0, 0] : Fin 3 → Nat) a + S1x128x1024.size a ≤ S6x128x1024.size a := by decide
theorem inb_s6 : ∀ (k : Fin 6) (a : Fin 1), (![k.val] : Fin 1 → Nat) a + S1.size a ≤ S6.size a := by decide

/-- The rectangle of slot k in a six-slot buffer. -/
abbrev slotRect (k : Fin 6) : Rect S6x128x1024 := Rect.unit (s := S6x128x1024) ![k.val, 0, 0] S1x128x1024.size (inb_slot k)

/-- Slot k of the send buffer and of the receive buffer, as the transfers see them: 128 × 1024. -/
abbrev sndSlot (k : Fin 6) : Memref sig .tc .vmem S128x1024 .bf16 :=
  (sndM.slice (slotRect k) (fun _ => rfl)).squeeze S128x1024 squeezes_S1x128x1024_S128x1024
abbrev rcvSlot (k : Fin 6) : Memref sig .tc .vmem S128x1024 .bf16 :=
  (rcvM.slice (slotRect k) (fun _ => rfl)).squeeze S128x1024 squeezes_S1x128x1024_S128x1024

/-- Half g of device d's 256 result rows, in a device's result buffer. -/
abbrev oRows (d : Dev nD) (g : Fin 2) : Memref sig .tc .vmem S128x1024 .bf16 :=
  oM.slice (Rect.unit (s := S1024x1024) (k0_off4 d (BitVec.ofNat 32 (128 * g.val))) S128x1024.size (k0_off4_inb d g)) (fun _ => rfl)

/-! ## The cells -/

abbrev barS : Sem sig := (SemArray.scalar (sig.barrier 0 rfl) : Sems sig S_).sem

/-- The four semaphore arrays: share sends, share receives, result-row sends, result-row receives. -/
abbrev arr : Fin 4 → DmaSems sig S6 := ![cc0_scratch5, cc0_scratch6, cc0_scratch7, cc0_scratch8]
abbrev semOf (a : Fin 4) (k : Fin 6) : DmaSem sig :=
  (((arr a).slice (Rect.unit (s := S6) ![k.val] S1.size (inb_s6 k))).squeeze S_ squeezes_S1_S_).sem

abbrev barCell (c : Dev nD) : GSem nD τ sig := ((c : Thread nD τ), .reg barS)
abbrev dCell (c : Dev nD) (a : Fin 4) (k : Fin 6) : GSem nD τ sig := ((c : Thread nD τ), .dma (semOf a k))

/-- Which array and slot a DMA semaphore of the exchange is. -/
def dec (s : SemLoc sig) : Option (Fin 4 × Fin 6) :=
  match s with
  | .dma q => if h : 5 ≤ q.val ∧ q.val < 29 then some (⟨(q.val - 5) / 6, by omega⟩, ⟨(q.val - 5) % 6, Nat.mod_lt _ (by decide)⟩) else none
  | .reg _ => none

theorem dec_semOf : ∀ (a : Fin 4) (k : Fin 6), dec (.dma (semOf a k)) = some (a, k) := by decide +kernel
theorem dec_bar : dec (.reg barS) = none := rfl
theorem semOf_ne_bar (a : Fin 4) (k : Fin 6) : (SemLoc.dma (semOf a k) : SemLoc sig) ≠ .reg barS := fun h => by cases h

/-- Slot (off - 1) * 2 + g, for off = o + 1. -/
def slotOf (o : Fin 3) (g : Fin 2) : Fin 6 := ⟨o.val * 2 + g.val, by have := o.isLt; have := g.isLt; omega⟩

/-- The transfer credit of one 128 × 1024 bf16 block: into a receive slot, and into result rows. -/
abbrev Nrs : ℕ := (rcvSlot 0).view.dmaCredit
abbrev Nag : ℕ := (oRows 0 0).view.dmaCredit
theorem Nrs_pos : 0 < Nrs := View.dmaCredit_pos _ h_S128x1024
theorem Nag_pos : 0 < Nag := View.dmaCredit_pos _ h_S128x1024
def Nof (a : Fin 4) : ℕ := if a.val < 2 then Nrs else Nag

/-! ## Contents: every value the exchange moves, as a function of the devices' argument blocks -/

/-- Device c's staged arguments: all of x, its bands of the gate, up and down projections. -/
def Xs (c : Dev nD) : (cc0_stg0_0 : Ref sig .tc).ty.Contents (Elt F) := (win0_0.blk t0_0).view.read (Elt F) (m ((c : Thread nD τ).loc main_arg0))
def Gs (c : Dev nD) : (cc0_stg1_0 : Ref sig .tc).ty.Contents (Elt F) := (win0_1.blk t0_0).view.read (Elt F) (m ((c : Thread nD τ).loc main_arg1))
def Us (c : Dev nD) : (cc0_stg2_0 : Ref sig .tc).ty.Contents (Elt F) := (win0_2.blk t0_0).view.read (Elt F) (m ((c : Thread nD τ).loc main_arg2))
def Ds (c : Dev nD) : (cc0_stg3_0 : Ref sig .tc).ty.Contents (Elt F) := (win0_3.blk t0_0).view.read (Elt F) (m ((c : Thread nD τ).loc main_arg3))

/-- The 128 rows of x that device c reads for the device o + 1 places after it, half g. -/
def xrO (c : Dev nD) (o : Fin 3) (g : Fin 2) : Vec F S128x1024 .f32 :=
  xM.view.readAt (Elt F) (Rect.unit (s := S1024x1024) (k0_off1 c (BitVec.ofNat 32 (1 + o.val)) (BitVec.ofNat 32 (128 * g.val))) S128x1024.size (k0_off1_inb c o g)).toLoadRect (Xs m c)
/-- The rows of x of device c's own half g. -/
def xrOwn (c : Dev nD) : Fin 2 → Vec F S128x1024 .f32
  | ⟨0, _⟩ => xM.view.readAt (Elt F) (Rect.unit (s := S1024x1024) (k0_off2 c) S128x1024.size (k0_off2_inb c)).toLoadRect (Xs m c)
  | ⟨_ + 1, _⟩ => xM.view.readAt (Elt F) (Rect.unit (s := S1024x1024) (k0_off3 c 128#32) S128x1024.size (k0_off3_inb c 1)).toLoadRect (Xs m c)

/-- Device c's weight bands as the body's loads of the whole staging buffers read them. -/
def Gr (c : Dev nD) : Vec F S1024x2048 .f32 :=
  gM.view.readAt (Elt F) (Rect.unit (s := S1024x2048) ![0, 0] S1024x2048.size inb_S1024x2048_S1024x2048_0_0).toLoadRect (Gs m c)
def Ur (c : Dev nD) : Vec F S1024x2048 .f32 :=
  uM.view.readAt (Elt F) (Rect.unit (s := S1024x2048) ![0, 0] S1024x2048.size inb_S1024x2048_S1024x2048_0_0).toLoadRect (Us m c)
def Dr (c : Dev nD) : Vec F S2048x1024 .f32 :=
  dM.view.readAt (Elt F) (Rect.unit (s := S2048x1024) ![0, 0] S2048x1024.size inb_S2048x1024_S2048x1024_0_0).toLoadRect (Ds m c)

/-- What c sends to the device o + 1 places after it for that device's half g: its narrowed share, one slot. -/
def sent (c : Dev nD) (o : Fin 3) (g : Fin 2) : Vec F S1x128x1024 .bf16 := Vals.part16 (xrO m c o g) (Gr m c) (Ur m c) (Dr m c)
/-- What lands in c's receive slot (o, g): the share of the device o + 1 places before c. -/
def got (c : Dev nD) (o : Fin 3) (g : Fin 2) : Vec F S1x128x1024 .bf16 := sent m (pe c (3 - o.val)) o g
/-- c's own wide share of its half g. -/
def own32 (c : Dev nD) (g : Fin 2) : FVec F S128x1024 .f32 := Vals.part32 (xrOwn m c g) (Gr m c) (Ur m c) (Dr m c)
/-- The finished rows of device c's half g. -/
def R (c : Dev nD) (g : Fin 2) : Vec F S128x1024 .bf16 := Vals.red (own32 m c g) (got m c 0 g) (got m c 1 g) (got m c 2 g)

/-- A slot's contents as the transfers see them (128 × 1024). -/
def slotVal (w : Vec F S1x128x1024 .bf16) : Vec F S128x1024 .bf16 := shapeCast S128x1024 w shapeCasts_S1x128x1024_S128x1024

/-- The whole result, the same on every device: rows 256 d + 128 g + r are row r of `R d g`. -/
def OUT : (cc0_stg4_0 : Ref sig .tc).ty.Contents (Elt F) := fun i =>
  R m ⟨(i 0).val / 256 % 4, Nat.mod_lt _ (by decide)⟩ ⟨(i 0).val / 128 % 2, Nat.mod_lt _ (by decide)⟩
    (ValueIdx.ix2 ⟨(i 0).val % 128, Nat.mod_lt _ (by decide)⟩ (i 1))

/-- Some contents of a buffer: what a region's points-to says nothing about off the region. -/
def junk (ℓ : Loc nD τ sig) : Buf (Elt F) ℓ := fun _ => Classical.choice inferInstance

/-- A region of a buffer (a view's elements) held at share q with the view reading `w`. -/
def regPts {S : Shape} {e : EltTy} (t : Thread nD τ) (v : Memref sig t.2.kind .vmem S e) (q : PosShare TreeShare) (w : S.Idx → Elt F e) : sProp 𝕄 :=
  v.view.loc t ↦[v.view.set]{q} (v.view.write (Elt F) (junk (v.view.loc t)) w Finset.univ)
/-- The same region at some contents. -/
def regAny {S : Shape} {e : EltTy} (t : Thread nD τ) (v : Memref sig t.2.kind .vmem S e) : sProp 𝕄 :=
  iprop(∃ f : Buf (Elt F) (v.view.loc t), v.view.loc t ↦[v.view.set]{fullShare} f)

/-! ## The schedule: one round; a barrier cell has three unit duties, every transfer cell one -/

/-- The share of the result rows lent to the o-th of the three copies that read them at once. -/
def lentShare (o : Fin 3) : PosShare TreeShare :=
  match o with
  | ⟨0, _⟩ => fullShare.left
  | ⟨1, _⟩ => fullShare.right.left
  | ⟨_ + 2, _⟩ => fullShare.right.right

/-- Duty d of c's barrier cell is paid by p = c + (3 - d), to which c is the device 3 - d places after... c reaches p by
    o' + 1 = 3 - d places: p hands c the two receive slots c's shares land in and c's two row blocks of p's result. -/
def barPay (c : Dev nD) (d : Fin 3) : sProp 𝕄 :=
  iprop(regAny ((pe c (3 - d.val) : Dev nD) : Thread nD τ) (rcvSlot (slotOf ⟨2 - d.val, by omega⟩ 0))
      ∗ regAny ((pe c (3 - d.val) : Dev nD) : Thread nD τ) (rcvSlot (slotOf ⟨2 - d.val, by omega⟩ 1))
      ∗ regAny ((pe c (3 - d.val) : Dev nD) : Thread nD τ) (oRows c 0)
      ∗ regAny ((pe c (3 - d.val) : Dev nD) : Thread nD τ) (oRows c 1))

/-- What a transfer cell's one duty hands its owner c: a send cell the source it lent, a receive cell what landed. -/
def dPay (c : Dev nD) (a : Fin 4) (k : Fin 6) : sProp 𝕄 :=
  let o : Fin 3 := ⟨k.val / 2, by have := k.isLt; omega⟩
  let g : Fin 2 := ⟨k.val % 2, Nat.mod_lt _ (by decide)⟩
  match a with
  | ⟨0, _⟩ => regPts (c : Thread nD τ) (sndSlot k) fullShare (slotVal (sent m c o g))
  | ⟨1, _⟩ => regPts (c : Thread nD τ) (rcvSlot k) fullShare (slotVal (got m c o g))
  | ⟨2, _⟩ => regPts (c : Thread nD τ) (oRows c g) (lentShare o) (R m c g)
  | ⟨_ + 3, _⟩ => regPts (c : Thread nD τ) (oRows (pe c (3 - o.val)) g) fullShare (R m (pe c (3 - o.val)) g)

def sched : Rounds.Schedule (GSem nD τ sig) (Fin 3) 𝕄 where
  duties g r :=
    if r = 0 ∧ g.1.2 = .tc then (if g.2 = .reg barS then Finset.univ else if (dec g.2).isSome then {0} else ∅) else ∅
  unitless _ := False
  amount g _ _ := if g.2 = .reg barS then 1 else match dec g.2 with | some (a, _) => Nof a | none => 1
  payload g _ d :=
    if g.2 = .reg barS then barPay g.1.1 d
    else match dec g.2 with | some (a, k) => dPay m g.1.1 a k | none => iprop(emp)
  amount_pos g _ _ _ := by
    by_cases h : g.2 = .reg barS
    · rw [if_pos h]; exact Nat.one_pos
    · rw [if_neg h]
      cases hd : dec g.2 with
      | none => exact Nat.one_pos
      | some ak => obtain ⟨a, k⟩ := ak; dsimp only [Nof]; split
                   · exact Nrs_pos
                   · exact Nag_pos

section Sched
variable (c : Dev nD)

theorem duties_bar : (sched (F := F) m).duties (barCell c) 0 = Finset.univ := by
  dsimp only [sched]; rw [if_pos ⟨rfl, rfl⟩, if_pos rfl]
theorem duties_d (a : Fin 4) (k : Fin 6) : (sched (F := F) m).duties (dCell c a k) 0 = {0} := by
  dsimp only [sched]; rw [if_pos ⟨rfl, rfl⟩, if_neg (semOf_ne_bar a k), dec_semOf]; rfl
theorem duties_later (g : GSem nD τ sig) : ∀ r, 1 ≤ r → (sched (F := F) m).duties g r = ∅ :=
  fun r hr => by dsimp only [sched]; rw [if_neg fun h => by omega]

theorem amount_bar (d : Fin 3) : (sched (F := F) m).amount (barCell c) 0 d = 1 := by dsimp only [sched]; exact if_pos rfl
theorem amount_d (a : Fin 4) (k : Fin 6) (d : Fin 3) : (sched (F := F) m).amount (dCell c a k) 0 d = Nof a := by
  dsimp only [sched]; rw [if_neg (semOf_ne_bar a k), dec_semOf]

theorem expect_bar : (sched (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_d (a : Fin 4) (k : Fin 6) : (sched (F := F) m).expect (dCell c a k) 0 = Nof a := by
  unfold Schedule.expect Schedule.amountOf; rw [duties_d, Finset.sum_singleton, amount_d]

theorem payload_bar (d : Fin 3) : (sched (F := F) m).payload (barCell c) 0 d = barPay c d := by dsimp only [sched]; rw [if_pos rfl]
theorem payload_d (a : Fin 4) (k : Fin 6) (d : Fin 3) : (sched (F := F) m).payload (dCell c a k) 0 d = dPay m c a k := by
  dsimp only [sched]; rw [if_neg (semOf_ne_bar a k), dec_semOf]

end Sched

/-! ## Cells by number, what each device owes at launch, the levels -/

theorem nDma : sig.nDmaSem = 29 := rfl

/-- A device's 25 cells: 0 the barrier's, 1 + 6 a + j slot j of array a. -/
def csem (k : Fin 25) : SemLoc sig := if h : k.val = 0 then .reg barS else .dma ⟨k.val + 4, by have := k.isLt; have := nDma; omega⟩
def idx (a : Fin 4) (j : Fin 6) : Fin 25 := ⟨1 + 6 * a.val + j.val, by have := a.isLt; have := j.isLt; omega⟩
theorem csem_idx : ∀ (a : Fin 4) (j : Fin 6), csem (idx a j) = .dma (semOf a j) := by decide +kernel
theorem csem_zero : csem 0 = .reg barS := rfl
abbrev kcell (ck : Dev nD × Fin 25) : GSem nD τ sig := ((ck.1 : Thread nD τ), csem ck.2)
theorem kcell_idx (c : Dev nD) (a : Fin 4) (j : Fin 6) : kcell (c, idx a j) = dCell c a j := by unfold kcell; rw [csem_idx]
theorem kcell_zero (c : Dev nD) : kcell (c, 0) = barCell c := rfl

/-- The kernel's own (scoped) semaphores, as the launch indexes them: the 24 transfer semaphores. -/
abbrev osem : Fin 24 → SemLoc sig := fun i => .dma ⟨i.val + 5, by have := i.isLt; have := nDma; omega⟩

/-- What c pays the device o + 1 places after it: a barrier unit, and for each half the credit of a share and of a
    block of result rows. -/
def tBar (c : Dev nD) (o : Fin 3) : CellTallies nD τ sig Unit := tallyAt (barCell (pe c (o.val + 1))) () 1
def tRs (c : Dev nD) (o : Fin 3) (g : Fin 2) : CellTallies nD τ sig Unit := tallyAt (dCell (pe c (o.val + 1)) 1 (slotOf o g)) () Nrs
def tAg (c : Dev nD) (o : Fin 3) (g : Fin 2) : CellTallies nD τ sig Unit := tallyAt (dCell (pe c (o.val + 1)) 3 (slotOf o g)) () Nag

/-- What is still owed after the first n payments, in program order (so that each payment peels the last summand). -/
def O15 (c : Dev nD) : CellTallies nD τ sig Unit := 0
def O14 (c : Dev nD) : CellTallies nD τ sig Unit := O15 c + tAg c 2 1
def O13 (c : Dev nD) : CellTallies nD τ sig Unit := O14 c + tAg c 1 1
def O12 (c : Dev nD) : CellTallies nD τ sig Unit := O13 c + tAg c 0 1
def O11 (c : Dev nD) : CellTallies nD τ sig Unit := O12 c + tAg c 2 0
def O10 (c : Dev nD) : CellTallies nD τ sig Unit := O11 c + tAg c 1 0
def O9 (c : Dev nD) : CellTallies nD τ sig Unit := O10 c + tAg c 0 0
def O8 (c : Dev nD) : CellTallies nD τ sig Unit := O9 c + tRs c 2 1
def O7 (c : Dev nD) : CellTallies nD τ sig Unit := O8 c + tRs c 1 1
def O6 (c : Dev nD) : CellTallies nD τ sig Unit := O7 c + tRs c 0 1
def O5 (c : Dev nD) : CellTallies nD τ sig Unit := O6 c + tRs c 2 0
def O4 (c : Dev nD) : CellTallies nD τ sig Unit := O5 c + tRs c 1 0
def O3 (c : Dev nD) : CellTallies nD τ sig Unit := O4 c + tRs c 0 0
def O2 (c : Dev nD) : CellTallies nD τ sig Unit := O3 c + tBar c 2
def O1 (c : Dev nD) : CellTallies nD τ sig Unit := O2 c + tBar c 1
def O₀ (c : Dev nD) : CellTallies nD τ sig Unit := O1 c + tBar c 0

def L (g : GSem nD τ sig) : Finset Unit := if g.1.2 = .tc then {()} else ∅
/-- Staging and send cells 0, barrier cells 1, share-receive cells 2, result-row-receive cells 3: a device waits on
    its barrier owing both kinds of receive credit, on a share-receive cell owing only result-row credit, on a
    result-row-receive cell owing nothing. -/
def lv (g : GSem nD τ sig) (_ : Unit) : ℕ :=
  if g.2 = .reg barS then 1 else match dec g.2 with | some (a, _) => (if a.val = 1 then 2 else if a.val = 3 then 3 else 0) | none => 0

theorem L_of_ne (g : GSem nD τ sig) (h : g.1.2 ≠ .tc) : L g = ∅ := if_neg h
theorem L_tc (c : Dev nD) (sm : SemLoc sig) : L ((c : Thread nD τ), sm) = {()} := if_pos rfl

/-! ## The ghost state a device starts from, and the pipeline's proof data -/

/-- Every cell's invariant under the names the launch allocated them at, and that round 0 of every cell is reached:
    persistent, so every device holds all of it. -/
def records (K : Dev nD × Fin 25 → ℕ) : sProp 𝕄 :=
  iprop((bigSep Finset.univ fun ck : Dev nD × Fin 25 => cellInv ER (sched m) (K ck) (kcell ck))
    ∗ bigSep Finset.univ fun ck : Dev nD × Fin 25 => reached ER (kcell ck) 0)

/-- The tokens of the duties c pays: a barrier duty of each other device, the receive duties its copies land on, its
    own send duties. -/
def payToks (c : Dev nD) : sProp 𝕄 :=
  iprop((bigSep Finset.univ fun o : Fin 3 => dutyTok ER (barCell (pe c (o.val + 1))) 0 o)
    ∗ (bigSep Finset.univ fun og : Fin 3 × Fin 2 => iprop(dutyTok ER (dCell (pe c (og.1.val + 1)) 1 (slotOf og.1 og.2)) 0 0
        ∗ dutyTok ER (dCell (pe c (og.1.val + 1)) 3 (slotOf og.1 og.2)) 0 0))
    ∗ (bigSep Finset.univ fun k : Fin 6 => iprop(dutyTok ER (dCell c 0 k) 0 0 ∗ dutyTok ER (dCell c 2 k) 0 0)))

def ghost (K : Dev nD × Fin 25 → ℕ) (c : Dev nD) : sProp 𝕄 :=
  iprop(records m K ∗ atPos ER (barCell c) 0 ∅ 0 ∗ (bigSep Finset.univ fun aj : Fin 4 × Fin 6 => atPos ER (dCell c aj.1 aj.2) 0 ∅ 0) ∗ payToks c)

/-- The credit tokens the launch deals c: its barrier's three units and its twelve receive cells' credit. -/
def creds (c : Dev nD) : sProp 𝕄 :=
  iprop(cred (tallyAt (barCell c) () 3) ∗ (bigSep Finset.univ fun k : Fin 6 => cred (tallyAt (dCell c 1 k) () Nrs))
    ∗ (bigSep Finset.univ fun k : Fin 6 => cred (tallyAt (dCell c 3 k) () Nag)))

def start (c : Dev nD) : sProp 𝕄 := iprop((∃ K, ghost m K c) ∗ creds c ∗ levAts L lv)

/-- The five scratch buffers at some contents. -/
def scratches (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))

def Φ₀ (c : Dev nD) : sProp 𝕄 := iprop(start m c ∗ scratches c)
/-- After the point: the scratch buffers back at some contents, the 24 own cells closed at zero. -/
def Φ₁ (c : Dev nD) : sProp 𝕄 := iprop(scratches c ∗ bigSep Finset.univ fun aj : Fin 4 × Fin 6 => semVal (dCell c aj.1 aj.2) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Xs m c
    | ⟨1, _⟩ => Gs m c
    | ⟨2, _⟩ => Us m c
    | ⟨3, _⟩ => Ds m c
    | ⟨4, _⟩ => OUT m
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## Storable payloads; the transfer rule at this schedule -/

omit [FloatOps F] in
instance regPts_storable {S : Shape} {e : EltTy} (t : Thread nD τ) (v : Memref sig t.2.kind .vmem S e) (q : PosShare TreeShare) (w : S.Idx → Elt F e) :
    BI.Storable (upEmb : UEmb _ 𝕄) (regPts (F := F) t v q w) := by unfold regPts; infer_instance
omit [FloatOps F] in
instance regAny_storable {S : Shape} {e : EltTy} (t : Thread nD τ) (v : Memref sig t.2.kind .vmem S e) :
    BI.Storable (upEmb : UEmb _ 𝕄) (regAny (F := F) t v) := by unfold regAny; infer_instance
omit [FloatOps F] in
instance barPay_storable (c : Dev nD) (d : Fin 3) : BI.Storable (upEmb : UEmb _ 𝕄) (barPay (F := F) c d) := by unfold barPay; infer_instance
instance dPay_storable (c : Dev nD) (a : Fin 4) (k : Fin 6) : BI.Storable (upEmb : UEmb _ 𝕄) (dPay (F := F) m c a k) := by
  unfold dPay; dsimp only; split <;> infer_instance

instance sched_payload_storable (g : GSem nD τ sig) (r : ℕ) (d : Fin 3) :
    BI.Storable (upEmb : UEmb _ 𝕄) ((sched (F := F) m).payload g r d) := by
  show BI.Storable upEmb (if g.2 = .reg barS then barPay g.1.1 d else match dec g.2 with | some (a, k) => dPay m g.1.1 a k | none => iprop(emp))
  (repeat' split) <;> infer_instance

/-- A copy of a 128 × 1024 block from c's region `src` (held at share q) into device n's region `dst`, paying slot s of
    c's send array `as` and of n's receive array `ar`: `Rounds.wp_send_pointsTo` at this schedule, the two payload
    entailments left to the caller. -/
theorem wp_send' (c n : Dev nD) (a₁ a₂ : Fin 4) (s : Fin 6) {src : Memref sig .tc .vmem S128x1024 .bf16}
    {dst : Memref sig (Dev.tc n : Thread nD τ).2.kind .vmem S128x1024 .bf16} {q : PosShare TreeShare} (N : ℕ)
    (hN : dst.view.amount (.dma (semOf a₂ s)) = N) (hk₁ : Nof a₁ = N) (hk₂ : Nof a₂ = N)
    {hsc : dst.view.ref.isScScratch = false} {hsrc : src.view.WordExact} {hdst : dst.view.WordExact}
    {hsem : DmaTarget.Typed .vmem (.dma (semOf a₂ s)) (.remote (Dev.tc n : Thread nD τ) dst (.dma (semOf a₁ s)) hsc)}
    {α : Type} {Q : α → sProp 𝕄} {k : PUnit → Prog (TpuEff nD τ sig (Elt F) Λ₀ .tc) α}
    {κ₁ κ₂ : ℕ} (fs : Buf (Elt F) (src.view.loc (c : Thread nD τ))) (fd : Buf (Elt F) (dst.view.loc (n : Thread nD τ)))
    (O : CellTallies nD τ sig Unit) (W : Waits sig Unit)
    (hpay₁ : (src.view.loc (c : Thread nD τ) ↦[src.view.set]{q} fs : sProp 𝕄) ⊢ dPay m c a₁ s)
    (hpay₂ : (dst.view.loc (n : Thread nD τ) ↦[dst.view.set]{fullShare} (dst.view.write (Elt F) fd (src.view.read (Elt F) fs) Finset.univ) : sProp 𝕄)
      ⊢ dPay m n a₂ s) :
    iprop(cellInv ER (sched m) κ₁ (dCell c a₁ s) ∗ cellInv ER (sched m) κ₂ (dCell n a₂ s)
        ∗ (src.view.loc (c : Thread nD τ) ↦[src.view.set]{q} fs) ∗ (dst.view.loc (n : Thread nD τ) ↦[dst.view.set]{fullShare} fd)
        ∗ owes (c : Thread nD τ) (O + tallyAt (dCell n a₂ s) () N) W
        ∗ dutyTok ER (dCell c a₁ s) 0 0 ∗ reached ER (dCell c a₁ s) 0
        ∗ dutyTok ER (dCell n a₂ s) 0 0 ∗ reached ER (dCell n a₂ s) 0)
      ⊢ iprop(((cred (tallyAt (dCell c a₁ s) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma (semOf a₁ s)) hsc) (.dma (semOf a₂ s)) hsrc hdst hsem) k) Q) :=
  Rounds.wp_send_pointsTo 𝒱₀ ER (sched m) (c : Thread nD τ) none (κ₁ := κ₁) (κ₂ := κ₂)
    (r₁ := 0) (r₂ := 0) (d₁ := 0) (d₂ := 0) (fd := fd)
    (by rw [duties_d]; exact Finset.mem_singleton_self _) (by rw [duties_d]; exact Finset.mem_singleton_self _)
    () () N hN ((amount_d m c a₁ s 0).trans hk₁) ((amount_d m n a₂ s 0).trans hk₂) O rfl (W := W)
    (by rw [payload_d]; exact hpay₁) (by rw [payload_d]; exact hpay₂)

end Cert.KernelIdeal.Px

end
-- ==== Proof.Launch.lean ====
/-
  The launch of the tensor-parallel gated MLP on four devices: from the body obligation of one device's kernel to the
  run of the whole program, every array's final contents named.

  The launch element funds the exchange's 100 cells (25 on each device) at round 0 and mints one token per duty. The
  global step puts every cell's counter and round state under an invariant and deals the tokens round the mesh: a
  duty's token goes to the device that pays the duty. The launch credit a device is dealt is what the other three owe
  its barrier cell and its twelve receive cells.
-/
import proofs.«900523_g7700000000000524_dist_gated_mlp_tp_i_m1024_h2048_d1024_v7x_i4_bf16_1_alg».proof.Proof.Proto

noncomputable section

namespace Cert.KernelIdeal.Lx

open Cert.KernelIdeal Cert.KernelIdeal.Gen Cert.KernelIdeal.Px

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Finite conjunctions, one summand at a time -/

theorem bigSep_fin2 {M : Type} [URA M] (Φ : Fin 2 → sProp M) : bigSep Finset.univ Φ = iprop(Φ 0 ∗ Φ 1) :=
  bigSep_univ_eq_bigSepL [0, 1] (by decide) (by decide) Φ
theorem bigSep_fin3 {M : Type} [URA M] (Φ : Fin 3 → sProp M) : bigSep Finset.univ Φ = iprop(Φ 0 ∗ Φ 1 ∗ Φ 2) :=
  bigSep_univ_eq_bigSepL [0, 1, 2] (by decide) (by decide) Φ
theorem bigSep_fin4 {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ
theorem bigSep_fin6 {M : Type} [URA M] (Φ : Fin 6 → sProp M) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- The 24 transfer cells among a device's 25, as (array, slot). -/
def idxE : Fin 4 × Fin 6 ↪ Fin 25 := ⟨fun aj => idx aj.1 aj.2, by decide⟩
theorem erase_zero : (Finset.univ : Finset (Fin 25)).erase 0 = Finset.univ.map idxE := by decide

/-- A conjunction over a device's 25 cells: the barrier cell's summand, then the transfer cells' by array and slot. -/
theorem bigSep_fin25 {M : Type} [URA M] (Φ : Fin 25 → sProp M) :
    bigSep Finset.univ Φ = iprop(Φ 0 ∗ bigSep Finset.univ fun aj : Fin 4 × Fin 6 => Φ (idx aj.1 aj.2)) := by
  rw [bigSep_univ_at Φ 0, erase_zero, bigSep_map]; rfl

/-- Slot numbers as (offset, half). -/
def slotE : Fin 3 × Fin 2 ≃ Fin 6 where
  toFun og := slotOf og.1 og.2
  invFun k := (⟨k.val / 2, by omega⟩, ⟨k.val % 2, Nat.mod_lt _ (by decide)⟩)
  left_inv := by decide
  right_inv := by decide

/-- The kernel's own 24 semaphores as (array, slot). -/
def e24 : Fin 4 × Fin 6 ≃ Fin 24 where
  toFun aj := ⟨6 * aj.1.val + aj.2.val, by omega⟩
  invFun i := (⟨i.val / 6, by omega⟩, ⟨i.val % 6, Nat.mod_lt _ (by decide)⟩)
  left_inv := by decide
  right_inv := by decide
theorem osem_e24 : ∀ aj : Fin 4 × Fin 6, osem (e24 aj) = .dma (semOf aj.1 aj.2) := by decide

/-! ## The mesh's rotations -/

theorem pe_mod (c : Dev nD) (a : ℕ) : pe c a = pe c (a % 4) := Fin.ext (by simp only [pe]; omega)
theorem pe_cancel (c : Dev nD) (a b : ℕ) (h : (a + b) % 4 = 0) : pe (pe c a) b = c := by rw [pe_pe, pe_mod, h, pe_zero]

/-- Rotating the device of a (device, index) pair by an amount the index names: a permutation of the pairs. -/
def shiftE {J : Type} (f : J → ℕ) : Dev nD × J ≃ Dev nD × J where
  toFun x := (pe x.1 (f x.2), x.2)
  invFun x := (pe x.1 (4 - f x.2 % 4), x.2)
  left_inv := fun ⟨c, j⟩ => by
    show (pe (pe c (f j)) (4 - f j % 4), j) = (c, j)
    rw [pe_cancel c _ _ (by omega)]
  right_inv := fun ⟨c, j⟩ => by
    show (pe (pe c (4 - f j % 4)) (f j), j) = (c, j)
    rw [pe_cancel c _ _ (by omega)]

/-- A conjunction over all devices and an index may name, at each index, the device rotated by that index's amount. -/
theorem bigSep_shift {M : Type} [URA M] {J : Type} [Fintype J] (f : J → ℕ) (Φ : Dev nD → J → sProp M) :
    (bigSep Finset.univ fun c : Dev nD => bigSep Finset.univ fun j : J => Φ c j)
      = bigSep Finset.univ fun c : Dev nD => bigSep Finset.univ fun j : J => Φ (pe c (f j)) j :=
  (bigSep_univ_prod (fun x : Dev nD × J => Φ x.1 x.2)).symm.trans
    ((bigSep_univ_equiv (shiftE f) (fun x : Dev nD × J => Φ x.1 x.2)).trans (bigSep_univ_prod _))

/-! ## The cells and the duty tokens the launch element funds -/

/-- A device's cell numbers back from its semaphores. -/
def cnum : SemLoc sig → ℕ
  | .reg _ => 0
  | .dma q => q.val - 4
theorem cnum_csem : ∀ k : Fin 25, cnum (csem k) = k.val := by decide
theorem csem_injective : Function.Injective csem := fun k k' h => Fin.ext (by rw [← cnum_csem k, ← cnum_csem k', h])

theorem kcell_injective : Function.Injective (kcell : Dev nD × Fin 25 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def xCells : Finset (GSem nD τ sig) := Finset.univ.map ⟨kcell, kcell_injective⟩

/-- A device's own cells' duties: its barrier cell's three, and one of each transfer cell. -/
abbrev TokIx : Type := Fin 3 ⊕ (Fin 4 × Fin 6)
abbrev tokOf (x : Dev nD × TokIx) : GSem nD τ sig × ℕ × Fin 3 :=
  match x.2 with
  | .inl d => (barCell x.1, 0, d)
  | .inr aj => (dCell x.1 aj.1 aj.2, 0, 0)

theorem tokOf_injective : Function.Injective (tokOf : Dev nD × TokIx → GSem nD τ sig × ℕ × Fin 3) := by
  rintro ⟨c, j⟩ ⟨c', j'⟩ h
  have h1 : c = c' := by
    have := congrArg (fun x : GSem nD τ sig × ℕ × Fin 3 => x.1.1.1) h
    rcases j with d | aj <;> rcases j' with d' | aj' <;> exact this
  subst h1
  rcases j with d | aj <;> rcases j' with d' | aj'
  · have hd : d = d' := congrArg (fun x : GSem nD τ sig × ℕ × Fin 3 => x.2.2) h
    rw [hd]
  · exact absurd (congrArg (fun x : GSem nD τ sig × ℕ × Fin 3 => x.1.2) h) (fun h' => by cases h')
  · exact absurd (congrArg (fun x : GSem nD τ sig × ℕ × Fin 3 => x.1.2) h) (fun h' => by cases h')
  · have h2 : (SemLoc.dma (semOf aj.1 aj.2) : SemLoc sig) = .dma (semOf aj'.1 aj'.2) :=
      congrArg (fun x : GSem nD τ sig × ℕ × Fin 3 => x.1.2) h
    have h3 := congrArg dec h2
    rw [dec_semOf, dec_semOf] at h3
    have h4 : (aj.1, aj.2) = (aj'.1, aj'.2) := Option.some.inj h3
    have h5 : aj = aj' := Prod.ext (congrArg Prod.fst h4) (congrArg Prod.snd h4)
    rw [h5]

def xToks : Finset (GSem nD τ sig × ℕ × Fin 3) := Finset.univ.map ⟨tokOf, tokOf_injective⟩

/-- The launch element: the pipeline's staging cells and the exchange's cells. -/
def u₀ : UU :=
  (initOf (Pipeline.cells cfgs cellOf_inj) (Pipeline.launchToks cfgs cellOf_inj), initOf xCells xToks)

/-- The duty tokens of device c's own cells. -/
def toks (c : Dev nD) : sProp 𝕄 :=
  iprop((bigSep Finset.univ fun d : Fin 3 => dutyTok ER (barCell c) 0 d)
    ∗ bigSep Finset.univ fun aj : Fin 4 × Fin 6 => dutyTok ER (dCell c aj.1 aj.2) 0 0)

/-- What the launch element deals device c. -/
def G (c : Dev nD) : sProp 𝕄 :=
  iprop((bigSep Finset.univ fun k : Fin 25 => roundState ER (sched m) (kcell (c, k)) 0)
    ∗ (bigSep Finset.univ fun k : Fin 25 => iprop(atPos ER (kcell (c, k)) 0 ∅ 0 ∗ reached ER (kcell (c, k)) 0)) ∗ toks c)

/-- What the global step makes of it. -/
def G' (c : Dev nD) : sProp 𝕄 := iprop(∃ K, ghost m K c)

theorem fund_x : BI.own (ER (initOf xCells xToks)) ⊢ (|==> bigSep Finset.univ (G m) : sProp 𝕄) := by
  have hX (Φ : GSem nD τ sig → sProp 𝕄) :
      bigSep xCells Φ = bigSep Finset.univ fun c : Dev nD => bigSep Finset.univ fun k : Fin 25 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_univ_sum]; rfl
  iintro HX
  imod (Rounds.fund ER (sched m) xCells xToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell under an invariant, the tokens dealt round the mesh -/

/-- A conjunction over device c's 25 cells, the barrier cell's summand first, then the transfer cells' by name. -/
theorem bigSep_cells {M : Type} [URA M] (c : Dev nD) (Φ : GSem nD τ sig → sProp M) :
    (bigSep Finset.univ fun k : Fin 25 => Φ (kcell (c, k)))
      = iprop(Φ (barCell c) ∗ bigSep Finset.univ fun aj : Fin 4 × Fin 6 => Φ (dCell c aj.1 aj.2)) := by
  have e : (bigSep Finset.univ fun aj : Fin 4 × Fin 6 => Φ (kcell (c, idx aj.1 aj.2)))
      = bigSep Finset.univ fun aj : Fin 4 × Fin 6 => Φ (dCell c aj.1 aj.2) :=
    bigSep_congr fun aj _ => by rw [kcell_idx]
  rw [bigSep_fin25, e]; rfl

/-- The kernel's own 24 semaphores are its transfer cells' counters. -/
theorem ownSems0_eq (c : Dev nD) : (Pipeline.ownSems0 (Ix := Unit) (Name := ℕ) (U := UU) (Lvl := ℕ) (Val := Elt F) (τ := τ) osem c : sProp 𝕄)
    = bigSep Finset.univ fun aj : Fin 4 × Fin 6 => semVal (dCell c aj.1 aj.2) 0 := by
  unfold Pipeline.ownSems0
  rw [bigSep_univ_equiv e24 (fun i : Fin 24 => (semVal ((c : Thread nD τ), osem i) 0 : sProp 𝕄))]
  exact bigSep_congr fun aj _ => by rw [osem_e24]
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 25 => semVal (kcell (c, k)) 0 : sProp 𝕄) := by
  rw [ownSems0_eq, unscopedSems0_eq, bigSep_cells c (fun g => (semVal g 0 : sProp 𝕄))]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 25 => iprop(∃ κ : ℕ, cellInv ER (sched m) κ (kcell (c, k))))
          ∗ (bigSep Finset.univ fun k : Fin 25 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 25 => semVal (kcell (c, k)) 0) ∗ bigSep Finset.univ fun k : Fin 25 => roundState ER (sched m) (kcell (c, k)) 0)
      ⊢ (|={Set.univ}=> bigSep Finset.univ fun k : Fin 25 => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

instance records_persistent (K : Dev nD × Fin 25 → ℕ) : BI.Persistent (records m K) := by unfold records; infer_instance

/-- What stays with device c: its positions, and the tokens of the duties it pays. -/
def linear (c : Dev nD) : sProp 𝕄 :=
  iprop((bigSep Finset.univ fun k : Fin 25 => atPos ER (kcell (c, k)) 0 ∅ 0) ∗ payToks c)

theorem ghost_intro (K : Dev nD × Fin 25 → ℕ) (c : Dev nD) : iprop(records m K ∗ linear c) ⊢ G' m c := by
  unfold linear G' ghost
  rw [bigSep_cells c (fun g => (atPos ER g 0 ∅ 0 : sProp 𝕄))]
  iintro ⟨HR, ⟨HaB, HaD⟩, Htok⟩
  iexists K
  isplitl [HR]; · iexact HR
  isplitl [HaB]; · iexact HaB
  isplitl [HaD]; · iexact HaD
  iexact Htok

/-- A device's own tokens, array by array. -/
theorem toks_eq (c : Dev nD) : (toks c : sProp 𝕄) = iprop((bigSep Finset.univ fun d : Fin 3 => dutyTok ER (barCell c) 0 d)
    ∗ (bigSep Finset.univ fun k : Fin 6 => dutyTok ER (dCell c 0 k) 0 0) ∗ (bigSep Finset.univ fun k : Fin 6 => dutyTok ER (dCell c 1 k) 0 0)
    ∗ (bigSep Finset.univ fun k : Fin 6 => dutyTok ER (dCell c 2 k) 0 0) ∗ (bigSep Finset.univ fun k : Fin 6 => dutyTok ER (dCell c 3 k) 0 0)) := by
  unfold toks; rw [bigSep_univ_prod, bigSep_fin4]

/-- The tokens dealt round the mesh: duty d of a barrier cell goes to the device 3 - d places after the owner — the
    owner is d + 1 places after it —, and the duty of the receive cell of slot (o, g) to the device o + 1 places
    before the owner; the send cells' tokens stay. -/
theorem toks_around : (bigSep Finset.univ fun c : Dev nD => (toks c : sProp 𝕄)) ⊢ bigSep Finset.univ fun c : Dev nD => payToks c := by
  have hB := bigSep_shift (M := 𝕄) (fun d : Fin 3 => d.val + 1) (fun c d => dutyTok ER (barCell c) 0 d)
  have hR (a : Fin 4) : (bigSep Finset.univ fun c : Dev nD => bigSep Finset.univ fun k : Fin 6 => (dutyTok ER (dCell c a k) 0 0 : sProp 𝕄))
      = bigSep Finset.univ fun c : Dev nD => bigSep Finset.univ fun og : Fin 3 × Fin 2 =>
          dutyTok ER (dCell (pe c (og.1.val + 1)) a (slotOf og.1 og.2)) 0 0 :=
    (bigSep_congr fun c _ => bigSep_univ_equiv slotE (fun k : Fin 6 => (dutyTok ER (dCell c a k) 0 0 : sProp 𝕄))).trans
      (bigSep_shift (fun og : Fin 3 × Fin 2 => og.1.val + 1) (fun c og => dutyTok ER (dCell c a (slotOf og.1 og.2)) 0 0))
  simp only [toks_eq, payToks, bigSep_sep']
  rw [hB, hR 1, hR 3]
  iintro ⟨HB, H0, H1, H2, H3⟩
  isplitl [HB]; · iexact HB
  isplitl [H1 H3]
  · isplitl [H1] <;> iassumption
  isplitl [H0] <;> iassumption

theorem inv_at (K : Dev nD × Fin 25 → ℕ) (ck : Dev nD × Fin 25) :
    (bigSep Finset.univ fun ck : Dev nD × Fin 25 => (cellInv ER (sched m) (K ck) (kcell ck) : sProp 𝕄)) ⊢ cellInv ER (sched m) (K ck) (kcell ck) :=
  bigSep_elim (Finset.mem_univ ck)

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 25 => iprop(∃ κ : ℕ, cellInv ER (sched m) κ (kcell (c, k))))
          ∗ (bigSep Finset.univ fun k : Fin 25 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 25 => iprop(∃ κ : ℕ, cellInv ER (sched m) κ (kcell ck))),
    bigSep_congr (s := Finset.univ) (fun (c : Dev nD) _ => bigSep_sep' Finset.univ (fun k : Fin 25 => (atPos ER (kcell (c, k)) 0 ∅ 0 : sProp 𝕄)) (fun k => reached ER (kcell (c, k)) 0)),
    bigSep_sep', ← bigSep_univ_prod (fun ck : Dev nD × Fin 25 => (reached ER (kcell ck) 0 : sProp 𝕄))]
  iintro ⟨HI, ⟨Hat, #HR⟩, Htok⟩
  ihave HK := (BI.bigSep_exists_pi Finset.univ (fun (ck : Dev nD × Fin 25) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 25 => (atPos ER (kcell (c, k)) 0 ∅ 0 : sProp 𝕄)) payToks).symm).trans
      (bigSep_mono fun c _ => show _ ⊢ linear c from Entails.of_eq (by unfold linear; rfl)))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- Every device owing the barrier cell of the device o + 1 places after it one unit, each device is dealt one unit on
    its own barrier cell. -/
theorem lc_bar (c : Dev nD) (o : Fin 3) :
    (Pipeline.launchCred (fun d => tBar d o) c : sProp 𝕄) ⊢ cred (tallyAt (barCell c) () 1) :=
  Pipeline.launchCred_tallyAt (.reg barS) (fun d => pe d (o.val + 1)) (fun d => pe d (3 - o.val))
    (fun c => pe_cancel c _ _ (by omega)) (fun d => pe_cancel d _ _ (by omega)) () 1 c
/-- Likewise each device is dealt the credit of a share on its receive cell of slot (o, g). -/
theorem lc_rs (c : Dev nD) (o : Fin 3) (g : Fin 2) (k : Fin 6) (hk : slotOf o g = k) :
    (Pipeline.launchCred (fun d => tRs d o g) c : sProp 𝕄) ⊢ cred (tallyAt (dCell c 1 k) () Nrs) := by
  subst hk
  exact Pipeline.launchCred_tallyAt (.dma (semOf 1 (slotOf o g))) (fun d => pe d (o.val + 1)) (fun d => pe d (3 - o.val))
    (fun c => pe_cancel c _ _ (by omega)) (fun d => pe_cancel d _ _ (by omega)) () Nrs c
/-- Likewise each device is dealt the credit of a block of result rows on its result-row receive cell of slot (o, g). -/
theorem lc_ag (c : Dev nD) (o : Fin 3) (g : Fin 2) (k : Fin 6) (hk : slotOf o g = k) :
    (Pipeline.launchCred (fun d => tAg d o g) c : sProp 𝕄) ⊢ cred (tallyAt (dCell c 3 k) () Nag) := by
  subst hk
  exact Pipeline.launchCred_tallyAt (.dma (semOf 3 (slotOf o g))) (fun d => pe d (o.val + 1)) (fun d => pe d (3 - o.val))
    (fun c => pe_cancel c _ _ (by omega)) (fun d => pe_cancel d _ _ (by omega)) () Nag c

theorem cred_three (g : GSem nD τ sig) :
    iprop(cred (tallyAt g () 1) ∗ cred (tallyAt g () 1) ∗ cred (tallyAt g () 1)) ⊢ (cred (tallyAt g () 3) : sProp 𝕄) := by
  have e : (tallyAt g () 3 : CellTallies nD τ sig Unit) = tallyAt g () 1 + (tallyAt g () 1 + tallyAt g () 1) := by
    rw [tallyAt_add, tallyAt_add]
  rw [e]
  exact (sep_mono_right (cred_add _ _).2).trans (cred_add _ _).2

/-- The launch credit of device c: the fifteen tallies every device owes, each met on c by the device that owes it c. -/
theorem creds_intro (c : Dev nD) : (Pipeline.launchCred O₀ c : sProp 𝕄) ⊢ creds c := by
  have e0 : (Pipeline.launchCred O₀ c : sProp 𝕄) = iprop(Pipeline.launchCred O1 c ∗ Pipeline.launchCred (fun d => tBar d 0) c) := Pipeline.launchCred_add O1 (fun d => tBar d 0) c
  have e1 : (Pipeline.launchCred O1 c : sProp 𝕄) = iprop(Pipeline.launchCred O2 c ∗ Pipeline.launchCred (fun d => tBar d 1) c) := Pipeline.launchCred_add O2 (fun d => tBar d 1) c
  have e2 : (Pipeline.launchCred O2 c : sProp 𝕄) = iprop(Pipeline.launchCred O3 c ∗ Pipeline.launchCred (fun d => tBar d 2) c) := Pipeline.launchCred_add O3 (fun d => tBar d 2) c
  have e3 : (Pipeline.launchCred O3 c : sProp 𝕄) = iprop(Pipeline.launchCred O4 c ∗ Pipeline.launchCred (fun d => tRs d 0 0) c) := Pipeline.launchCred_add O4 (fun d => tRs d 0 0) c
  have e4 : (Pipeline.launchCred O4 c : sProp 𝕄) = iprop(Pipeline.launchCred O5 c ∗ Pipeline.launchCred (fun d => tRs d 1 0) c) := Pipeline.launchCred_add O5 (fun d => tRs d 1 0) c
  have e5 : (Pipeline.launchCred O5 c : sProp 𝕄) = iprop(Pipeline.launchCred O6 c ∗ Pipeline.launchCred (fun d => tRs d 2 0) c) := Pipeline.launchCred_add O6 (fun d => tRs d 2 0) c
  have e6 : (Pipeline.launchCred O6 c : sProp 𝕄) = iprop(Pipeline.launchCred O7 c ∗ Pipeline.launchCred (fun d => tRs d 0 1) c) := Pipeline.launchCred_add O7 (fun d => tRs d 0 1) c
  have e7 : (Pipeline.launchCred O7 c : sProp 𝕄) = iprop(Pipeline.launchCred O8 c ∗ Pipeline.launchCred (fun d => tRs d 1 1) c) := Pipeline.launchCred_add O8 (fun d => tRs d 1 1) c
  have e8 : (Pipeline.launchCred O8 c : sProp 𝕄) = iprop(Pipeline.launchCred O9 c ∗ Pipeline.launchCred (fun d => tRs d 2 1) c) := Pipeline.launchCred_add O9 (fun d => tRs d 2 1) c
  have e9 : (Pipeline.launchCred O9 c : sProp 𝕄) = iprop(Pipeline.launchCred O10 c ∗ Pipeline.launchCred (fun d => tAg d 0 0) c) := Pipeline.launchCred_add O10 (fun d => tAg d 0 0) c
  have e10 : (Pipeline.launchCred O10 c : sProp 𝕄) = iprop(Pipeline.launchCred O11 c ∗ Pipeline.launchCred (fun d => tAg d 1 0) c) := Pipeline.launchCred_add O11 (fun d => tAg d 1 0) c
  have e11 : (Pipeline.launchCred O11 c : sProp 𝕄) = iprop(Pipeline.launchCred O12 c ∗ Pipeline.launchCred (fun d => tAg d 2 0) c) := Pipeline.launchCred_add O12 (fun d => tAg d 2 0) c
  have e12 : (Pipeline.launchCred O12 c : sProp 𝕄) = iprop(Pipeline.launchCred O13 c ∗ Pipeline.launchCred (fun d => tAg d 0 1) c) := Pipeline.launchCred_add O13 (fun d => tAg d 0 1) c
  have e13 : (Pipeline.launchCred O13 c : sProp 𝕄) = iprop(Pipeline.launchCred O14 c ∗ Pipeline.launchCred (fun d => tAg d 1 1) c) := Pipeline.launchCred_add O14 (fun d => tAg d 1 1) c
  have e14 : (Pipeline.launchCred O14 c : sProp 𝕄) = iprop(Pipeline.launchCred O15 c ∗ Pipeline.launchCred (fun d => tAg d 2 1) c) := Pipeline.launchCred_add O15 (fun d => tAg d 2 1) c
  rw [e0, e1, e2, e3, e4, e5, e6, e7, e8, e9, e10, e11, e12, e13, e14]
  iintro ⟨⟨⟨⟨⟨⟨⟨⟨⟨⟨⟨⟨⟨⟨⟨-, A14⟩, A13⟩, A12⟩, A11⟩, A10⟩, A9⟩, A8⟩, A7⟩, A6⟩, A5⟩, A4⟩, A3⟩, A2⟩, A1⟩, A0⟩
  ihave B0 := (lc_bar (F := F) c 0) $$ A0
  ihave B1 := (lc_bar (F := F) c 1) $$ A1
  ihave B2 := (lc_bar (F := F) c 2) $$ A2
  ihave R0 := (lc_rs (F := F) c 0 0 0 rfl) $$ A3
  ihave R2 := (lc_rs (F := F) c 1 0 2 rfl) $$ A4
  ihave R4 := (lc_rs (F := F) c 2 0 4 rfl) $$ A5
  ihave R1 := (lc_rs (F := F) c 0 1 1 rfl) $$ A6
  ihave R3 := (lc_rs (F := F) c 1 1 3 rfl) $$ A7
  ihave R5 := (lc_rs (F := F) c 2 1 5 rfl) $$ A8
  ihave Q0 := (lc_ag (F := F) c 0 0 0 rfl) $$ A9
  ihave Q2 := (lc_ag (F := F) c 1 0 2 rfl) $$ A10
  ihave Q4 := (lc_ag (F := F) c 2 0 4 rfl) $$ A11
  ihave Q1 := (lc_ag (F := F) c 0 1 1 rfl) $$ A12
  ihave Q3 := (lc_ag (F := F) c 1 1 3 rfl) $$ A13
  ihave Q5 := (lc_ag (F := F) c 2 1 5 rfl) $$ A14
  unfold creds
  rw [bigSep_fin6, bigSep_fin6]
  isplitl [B0 B1 B2]
  · iapply (cred_three (F := F) (barCell c))
    isplitl [B0]; · iexact B0
    isplitl [B1] <;> iassumption
  isplitl [R0 R1 R2 R3 R4 R5]
  · isplitl [R0]; · iexact R0
    isplitl [R1]; · iexact R1
    isplitl [R2]; · iexact R2
    isplitl [R3]; · iexact R3
    isplitl [R4] <;> iassumption
  isplitl [Q0]; · iexact Q0
  isplitl [Q1]; · iexact Q1
  isplitl [Q2]; · iexact Q2
  isplitl [Q3]; · iexact Q3
  isplitl [Q4] <;> iassumption

/-! ## The levels: a staging cell sits below everything a device owes -/

theorem lv_bar (c : Dev nD) : lv (barCell c) () = 1 := by dsimp only [lv]; exact if_pos rfl
theorem lv_d (c : Dev nD) (a : Fin 4) (k : Fin 6) : lv (dCell c a k) () = if a.val = 1 then 2 else if a.val = 3 then 3 else 0 := by
  dsimp only [lv]; rw [if_neg (semOf_ne_bar a k), dec_semOf]
theorem dec_stage (q : DmaSem sig) (hq : q.val < 5) : dec (.dma q) = none := by
  unfold dec; exact dif_neg (fun h => by omega)
theorem lv_stage (c : Dev nD) (q : DmaSem sig) (hq : q.val < 5) : lv ((c : Thread nD τ), .dma q) () = 0 := by
  dsimp only [lv]; rw [if_neg (fun h => by cases h), dec_stage q hq]

/-- Whatever a device owes at launch it owes a barrier cell, a share-receive cell or a result-row-receive cell of
    another device. -/
theorem O₀_cases (c : Dev nD) {P : GSem nD τ sig → Prop}
    (hB : ∀ o : Fin 3, P (barCell (pe c (o.val + 1))))
    (hR : ∀ (o : Fin 3) (g : Fin 2), P (dCell (pe c (o.val + 1)) 1 (slotOf o g)))
    (hA : ∀ (o : Fin 3) (g : Fin 2), P (dCell (pe c (o.val + 1)) 3 (slotOf o g)))
    {g : GSem nD τ sig} {u : Unit} (h : 0 < O₀ c g u) : P g := by
  unfold O₀ O1 O2 O3 O4 O5 O6 O7 O8 O9 O10 O11 O12 O13 O14 O15 at h
  repeat (rcases Pipeline.add_pos_cases h with h | h; swap; · rw [(Pipeline.tallyAt_pos h).1]; first | exact hB _ | exact hR _ _ | exact hA _ _)
  exact absurd h (Nat.lt_irrefl 0)

theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => O₀_cases c (P := fun g => u ∈ L g) (fun _ => by rw [L_tc]; exact Finset.mem_singleton_self _)
        (fun _ _ => by rw [L_tc]; exact Finset.mem_singleton_self _) (fun _ _ => by rw [L_tc]; exact Finset.mem_singleton_self _) hg)
      (fun p hp => by rw [Finset.mem_singleton.mp hp]; exact Nat.le_of_eq (lv_stage c q hq))
      (fun g u hg => O₀_cases c (P := fun g => 0 < lv g u) (fun _ => by rw [lv_bar]; decide)
        (fun _ _ => by rw [lv_d]; decide) (fun _ _ => by rw [lv_d]; decide) hg)
  · rw [MayWait_zero]; iintro -; iempintro

/-! ## The launch theorem's side conditions -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratches
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scratches
  iintro ⟨Hr, Hz⟩
  isplitr; · iempintro
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters: given the body
    obligation of each device's kernel, every weakly fair execution of @main terminates, and every final state has
    each device's five arrays at the contents `finalA` names. -/
theorem run_main (hbody : ∀ c, BodyObligation (dats (F := F) m ρ 0 c) (defs₀ (F := F)) 𝒱₀ () Set.univ) :
    θ_run defs (onTc (τ := τ) (main (F := F))) (Px.s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_x m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.Lx.run_main' depends on axioms: [propext, Classical.choice, Quot.sound] -/
#guard_msgs in #print axioms run_main

/-! ## What the arrays hold after the run -/

/-- The four argument arrays hold what they held. -/
theorem finalA_in0 (c : Dev nD) : finalA m ρ c (0 : Fin 5) = (Px.s₀ m ρ).mem (win0_0.arr.view.loc (c : Thread nD τ)) :=
  (dats (F := F) m ρ 0 c).arrAt_in (0 : Fin 5) rfl _
theorem finalA_in1 (c : Dev nD) : finalA m ρ c (1 : Fin 5) = (Px.s₀ m ρ).mem (win0_1.arr.view.loc (c : Thread nD τ)) :=
  (dats (F := F) m ρ 0 c).arrAt_in (1 : Fin 5) rfl _
theorem finalA_in2 (c : Dev nD) : finalA m ρ c (2 : Fin 5) = (Px.s₀ m ρ).mem (win0_2.arr.view.loc (c : Thread nD τ)) :=
  (dats (F := F) m ρ 0 c).arrAt_in (2 : Fin 5) rfl _
theorem finalA_in3 (c : Dev nD) : finalA m ρ c (3 : Fin 5) = (Px.s₀ m ρ).mem (win0_3.arr.view.loc (c : Thread nD τ)) :=
  (dats (F := F) m ρ 0 c).arrAt_in (3 : Fin 5) rfl _

/-- The result array, read through the one block of its window (the whole array), holds the result `OUT`. -/
theorem finalA_out (c : Dev nD) : (win0_4.blk t0_0).view.read (Elt F) (finalA m ρ c (4 : Fin 5)) = OUT m := by
  have hN : cfg0.N = t0_0.val + 1 := N_0
  have h := (dats (F := F) m ρ 0 c).arrAt_succ (4 : Fin 5) t0_0
  rw [flush0_4 t0_0, if_pos rfl] at h
  have h' : (dats (F := F) m ρ 0 c).arrAt (4 : Fin 5) cfg0.N = _ :=
    (congrArg (fun n => (dats (F := F) m ρ 0 c).arrAt (4 : Fin 5) n) hN).trans h
  unfold finalA
  rw [h']
  exact View.read_write_univ _ _

/-- Reading the result array through its window's one block is reading the array. -/
theorem read_result_whole (c : Dev nD) (f : Buf (Elt F) (win0_4.arr.view.loc (c : Thread nD τ))) :
    (win0_4.blk t0_0).view.read (Elt F) f = f :=
  Memref.read_access_unit_zero (Elt F) main_v1 (funext fun a => Nat.zero_mul _) _ f

/-- The result array holds `OUT`, the same on every device. -/
theorem finalA_out_eq (c : Dev nD) : finalA m ρ c (4 : Fin 5) = OUT m :=
  (read_result_whole c (finalA m ρ c (4 : Fin 5))).symm.trans (finalA_out m ρ c)

/-- A device's staged arguments are its argument arrays: each window's one block is the whole array. -/
theorem Xs_eq (c : Dev nD) : Xs m c = m ((c : Thread nD τ).loc main_arg0) :=
  Memref.read_access_unit_zero (Elt F) main_arg0 (funext fun a => Nat.zero_mul _) _ _
theorem Gs_eq (c : Dev nD) : Gs m c = m ((c : Thread nD τ).loc main_arg1) :=
  Memref.read_access_unit_zero (Elt F) main_arg1 (funext fun a => Nat.zero_mul _) _ _
theorem Us_eq (c : Dev nD) : Us m c = m ((c : Thread nD τ).loc main_arg2) :=
  Memref.read_access_unit_zero (Elt F) main_arg2 (funext fun a => Nat.zero_mul _) _ _
theorem Ds_eq (c : Dev nD) : Ds m c = m ((c : Thread nD τ).loc main_arg3) :=
  Memref.read_access_unit_zero (Elt F) main_arg3 (funext fun a => Nat.zero_mul _) _ _

/-- The run with every array named: every final state has, on each device, the result array at `OUT` and the four
    argument arrays as they were. -/
theorem run_named (hbody : ∀ c, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c : Thread nD τ).loc main_v1) = OUT m
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono
    (fun r h c => ⟨(h c (4 : Fin 5)).trans (finalA_out_eq m ρ c), (h c (0 : Fin 5)).trans (finalA_in0 m ρ c),
      (h c (1 : Fin 5)).trans (finalA_in1 m ρ c), (h c (2 : Fin 5)).trans (finalA_in2 m ρ c), (h c (3 : Fin 5)).trans (finalA_in3 m ρ c)⟩)
    (run_main m ρ hbody)

/-- info: 'Cert.KernelIdeal.Lx.finalA_out' depends on axioms: [propext, Classical.choice, Quot.sound] -/
#guard_msgs in #print axioms finalA_out

end Cert.KernelIdeal.Lx

end
-- ==== Proof.Regions.lean ====
/-
  Regions of the exchange's buffers: cutting a whole buffer into the element sets its views cover, putting the
  pieces back, and reading the result buffer.

  A region is the element set of a view, held at a share at some contents; contents matter only on the region, and
  on the region they are what the view reads. The 1024 result rows are the eight blocks of 128 rows (device d, half
  g at rows 256 d + 128 g); a six-slot buffer is its six slots. Each family partitions its buffer's index set, which
  is shown by arithmetic on the row (slot) coordinate alone, so a points-to of the whole buffer is the separating
  conjunction of the regions, at one contents or, joined, at some contents.
-/
import proofs.«900523_g7700000000000524_dist_gated_mlp_tp_i_m1024_h2048_d1024_v7x_i4_bf16_1_alg».proof.Proof.Proto

noncomputable section

namespace Cert.KernelIdeal.Rx

open Cert.KernelIdeal Cert.KernelIdeal.Gen Cert.KernelIdeal.Px

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## Regions of an arbitrary view -/

section Generic

variable {sp : Space} {S S' : Shape} {e : EltTy}

/-- Contents that read the same through a view hold the same values on the view's elements, so the two
    regions are one assertion. -/
theorem pts_congr_read (t : Thread nD τ) (v : View sig t.2.kind sp S e) (q : PosShare TreeShare)
    (f g : Buf (Elt F) (v.loc t)) (h : v.read (Elt F) f = v.read (Elt F) g) :
    (v.loc t ↦[v.set]{q} f : sProp 𝕄) = v.loc t ↦[v.set]{q} g := by
  refine pointsTo_congr fun i hi => ?_
  obtain ⟨y, rfl⟩ := View.exists_emb_of_mem_set v hi
  have hy := congrFun h y
  rw [View.read_apply, View.read_apply] at hy
  exact (cast_inj _).mp hy

/-- A full share is its left half, and the two halves of its right half. -/
theorem pts_thirds (ℓ : Loc nD τ sig) (I : Finset (Idx ℓ)) (f : Buf (Elt F) ℓ) :
    (ℓ ↦[I]{fullShare} f : sProp 𝕄)
      = iprop((ℓ ↦[I]{fullShare.left} f) ∗ (ℓ ↦[I]{fullShare.right.left} f) ∗ (ℓ ↦[I]{fullShare.right.right} f)) := by
  have h1 : (ℓ ↦[I]{fullShare} f : sProp 𝕄) ⊣⊢ iprop((ℓ ↦[I]{fullShare.left} f) ∗ ℓ ↦[I]{fullShare.right} f) :=
    pointsTo_share (PosShare.mem_left_op_right fullShare)
  have h2 : (ℓ ↦[I]{fullShare.right} f : sProp 𝕄) ⊣⊢ iprop((ℓ ↦[I]{fullShare.right.left} f) ∗ ℓ ↦[I]{fullShare.right.right} f) :=
    pointsTo_share (PosShare.mem_left_op_right fullShare.right)
  rw [BI.equiv_iff.mp ⟨h1.1, h1.2⟩, BI.equiv_iff.mp ⟨h2.1, h2.2⟩]

/-- A buffer held whole is the regions of a family of element sets that partition its index set. -/
theorem pts_partition {T : Type} [Fintype T] [DecidableEq T] (ℓ : Loc nD τ sig) (K : T → Finset (Idx ℓ))
    (hd : ∀ t t', t ≠ t' → Disjoint (K t) (K t')) (hc : ∀ i, ∃ t, i ∈ K t)
    (q : PosShare TreeShare) (f : Buf (Elt F) ℓ) :
    (ℓ ↦{q} f : sProp 𝕄) = bigSep Finset.univ fun t => ℓ ↦[K t]{q} f := by
  rw [← pointsTo_biUnion Finset.univ K (fun t _ t' _ h => hd t t' h)]
  congr 1
  refine (Finset.eq_univ_iff_forall.mpr fun i => ?_).symm
  obtain ⟨t, ht⟩ := hc i
  exact Finset.mem_biUnion.mpr ⟨t, Finset.mem_univ t, ht⟩

/-- Regions of pairwise disjoint element sets, each at some contents, join into their union at some contents. -/
theorem pts_join_any {T : Type} [DecidableEq T] (ℓ : Loc nD τ sig) (K : T → Finset (Idx ℓ)) (q : PosShare TreeShare)
    (f₀ : Buf (Elt F) ℓ) (s : Finset T) (hd : ∀ t ∈ s, ∀ t' ∈ s, t ≠ t' → Disjoint (K t) (K t')) :
    bigSep s (fun t => (iprop(∃ f : Buf (Elt F) ℓ, ℓ ↦[K t]{q} f) : sProp 𝕄))
      ⊢ (iprop(∃ g : Buf (Elt F) ℓ, ℓ ↦[s.biUnion K]{q} g) : sProp 𝕄) := by
  classical
  induction s using Finset.induction_on with
  | empty =>
    iintro -
    iexists f₀
    rw [Finset.biUnion_empty, pointsTo_empty]; iempintro
  | insert t s ht ih =>
    rw [bigSep_insert ht, Finset.biUnion_insert]
    have hd' : Disjoint (K t) (s.biUnion K) :=
      (Finset.disjoint_biUnion_right _ _ _).mpr fun t' ht' =>
        hd t (Finset.mem_insert_self _ _) t' (Finset.mem_insert_of_mem ht') (fun e => ht (e ▸ ht'))
    refine (show iprop((∃ f : Buf (Elt F) ℓ, ℓ ↦[K t]{q} f) ∗ bigSep s (fun t => (iprop(∃ f : Buf (Elt F) ℓ, ℓ ↦[K t]{q} f) : sProp 𝕄))) ⊢ _ from ?_)
    iintro ⟨Ht, HS⟩
    icases Ht with ⟨%f, Ht⟩
    ihave H := (ih fun t₁ h₁ t₂ h₂ => hd t₁ (Finset.mem_insert_of_mem h₁) t₂ (Finset.mem_insert_of_mem h₂)) $$ HS
    icases H with ⟨%g, HS⟩
    iexists (s.biUnion K).piecewise g f
    iapply (pointsTo_join hd')
    isplitl [Ht]; · iexact Ht
    iexact HS

/-- Writing through a view re-indexed by another shape is writing the re-indexed payload through the view. -/
theorem write_reshape_univ {κ : Kind} {Val : EltTy → Type} (v : View sig κ sp S e) (h : S'.numel = S.numel)
    (f : v.ty.Contents Val) (w : S'.Idx → Val e) :
    (v.reshape S' h).write Val f w Finset.univ = v.write Val f (fun x => w (Shape.reshapeEquiv h.symm x)) Finset.univ := by
  funext i
  by_cases hi : i ∈ v.set
  · obtain ⟨x, rfl⟩ := View.exists_emb_of_mem_set v hi
    have hx : (v.reshape S' h).emb (Shape.reshapeEquiv h.symm x) = v.emb x := by
      rw [View.emb_reshape, Function.Embedding.trans_apply, Equiv.coe_toEmbedding, ← Shape.reshapeEquiv_symm h,
        Equiv.apply_symm_apply]
    have h1 := View.write_emb_of_mem (v := v.reshape S' h) f w (M := Finset.univ) (Finset.mem_univ (Shape.reshapeEquiv h.symm x))
    rw [hx] at h1
    rw [h1, View.write_emb_of_mem _ _ (Finset.mem_univ x)]
  · rw [View.write_of_not_mem _ _ _ (by rw [View.setOn_univ, View.set_reshape]; exact hi),
      View.write_of_not_mem _ _ _ (by rw [View.setOn_univ]; exact hi)]

/-- What is stored through a unit-stride rectangle of a view is read back through the same rectangle, however
    the two spell its offsets. -/
theorem read_write_unit_congr {κ : Kind} {Val : EltTy → Type} (v : View sig κ sp S e) {off off' size : Fin S.rank → Nat}
    (h : off = off') (p : ∀ a, off a + size a ≤ S.size a) (p' : ∀ a, off' a + size a ≤ S.size a)
    (f : v.ty.Contents Val) (w : (⟨S.rank, size⟩ : Shape).Idx → Val e) :
    (v.slice (Rect.unit off' size p')).read Val ((v.slice (Rect.unit off size p)).write Val f w Finset.univ) = w := by
  subst h; exact View.read_write_univ (v := v.slice (Rect.unit off size p)) f w

/-- The elements a load at a rectangle reads are the rectangle's slice of the view. -/
theorem setOn_rect {κ : Kind} (v : View sig κ sp S e) (r : Rect S) : v.setOn r.toLoadRect.set = (v.slice r).set :=
  (v.set_slice r).symm

/-- The elements under a unit-stride rectangle of a view do not depend on how its offsets are spelt. -/
theorem set_slice_unit_congr {κ : Kind} (v : View sig κ sp S e) {off off' size : Fin S.rank → Nat}
    (h : off = off') (p : ∀ a, off a + size a ≤ S.size a) (p' : ∀ a, off' a + size a ≤ S.size a) :
    (v.slice (Rect.unit off size p)).set = (v.slice (Rect.unit off' size p')).set := by
  subst h; rfl

/-- Regions that partition a buffer's index set, each at some contents, join into the whole buffer at some contents. -/
theorem pts_join_any_univ {T : Type} [Fintype T] [DecidableEq T] (ℓ : Loc nD τ sig) (K : T → Finset (Idx ℓ))
    (hd : ∀ t t', t ≠ t' → Disjoint (K t) (K t')) (hc : ∀ i, ∃ t, i ∈ K t) (q : PosShare TreeShare) (f₀ : Buf (Elt F) ℓ) :
    bigSep Finset.univ (fun t => (iprop(∃ f : Buf (Elt F) ℓ, ℓ ↦[K t]{q} f) : sProp 𝕄))
      ⊢ (iprop(∃ g : Buf (Elt F) ℓ, ℓ ↦{q} g) : sProp 𝕄) := by
  have h := pts_join_any (F := F) ℓ K q f₀ Finset.univ (fun t _ t' _ hne => hd t t' hne)
  have hu : Finset.univ.biUnion K = Finset.univ := Finset.eq_univ_iff_forall.mpr fun i => by
    obtain ⟨t, ht⟩ := hc i
    exact Finset.mem_biUnion.mpr ⟨t, Finset.mem_univ t, ht⟩
  rw [hu] at h
  exact h

/-- A separating conjunction over four devices and two halves, spelt out in order. -/
theorem bigSep_4x2 (Φ : Fin 4 × Fin 2 → sProp 𝕄) :
    bigSep Finset.univ Φ
      = iprop(Φ (0, 0) ∗ Φ (0, 1) ∗ Φ (1, 0) ∗ Φ (1, 1) ∗ Φ (2, 0) ∗ Φ (2, 1) ∗ Φ (3, 0) ∗ Φ (3, 1)) := by
  rw [show (Finset.univ : Finset (Fin 4 × Fin 2)) = {(0, 0), (0, 1), (1, 0), (1, 1), (2, 0), (2, 1), (3, 0), (3, 1)} by decide,
    bigSep_insert (by decide), bigSep_insert (by decide), bigSep_insert (by decide), bigSep_insert (by decide),
    bigSep_insert (by decide), bigSep_insert (by decide), bigSep_insert (by decide), bigSep_singleton] <;> rfl

/-- A separating conjunction over six slots, spelt out in order. -/
theorem bigSep_fin6 (Φ : Fin 6 → sProp 𝕄) :
    bigSep Finset.univ Φ = iprop(Φ 0 ∗ Φ 1 ∗ Φ 2 ∗ Φ 3 ∗ Φ 4 ∗ Φ 5) := by
  rw [show (Finset.univ : Finset (Fin 6)) = {0, 1, 2, 3, 4, 5} by decide,
    bigSep_insert (by decide), bigSep_insert (by decide), bigSep_insert (by decide), bigSep_insert (by decide),
    bigSep_insert (by decide), bigSep_singleton] <;> rfl

end Generic

/-! ## Regions at the names the protocol uses -/

section Regions

variable {S : Shape} {e : EltTy}

/-- A region at contents the view reads as `w` is the region "reading `w`". -/
theorem regPts_of_read (t : Thread nD τ) (v : Memref sig t.2.kind .vmem S e) (q : PosShare TreeShare)
    (f : Buf (Elt F) (v.view.loc t)) (w : S.Idx → Elt F e) (h : v.view.read (Elt F) f = w) :
    (v.view.loc t ↦[v.view.set]{q} f : sProp 𝕄) = regPts t v q w := by
  unfold regPts
  exact pts_congr_read t v.view q f _ (h.trans (View.read_write_univ (v := v.view) (junk (v.view.loc t)) w).symm)

/-- So is the region at contents `w` was written into through the view. -/
theorem regPts_write (t : Thread nD τ) (v : Memref sig t.2.kind .vmem S e) (q : PosShare TreeShare)
    (f : Buf (Elt F) (v.view.loc t)) (w : S.Idx → Elt F e) :
    (v.view.loc t ↦[v.view.set]{q} (v.view.write (Elt F) f w Finset.univ) : sProp 𝕄) = regPts t v q w :=
  regPts_of_read t v q _ w (View.read_write_univ (v := v.view) f w)

/-- A fully held region at any contents is the region at some contents. -/
theorem regAny_of_pts (t : Thread nD τ) (v : Memref sig t.2.kind .vmem S e) (f : Buf (Elt F) (v.view.loc t)) :
    (v.view.loc t ↦[v.view.set]{fullShare} f : sProp 𝕄) ⊢ regAny t v := by
  unfold regAny
  iintro H
  iexists f
  iexact H

theorem regPts_any (t : Thread nD τ) (v : Memref sig t.2.kind .vmem S e) (w : S.Idx → Elt F e) :
    regPts t v fullShare w ⊢ regAny t v :=
  regAny_of_pts t v _

/-- A region reading `w` is the region at the view's own reading of its contents. -/
theorem regPts_read (t : Thread nD τ) (v : Memref sig t.2.kind .vmem S e) (q : PosShare TreeShare)
    (f : Buf (Elt F) (v.view.loc t)) :
    (v.view.loc t ↦[v.view.set]{q} f : sProp 𝕄) = regPts t v q (v.view.read (Elt F) f) :=
  regPts_of_read t v q f _ rfl

theorem lentShare_zero : lentShare 0 = fullShare.left := rfl
theorem lentShare_one : lentShare 1 = fullShare.right.left := rfl
theorem lentShare_two : lentShare 2 = fullShare.right.right := rfl

/-- The full share of a region is the three shares lent to the three copies that read it at once. -/
theorem shares_eq (t : Thread nD τ) (v : Memref sig t.2.kind .vmem S e) (w : S.Idx → Elt F e) :
    regPts t v fullShare w
      = iprop(regPts t v (lentShare 0) w ∗ regPts t v (lentShare 1) w ∗ regPts t v (lentShare 2) w) := by
  rw [lentShare_zero, lentShare_one, lentShare_two]
  unfold regPts
  exact pts_thirds _ _ _

theorem shares (t : Thread nD τ) (v : Memref sig t.2.kind .vmem S e) (w : S.Idx → Elt F e) :
    regPts t v fullShare w
      ⊣⊢ iprop(regPts t v (lentShare 0) w ∗ regPts t v (lentShare 1) w ∗ regPts t v (lentShare 2) w) :=
  .of_eq (shares_eq t v w)

end Regions

/-! ## The element sets: slots and row blocks -/

/-- A slot's view covers the slot's rectangle of the six-slot buffer. -/
theorem sndSlot_set (k : Fin 6) : (sndSlot k).view.set = (slotRect k).set :=
  (View.set_reshape _ _).trans (View.set_slice_whole _ _)
theorem rcvSlot_set (k : Fin 6) : (rcvSlot k).view.set = (slotRect k).set :=
  (View.set_reshape _ _).trans (View.set_slice_whole _ _)

/-- What a load through the whole receive (send) buffer at a slot's rectangle reads is the slot's region. -/
theorem rcv_load_set (k : Fin 6) : rcvM.view.setOn (slotRect k).toLoadRect.set = (rcvSlot k).view.set :=
  (setOn_rect _ _).trans (View.set_reshape _ _).symm
theorem snd_load_set (k : Fin 6) : sndM.view.setOn (slotRect k).toLoadRect.set = (sndSlot k).view.set :=
  (setOn_rect _ _).trans (View.set_reshape _ _).symm
theorem rcv_load_sub (k : Fin 6) : rcvM.view.setOn (slotRect k).toLoadRect.set ⊆ (rcvSlot k).view.set :=
  (rcv_load_set k).subset
theorem snd_load_sub (k : Fin 6) : sndM.view.setOn (slotRect k).toLoadRect.set ⊆ (sndSlot k).view.set :=
  (snd_load_set k).subset

/-- What a store through the whole send (receive) buffer at a slot's rectangle writes is the slot's region. -/
theorem snd_store_set (k : Fin 6) :
    (sndM.access (slotRect k) : View sig .tc .vmem _ _).setOn Finset.univ = (sndSlot k).view.set :=
  (View.setOn_univ _).trans (View.set_reshape _ _).symm
theorem rcv_store_set (k : Fin 6) :
    (rcvM.access (slotRect k) : View sig .tc .vmem _ _).setOn Finset.univ = (rcvSlot k).view.set :=
  (View.setOn_univ _).trans (View.set_reshape _ _).symm
theorem snd_store_sub (k : Fin 6) :
    (sndM.access (slotRect k) : View sig .tc .vmem _ _).setOn Finset.univ ⊆ (sndSlot k).view.set :=
  (snd_store_set k).subset
theorem rcv_store_sub (k : Fin 6) :
    (rcvM.access (slotRect k) : View sig .tc .vmem _ _).setOn Finset.univ ⊆ (rcvSlot k).view.set :=
  (rcv_store_set k).subset

/-- The two spellings of a device's own row offsets agree. -/
theorem off3_eq_off4 (c : Dev nD) (g : Fin 2) :
    k0_off3 c (BitVec.ofNat 32 (128 * g.val)) = k0_off4 c (BitVec.ofNat 32 (128 * g.val)) :=
  (k0_off3_eq c g).trans (k0_off4_eq c g).symm

/-- What a store (a load) through the whole result buffer at a device's own rows touches is those rows' region. -/
theorem out_store_set (c : Dev nD) (g : Fin 2) :
    (oM.access (Rect.unit (s := S1024x1024) (k0_off3 c (BitVec.ofNat 32 (128 * g.val))) S128x1024.size (k0_off3_inb c g)) :
        View sig .tc .vmem _ _).setOn Finset.univ = (oRows c g).view.set :=
  (View.setOn_univ _).trans (set_slice_unit_congr oM.view (off3_eq_off4 c g) _ _)
theorem out_load_set (c : Dev nD) (g : Fin 2) :
    oM.view.setOn (Rect.unit (s := S1024x1024) (k0_off3 c (BitVec.ofNat 32 (128 * g.val))) S128x1024.size (k0_off3_inb c g)).toLoadRect.set
      = (oRows c g).view.set :=
  (setOn_rect _ _).trans (set_slice_unit_congr oM.view (off3_eq_off4 c g) _ _)
theorem out_store_sub (c : Dev nD) (g : Fin 2) :
    (oM.access (Rect.unit (s := S1024x1024) (k0_off3 c (BitVec.ofNat 32 (128 * g.val))) S128x1024.size (k0_off3_inb c g)) :
        View sig .tc .vmem _ _).setOn Finset.univ ⊆ (oRows c g).view.set :=
  (out_store_set c g).subset
theorem out_load_sub (c : Dev nD) (g : Fin 2) :
    oM.view.setOn (Rect.unit (s := S1024x1024) (k0_off3 c (BitVec.ofNat 32 (128 * g.val))) S128x1024.size (k0_off3_inb c g)).toLoadRect.set
      ⊆ (oRows c g).view.set :=
  (out_load_set c g).subset

/-! ## Values through a slot and through a device's own rows -/

/-- The [1,128,1024] value stored through the send buffer's slot rectangle, read back through the slot's
    [128,1024] view, is the value re-indexed. -/
theorem slot_read (k : Fin 6) (f : (cc0_scratch3 : Ref sig .tc).ty.Contents (Elt F)) (w : Vec F S1x128x1024 .bf16) :
    (sndSlot k).view.read (Elt F) ((sndM.access (slotRect k) : View sig .tc .vmem _ _).write (Elt F) f w Finset.univ)
      = slotVal w := by
  unfold slotVal
  rw [Memref.read_squeeze_slice sndM (slotRect k) (fun _ => rfl) squeezes_S1x128x1024_S128x1024
    shapeCasts_S1x128x1024_S128x1024, View.readAt_rect, View.read_write_univ]

/-- A [128,1024] value written through a receive slot's view, loaded through the buffer at the slot's rectangle, is
    the value re-indexed [1,128,1024]. -/
theorem slot_load (k : Fin 6) (f : (cc0_scratch4 : Ref sig .tc).ty.Contents (Elt F)) (v : Vec F S128x1024 .bf16) :
    rcvM.view.readAt (Elt F) (slotRect k).toLoadRect ((rcvSlot k).view.write (Elt F) f v Finset.univ)
      = shapeCast S1x128x1024 v shapeCasts_S128x1024_S1x128x1024 := by
  rw [View.readAt_rect,
    show (rcvSlot k).view.write (Elt F) f v Finset.univ = _ from
      write_reshape_univ (rcvM.view.slice (slotRect k)) squeezes_S1x128x1024_S128x1024.numel_eq f v,
    View.read_write_univ]
  rfl

/-- So a slot's contents as the transfers carry them load back as the value that was sent. -/
theorem slot_load_val (k : Fin 6) (f : (cc0_scratch4 : Ref sig .tc).ty.Contents (Elt F)) (w : Vec F S1x128x1024 .bf16) :
    rcvM.view.readAt (Elt F) (slotRect k).toLoadRect ((rcvSlot k).view.write (Elt F) f (slotVal w) Finset.univ) = w :=
  (slot_load k f (slotVal w)).trans (shapeCast_shapeCast w shapeCasts_S1x128x1024_S128x1024 shapeCasts_S128x1024_S1x128x1024)

/-- The rows a device stores through the result buffer at its own offsets read back through its rows' view. -/
theorem out_read (c : Dev nD) (g : Fin 2) (f : (cc0_stg4_0 : Ref sig .tc).ty.Contents (Elt F)) (w : Vec F S128x1024 .bf16) :
    (oRows c g).view.read (Elt F)
        ((oM.access (Rect.unit (s := S1024x1024) (k0_off3 c (BitVec.ofNat 32 (128 * g.val))) S128x1024.size (k0_off3_inb c g)) :
          View sig .tc .vmem _ _).write (Elt F) f w Finset.univ) = w :=
  read_write_unit_congr oM.view (off3_eq_off4 c g) _ _ f w

/-! ## Arithmetic of the row blocks and of the slots -/

theorem mem_slotRect (k : Fin 6) (i : S6x128x1024.Idx) : i ∈ (slotRect k).set ↔ (i 0).val = k.val := by
  rw [Rect.mem_set_unit]
  have h1 : (i 1).val < 128 := (i 1).isLt
  have h2 : (i 2).val < 1024 := (i 2).isLt
  constructor
  · intro h
    have h0 := h 0
    have e0 : (![k.val, 0, 0] : Fin 3 → ℕ) 0 = k.val := rfl
    have s0 : S1x128x1024.size 0 = 1 := rfl
    rw [e0, s0] at h0
    omega
  · intro h a
    match a with
    | ⟨0, _⟩ => exact ⟨by show k.val ≤ (i 0).val; omega, by show (i 0).val < k.val + 1; omega⟩
    | ⟨1, _⟩ => exact ⟨Nat.zero_le _, by show (i 1).val < 0 + 128; omega⟩
    | ⟨2, _⟩ => exact ⟨Nat.zero_le _, by show (i 2).val < 0 + 1024; omega⟩

theorem slots_disjoint (k k' : Fin 6) (h : k ≠ k') : Disjoint (slotRect k).set (slotRect k').set :=
  Finset.disjoint_left.mpr fun i h1 h2 =>
    h (Fin.ext (((mem_slotRect k i).mp h1).symm.trans ((mem_slotRect k' i).mp h2)))

theorem slots_cover (i : S6x128x1024.Idx) : ∃ k : Fin 6, i ∈ (slotRect k).set :=
  ⟨⟨(i 0).val, (i 0).isLt⟩, (mem_slotRect _ i).mpr rfl⟩

theorem off4_zero (d : Dev nD) (g : Fin 2) : k0_off4 d (BitVec.ofNat 32 (128 * g.val)) 0 = 256 * d.val + 128 * g.val := by
  rw [k0_off4_eq]; rfl
theorem off4_one (d : Dev nD) (g : Fin 2) : k0_off4 d (BitVec.ofNat 32 (128 * g.val)) 1 = 0 := by
  rw [k0_off4_eq]; rfl

/-- The rows of device d's half g are rows 256 d + 128 g … + 127, at every column. -/
theorem mem_oRows (d : Dev nD) (g : Fin 2) (i : S1024x1024.Idx) :
    i ∈ (oRows d g).view.set ↔ 256 * d.val + 128 * g.val ≤ (i 0).val ∧ (i 0).val < 256 * d.val + 128 * g.val + 128 := by
  rw [show (oRows d g).view.set
      = (Rect.unit (s := S1024x1024) (k0_off4 d (BitVec.ofNat 32 (128 * g.val))) S128x1024.size (k0_off4_inb d g)).set
    from View.set_slice_whole _ _]
  rw [Rect.mem_set_unit, Fin.forall_fin_two, off4_zero, off4_one]
  have h1 : (i 1).val < 1024 := (i 1).isLt
  have s0 : S128x1024.size 0 = 128 := rfl
  have s1 : S128x1024.size 1 = 1024 := rfl
  rw [s0, s1]
  constructor
  · intro h; exact h.1
  · intro h; exact ⟨h, Nat.zero_le _, by omega⟩

theorem pe_val (c : Dev nD) (o : ℕ) : (pe c o).val = (c.val + o) % 4 := rfl

/-- Seen from device c, the blocks of the devices c, c + 1, c + 2, c + 3 are pairwise disjoint -/
theorem rows_disjoint (c : Dev nD) (og og' : Fin 4 × Fin 2) (h : og ≠ og') :
    Disjoint (oRows (pe c og.1.val) og.2).view.set (oRows (pe c og'.1.val) og'.2).view.set :=
  Finset.disjoint_left.mpr fun i h1 h2 => h (by
    have h1 := (mem_oRows _ _ i).mp h1
    have h2 := (mem_oRows _ _ i).mp h2
    rw [pe_val] at h1 h2
    have hc : c.val < 4 := c.isLt
    have ho : og.1.val < 4 := og.1.isLt
    have ho' : og'.1.val < 4 := og'.1.isLt
    have hg : og.2.val < 2 := og.2.isLt
    have hg' : og'.2.val < 2 := og'.2.isLt
    exact Prod.ext (Fin.ext (by omega)) (Fin.ext (by omega)))

/-- and cover every row. -/
theorem rows_cover (c : Dev nD) (i : S1024x1024.Idx) :
    ∃ og : Fin 4 × Fin 2, i ∈ (oRows (pe c og.1.val) og.2).view.set := by
  have hc : c.val < 4 := c.isLt
  have hx : (i 0).val < 1024 := (i 0).isLt
  refine ⟨(⟨((i 0).val / 256 + 4 - c.val) % 4, Nat.mod_lt _ (by decide)⟩, ⟨(i 0).val / 128 % 2, Nat.mod_lt _ (by decide)⟩), ?_⟩
  refine (mem_oRows _ _ i).mpr ?_
  show 256 * (pe c (((i 0).val / 256 + 4 - c.val) % 4)).val + 128 * ((i 0).val / 128 % 2) ≤ (i 0).val
    ∧ (i 0).val < 256 * (pe c (((i 0).val / 256 + 4 - c.val) % 4)).val + 128 * ((i 0).val / 128 % 2) + 128
  rw [pe_val]
  omega

/-! ## The result buffer -/

/-- The element of the whole result at row 256 d + 128 g + r is row r of device d's half g. -/
theorem OUT_apply (i : S1024x1024.Idx) (d : Dev nD) (g : Fin 2) (y : S128x1024.Idx)
    (h0 : (i 0).val = 256 * d.val + 128 * g.val + (y 0).val) (h1 : (i 1).val = (y 1).val) : OUT m i = R m d g y := by
  have hd : d.val < 4 := d.isLt
  have hg : g.val < 2 := g.isLt
  have hy : (y 0).val < 128 := (y 0).isLt
  have key : ∀ (d' : Dev nD) (g' : Fin 2) (y' : S128x1024.Idx), d' = d → g' = g → y' = y → R m d' g' y' = R m d g y := by
    rintro _ _ _ rfl rfl rfl; rfl
  unfold OUT
  exact key _ _ _ (Fin.ext (by show (i 0).val / 256 % 4 = d.val; omega)) (Fin.ext (by show (i 0).val / 128 % 2 = g.val; omega))
    (Shape.idx_ext₂ (by show (i 0).val % 128 = (y 0).val; omega) (by show (i 1).val = (y 1).val; exact h1))

/-- Read through the rows of device d's half g, the whole result is that half's finished rows. -/
theorem OUT_rows (d : Dev nD) (g : Fin 2) : (oRows d g).view.read (Elt F) (OUT m) = R m d g := by
  funext y
  have e0 : (((oRows d g).view.emb y) 0).val = k0_off4 d (BitVec.ofNat 32 (128 * g.val)) 0 + 1 * (y 0).val := rfl
  have e1 : (((oRows d g).view.emb y) 1).val = k0_off4 d (BitVec.ofNat 32 (128 * g.val)) 1 + 1 * (y 1).val := rfl
  rw [off4_zero] at e0
  rw [off4_one] at e1
  rw [View.read_apply]
  exact (cast_eq _ _).trans (OUT_apply m _ d g y (by omega) (by omega))

/-- The whole result buffer at any contents is its eight row blocks, seen from device c, each at some contents. -/
theorem out_split (c : Dev nD) (f : Buf (Elt F) ((c : Thread nD τ).loc cc0_stg4_0)) :
    ((c : Thread nD τ).loc cc0_stg4_0 ↦{fullShare} f : sProp 𝕄)
      ⊢ bigSep Finset.univ fun og : Fin 4 × Fin 2 => regAny (c : Thread nD τ) (oRows (pe c og.1.val) og.2) := by
  rw [pts_partition ((c : Thread nD τ).loc cc0_stg4_0) (fun og : Fin 4 × Fin 2 => (oRows (pe c og.1.val) og.2).view.set)
    (rows_disjoint c) (rows_cover c) fullShare f]
  exact bigSep_mono fun og _ => regAny_of_pts (c : Thread nD τ) (oRows (pe c og.1.val) og.2) f

/-- The same at the values: each block reads its rows of the contents. -/
theorem out_split_vals (c : Dev nD) (q : PosShare TreeShare) (f : Buf (Elt F) ((c : Thread nD τ).loc cc0_stg4_0)) :
    ((c : Thread nD τ).loc cc0_stg4_0 ↦{q} f : sProp 𝕄)
      = bigSep Finset.univ fun og : Fin 4 × Fin 2 =>
          regPts (c : Thread nD τ) (oRows (pe c og.1.val) og.2) q ((oRows (pe c og.1.val) og.2).view.read (Elt F) f) := by
  rw [pts_partition ((c : Thread nD τ).loc cc0_stg4_0) (fun og : Fin 4 × Fin 2 => (oRows (pe c og.1.val) og.2).view.set)
    (rows_disjoint c) (rows_cover c) q f]
  exact bigSep_congr fun og _ => regPts_read (c : Thread nD τ) (oRows (pe c og.1.val) og.2) q f

/-- The eight row blocks, each reading its device's finished rows, are the whole result. -/
theorem out_join (c : Dev nD) :
    (bigSep Finset.univ fun og : Fin 4 × Fin 2 =>
        regPts (c : Thread nD τ) (oRows (pe c og.1.val) og.2) fullShare (R m (pe c og.1.val) og.2))
      ⊢ ((c : Thread nD τ).loc cc0_stg4_0 ↦{fullShare} OUT m : sProp 𝕄) := by
  rw [out_split_vals c fullShare (OUT m)]
  exact Entails.of_eq (bigSep_congr fun og _ => by rw [OUT_rows])

/-! ## The six-slot buffers -/

theorem snd_split (c : Dev nD) (f : Buf (Elt F) ((c : Thread nD τ).loc cc0_scratch3)) :
    ((c : Thread nD τ).loc cc0_scratch3 ↦{fullShare} f : sProp 𝕄)
      ⊢ bigSep Finset.univ fun k : Fin 6 => regAny (c : Thread nD τ) (sndSlot k) := by
  rw [pts_partition ((c : Thread nD τ).loc cc0_scratch3) (fun k : Fin 6 => (sndSlot k).view.set)
    (fun k k' h => by rw [sndSlot_set, sndSlot_set]; exact slots_disjoint k k' h)
    (fun i => by obtain ⟨k, hk⟩ := slots_cover i; exact ⟨k, by rw [sndSlot_set]; exact hk⟩) fullShare f]
  exact bigSep_mono fun k _ => regAny_of_pts (c : Thread nD τ) (sndSlot k) f

theorem rcv_split (c : Dev nD) (f : Buf (Elt F) ((c : Thread nD τ).loc cc0_scratch4)) :
    ((c : Thread nD τ).loc cc0_scratch4 ↦{fullShare} f : sProp 𝕄)
      ⊢ bigSep Finset.univ fun k : Fin 6 => regAny (c : Thread nD τ) (rcvSlot k) := by
  rw [pts_partition ((c : Thread nD τ).loc cc0_scratch4) (fun k : Fin 6 => (rcvSlot k).view.set)
    (fun k k' h => by rw [rcvSlot_set, rcvSlot_set]; exact slots_disjoint k k' h)
    (fun i => by obtain ⟨k, hk⟩ := slots_cover i; exact ⟨k, by rw [rcvSlot_set]; exact hk⟩) fullShare f]
  exact bigSep_mono fun k _ => regAny_of_pts (c : Thread nD τ) (rcvSlot k) f

theorem snd_join (c : Dev nD) :
    (bigSep Finset.univ fun k : Fin 6 => regAny (F := F) (c : Thread nD τ) (sndSlot k))
      ⊢ (iprop(∃ f : Buf (Elt F) ((c : Thread nD τ).loc cc0_scratch3), (c : Thread nD τ).loc cc0_scratch3 ↦{fullShare} f) : sProp 𝕄) :=
  pts_join_any_univ ((c : Thread nD τ).loc cc0_scratch3) (fun k : Fin 6 => (sndSlot k).view.set)
    (fun k k' h => by rw [sndSlot_set, sndSlot_set]; exact slots_disjoint k k' h)
    (fun i => by obtain ⟨k, hk⟩ := slots_cover i; exact ⟨k, by rw [sndSlot_set]; exact hk⟩) fullShare (junk _)

theorem rcv_join (c : Dev nD) :
    (bigSep Finset.univ fun k : Fin 6 => regAny (F := F) (c : Thread nD τ) (rcvSlot k))
      ⊢ (iprop(∃ f : Buf (Elt F) ((c : Thread nD τ).loc cc0_scratch4), (c : Thread nD τ).loc cc0_scratch4 ↦{fullShare} f) : sProp 𝕄) :=
  pts_join_any_univ ((c : Thread nD τ).loc cc0_scratch4) (fun k : Fin 6 => (rcvSlot k).view.set)
    (fun k k' h => by rw [rcvSlot_set, rcvSlot_set]; exact slots_disjoint k k' h)
    (fun i => by obtain ⟨k, hk⟩ := slots_cover i; exact ⟨k, by rw [rcvSlot_set]; exact hk⟩) fullShare (junk _)

/-! ## Stores and loads through the whole buffers, at the regions' names -/

/-- After a device's rows are stored through the result buffer at its own offsets, the rows' region reads them. -/
theorem out_stored (c : Dev nD) (g : Fin 2) (q : PosShare TreeShare) (f : Buf (Elt F) ((c : Thread nD τ).loc cc0_stg4_0))
    (w : Vec F S128x1024 .bf16) :
    ((c : Thread nD τ).loc cc0_stg4_0 ↦[(oRows c g).view.set]{q}
        ((oM.access (Rect.unit (s := S1024x1024) (k0_off3 c (BitVec.ofNat 32 (128 * g.val))) S128x1024.size (k0_off3_inb c g)) :
          View sig .tc .vmem _ _).write (Elt F) f w Finset.univ) : sProp 𝕄)
      = regPts (c : Thread nD τ) (oRows c g) q w :=
  regPts_of_read (c : Thread nD τ) (oRows c g) q _ w (out_read c g f w)

/-- After a share is stored through the send buffer at a slot's rectangle, the slot's region reads it re-indexed. -/
theorem snd_stored (c : Dev nD) (k : Fin 6) (q : PosShare TreeShare) (f : Buf (Elt F) ((c : Thread nD τ).loc cc0_scratch3))
    (w : Vec F S1x128x1024 .bf16) :
    ((c : Thread nD τ).loc cc0_scratch3 ↦[(sndSlot k).view.set]{q}
        ((sndM.access (slotRect k) : View sig .tc .vmem _ _).write (Elt F) f w Finset.univ) : sProp 𝕄)
      = regPts (c : Thread nD τ) (sndSlot k) q (slotVal w) :=
  regPts_of_read (c : Thread nD τ) (sndSlot k) q _ (slotVal w) (slot_read k f w)

/-- Rows written through a device's rows' view load back through the result buffer at the device's own offsets. -/
theorem out_load_val (c : Dev nD) (g : Fin 2) (f : (cc0_stg4_0 : Ref sig .tc).ty.Contents (Elt F)) (v : Vec F S128x1024 .bf16) :
    oM.view.readAt (Elt F)
        (Rect.unit (s := S1024x1024) (k0_off3 c (BitVec.ofNat 32 (128 * g.val))) S128x1024.size (k0_off3_inb c g)).toLoadRect
        ((oRows c g).view.write (Elt F) f v Finset.univ) = v :=
  read_write_unit_congr oM.view (off3_eq_off4 c g).symm _ _ f v

end Cert.KernelIdeal.Rx

end
-- ==== Proof.Pays.lean ====
/-
  What the schedule's payloads are at the cells a device meets.

  Slot (o, g) — for the device o + 1 places away and half g — is slot 2 o + g, so halving a slot number gives o back
  and its parity gives g. A send cell's payload is the slot (the rows) its owner lent; a receive cell's payload is what
  landed there, which is what the device o + 1 places before its owner sent: and o + 1 places after c, then 3 - o
  places further, is c again on a ring of four.
-/
import proofs.«900523_g7700000000000524_dist_gated_mlp_tp_i_m1024_h2048_d1024_v7x_i4_bf16_1_alg».proof.Proof.Regions

noncomputable section

namespace Cert.KernelIdeal.Dx

open Cert.KernelIdeal Cert.KernelIdeal.Gen Cert.KernelIdeal.Px Cert.KernelIdeal.Rx

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## Slot numbers and the ring -/

theorem slotOf_div (o : Fin 3) (g : Fin 2) (h : (slotOf o g).val / 2 < 3) : (⟨(slotOf o g).val / 2, h⟩ : Fin 3) = o :=
  Fin.ext (by show (o.val * 2 + g.val) / 2 = o.val; have := g.isLt; omega)

theorem slotOf_mod (o : Fin 3) (g : Fin 2) (h : (slotOf o g).val % 2 < 2) : (⟨(slotOf o g).val % 2, h⟩ : Fin 2) = g :=
  Fin.ext (by show (o.val * 2 + g.val) % 2 = g.val; have := g.isLt; omega)

/-- o + 1 places on, then 3 - o places on, is once round the ring. -/
theorem pe_back (c : Dev nD) (o : Fin 3) : pe (pe c (o.val + 1)) (3 - o.val) = c := by
  rw [pe_pe, show o.val + 1 + (3 - o.val) = 4 by have := o.isLt; omega, pe_four]

/-- What lands in slot (o, g) of the device o + 1 places after c is what c sent. -/
theorem got_pe (c : Dev nD) (o : Fin 3) (g : Fin 2) : got m (pe c (o.val + 1)) o g = sent m c o g := by
  unfold got; rw [pe_back]

/-! ## The payloads, for any o and g -/

theorem dPay_send (c : Dev nD) (o : Fin 3) (g : Fin 2) :
    dPay m c 0 (slotOf o g) = regPts (c : Thread nD τ) (sndSlot (slotOf o g)) fullShare (slotVal (sent m c o g)) := by
  show regPts (c : Thread nD τ) (sndSlot (slotOf o g)) fullShare
    (slotVal (sent m c ⟨(slotOf o g).val / 2, _⟩ ⟨(slotOf o g).val % 2, _⟩)) = _
  rw [slotOf_div, slotOf_mod]

theorem dPay_recv_own (c : Dev nD) (o : Fin 3) (g : Fin 2) :
    dPay m c 1 (slotOf o g) = regPts (c : Thread nD τ) (rcvSlot (slotOf o g)) fullShare (slotVal (got m c o g)) := by
  show regPts (c : Thread nD τ) (rcvSlot (slotOf o g)) fullShare
    (slotVal (got m c ⟨(slotOf o g).val / 2, _⟩ ⟨(slotOf o g).val % 2, _⟩)) = _
  rw [slotOf_div, slotOf_mod]

theorem dPay_recv (c : Dev nD) (o : Fin 3) (g : Fin 2) :
    dPay m (pe c (o.val + 1)) 1 (slotOf o g)
      = regPts ((pe c (o.val + 1) : Dev nD) : Thread nD τ) (rcvSlot (slotOf o g)) fullShare (slotVal (sent m c o g)) := by
  rw [dPay_recv_own, got_pe]

theorem dPay_asend (c : Dev nD) (o : Fin 3) (g : Fin 2) :
    dPay m c 2 (slotOf o g) = regPts (c : Thread nD τ) (oRows c g) (lentShare o) (R m c g) := by
  show regPts (c : Thread nD τ) (oRows c ⟨(slotOf o g).val % 2, _⟩) (lentShare ⟨(slotOf o g).val / 2, _⟩)
    (R m c ⟨(slotOf o g).val % 2, _⟩) = _
  rw [slotOf_div, slotOf_mod]

theorem dPay_arecv_own (c : Dev nD) (o : Fin 3) (g : Fin 2) :
    dPay m c 3 (slotOf o g)
      = regPts (c : Thread nD τ) (oRows (pe c (3 - o.val)) g) fullShare (R m (pe c (3 - o.val)) g) := by
  show regPts (c : Thread nD τ) (oRows (pe c (3 - (⟨(slotOf o g).val / 2, _⟩ : Fin 3).val)) ⟨(slotOf o g).val % 2, _⟩) fullShare
    (R m (pe c (3 - (⟨(slotOf o g).val / 2, _⟩ : Fin 3).val)) ⟨(slotOf o g).val % 2, _⟩) = _
  rw [slotOf_div, slotOf_mod]

theorem dPay_arecv (c : Dev nD) (o : Fin 3) (g : Fin 2) :
    dPay m (pe c (o.val + 1)) 3 (slotOf o g)
      = regPts ((pe c (o.val + 1) : Dev nD) : Thread nD τ) (oRows c g) fullShare (R m c g) := by
  rw [dPay_arecv_own, pe_back]

/-! ## The same at each slot, numerals written out -/

section Literal
variable (c : Dev nD)

theorem dPay_send_00 : dPay m c 0 0 = regPts (c : Thread nD τ) (sndSlot 0) fullShare (slotVal (sent m c 0 0)) := dPay_send m c 0 0
theorem dPay_send_01 : dPay m c 0 1 = regPts (c : Thread nD τ) (sndSlot 1) fullShare (slotVal (sent m c 0 1)) := dPay_send m c 0 1
theorem dPay_send_10 : dPay m c 0 2 = regPts (c : Thread nD τ) (sndSlot 2) fullShare (slotVal (sent m c 1 0)) := dPay_send m c 1 0
theorem dPay_send_11 : dPay m c 0 3 = regPts (c : Thread nD τ) (sndSlot 3) fullShare (slotVal (sent m c 1 1)) := dPay_send m c 1 1
theorem dPay_send_20 : dPay m c 0 4 = regPts (c : Thread nD τ) (sndSlot 4) fullShare (slotVal (sent m c 2 0)) := dPay_send m c 2 0
theorem dPay_send_21 : dPay m c 0 5 = regPts (c : Thread nD τ) (sndSlot 5) fullShare (slotVal (sent m c 2 1)) := dPay_send m c 2 1

theorem dPay_recv_00 : dPay m (pe c 1) 1 0 = regPts ((pe c 1 : Dev nD) : Thread nD τ) (rcvSlot 0) fullShare (slotVal (sent m c 0 0)) := dPay_recv m c 0 0
theorem dPay_recv_01 : dPay m (pe c 1) 1 1 = regPts ((pe c 1 : Dev nD) : Thread nD τ) (rcvSlot 1) fullShare (slotVal (sent m c 0 1)) := dPay_recv m c 0 1
theorem dPay_recv_10 : dPay m (pe c 2) 1 2 = regPts ((pe c 2 : Dev nD) : Thread nD τ) (rcvSlot 2) fullShare (slotVal (sent m c 1 0)) := dPay_recv m c 1 0
theorem dPay_recv_11 : dPay m (pe c 2) 1 3 = regPts ((pe c 2 : Dev nD) : Thread nD τ) (rcvSlot 3) fullShare (slotVal (sent m c 1 1)) := dPay_recv m c 1 1
theorem dPay_recv_20 : dPay m (pe c 3) 1 4 = regPts ((pe c 3 : Dev nD) : Thread nD τ) (rcvSlot 4) fullShare (slotVal (sent m c 2 0)) := dPay_recv m c 2 0
theorem dPay_recv_21 : dPay m (pe c 3) 1 5 = regPts ((pe c 3 : Dev nD) : Thread nD τ) (rcvSlot 5) fullShare (slotVal (sent m c 2 1)) := dPay_recv m c 2 1

theorem dPay_recv_own_00 : dPay m c 1 0 = regPts (c : Thread nD τ) (rcvSlot 0) fullShare (slotVal (got m c 0 0)) := dPay_recv_own m c 0 0
theorem dPay_recv_own_01 : dPay m c 1 1 = regPts (c : Thread nD τ) (rcvSlot 1) fullShare (slotVal (got m c 0 1)) := dPay_recv_own m c 0 1
theorem dPay_recv_own_10 : dPay m c 1 2 = regPts (c : Thread nD τ) (rcvSlot 2) fullShare (slotVal (got m c 1 0)) := dPay_recv_own m c 1 0
theorem dPay_recv_own_11 : dPay m c 1 3 = regPts (c : Thread nD τ) (rcvSlot 3) fullShare (slotVal (got m c 1 1)) := dPay_recv_own m c 1 1
theorem dPay_recv_own_20 : dPay m c 1 4 = regPts (c : Thread nD τ) (rcvSlot 4) fullShare (slotVal (got m c 2 0)) := dPay_recv_own m c 2 0
theorem dPay_recv_own_21 : dPay m c 1 5 = regPts (c : Thread nD τ) (rcvSlot 5) fullShare (slotVal (got m c 2 1)) := dPay_recv_own m c 2 1

theorem dPay_asend_00 : dPay m c 2 0 = regPts (c : Thread nD τ) (oRows c 0) (lentShare 0) (R m c 0) := dPay_asend m c 0 0
theorem dPay_asend_01 : dPay m c 2 1 = regPts (c : Thread nD τ) (oRows c 1) (lentShare 0) (R m c 1) := dPay_asend m c 0 1
theorem dPay_asend_10 : dPay m c 2 2 = regPts (c : Thread nD τ) (oRows c 0) (lentShare 1) (R m c 0) := dPay_asend m c 1 0
theorem dPay_asend_11 : dPay m c 2 3 = regPts (c : Thread nD τ) (oRows c 1) (lentShare 1) (R m c 1) := dPay_asend m c 1 1
theorem dPay_asend_20 : dPay m c 2 4 = regPts (c : Thread nD τ) (oRows c 0) (lentShare 2) (R m c 0) := dPay_asend m c 2 0
theorem dPay_asend_21 : dPay m c 2 5 = regPts (c : Thread nD τ) (oRows c 1) (lentShare 2) (R m c 1) := dPay_asend m c 2 1

theorem dPay_arecv_00 : dPay m (pe c 1) 3 0 = regPts ((pe c 1 : Dev nD) : Thread nD τ) (oRows c 0) fullShare (R m c 0) := dPay_arecv m c 0 0
theorem dPay_arecv_01 : dPay m (pe c 1) 3 1 = regPts ((pe c 1 : Dev nD) : Thread nD τ) (oRows c 1) fullShare (R m c 1) := dPay_arecv m c 0 1
theorem dPay_arecv_10 : dPay m (pe c 2) 3 2 = regPts ((pe c 2 : Dev nD) : Thread nD τ) (oRows c 0) fullShare (R m c 0) := dPay_arecv m c 1 0
theorem dPay_arecv_11 : dPay m (pe c 2) 3 3 = regPts ((pe c 2 : Dev nD) : Thread nD τ) (oRows c 1) fullShare (R m c 1) := dPay_arecv m c 1 1
theorem dPay_arecv_20 : dPay m (pe c 3) 3 4 = regPts ((pe c 3 : Dev nD) : Thread nD τ) (oRows c 0) fullShare (R m c 0) := dPay_arecv m c 2 0
theorem dPay_arecv_21 : dPay m (pe c 3) 3 5 = regPts ((pe c 3 : Dev nD) : Thread nD τ) (oRows c 1) fullShare (R m c 1) := dPay_arecv m c 2 1

theorem dPay_arecv_own_00 : dPay m c 3 0 = regPts (c : Thread nD τ) (oRows (pe c 3) 0) fullShare (R m (pe c 3) 0) := dPay_arecv_own m c 0 0
theorem dPay_arecv_own_01 : dPay m c 3 1 = regPts (c : Thread nD τ) (oRows (pe c 3) 1) fullShare (R m (pe c 3) 1) := dPay_arecv_own m c 0 1
theorem dPay_arecv_own_10 : dPay m c 3 2 = regPts (c : Thread nD τ) (oRows (pe c 2) 0) fullShare (R m (pe c 2) 0) := dPay_arecv_own m c 1 0
theorem dPay_arecv_own_11 : dPay m c 3 3 = regPts (c : Thread nD τ) (oRows (pe c 2) 1) fullShare (R m (pe c 2) 1) := dPay_arecv_own m c 1 1
theorem dPay_arecv_own_20 : dPay m c 3 4 = regPts (c : Thread nD τ) (oRows (pe c 1) 0) fullShare (R m (pe c 1) 0) := dPay_arecv_own m c 2 0
theorem dPay_arecv_own_21 : dPay m c 3 5 = regPts (c : Thread nD τ) (oRows (pe c 1) 1) fullShare (R m (pe c 1) 1) := dPay_arecv_own m c 2 1

end Literal

end Cert.KernelIdeal.Dx

end
-- ==== Proof.Joins.lean ====
/-
  The row blocks and the slots as explicit chains: the whole result buffer is its eight row blocks in the order
  own half 0, own half 1, then the halves of the devices 1, 2 and 3 places on; a six-slot buffer is its six slots in
  order. The own blocks are named by the device itself, being zero places on.
-/
import proofs.«900523_g7700000000000524_dist_gated_mlp_tp_i_m1024_h2048_d1024_v7x_i4_bf16_1_alg».proof.Proof.Pays

noncomputable section

namespace Cert.KernelIdeal.Dx

open Cert.KernelIdeal Cert.KernelIdeal.Gen Cert.KernelIdeal.Px Cert.KernelIdeal.Rx

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-- The whole result buffer at any contents is its eight row blocks in order, each at some contents. -/
theorem out_chain' (c : Dev nD) (f : Buf (Elt F) ((c : Thread nD τ).loc cc0_stg4_0)) :
    ((c : Thread nD τ).loc cc0_stg4_0 ↦{fullShare} f : sProp 𝕄)
      ⊢ iprop((∃ f : Buf (Elt F) ((oRows c 0).view.loc (c : Thread nD τ)), (oRows c 0).view.loc (c : Thread nD τ) ↦[(oRows c 0).view.set]{fullShare} f)
        ∗ (∃ f : Buf (Elt F) ((oRows c 1).view.loc (c : Thread nD τ)), (oRows c 1).view.loc (c : Thread nD τ) ↦[(oRows c 1).view.set]{fullShare} f)
        ∗ (∃ f : Buf (Elt F) ((oRows (pe c 1) 0).view.loc (c : Thread nD τ)), (oRows (pe c 1) 0).view.loc (c : Thread nD τ) ↦[(oRows (pe c 1) 0).view.set]{fullShare} f)
        ∗ (∃ f : Buf (Elt F) ((oRows (pe c 1) 1).view.loc (c : Thread nD τ)), (oRows (pe c 1) 1).view.loc (c : Thread nD τ) ↦[(oRows (pe c 1) 1).view.set]{fullShare} f)
        ∗ (∃ f : Buf (Elt F) ((oRows (pe c 2) 0).view.loc (c : Thread nD τ)), (oRows (pe c 2) 0).view.loc (c : Thread nD τ) ↦[(oRows (pe c 2) 0).view.set]{fullShare} f)
        ∗ (∃ f : Buf (Elt F) ((oRows (pe c 2) 1).view.loc (c : Thread nD τ)), (oRows (pe c 2) 1).view.loc (c : Thread nD τ) ↦[(oRows (pe c 2) 1).view.set]{fullShare} f)
        ∗ (∃ f : Buf (Elt F) ((oRows (pe c 3) 0).view.loc (c : Thread nD τ)), (oRows (pe c 3) 0).view.loc (c : Thread nD τ) ↦[(oRows (pe c 3) 0).view.set]{fullShare} f)
        ∗ (∃ f : Buf (Elt F) ((oRows (pe c 3) 1).view.loc (c : Thread nD τ)), (oRows (pe c 3) 1).view.loc (c : Thread nD τ) ↦[(oRows (pe c 3) 1).view.set]{fullShare} f)) := by
  have h := out_split (F := F) c f
  rw [bigSep_4x2] at h
  have h' : ((c : Thread nD τ).loc cc0_stg4_0 ↦{fullShare} f : sProp 𝕄)
      ⊢ iprop(regAny (c : Thread nD τ) (oRows (pe c 0) 0)
        ∗ regAny (c : Thread nD τ) (oRows (pe c 0) 1)
        ∗ regAny (c : Thread nD τ) (oRows (pe c 1) 0)
        ∗ regAny (c : Thread nD τ) (oRows (pe c 1) 1)
        ∗ regAny (c : Thread nD τ) (oRows (pe c 2) 0)
        ∗ regAny (c : Thread nD τ) (oRows (pe c 2) 1)
        ∗ regAny (c : Thread nD τ) (oRows (pe c 3) 0)
        ∗ regAny (c : Thread nD τ) (oRows (pe c 3) 1)) := h
  rw [pe_zero] at h'
  exact h'

/-- The eight row blocks in order, each reading its device's finished rows, are the whole result. -/
theorem out_join' (c : Dev nD) :
    (iprop(regPts (c : Thread nD τ) (oRows c 0) fullShare (R m c 0)
        ∗ regPts (c : Thread nD τ) (oRows c 1) fullShare (R m c 1)
        ∗ regPts (c : Thread nD τ) (oRows (pe c 1) 0) fullShare (R m (pe c 1) 0)
        ∗ regPts (c : Thread nD τ) (oRows (pe c 1) 1) fullShare (R m (pe c 1) 1)
        ∗ regPts (c : Thread nD τ) (oRows (pe c 2) 0) fullShare (R m (pe c 2) 0)
        ∗ regPts (c : Thread nD τ) (oRows (pe c 2) 1) fullShare (R m (pe c 2) 1)
        ∗ regPts (c : Thread nD τ) (oRows (pe c 3) 0) fullShare (R m (pe c 3) 0)
        ∗ regPts (c : Thread nD τ) (oRows (pe c 3) 1) fullShare (R m (pe c 3) 1)) : sProp 𝕄)
      ⊢ ((c : Thread nD τ).loc cc0_stg4_0 ↦{fullShare} OUT m : sProp 𝕄) := by
  have h := out_join (F := F) m c
  rw [bigSep_4x2] at h
  have h' : (iprop(regPts (c : Thread nD τ) (oRows (pe c 0) 0) fullShare (R m (pe c 0) 0)
        ∗ regPts (c : Thread nD τ) (oRows (pe c 0) 1) fullShare (R m (pe c 0) 1)
        ∗ regPts (c : Thread nD τ) (oRows (pe c 1) 0) fullShare (R m (pe c 1) 0)
        ∗ regPts (c : Thread nD τ) (oRows (pe c 1) 1) fullShare (R m (pe c 1) 1)
        ∗ regPts (c : Thread nD τ) (oRows (pe c 2) 0) fullShare (R m (pe c 2) 0)
        ∗ regPts (c : Thread nD τ) (oRows (pe c 2) 1) fullShare (R m (pe c 2) 1)
        ∗ regPts (c : Thread nD τ) (oRows (pe c 3) 0) fullShare (R m (pe c 3) 0)
        ∗ regPts (c : Thread nD τ) (oRows (pe c 3) 1) fullShare (R m (pe c 3) 1)) : sProp 𝕄)
      ⊢ ((c : Thread nD τ).loc cc0_stg4_0 ↦{fullShare} OUT m : sProp 𝕄) := h
  rw [pe_zero] at h'
  exact h'

/-- The six send slots in order, each at some contents, are the send buffer at some contents. -/
theorem snd_join' (c : Dev nD) :
    (iprop(regAny (c : Thread nD τ) (sndSlot 0) ∗ regAny (c : Thread nD τ) (sndSlot 1) ∗ regAny (c : Thread nD τ) (sndSlot 2)
        ∗ regAny (c : Thread nD τ) (sndSlot 3) ∗ regAny (c : Thread nD τ) (sndSlot 4) ∗ regAny (c : Thread nD τ) (sndSlot 5)) : sProp 𝕄)
      ⊢ (iprop(∃ f : Buf (Elt F) ((c : Thread nD τ).loc cc0_scratch3), (c : Thread nD τ).loc cc0_scratch3 ↦{fullShare} f) : sProp 𝕄) := by
  have h := snd_join (F := F) c
  rw [bigSep_fin6] at h
  exact h

/-- The six receive slots in order, each at some contents, are the receive buffer at some contents. -/
theorem rcv_join' (c : Dev nD) :
    (iprop(regAny (c : Thread nD τ) (rcvSlot 0) ∗ regAny (c : Thread nD τ) (rcvSlot 1) ∗ regAny (c : Thread nD τ) (rcvSlot 2)
        ∗ regAny (c : Thread nD τ) (rcvSlot 3) ∗ regAny (c : Thread nD τ) (rcvSlot 4) ∗ regAny (c : Thread nD τ) (rcvSlot 5)) : sProp 𝕄)
      ⊢ (iprop(∃ f : Buf (Elt F) ((c : Thread nD τ).loc cc0_scratch4), (c : Thread nD τ).loc cc0_scratch4 ↦{fullShare} f) : sProp 𝕄) := by
  have h := rcv_join (F := F) c
  rw [bigSep_fin6] at h
  exact h

/-- The send and receive buffers at any contents are their six slots in order, each at some contents. -/
theorem snd_chain' (c : Dev nD) (f : Buf (Elt F) ((c : Thread nD τ).loc cc0_scratch3)) :
    ((c : Thread nD τ).loc cc0_scratch3 ↦{fullShare} f : sProp 𝕄)
      ⊢ iprop(regAny (c : Thread nD τ) (sndSlot 0) ∗ regAny (c : Thread nD τ) (sndSlot 1) ∗ regAny (c : Thread nD τ) (sndSlot 2)
        ∗ regAny (c : Thread nD τ) (sndSlot 3) ∗ regAny (c : Thread nD τ) (sndSlot 4) ∗ regAny (c : Thread nD τ) (sndSlot 5)) := by
  have h := snd_split (F := F) c f
  rw [bigSep_fin6] at h
  exact h

theorem rcv_chain' (c : Dev nD) (f : Buf (Elt F) ((c : Thread nD τ).loc cc0_scratch4)) :
    ((c : Thread nD τ).loc cc0_scratch4 ↦{fullShare} f : sProp 𝕄)
      ⊢ iprop(regAny (c : Thread nD τ) (rcvSlot 0) ∗ regAny (c : Thread nD τ) (rcvSlot 1) ∗ regAny (c : Thread nD τ) (rcvSlot 2)
        ∗ regAny (c : Thread nD τ) (rcvSlot 3) ∗ regAny (c : Thread nD τ) (rcvSlot 4) ∗ regAny (c : Thread nD τ) (rcvSlot 5)) := by
  have h := rcv_split (F := F) c f
  rw [bigSep_fin6] at h
  exact h

/-- A region fully held at any contents is the three shares lent to the three copies that read it at once. -/
theorem thirds_pts {S : Shape} {e : EltTy} (t : Thread nD τ) (v : Memref sig t.2.kind .vmem S e) (f : Buf (Elt F) (v.view.loc t)) :
    (v.view.loc t ↦[v.view.set]{fullShare} f : sProp 𝕄)
      ⊣⊢ iprop((v.view.loc t ↦[v.view.set]{lentShare 0} f) ∗ (v.view.loc t ↦[v.view.set]{lentShare 1} f)
        ∗ (v.view.loc t ↦[v.view.set]{lentShare 2} f)) := by
  rw [lentShare_zero, lentShare_one, lentShare_two]
  exact .of_eq (pts_thirds _ _ _)

theorem thirds (c : Dev nD) (g : Fin 2) (f : Buf (Elt F) ((oRows c g).view.loc (c : Thread nD τ))) :
    ((oRows c g).view.loc (c : Thread nD τ) ↦[(oRows c g).view.set]{fullShare} f : sProp 𝕄)
      ⊣⊢ iprop(((oRows c g).view.loc (c : Thread nD τ) ↦[(oRows c g).view.set]{lentShare 0} f)
        ∗ ((oRows c g).view.loc (c : Thread nD τ) ↦[(oRows c g).view.set]{lentShare 1} f)
        ∗ ((oRows c g).view.loc (c : Thread nD τ) ↦[(oRows c g).view.set]{lentShare 2} f)) :=
  thirds_pts (c : Thread nD τ) (oRows c g) f

/-- The region of a whole buffer's memref is the whole buffer. -/
theorem whole_of (c : Dev nD) (b : Ref sig .tc) (f : Buf (Elt F) ((Memref.whole b).view.loc (c : Thread nD τ))) :
    ((Memref.whole b).view.loc (c : Thread nD τ) ↦[(Memref.whole b).view.set]{fullShare} f : sProp 𝕄)
      = ((c : Thread nD τ).loc b ↦{fullShare} f) :=
  congrArg (fun I => ((c : Thread nD τ).loc b ↦[I]{fullShare} f : sProp 𝕄)) (View.set_whole b)

end Cert.KernelIdeal.Dx

end
-- ==== Proof.Sends.lean ====
/-
  The two copies of the exchange as rules at the schedule: a share into a peer's receive slot, finished rows into a
  peer's result rows.
-/
import proofs.«900523_g7700000000000524_dist_gated_mlp_tp_i_m1024_h2048_d1024_v7x_i4_bf16_1_alg».proof.Proof.Joins

noncomputable section

namespace Cert.KernelIdeal.Sx

open Cert.KernelIdeal Cert.KernelIdeal.Gen Cert.KernelIdeal.Px Cert.KernelIdeal.Rx Cert.KernelIdeal.Dx

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Credits: a view's transfer credit is its buffer's, at its shape and element type -/

/-- Views of one buffer at one shape and element type have one transfer credit. -/
theorem credit_eq_of_buf {κ : Kind} {sp : Space} {s : Shape} {e : EltTy} (v v' : View sig κ sp s e) (h : v.buf = v'.buf) :
    v.dmaCredit = v'.dmaCredit :=
  congrArg (fun b => sig.dmaCredit κ (κ.table sp) b s e) h

theorem rcvSlot_buf (k : Fin 6) : (rcvSlot k).view.buf = cc0_scratch4.idx :=
  (View.buf_reshape _ _).trans ((View.buf_slice _ _).trans (View.buf_whole _))

theorem oRows_buf (d : Dev nD) (g : Fin 2) : (oRows d g).view.buf = cc0_stg4_0.idx :=
  (View.buf_slice _ _).trans (View.buf_whole _)

/-- A copy into any receive slot credits what a copy into slot 0 does. -/
theorem rcv_credit (k : Fin 6) (sm : DmaSem sig) : (rcvSlot k).view.amount (.dma sm) = Nrs :=
  (View.amount_dma _ sm).trans (credit_eq_of_buf _ _ ((rcvSlot_buf k).trans (rcvSlot_buf 0).symm))

/-- A copy into any block of result rows credits what a copy into device 0's first block does. -/
theorem rows_credit (d : Dev nD) (g : Fin 2) (sm : DmaSem sig) : (oRows d g).view.amount (.dma sm) = Nag :=
  (View.amount_dma _ sm).trans (credit_eq_of_buf _ _ ((oRows_buf d g).trans (oRows_buf 0 0).symm))

theorem Nof_zero : Nof 0 = Nrs := if_pos (by decide)
theorem Nof_one : Nof 1 = Nrs := if_pos (by decide)
theorem Nof_two : Nof 2 = Nag := if_neg (by decide)
theorem Nof_three : Nof 3 = Nag := if_neg (by decide)

/-- The copy of slot (o, g) of the send buffer into the same slot of the receive buffer of the device o + 1 places on. -/
theorem wp_send_rs (c n : Dev nD) (o : Fin 3) (g : Fin 2) (hn : n = pe c (o.val + 1))
    {hsc : ((rcvSlot (slotOf o g)) : Memref sig (Dev.tc n : Thread nD τ).2.kind .vmem S128x1024 .bf16).view.ref.isScScratch = false}
    {hsrc : (sndSlot (slotOf o g)).view.WordExact} {hdst : (rcvSlot (slotOf o g)).view.WordExact}
    {hsem : DmaTarget.Typed .vmem (.dma (semOf 1 (slotOf o g))) (.remote (Dev.tc n : Thread nD τ) (rcvSlot (slotOf o g)) (.dma (semOf 0 (slotOf o g))) hsc)}
    {α : Type} {Q : α → sProp 𝕄} {k : PUnit → Prog (TpuEff nD τ sig (Elt F) Λ₀ .tc) α} {κ₁ κ₂ : ℕ}
    (fs : Buf (Elt F) ((sndSlot (slotOf o g)).view.loc (c : Thread nD τ)))
    (fd : Buf (Elt F) ((rcvSlot (slotOf o g)).view.loc ((pe c (o.val + 1) : Dev nD) : Thread nD τ)))
    (O : CellTallies nD τ sig Unit) (W : Waits sig Unit)
    (hw : (sndSlot (slotOf o g)).view.read (Elt F) fs = slotVal (sent m c o g)) :
    iprop(cellInv ER (sched m) κ₁ (dCell c 0 (slotOf o g)) ∗ cellInv ER (sched m) κ₂ (dCell (pe c (o.val + 1)) 1 (slotOf o g))
        ∗ ((sndSlot (slotOf o g)).view.loc (c : Thread nD τ) ↦[(sndSlot (slotOf o g)).view.set]{fullShare} fs)
        ∗ ((rcvSlot (slotOf o g)).view.loc ((pe c (o.val + 1) : Dev nD) : Thread nD τ) ↦[(rcvSlot (slotOf o g)).view.set]{fullShare} fd)
        ∗ owes (c : Thread nD τ) (O + tallyAt (dCell (pe c (o.val + 1)) 1 (slotOf o g)) () Nrs) W
        ∗ dutyTok ER (dCell c 0 (slotOf o g)) 0 0 ∗ reached ER (dCell c 0 (slotOf o g)) 0
        ∗ dutyTok ER (dCell (pe c (o.val + 1)) 1 (slotOf o g)) 0 0 ∗ reached ER (dCell (pe c (o.val + 1)) 1 (slotOf o g)) 0)
      ⊢ iprop(((cred (tallyAt (dCell c 0 (slotOf o g)) () Nrs) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sndSlot (slotOf o g)) (.remote (Dev.tc n : Thread nD τ) (rcvSlot (slotOf o g)) (.dma (semOf 0 (slotOf o g))) hsc) (.dma (semOf 1 (slotOf o g))) hsrc hdst hsem) k) Q) := by
  subst hn
  exact wp_send' m c (pe c (o.val + 1)) 0 1 (slotOf o g) (src := sndSlot (slotOf o g)) (dst := rcvSlot (slotOf o g))
    (q := fullShare) Nrs (rcv_credit (slotOf o g) (semOf 1 (slotOf o g))) Nof_zero Nof_one
    (hsc := hsc) (hsrc := hsrc) (hdst := hdst) (hsem := hsem) (Q := Q) (k := k) (κ₁ := κ₁) (κ₂ := κ₂) fs fd O W
    (by rw [dPay_send]; exact Entails.of_eq (regPts_of_read (c : Thread nD τ) (sndSlot (slotOf o g)) fullShare fs _ hw))
    (by rw [dPay_recv, hw]
        exact Entails.of_eq (regPts_write ((pe c (o.val + 1) : Dev nD) : Thread nD τ) (rcvSlot (slotOf o g)) fullShare fd _))

/-- The copy of c's finished rows of half g into the same rows of the result buffer of the device o + 1 places on. -/
theorem wp_send_ag (c n : Dev nD) (o : Fin 3) (g : Fin 2) (hn : n = pe c (o.val + 1))
    {hsc : ((oRows c g) : Memref sig (Dev.tc n : Thread nD τ).2.kind .vmem S128x1024 .bf16).view.ref.isScScratch = false}
    {hsrc : (oRows c g).view.WordExact} {hdst : (oRows c g).view.WordExact}
    {hsem : DmaTarget.Typed .vmem (.dma (semOf 3 (slotOf o g))) (.remote (Dev.tc n : Thread nD τ) (oRows c g) (.dma (semOf 2 (slotOf o g))) hsc)}
    {α : Type} {Q : α → sProp 𝕄} {k : PUnit → Prog (TpuEff nD τ sig (Elt F) Λ₀ .tc) α} {κ₁ κ₂ : ℕ}
    (fs : Buf (Elt F) ((oRows c g).view.loc (c : Thread nD τ)))
    (fd : Buf (Elt F) ((oRows c g).view.loc ((pe c (o.val + 1) : Dev nD) : Thread nD τ)))
    (O : CellTallies nD τ sig Unit) (W : Waits sig Unit)
    (hw : (oRows c g).view.read (Elt F) fs = R m c g) :
    iprop(cellInv ER (sched m) κ₁ (dCell c 2 (slotOf o g)) ∗ cellInv ER (sched m) κ₂ (dCell (pe c (o.val + 1)) 3 (slotOf o g))
        ∗ ((oRows c g).view.loc (c : Thread nD τ) ↦[(oRows c g).view.set]{lentShare o} fs)
        ∗ ((oRows c g).view.loc ((pe c (o.val + 1) : Dev nD) : Thread nD τ) ↦[(oRows c g).view.set]{fullShare} fd)
        ∗ owes (c : Thread nD τ) (O + tallyAt (dCell (pe c (o.val + 1)) 3 (slotOf o g)) () Nag) W
        ∗ dutyTok ER (dCell c 2 (slotOf o g)) 0 0 ∗ reached ER (dCell c 2 (slotOf o g)) 0
        ∗ dutyTok ER (dCell (pe c (o.val + 1)) 3 (slotOf o g)) 0 0 ∗ reached ER (dCell (pe c (o.val + 1)) 3 (slotOf o g)) 0)
      ⊢ iprop(((cred (tallyAt (dCell c 2 (slotOf o g)) () Nag) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oRows c g) (.remote (Dev.tc n : Thread nD τ) (oRows c g) (.dma (semOf 2 (slotOf o g))) hsc) (.dma (semOf 3 (slotOf o g))) hsrc hdst hsem) k) Q) := by
  subst hn
  exact wp_send' m c (pe c (o.val + 1)) 2 3 (slotOf o g) (src := oRows c g) (dst := oRows c g)
    (q := lentShare o) Nag (rows_credit c g (semOf 3 (slotOf o g))) Nof_two Nof_three
    (hsc := hsc) (hsrc := hsrc) (hdst := hdst) (hsem := hsem) (Q := Q) (k := k) (κ₁ := κ₁) (κ₂ := κ₂) fs fd O W
    (by rw [dPay_asend]; exact Entails.of_eq (regPts_of_read (c : Thread nD τ) (oRows c g) (lentShare o) fs _ hw))
    (by rw [dPay_arecv, hw]
        exact Entails.of_eq (regPts_write ((pe c (o.val + 1) : Dev nD) : Thread nD τ) (oRows c g) fullShare fd _))

end Cert.KernelIdeal.Sx

end
-- ==== Proof.Closing.lean ====
/-
  Leaving the exchange: a device's twenty-four transfer cells close.

  After round 0 no round of a transfer cell has a duty, so its owner, standing at round 1 having taken nothing, closes
  it and keeps its counter at zero. Every cell's invariant is in the persistent records, so it is there for each of the
  twenty-four cells at once; the twenty-four updates combine into one.
-/
import proofs.«900523_g7700000000000524_dist_gated_mlp_tp_i_m1024_h2048_d1024_v7x_i4_bf16_1_alg».proof.Proof.Sends

noncomputable section

namespace Cert.KernelIdeal.Cx

open Cert.KernelIdeal Cert.KernelIdeal.Gen Cert.KernelIdeal.Px Cert.KernelIdeal.Rx Cert.KernelIdeal.Dx

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

instance records_persistent (K : Dev nD × Fin 25 → ℕ) : BI.Persistent (records (F := F) m K) := by
  unfold records; infer_instance

/-- The records hold the invariant of each transfer cell of each device. -/
theorem records_inv (K : Dev nD × Fin 25 → ℕ) (c : Dev nD) (a : Fin 4) (j : Fin 6) :
    records (F := F) m K ⊢ cellInv ER (sched m) (K (c, idx a j)) (dCell c a j) := by
  unfold records
  rw [← kcell_idx c a j]
  have h : (bigSep Finset.univ fun ck : Dev nD × Fin 25 => cellInv ER (sched (F := F) m) (K ck) (kcell ck))
      ⊢ cellInv ER (sched (F := F) m) (K (c, idx a j)) (kcell (c, idx a j)) :=
    bigSep_elim (Finset.mem_univ (c, idx a j))
  iintro ⟨H, -⟩
  iapply h
  iexact H

/-- A separating conjunction over four arrays of six slots, spelt out in order. -/
theorem bigSep_4x6 (Φ : Fin 4 × Fin 6 → sProp 𝕄) :
    bigSep Finset.univ Φ
      = iprop(Φ (0, 0) ∗ Φ (0, 1) ∗ Φ (0, 2) ∗ Φ (0, 3) ∗ Φ (0, 4) ∗ Φ (0, 5) ∗ Φ (1, 0) ∗ Φ (1, 1) ∗ Φ (1, 2) ∗ Φ (1, 3) ∗ Φ (1, 4) ∗ Φ (1, 5) ∗ Φ (2, 0) ∗ Φ (2, 1) ∗ Φ (2, 2) ∗ Φ (2, 3) ∗ Φ (2, 4) ∗ Φ (2, 5) ∗ Φ (3, 0) ∗ Φ (3, 1) ∗ Φ (3, 2) ∗ Φ (3, 3) ∗ Φ (3, 4) ∗ Φ (3, 5)) :=
  bigSep_univ_eq_bigSepL [(0, 0), (0, 1), (0, 2), (0, 3), (0, 4), (0, 5), (1, 0), (1, 1), (1, 2), (1, 3), (1, 4), (1, 5), (2, 0), (2, 1), (2, 2), (2, 3), (2, 4), (2, 5), (3, 0), (3, 1), (3, 2), (3, 3), (3, 4), (3, 5)] (by decide) (by decide) Φ

/-- A device's twenty-four transfer cells, each at round 1 with nothing taken, close: their counters read zero. -/
theorem close_all (K : Dev nD × Fin 25 → ℕ) (c : Dev nD) :
    iprop(records m K ∗ bigSep Finset.univ fun aj : Fin 4 × Fin 6 => atPos ER (dCell c aj.1 aj.2) 1 ∅ 0)
      ⊢ |={Set.univ}=> (bigSep Finset.univ fun aj : Fin 4 × Fin 6 => semVal (dCell c aj.1 aj.2) 0 : sProp 𝕄) := by
  have hI : records (F := F) m K
      ⊢ bigSep Finset.univ fun aj : Fin 4 × Fin 6 => cellInv ER (sched (F := F) m) (K (c, idx aj.1 aj.2)) (dCell c aj.1 aj.2) :=
    bigSep_intro_persistent fun aj _ => records_inv m K c aj.1 aj.2
  refine (sep_mono_left hI).trans ?_
  rw [← bigSep_sep']
  exact (bigSep_mono fun aj _ =>
      cell_close ER (sched (F := F) m) (Set.mem_univ (K (c, idx aj.1 aj.2))) (fun h => h) (R := 1)
        (duties_later m (dCell c aj.1 aj.2))).trans (bigSep_fupd _ _)

/-- The same with the twenty-four positions as an explicit chain, in the order (0,0), (0,1), …, (3,5). -/
theorem close_chain (K : Dev nD × Fin 25 → ℕ) (c : Dev nD) :
    iprop(records m K
        ∗ atPos ER (dCell c 0 0) 1 ∅ 0
        ∗ atPos ER (dCell c 0 1) 1 ∅ 0
        ∗ atPos ER (dCell c 0 2) 1 ∅ 0
        ∗ atPos ER (dCell c 0 3) 1 ∅ 0
        ∗ atPos ER (dCell c 0 4) 1 ∅ 0
        ∗ atPos ER (dCell c 0 5) 1 ∅ 0
        ∗ atPos ER (dCell c 1 0) 1 ∅ 0
        ∗ atPos ER (dCell c 1 1) 1 ∅ 0
        ∗ atPos ER (dCell c 1 2) 1 ∅ 0
        ∗ atPos ER (dCell c 1 3) 1 ∅ 0
        ∗ atPos ER (dCell c 1 4) 1 ∅ 0
        ∗ atPos ER (dCell c 1 5) 1 ∅ 0
        ∗ atPos ER (dCell c 2 0) 1 ∅ 0
        ∗ atPos ER (dCell c 2 1) 1 ∅ 0
        ∗ atPos ER (dCell c 2 2) 1 ∅ 0
        ∗ atPos ER (dCell c 2 3) 1 ∅ 0
        ∗ atPos ER (dCell c 2 4) 1 ∅ 0
        ∗ atPos ER (dCell c 2 5) 1 ∅ 0
        ∗ atPos ER (dCell c 3 0) 1 ∅ 0
        ∗ atPos ER (dCell c 3 1) 1 ∅ 0
        ∗ atPos ER (dCell c 3 2) 1 ∅ 0
        ∗ atPos ER (dCell c 3 3) 1 ∅ 0
        ∗ atPos ER (dCell c 3 4) 1 ∅ 0
        ∗ atPos ER (dCell c 3 5) 1 ∅ 0)
      ⊢ |={Set.univ}=> (bigSep Finset.univ fun aj : Fin 4 × Fin 6 => semVal (dCell c aj.1 aj.2) 0 : sProp 𝕄) := by
  have h := close_all (F := F) m K c
  rw [bigSep_4x6] at h
  exact h

end Cert.KernelIdeal.Cx

end
-- ==== Proof.ValSimp.lean ====
/-
  A slot's contents, written through the slot's view and loaded through the whole receive buffer at the slot's
  rectangle, are the value that was sent: the same fact as for the named views, at the views' own terms.
-/
import proofs.«900523_g7700000000000524_dist_gated_mlp_tp_i_m1024_h2048_d1024_v7x_i4_bf16_1_alg».proof.Proof.Closing

noncomputable section

namespace Cert.KernelIdeal.Vx

open Cert.KernelIdeal Cert.KernelIdeal.Gen Cert.KernelIdeal.Px Cert.KernelIdeal.Rx

open Idealize.ShloMosaic
open Idealize.ShloMosaic.TcCoe

variable {F : FTy → Type} [FloatOps F]

theorem slv0 (h : S128x1024.numel = (slotRect 0).shape.numel) (f : (cc0_scratch4 : Ref sig .tc).ty.Contents (Elt F))
    (w : Vec F S1x128x1024 .bf16) :
    View.readAt (Elt F) (View.whole cc0_scratch4 : View sig .tc .vmem S6x128x1024 .bf16)
        (Rect.unit (s := S6x128x1024) ![0, 0, 0] ![1, 128, 1024] inb_S6x128x1024_S1x128x1024_0_0_0).toLoadRect
        (View.write (Elt F) (((View.whole cc0_scratch4 : View sig .tc .vmem S6x128x1024 .bf16).slice (slotRect 0)).reshape S128x1024 h)
          f (slotVal w) Finset.univ) = w :=
  slot_load_val 0 f w

theorem slv1 (h : S128x1024.numel = (slotRect 1).shape.numel) (f : (cc0_scratch4 : Ref sig .tc).ty.Contents (Elt F))
    (w : Vec F S1x128x1024 .bf16) :
    View.readAt (Elt F) (View.whole cc0_scratch4 : View sig .tc .vmem S6x128x1024 .bf16)
        (Rect.unit (s := S6x128x1024) ![1, 0, 0] ![1, 128, 1024] inb_S6x128x1024_S1x128x1024_1_0_0).toLoadRect
        (View.write (Elt F) (((View.whole cc0_scratch4 : View sig .tc .vmem S6x128x1024 .bf16).slice (slotRect 1)).reshape S128x1024 h)
          f (slotVal w) Finset.univ) = w :=
  slot_load_val 1 f w

theorem slv2 (h : S128x1024.numel = (slotRect 2).shape.numel) (f : (cc0_scratch4 : Ref sig .tc).ty.Contents (Elt F))
    (w : Vec F S1x128x1024 .bf16) :
    View.readAt (Elt F) (View.whole cc0_scratch4 : View sig .tc .vmem S6x128x1024 .bf16)
        (Rect.unit (s := S6x128x1024) ![2, 0, 0] ![1, 128, 1024] inb_S6x128x1024_S1x128x1024_2_0_0).toLoadRect
        (View.write (Elt F) (((View.whole cc0_scratch4 : View sig .tc .vmem S6x128x1024 .bf16).slice (slotRect 2)).reshape S128x1024 h)
          f (slotVal w) Finset.univ) = w :=
  slot_load_val 2 f w

theorem slv3 (h : S128x1024.numel = (slotRect 3).shape.numel) (f : (cc0_scratch4 : Ref sig .tc).ty.Contents (Elt F))
    (w : Vec F S1x128x1024 .bf16) :
    View.readAt (Elt F) (View.whole cc0_scratch4 : View sig .tc .vmem S6x128x1024 .bf16)
        (Rect.unit (s := S6x128x1024) ![3, 0, 0] ![1, 128, 1024] inb_S6x128x1024_S1x128x1024_3_0_0).toLoadRect
        (View.write (Elt F) (((View.whole cc0_scratch4 : View sig .tc .vmem S6x128x1024 .bf16).slice (slotRect 3)).reshape S128x1024 h)
          f (slotVal w) Finset.univ) = w :=
  slot_load_val 3 f w

theorem slv4 (h : S128x1024.numel = (slotRect 4).shape.numel) (f : (cc0_scratch4 : Ref sig .tc).ty.Contents (Elt F))
    (w : Vec F S1x128x1024 .bf16) :
    View.readAt (Elt F) (View.whole cc0_scratch4 : View sig .tc .vmem S6x128x1024 .bf16)
        (Rect.unit (s := S6x128x1024) ![4, 0, 0] ![1, 128, 1024] inb_S6x128x1024_S1x128x1024_4_0_0).toLoadRect
        (View.write (Elt F) (((View.whole cc0_scratch4 : View sig .tc .vmem S6x128x1024 .bf16).slice (slotRect 4)).reshape S128x1024 h)
          f (slotVal w) Finset.univ) = w :=
  slot_load_val 4 f w

theorem slv5 (h : S128x1024.numel = (slotRect 5).shape.numel) (f : (cc0_scratch4 : Ref sig .tc).ty.Contents (Elt F))
    (w : Vec F S1x128x1024 .bf16) :
    View.readAt (Elt F) (View.whole cc0_scratch4 : View sig .tc .vmem S6x128x1024 .bf16)
        (Rect.unit (s := S6x128x1024) ![5, 0, 0] ![1, 128, 1024] inb_S6x128x1024_S1x128x1024_5_0_0).toLoadRect
        (View.write (Elt F) (((View.whole cc0_scratch4 : View sig .tc .vmem S6x128x1024 .bf16).slice (slotRect 5)).reshape S128x1024 h)
          f (slotVal w) Finset.univ) = w :=
  slot_load_val 5 f w

end Cert.KernelIdeal.Vx

end
-- ==== Proof.Finish.lean ====
/-
  What the body's last step leaves is what the pipeline takes back.

  The twenty-four transfer cells close at zero. The three weight scratch buffers are whole; the six send slots and
  the six receive slots join into their buffers; the own row blocks, each held as three thirds, and the six row
  blocks that landed join into the whole result, which is `OUT`.
-/
import proofs.«900523_g7700000000000524_dist_gated_mlp_tp_i_m1024_h2048_d1024_v7x_i4_bf16_1_alg».proof.Proof.ValSimp

noncomputable section

namespace Cert.KernelIdeal.Bx

open Cert.KernelIdeal Cert.KernelIdeal.Gen Cert.KernelIdeal.Px Cert.KernelIdeal.Rx Cert.KernelIdeal.Dx Cert.KernelIdeal.Sx Cert.KernelIdeal.Cx Cert.KernelIdeal.Vx

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def bodyPost (c : Dev nD) : sProp 𝕄 :=
  iprop(Φ₁ c ∗ (dats m ρ 0 c).owesAt () t₀.succ ∗ stg c cc0_stg0_0 (Xs m c) ∗ stg c cc0_stg1_0 (Gs m c)
    ∗ stg c cc0_stg2_0 (Us m c) ∗ stg c cc0_stg3_0 (Ds m c) ∗ stg c cc0_stg4_0 (OUT m))

theorem finish (K : Dev nD × Fin 25 → ℕ) (c : Dev nD) :
    iprop(records m K
      ∗ (∃ f : Buf (Elt F) ((Memref.whole cc0_scratch0).view.loc (c : Thread nD τ)), (Memref.whole cc0_scratch0).view.loc (c : Thread nD τ) ↦[(Memref.whole cc0_scratch0).view.set]{fullShare} f)
      ∗ (∃ f : Buf (Elt F) ((Memref.whole cc0_scratch1).view.loc (c : Thread nD τ)), (Memref.whole cc0_scratch1).view.loc (c : Thread nD τ) ↦[(Memref.whole cc0_scratch1).view.set]{fullShare} f)
      ∗ (∃ f : Buf (Elt F) ((Memref.whole cc0_scratch2).view.loc (c : Thread nD τ)), (Memref.whole cc0_scratch2).view.loc (c : Thread nD τ) ↦[(Memref.whole cc0_scratch2).view.set]{fullShare} f)
      ∗ ((Memref.whole cc0_stg0_0).view.loc (c : Thread nD τ) ↦[(Memref.whole cc0_stg0_0).view.set]{fullShare} Xs m c)
      ∗ ((Memref.whole cc0_stg1_0).view.loc (c : Thread nD τ) ↦[(Memref.whole cc0_stg1_0).view.set]{fullShare} Gs m c)
      ∗ ((Memref.whole cc0_stg2_0).view.loc (c : Thread nD τ) ↦[(Memref.whole cc0_stg2_0).view.set]{fullShare} Us m c)
      ∗ ((Memref.whole cc0_stg3_0).view.loc (c : Thread nD τ) ↦[(Memref.whole cc0_stg3_0).view.set]{fullShare} Ds m c)
      ∗ atPos ER (dCell c 0 0) 1 ∅ 0
      ∗ atPos ER (dCell c 0 1) 1 ∅ 0
      ∗ atPos ER (dCell c 0 2) 1 ∅ 0
      ∗ atPos ER (dCell c 0 3) 1 ∅ 0
      ∗ atPos ER (dCell c 0 4) 1 ∅ 0
      ∗ atPos ER (dCell c 0 5) 1 ∅ 0
      ∗ atPos ER (dCell c 1 0) 1 ∅ 0
      ∗ atPos ER (dCell c 1 1) 1 ∅ 0
      ∗ atPos ER (dCell c 1 2) 1 ∅ 0
      ∗ atPos ER (dCell c 1 3) 1 ∅ 0
      ∗ atPos ER (dCell c 1 4) 1 ∅ 0
      ∗ atPos ER (dCell c 1 5) 1 ∅ 0
      ∗ atPos ER (dCell c 2 0) 1 ∅ 0
      ∗ atPos ER (dCell c 2 1) 1 ∅ 0
      ∗ atPos ER (dCell c 2 2) 1 ∅ 0
      ∗ atPos ER (dCell c 2 3) 1 ∅ 0
      ∗ atPos ER (dCell c 2 4) 1 ∅ 0
      ∗ atPos ER (dCell c 2 5) 1 ∅ 0
      ∗ atPos ER (dCell c 3 0) 1 ∅ 0
      ∗ atPos ER (dCell c 3 1) 1 ∅ 0
      ∗ atPos ER (dCell c 3 2) 1 ∅ 0
      ∗ atPos ER (dCell c 3 3) 1 ∅ 0
      ∗ atPos ER (dCell c 3 4) 1 ∅ 0
      ∗ atPos ER (dCell c 3 5) 1 ∅ 0
      ∗ ((sndSlot 0).view.loc (c : Thread nD τ) ↦[(sndSlot 0).view.set]{fullShare} ((sndSlot 0).view.write (Elt F) (junk ((sndSlot 0).view.loc (c : Thread nD τ))) (slotVal (sent m c 0 0)) Finset.univ))
      ∗ ((rcvSlot 0).view.loc (c : Thread nD τ) ↦[(rcvSlot 0).view.set]{fullShare} ((rcvSlot 0).view.write (Elt F) (junk ((rcvSlot 0).view.loc (c : Thread nD τ))) (slotVal (got m c 0 0)) Finset.univ))
      ∗ ((oRows c 0).view.loc (c : Thread nD τ) ↦[(oRows c 0).view.set]{lentShare 0} ((oRows c 0).view.write (Elt F) (junk ((oRows c 0).view.loc (c : Thread nD τ))) (R m c 0) Finset.univ))
      ∗ ((oRows (pe c 3) 0).view.loc (c : Thread nD τ) ↦[(oRows (pe c 3) 0).view.set]{fullShare} ((oRows (pe c 3) 0).view.write (Elt F) (junk ((oRows (pe c 3) 0).view.loc (c : Thread nD τ))) (R m (pe c 3) 0) Finset.univ))
      ∗ ((sndSlot 1).view.loc (c : Thread nD τ) ↦[(sndSlot 1).view.set]{fullShare} ((sndSlot 1).view.write (Elt F) (junk ((sndSlot 1).view.loc (c : Thread nD τ))) (slotVal (sent m c 0 1)) Finset.univ))
      ∗ ((rcvSlot 1).view.loc (c : Thread nD τ) ↦[(rcvSlot 1).view.set]{fullShare} ((rcvSlot 1).view.write (Elt F) (junk ((rcvSlot 1).view.loc (c : Thread nD τ))) (slotVal (got m c 0 1)) Finset.univ))
      ∗ ((oRows c 1).view.loc (c : Thread nD τ) ↦[(oRows c 1).view.set]{lentShare 0} ((oRows c 1).view.write (Elt F) (junk ((oRows c 1).view.loc (c : Thread nD τ))) (R m c 1) Finset.univ))
      ∗ ((oRows (pe c 3) 1).view.loc (c : Thread nD τ) ↦[(oRows (pe c 3) 1).view.set]{fullShare} ((oRows (pe c 3) 1).view.write (Elt F) (junk ((oRows (pe c 3) 1).view.loc (c : Thread nD τ))) (R m (pe c 3) 1) Finset.univ))
      ∗ ((sndSlot 2).view.loc (c : Thread nD τ) ↦[(sndSlot 2).view.set]{fullShare} ((sndSlot 2).view.write (Elt F) (junk ((sndSlot 2).view.loc (c : Thread nD τ))) (slotVal (sent m c 1 0)) Finset.univ))
      ∗ ((rcvSlot 2).view.loc (c : Thread nD τ) ↦[(rcvSlot 2).view.set]{fullShare} ((rcvSlot 2).view.write (Elt F) (junk ((rcvSlot 2).view.loc (c : Thread nD τ))) (slotVal (got m c 1 0)) Finset.univ))
      ∗ ((oRows c 0).view.loc (c : Thread nD τ) ↦[(oRows c 0).view.set]{lentShare 1} ((oRows c 0).view.write (Elt F) (junk ((oRows c 0).view.loc (c : Thread nD τ))) (R m c 0) Finset.univ))
      ∗ ((oRows (pe c 2) 0).view.loc (c : Thread nD τ) ↦[(oRows (pe c 2) 0).view.set]{fullShare} ((oRows (pe c 2) 0).view.write (Elt F) (junk ((oRows (pe c 2) 0).view.loc (c : Thread nD τ))) (R m (pe c 2) 0) Finset.univ))
      ∗ ((sndSlot 3).view.loc (c : Thread nD τ) ↦[(sndSlot 3).view.set]{fullShare} ((sndSlot 3).view.write (Elt F) (junk ((sndSlot 3).view.loc (c : Thread nD τ))) (slotVal (sent m c 1 1)) Finset.univ))
      ∗ ((rcvSlot 3).view.loc (c : Thread nD τ) ↦[(rcvSlot 3).view.set]{fullShare} ((rcvSlot 3).view.write (Elt F) (junk ((rcvSlot 3).view.loc (c : Thread nD τ))) (slotVal (got m c 1 1)) Finset.univ))
      ∗ ((oRows c 1).view.loc (c : Thread nD τ) ↦[(oRows c 1).view.set]{lentShare 1} ((oRows c 1).view.write (Elt F) (junk ((oRows c 1).view.loc (c : Thread nD τ))) (R m c 1) Finset.univ))
      ∗ ((oRows (pe c 2) 1).view.loc (c : Thread nD τ) ↦[(oRows (pe c 2) 1).view.set]{fullShare} ((oRows (pe c 2) 1).view.write (Elt F) (junk ((oRows (pe c 2) 1).view.loc (c : Thread nD τ))) (R m (pe c 2) 1) Finset.univ))
      ∗ ((sndSlot 4).view.loc (c : Thread nD τ) ↦[(sndSlot 4).view.set]{fullShare} ((sndSlot 4).view.write (Elt F) (junk ((sndSlot 4).view.loc (c : Thread nD τ))) (slotVal (sent m c 2 0)) Finset.univ))
      ∗ ((rcvSlot 4).view.loc (c : Thread nD τ) ↦[(rcvSlot 4).view.set]{fullShare} ((rcvSlot 4).view.write (Elt F) (junk ((rcvSlot 4).view.loc (c : Thread nD τ))) (slotVal (got m c 2 0)) Finset.univ))
      ∗ ((oRows c 0).view.loc (c : Thread nD τ) ↦[(oRows c 0).view.set]{lentShare 2} ((oRows c 0).view.write (Elt F) (junk ((oRows c 0).view.loc (c : Thread nD τ))) (R m c 0) Finset.univ))
      ∗ ((oRows (pe c 1) 0).view.loc (c : Thread nD τ) ↦[(oRows (pe c 1) 0).view.set]{fullShare} ((oRows (pe c 1) 0).view.write (Elt F) (junk ((oRows (pe c 1) 0).view.loc (c : Thread nD τ))) (R m (pe c 1) 0) Finset.univ))
      ∗ ((sndSlot 5).view.loc (c : Thread nD τ) ↦[(sndSlot 5).view.set]{fullShare} ((sndSlot 5).view.write (Elt F) (junk ((sndSlot 5).view.loc (c : Thread nD τ))) (slotVal (sent m c 2 1)) Finset.univ))
      ∗ ((rcvSlot 5).view.loc (c : Thread nD τ) ↦[(rcvSlot 5).view.set]{fullShare} ((rcvSlot 5).view.write (Elt F) (junk ((rcvSlot 5).view.loc (c : Thread nD τ))) (slotVal (got m c 2 1)) Finset.univ))
      ∗ ((oRows c 1).view.loc (c : Thread nD τ) ↦[(oRows c 1).view.set]{lentShare 2} ((oRows c 1).view.write (Elt F) (junk ((oRows c 1).view.loc (c : Thread nD τ))) (R m c 1) Finset.univ))
      ∗ ((oRows (pe c 1) 1).view.loc (c : Thread nD τ) ↦[(oRows (pe c 1) 1).view.set]{fullShare} ((oRows (pe c 1) 1).view.write (Elt F) (junk ((oRows (pe c 1) 1).view.loc (c : Thread nD τ))) (R m (pe c 1) 1) Finset.univ))
      ∗ (∃ W : Waits sig Unit, owes (c : Thread nD τ) 0 W))
      ⊢ |={Set.univ}=> bodyPost m ρ c := by
  iintro ⟨#Hrec, ⟨%z0, Hs0⟩, ⟨%z1, Hs1⟩, ⟨%z2, Hs2⟩, Hx, Hg, Hu, Hd, Ha00, Ha01, Ha02, Ha03, Ha04, Ha05, Ha10, Ha11, Ha12, Ha13, Ha14, Ha15, Ha20, Ha21, Ha22, Ha23, Ha24, Ha25, Ha30, Ha31, Ha32, Ha33, Ha34, Ha35, Ha00_pay1, Ha10_pay1, Ha20_pay1, Ha30_pay1, Ha01_pay1, Ha11_pay1, Ha21_pay1, Ha31_pay1, Ha02_pay1, Ha12_pay1, Ha22_pay1, Ha32_pay1, Ha03_pay1, Ha13_pay1, Ha23_pay1, Ha33_pay1, Ha04_pay1, Ha14_pay1, Ha24_pay1, Ha34_pay1, Ha05_pay1, Ha15_pay1, Ha25_pay1, Ha35_pay1, ⟨%W', HO⟩⟩
  imod (close_chain m K c) $$ [Ha00 Ha01 Ha02 Ha03 Ha04 Ha05 Ha10 Ha11 Ha12 Ha13 Ha14 Ha15 Ha20 Ha21 Ha22 Ha23 Ha24 Ha25 Ha30 Ha31 Ha32 Ha33 Ha34 Ha35] with Hz
  · isplitr; · iexact Hrec
    isplitl [Ha00]; · iexact Ha00
    isplitl [Ha01]; · iexact Ha01
    isplitl [Ha02]; · iexact Ha02
    isplitl [Ha03]; · iexact Ha03
    isplitl [Ha04]; · iexact Ha04
    isplitl [Ha05]; · iexact Ha05
    isplitl [Ha10]; · iexact Ha10
    isplitl [Ha11]; · iexact Ha11
    isplitl [Ha12]; · iexact Ha12
    isplitl [Ha13]; · iexact Ha13
    isplitl [Ha14]; · iexact Ha14
    isplitl [Ha15]; · iexact Ha15
    isplitl [Ha20]; · iexact Ha20
    isplitl [Ha21]; · iexact Ha21
    isplitl [Ha22]; · iexact Ha22
    isplitl [Ha23]; · iexact Ha23
    isplitl [Ha24]; · iexact Ha24
    isplitl [Ha25]; · iexact Ha25
    isplitl [Ha30]; · iexact Ha30
    isplitl [Ha31]; · iexact Ha31
    isplitl [Ha32]; · iexact Ha32
    isplitl [Ha33]; · iexact Ha33
    isplitl [Ha34]; · iexact Ha34
    iexact Ha35
  imodintro
  unfold bodyPost Φ₁ scratches Dat.owesAt Pipeline.owesWithin
  rw [show (dats m ρ 0 c).owed t₀.succ = 0 from rfl]
  isplitl [Hs0 Hs1 Hs2 Ha00_pay1 Ha01_pay1 Ha02_pay1 Ha03_pay1 Ha04_pay1 Ha05_pay1 Ha10_pay1 Ha11_pay1 Ha12_pay1 Ha13_pay1 Ha14_pay1 Ha15_pay1 Hz]
  · isplitl [Hs0 Hs1 Hs2 Ha00_pay1 Ha01_pay1 Ha02_pay1 Ha03_pay1 Ha04_pay1 Ha05_pay1 Ha10_pay1 Ha11_pay1 Ha12_pay1 Ha13_pay1 Ha14_pay1 Ha15_pay1]
    · skip
      isplitl [Hs0]
      · iexists _
        iapply (Entails.of_eq (whole_of c cc0_scratch0 _)); iexact Hs0
      isplitl [Hs1]
      · iexists _
        iapply (Entails.of_eq (whole_of c cc0_scratch1 _)); iexact Hs1
      isplitl [Hs2]
      · iexists _
        iapply (Entails.of_eq (whole_of c cc0_scratch2 _)); iexact Hs2
      isplitl [Ha00_pay1 Ha01_pay1 Ha02_pay1 Ha03_pay1 Ha04_pay1 Ha05_pay1]
      · iapply (snd_join' c)
        isplitl [Ha00_pay1]
        · iapply (regAny_of_pts (c : Thread nD τ) (sndSlot 0) _); iexact Ha00_pay1
        isplitl [Ha01_pay1]
        · iapply (regAny_of_pts (c : Thread nD τ) (sndSlot 1) _); iexact Ha01_pay1
        isplitl [Ha02_pay1]
        · iapply (regAny_of_pts (c : Thread nD τ) (sndSlot 2) _); iexact Ha02_pay1
        isplitl [Ha03_pay1]
        · iapply (regAny_of_pts (c : Thread nD τ) (sndSlot 3) _); iexact Ha03_pay1
        isplitl [Ha04_pay1]
        · iapply (regAny_of_pts (c : Thread nD τ) (sndSlot 4) _); iexact Ha04_pay1
        iapply (regAny_of_pts (c : Thread nD τ) (sndSlot 5) _); iexact Ha05_pay1
      · iapply (rcv_join' c)
        isplitl [Ha10_pay1]
        · iapply (regAny_of_pts (c : Thread nD τ) (rcvSlot 0) _); iexact Ha10_pay1
        isplitl [Ha11_pay1]
        · iapply (regAny_of_pts (c : Thread nD τ) (rcvSlot 1) _); iexact Ha11_pay1
        isplitl [Ha12_pay1]
        · iapply (regAny_of_pts (c : Thread nD τ) (rcvSlot 2) _); iexact Ha12_pay1
        isplitl [Ha13_pay1]
        · iapply (regAny_of_pts (c : Thread nD τ) (rcvSlot 3) _); iexact Ha13_pay1
        isplitl [Ha14_pay1]
        · iapply (regAny_of_pts (c : Thread nD τ) (rcvSlot 4) _); iexact Ha14_pay1
        iapply (regAny_of_pts (c : Thread nD τ) (rcvSlot 5) _); iexact Ha15_pay1
    · iexact Hz
  isplitl [HO]
  · iexists _
    isplitr
    rotate_left
    · iexact HO
    · ipureintro; exact fun _ _ => Or.inl trivial
  isplitl [Hx]
  · iexists _
    isplitr
    · ipureintro; rfl
    · iapply (Entails.of_eq (whole_of c cc0_stg0_0 _)); iexact Hx
  isplitl [Hg]
  · iexists _
    isplitr
    · ipureintro; rfl
    · iapply (Entails.of_eq (whole_of c cc0_stg1_0 _)); iexact Hg
  isplitl [Hu]
  · iexists _
    isplitr
    · ipureintro; rfl
    · iapply (Entails.of_eq (whole_of c cc0_stg2_0 _)); iexact Hu
  isplitl [Hd]
  · iexists _
    isplitr
    · ipureintro; rfl
    · iapply (Entails.of_eq (whole_of c cc0_stg3_0 _)); iexact Hd
  iexists _
  isplitr
  · ipureintro; rfl
  iapply (out_join' m c)
  unfold regPts
  isplitl [Ha20_pay1 Ha22_pay1 Ha24_pay1]
  · iapply (thirds c 0 _).2
    isplitl [Ha20_pay1]; · iexact Ha20_pay1
    isplitl [Ha22_pay1]; · iexact Ha22_pay1
    iexact Ha24_pay1
  isplitl [Ha21_pay1 Ha23_pay1 Ha25_pay1]
  · iapply (thirds c 1 _).2
    isplitl [Ha21_pay1]; · iexact Ha21_pay1
    isplitl [Ha23_pay1]; · iexact Ha23_pay1
    iexact Ha25_pay1
  isplitl [Ha34_pay1]; · iexact Ha34_pay1
  isplitl [Ha35_pay1]; · iexact Ha35_pay1
  isplitl [Ha32_pay1]; · iexact Ha32_pay1
  isplitl [Ha33_pay1]; · iexact Ha33_pay1
  isplitl [Ha30_pay1]; · iexact Ha30_pay1
  iexact Ha31_pay1

end Cert.KernelIdeal.Bx

end
-- ==== Proof.ValsEq.lean ====
/-
  The body computes a device's narrowed share at six places and the owner's sum at two, each time spelling the
  same arithmetic again: the row block narrowed, its products with the narrowed gate and up bands into zero, the
  gate `u · logistic u`, the product with the narrowed down band into zero, the result narrowed and laid out as
  one slot. Whatever the float instance, each spelling is the same term as the first, so the six shares are one
  function of the row block and the three bands, and the owner's sum written in two steps is the sum written in
  three.
-/
import proofs.«900523_g7700000000000524_dist_gated_mlp_tp_i_m1024_h2048_d1024_v7x_i4_bf16_1_alg».proof.Proof.Vals

noncomputable section

namespace Cert.KernelIdeal.Vals

open Idealize.ShloMosaic Cert.KernelIdeal Cert.KernelIdeal.Gen

variable {F : FTy → Type} [FloatOps F]

/-- A share narrowed first and laid out as a slot afterwards is the share. -/
theorem e6 (x : Vec F S128x1024 .f32) (g u : Vec F S1024x2048 .bf16) (d : Vec F S2048x1024 .bf16) :
    k0_pay6 (k0_pay5 x g u d) = k0_pay4 x g u d := rfl

/-- A share whose row block is narrowed and multiplied with the gate band beforehand is the share. -/
theorem e9 (x : Vec F S128x1024 .f32) (g u : Vec F S1024x2048 .bf16) (d : Vec F S2048x1024 .bf16) :
    k0_pay9 (k0_pay7 x) (k0_pay8 x g) u d = k0_pay4 x g u d := rfl

theorem e12 (x : Vec F S128x1024 .f32) (g u : Vec F S1024x2048 .bf16) (d : Vec F S2048x1024 .bf16) :
    k0_pay12 x g u d = k0_pay4 x g u d := rfl

/-- A share whose two products with the gate and up bands, and the gate, are computed beforehand is the share. -/
theorem e16 (x : Vec F S128x1024 .f32) (g u : Vec F S1024x2048 .bf16) (d : Vec F S2048x1024 .bf16) :
    k0_pay16 (k0_pay14 x g) (k0_pay15 x u) d = k0_pay4 x g u d := rfl

theorem e17 (x : Vec F S128x1024 .f32) (g u : Vec F S1024x2048 .bf16) (d : Vec F S2048x1024 .bf16) :
    k0_pay17 x g u d = k0_pay4 x g u d := rfl

/-- The owner's sum with the first received share added together with the wide share, and the other two
    afterwards, is the sum with two added first and the third afterwards: the same additions in the same order. -/
theorem e21 (x : Vec F S128x1024 .f32) (g u : Vec F S1024x2048 .bf16) (d : Vec F S2048x1024 .bf16)
    (s0 s1 s2 : Vec F S1x128x1024 .bf16) :
    k0_pay21 (k0_pay20 x g u d s0) s1 s2 = k0_pay19 (k0_pay18 (k0_pay11 (k0_pay10 x g u) d) s0 s1) s2 := rfl

end Cert.KernelIdeal.Vals

end
-- ==== Proof.Body.lean ====
/-
  One device's body, from the state the launch hands it to the state it hands back.

  The device first pays the three barrier units (handing each peer the two receive slots and the two row blocks
  that peer will write) and takes its own three, which bring the same from its peers. It casts its weight bands,
  computes the six shares it owes and copies each into its peer's slot; the landing's contents are the share itself,
  because a slot read back through its own view is what was stored there. For each half of its own rows it adds the
  three shares received to its own wide share, stores the narrowed sum and copies it, at a third of the rows' share
  each, into the three peers. After the twelve receives and twelve sends it holds every slot again, its own rows at
  the three thirds, and the other six row blocks as they landed: together the whole result.
-/
import proofs.«900523_g7700000000000524_dist_gated_mlp_tp_i_m1024_h2048_d1024_v7x_i4_bf16_1_alg».proof.Proof.Finish
import proofs.«900523_g7700000000000524_dist_gated_mlp_tp_i_m1024_h2048_d1024_v7x_i4_bf16_1_alg».proof.Proof.ValsEq

noncomputable section

namespace Cert.KernelIdeal.Bx

open Cert.KernelIdeal Cert.KernelIdeal.Gen Cert.KernelIdeal.Px Cert.KernelIdeal.Rx Cert.KernelIdeal.Dx Cert.KernelIdeal.Sx Cert.KernelIdeal.Cx Cert.KernelIdeal.Vx

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin6' (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
omit [FloatOps F] in
theorem bigSep_fin32 (Φ : Fin 3 × Fin 2 → sProp 𝕄) :
    bigSep Finset.univ Φ = iprop(Φ (0, 0) ∗ Φ (0, 1) ∗ Φ (1, 0) ∗ Φ (1, 1) ∗ Φ (2, 0) ∗ Φ (2, 1)) :=
  bigSep_univ_eq_bigSepL [(0, 0), (0, 1), (1, 0), (1, 1), (2, 0), (2, 1)] (by decide) (by decide) Φ

instance records_persistent (K : Dev nD × Fin 25 → ℕ) : BI.Persistent (records (F := F) m K) := by unfold records; infer_instance

theorem inv_at (K : Dev nD × Fin 25 → ℕ) (ck : Dev nD × Fin 25) : records m K ⊢ (cellInv ER (sched m) (K ck) (kcell ck) : sProp 𝕄) := by
  unfold records
  exact sep_elim_left.trans (bigSep_elim (s := Finset.univ) (Φ := fun ck : Dev nD × Fin 25 => (cellInv ER (sched m) (K ck) (kcell ck) : sProp 𝕄)) (Finset.mem_univ ck))
theorem reached_at (K : Dev nD × Fin 25 → ℕ) (ck : Dev nD × Fin 25) : records m K ⊢ (reached ER (kcell ck) 0 : sProp 𝕄) := by
  unfold records
  exact sep_elim_right.trans (bigSep_elim (s := Finset.univ) (Φ := fun ck : Dev nD × Fin 25 => (reached ER (kcell ck) 0 : sProp 𝕄)) (Finset.mem_univ ck))

omit [FloatOps F] in
theorem bigSep_fin46 (Φ : Fin 4 × Fin 6 → sProp 𝕄) :
    bigSep Finset.univ Φ = iprop(Φ (0, 0) ∗ Φ (0, 1) ∗ Φ (0, 2) ∗ Φ (0, 3) ∗ Φ (0, 4) ∗ Φ (0, 5) ∗ Φ (1, 0) ∗ Φ (1, 1) ∗ Φ (1, 2) ∗ Φ (1, 3) ∗ Φ (1, 4) ∗ Φ (1, 5) ∗ Φ (2, 0) ∗ Φ (2, 1) ∗ Φ (2, 2) ∗ Φ (2, 3) ∗ Φ (2, 4) ∗ Φ (2, 5) ∗ Φ (3, 0) ∗ Φ (3, 1) ∗ Φ (3, 2) ∗ Φ (3, 3) ∗ Φ (3, 4) ∗ Φ (3, 5)) :=
  bigSep_univ_eq_bigSepL [(0, 0), (0, 1), (0, 2), (0, 3), (0, 4), (0, 5), (1, 0), (1, 1), (1, 2), (1, 3), (1, 4), (1, 5), (2, 0), (2, 1), (2, 2), (2, 3), (2, 4), (2, 5), (3, 0), (3, 1), (3, 2), (3, 3), (3, 4), (3, 5)] (by decide) (by decide) Φ

def bodyPre' (c : Dev nD) : sProp 𝕄 :=
  iprop(Φ₀ m c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

theorem inv_bar (K : Dev nD × Fin 25 → ℕ) (c : Dev nD) : records m K ⊢ (cellInv ER (sched m) (K (c, 0)) (barCell c) : sProp 𝕄) := inv_at m K (c, 0)
theorem inv_d (K : Dev nD × Fin 25 → ℕ) (c : Dev nD) (a : Fin 4) (j : Fin 6) : records m K ⊢ (cellInv ER (sched m) (K (c, idx a j)) (dCell c a j) : sProp 𝕄) :=
  (inv_at m K (c, idx a j)).trans (Entails.of_eq (by rw [kcell_idx]))
theorem reached_bar (K : Dev nD × Fin 25 → ℕ) (c : Dev nD) : records m K ⊢ (reached ER (barCell c) 0 : sProp 𝕄) := reached_at m K (c, 0)
theorem reached_d (K : Dev nD × Fin 25 → ℕ) (c : Dev nD) (a : Fin 4) (j : Fin 6) : records m K ⊢ (reached ER (dCell c a j) 0 : sProp 𝕄) :=
  (reached_at m K (c, idx a j)).trans (Entails.of_eq (by rw [kcell_idx]))

theorem O₀_eq (c : Dev nD) : O₀ c = ((((((((((((((((0 + tallyAt (dCell (pe c 3) 3 5) () Nag) + tallyAt (dCell (pe c 2) 3 3) () Nag) + tallyAt (dCell (pe c 1) 3 1) () Nag) + tallyAt (dCell (pe c 3) 3 4) () Nag) + tallyAt (dCell (pe c 2) 3 2) () Nag) + tallyAt (dCell (pe c 1) 3 0) () Nag) + tallyAt (dCell (pe c 3) 1 5) () Nrs) + tallyAt (dCell (pe c 2) 1 3) () Nrs) + tallyAt (dCell (pe c 1) 1 1) () Nrs) + tallyAt (dCell (pe c 3) 1 4) () Nrs) + tallyAt (dCell (pe c 2) 1 2) () Nrs) + tallyAt (dCell (pe c 1) 1 0) () Nrs) + tallyAt (barCell (pe c 3)) () 1) + tallyAt (barCell (pe c 2)) () 1) + tallyAt (barCell (pe c 1)) () 1) : CellTallies nD τ sig Unit) := rfl

theorem payload_bar_p1 (c : Dev nD) : (sched (F := F) m).payload (barCell (pe c 1)) 0 0
    = iprop((∃ f : Buf (Elt F) ((rcvSlot 4).view.loc (c : Thread nD τ)), (rcvSlot 4).view.loc (c : Thread nD τ) ↦[(rcvSlot 4).view.set]{fullShare} f)
      ∗ (∃ f : Buf (Elt F) ((rcvSlot 5).view.loc (c : Thread nD τ)), (rcvSlot 5).view.loc (c : Thread nD τ) ↦[(rcvSlot 5).view.set]{fullShare} f)
      ∗ (∃ f : Buf (Elt F) ((oRows (pe c 1) 0).view.loc (c : Thread nD τ)), (oRows (pe c 1) 0).view.loc (c : Thread nD τ) ↦[(oRows (pe c 1) 0).view.set]{fullShare} f)
      ∗ (∃ f : Buf (Elt F) ((oRows (pe c 1) 1).view.loc (c : Thread nD τ)), (oRows (pe c 1) 1).view.loc (c : Thread nD τ) ↦[(oRows (pe c 1) 1).view.set]{fullShare} f)) := by
  rw [payload_bar]; unfold barPay regAny; rw [pe_pe, show 1 + (3 - (0 : Fin 3).val) = 4 from rfl, pe_four]; rfl
theorem payload_bar_p2 (c : Dev nD) : (sched (F := F) m).payload (barCell (pe c 2)) 0 1
    = iprop((∃ f : Buf (Elt F) ((rcvSlot 2).view.loc (c : Thread nD τ)), (rcvSlot 2).view.loc (c : Thread nD τ) ↦[(rcvSlot 2).view.set]{fullShare} f)
      ∗ (∃ f : Buf (Elt F) ((rcvSlot 3).view.loc (c : Thread nD τ)), (rcvSlot 3).view.loc (c : Thread nD τ) ↦[(rcvSlot 3).view.set]{fullShare} f)
      ∗ (∃ f : Buf (Elt F) ((oRows (pe c 2) 0).view.loc (c : Thread nD τ)), (oRows (pe c 2) 0).view.loc (c : Thread nD τ) ↦[(oRows (pe c 2) 0).view.set]{fullShare} f)
      ∗ (∃ f : Buf (Elt F) ((oRows (pe c 2) 1).view.loc (c : Thread nD τ)), (oRows (pe c 2) 1).view.loc (c : Thread nD τ) ↦[(oRows (pe c 2) 1).view.set]{fullShare} f)) := by
  rw [payload_bar]; unfold barPay regAny; rw [pe_pe, show 2 + (3 - (1 : Fin 3).val) = 4 from rfl, pe_four]; rfl
theorem payload_bar_p3 (c : Dev nD) : (sched (F := F) m).payload (barCell (pe c 3)) 0 2
    = iprop((∃ f : Buf (Elt F) ((rcvSlot 0).view.loc (c : Thread nD τ)), (rcvSlot 0).view.loc (c : Thread nD τ) ↦[(rcvSlot 0).view.set]{fullShare} f)
      ∗ (∃ f : Buf (Elt F) ((rcvSlot 1).view.loc (c : Thread nD τ)), (rcvSlot 1).view.loc (c : Thread nD τ) ↦[(rcvSlot 1).view.set]{fullShare} f)
      ∗ (∃ f : Buf (Elt F) ((oRows (pe c 3) 0).view.loc (c : Thread nD τ)), (oRows (pe c 3) 0).view.loc (c : Thread nD τ) ↦[(oRows (pe c 3) 0).view.set]{fullShare} f)
      ∗ (∃ f : Buf (Elt F) ((oRows (pe c 3) 1).view.loc (c : Thread nD τ)), (oRows (pe c 3) 1).view.loc (c : Thread nD τ) ↦[(oRows (pe c 3) 1).view.set]{fullShare} f)) := by
  rw [payload_bar]; unfold barPay regAny; rw [pe_pe, show 3 + (3 - (2 : Fin 3).val) = 4 from rfl, pe_four]; rfl
theorem payload_bar_own0 (c : Dev nD) : (sched (F := F) m).payload (barCell c) 0 0
    = iprop((∃ f : Buf (Elt F) ((rcvSlot 4).view.loc ((pe c 3 : Dev nD) : Thread nD τ)), (rcvSlot 4).view.loc ((pe c 3 : Dev nD) : Thread nD τ) ↦[(rcvSlot 4).view.set]{fullShare} f)
      ∗ (∃ f : Buf (Elt F) ((rcvSlot 5).view.loc ((pe c 3 : Dev nD) : Thread nD τ)), (rcvSlot 5).view.loc ((pe c 3 : Dev nD) : Thread nD τ) ↦[(rcvSlot 5).view.set]{fullShare} f)
      ∗ (∃ f : Buf (Elt F) ((oRows c 0).view.loc ((pe c 3 : Dev nD) : Thread nD τ)), (oRows c 0).view.loc ((pe c 3 : Dev nD) : Thread nD τ) ↦[(oRows c 0).view.set]{fullShare} f)
      ∗ (∃ f : Buf (Elt F) ((oRows c 1).view.loc ((pe c 3 : Dev nD) : Thread nD τ)), (oRows c 1).view.loc ((pe c 3 : Dev nD) : Thread nD τ) ↦[(oRows c 1).view.set]{fullShare} f)) := by
  rw [payload_bar]; unfold barPay regAny; rfl
theorem payload_bar_own1 (c : Dev nD) : (sched (F := F) m).payload (barCell c) 0 1
    = iprop((∃ f : Buf (Elt F) ((rcvSlot 2).view.loc ((pe c 2 : Dev nD) : Thread nD τ)), (rcvSlot 2).view.loc ((pe c 2 : Dev nD) : Thread nD τ) ↦[(rcvSlot 2).view.set]{fullShare} f)
      ∗ (∃ f : Buf (Elt F) ((rcvSlot 3).view.loc ((pe c 2 : Dev nD) : Thread nD τ)), (rcvSlot 3).view.loc ((pe c 2 : Dev nD) : Thread nD τ) ↦[(rcvSlot 3).view.set]{fullShare} f)
      ∗ (∃ f : Buf (Elt F) ((oRows c 0).view.loc ((pe c 2 : Dev nD) : Thread nD τ)), (oRows c 0).view.loc ((pe c 2 : Dev nD) : Thread nD τ) ↦[(oRows c 0).view.set]{fullShare} f)
      ∗ (∃ f : Buf (Elt F) ((oRows c 1).view.loc ((pe c 2 : Dev nD) : Thread nD τ)), (oRows c 1).view.loc ((pe c 2 : Dev nD) : Thread nD τ) ↦[(oRows c 1).view.set]{fullShare} f)) := by
  rw [payload_bar]; unfold barPay regAny; rfl
theorem payload_bar_own2 (c : Dev nD) : (sched (F := F) m).payload (barCell c) 0 2
    = iprop((∃ f : Buf (Elt F) ((rcvSlot 0).view.loc ((pe c 1 : Dev nD) : Thread nD τ)), (rcvSlot 0).view.loc ((pe c 1 : Dev nD) : Thread nD τ) ↦[(rcvSlot 0).view.set]{fullShare} f)
      ∗ (∃ f : Buf (Elt F) ((rcvSlot 1).view.loc ((pe c 1 : Dev nD) : Thread nD τ)), (rcvSlot 1).view.loc ((pe c 1 : Dev nD) : Thread nD τ) ↦[(rcvSlot 1).view.set]{fullShare} f)
      ∗ (∃ f : Buf (Elt F) ((oRows c 0).view.loc ((pe c 1 : Dev nD) : Thread nD τ)), (oRows c 0).view.loc ((pe c 1 : Dev nD) : Thread nD τ) ↦[(oRows c 0).view.set]{fullShare} f)
      ∗ (∃ f : Buf (Elt F) ((oRows c 1).view.loc ((pe c 1 : Dev nD) : Thread nD τ)), (oRows c 1).view.loc ((pe c 1 : Dev nD) : Thread nD τ) ↦[(oRows c 1).view.set]{fullShare} f)) := by
  rw [payload_bar]; unfold barPay regAny; rfl

/-! ## Levels: what a device still owes lies above the cell it waits on -/

theorem lv_bar (c : Dev nD) : lv (barCell c) () = 1 := by dsimp only [lv]; exact if_pos rfl
theorem lv_d (c : Dev nD) (a : Fin 4) (k : Fin 6) : lv (dCell c a k) () = (if a.val = 1 then 2 else if a.val = 3 then 3 else 0) := by
  dsimp only [lv]; rw [if_neg (semOf_ne_bar a k), dec_semOf]

def Above (n : ℕ) (O : CellTallies nD τ sig Unit) : Prop := ∀ (g : GSem nD τ sig) (i : Unit), 0 < O g i → i ∈ L g ∧ n < lv g i
theorem above_zero (n : ℕ) : Above n 0 := fun g i h => absurd h (Nat.lt_irrefl 0)
theorem above_add {n : ℕ} {O : CellTallies nD τ sig Unit} {c' : Dev nD} {s : SemLoc sig} {k : ℕ} (h : Above n O) (hl : n < lv ((c' : Thread nD τ), s) ()) :
    Above n (O + tallyAt ((c' : Thread nD τ), s) () k) := fun g i hg => by
  rcases Pipeline.add_pos_cases hg with h1 | h2
  · exact h g i h1
  · rw [tallyAt_apply] at h2
    by_cases hh : g = ((c' : Thread nD τ), s) ∧ i = ()
    · rw [hh.1, L_tc]; exact ⟨Finset.mem_singleton.mpr rfl, hl⟩
    · rw [if_neg hh] at h2; exact absurd h2 (Nat.lt_irrefl 0)
theorem mayWait_above (c : Dev nD) (s : SemLoc sig) (O : CellTallies nD τ sig Unit) (h : Above (lv ((c : Thread nD τ), s) ()) O) :
    (levAts L lv : sProp 𝕄) ⊢ MayWait (c : Thread nD τ) s () O :=
  Pipeline.mayWait_of_levAts (by rw [L_tc]; exact Finset.mem_singleton_self _) h

omit [FloatOps F] in
theorem whole_pts (c : Dev nD) (b : Ref sig .tc) (f : Buf (Elt F) ((c : Thread nD τ).loc b)) :
    (((c : Thread nD τ).loc b) ↦{fullShare} f : sProp 𝕄)
      = ((Memref.whole b).view.loc (c : Thread nD τ) ↦[(Memref.whole b).view.set]{fullShare} f) := by
  rw [View.set_whole]

theorem rcv_chain (c : Dev nD) (f : Buf (Elt F) ((c : Thread nD τ).loc cc0_scratch4)) :
    (((c : Thread nD τ).loc cc0_scratch4) ↦{fullShare} f : sProp 𝕄) ⊢ iprop((∃ f : Buf (Elt F) ((rcvSlot 0).view.loc (c : Thread nD τ)), (rcvSlot 0).view.loc (c : Thread nD τ) ↦[(rcvSlot 0).view.set]{fullShare} f)
      ∗ (∃ f : Buf (Elt F) ((rcvSlot 1).view.loc (c : Thread nD τ)), (rcvSlot 1).view.loc (c : Thread nD τ) ↦[(rcvSlot 1).view.set]{fullShare} f)
      ∗ (∃ f : Buf (Elt F) ((rcvSlot 2).view.loc (c : Thread nD τ)), (rcvSlot 2).view.loc (c : Thread nD τ) ↦[(rcvSlot 2).view.set]{fullShare} f)
      ∗ (∃ f : Buf (Elt F) ((rcvSlot 3).view.loc (c : Thread nD τ)), (rcvSlot 3).view.loc (c : Thread nD τ) ↦[(rcvSlot 3).view.set]{fullShare} f)
      ∗ (∃ f : Buf (Elt F) ((rcvSlot 4).view.loc (c : Thread nD τ)), (rcvSlot 4).view.loc (c : Thread nD τ) ↦[(rcvSlot 4).view.set]{fullShare} f)
      ∗ (∃ f : Buf (Elt F) ((rcvSlot 5).view.loc (c : Thread nD τ)), (rcvSlot 5).view.loc (c : Thread nD τ) ↦[(rcvSlot 5).view.set]{fullShare} f)) :=
  (rcv_split c f).trans (Entails.of_eq (Rx.bigSep_fin6 _))
theorem out_chain (c : Dev nD) (f : Buf (Elt F) ((c : Thread nD τ).loc cc0_stg4_0)) :
    (((c : Thread nD τ).loc cc0_stg4_0) ↦{fullShare} f : sProp 𝕄) ⊢ iprop((∃ f : Buf (Elt F) ((oRows (pe c 0) 0).view.loc (c : Thread nD τ)), (oRows (pe c 0) 0).view.loc (c : Thread nD τ) ↦[(oRows (pe c 0) 0).view.set]{fullShare} f)
      ∗ (∃ f : Buf (Elt F) ((oRows (pe c 0) 1).view.loc (c : Thread nD τ)), (oRows (pe c 0) 1).view.loc (c : Thread nD τ) ↦[(oRows (pe c 0) 1).view.set]{fullShare} f)
      ∗ (∃ f : Buf (Elt F) ((oRows (pe c 1) 0).view.loc (c : Thread nD τ)), (oRows (pe c 1) 0).view.loc (c : Thread nD τ) ↦[(oRows (pe c 1) 0).view.set]{fullShare} f)
      ∗ (∃ f : Buf (Elt F) ((oRows (pe c 1) 1).view.loc (c : Thread nD τ)), (oRows (pe c 1) 1).view.loc (c : Thread nD τ) ↦[(oRows (pe c 1) 1).view.set]{fullShare} f)
      ∗ (∃ f : Buf (Elt F) ((oRows (pe c 2) 0).view.loc (c : Thread nD τ)), (oRows (pe c 2) 0).view.loc (c : Thread nD τ) ↦[(oRows (pe c 2) 0).view.set]{fullShare} f)
      ∗ (∃ f : Buf (Elt F) ((oRows (pe c 2) 1).view.loc (c : Thread nD τ)), (oRows (pe c 2) 1).view.loc (c : Thread nD τ) ↦[(oRows (pe c 2) 1).view.set]{fullShare} f)
      ∗ (∃ f : Buf (Elt F) ((oRows (pe c 3) 0).view.loc (c : Thread nD τ)), (oRows (pe c 3) 0).view.loc (c : Thread nD τ) ↦[(oRows (pe c 3) 0).view.set]{fullShare} f)
      ∗ (∃ f : Buf (Elt F) ((oRows (pe c 3) 1).view.loc (c : Thread nD τ)), (oRows (pe c 3) 1).view.loc (c : Thread nD τ) ↦[(oRows (pe c 3) 1).view.set]{fullShare} f)) :=
  (out_split c f).trans (Entails.of_eq (bigSep_4x2 _))

theorem snd_chain (c : Dev nD) (f : Buf (Elt F) ((c : Thread nD τ).loc cc0_scratch3)) :
    (((c : Thread nD τ).loc cc0_scratch3) ↦{fullShare} f : sProp 𝕄) ⊢ iprop((∃ f : Buf (Elt F) ((sndSlot 0).view.loc (c : Thread nD τ)), (sndSlot 0).view.loc (c : Thread nD τ) ↦[(sndSlot 0).view.set]{fullShare} f)
      ∗ (∃ f : Buf (Elt F) ((sndSlot 1).view.loc (c : Thread nD τ)), (sndSlot 1).view.loc (c : Thread nD τ) ↦[(sndSlot 1).view.set]{fullShare} f)
      ∗ (∃ f : Buf (Elt F) ((sndSlot 2).view.loc (c : Thread nD τ)), (sndSlot 2).view.loc (c : Thread nD τ) ↦[(sndSlot 2).view.set]{fullShare} f)
      ∗ (∃ f : Buf (Elt F) ((sndSlot 3).view.loc (c : Thread nD τ)), (sndSlot 3).view.loc (c : Thread nD τ) ↦[(sndSlot 3).view.set]{fullShare} f)
      ∗ (∃ f : Buf (Elt F) ((sndSlot 4).view.loc (c : Thread nD τ)), (sndSlot 4).view.loc (c : Thread nD τ) ↦[(sndSlot 4).view.set]{fullShare} f)
      ∗ (∃ f : Buf (Elt F) ((sndSlot 5).view.loc (c : Thread nD τ)), (sndSlot 5).view.loc (c : Thread nD τ) ↦[(sndSlot 5).view.set]{fullShare} f)) :=
  (snd_split c f).trans (Entails.of_eq (Rx.bigSep_fin6 _))

theorem pe13 (c : Dev nD) : pe (pe c 1) 3 = c := by revert c; decide
theorem pe22 (c : Dev nD) : pe (pe c 2) 2 = c := by revert c; decide
theorem pe31 (c : Dev nD) : pe (pe c 3) 1 = c := by revert c; decide

theorem bar_rest (c : Dev nD) : (bigSep Finset.univ fun d : Fin 3 => (sched (F := F) m).payload (barCell c) 0 d)
    = iprop(((∃ f : Buf (Elt F) ((rcvSlot 4).view.loc ((pe c 3 : Dev nD) : Thread nD τ)), (rcvSlot 4).view.loc ((pe c 3 : Dev nD) : Thread nD τ) ↦[(rcvSlot 4).view.set]{fullShare} f)
      ∗ (∃ f : Buf (Elt F) ((rcvSlot 5).view.loc ((pe c 3 : Dev nD) : Thread nD τ)), (rcvSlot 5).view.loc ((pe c 3 : Dev nD) : Thread nD τ) ↦[(rcvSlot 5).view.set]{fullShare} f)
      ∗ (∃ f : Buf (Elt F) ((oRows c 0).view.loc ((pe c 3 : Dev nD) : Thread nD τ)), (oRows c 0).view.loc ((pe c 3 : Dev nD) : Thread nD τ) ↦[(oRows c 0).view.set]{fullShare} f)
      ∗ (∃ f : Buf (Elt F) ((oRows c 1).view.loc ((pe c 3 : Dev nD) : Thread nD τ)), (oRows c 1).view.loc ((pe c 3 : Dev nD) : Thread nD τ) ↦[(oRows c 1).view.set]{fullShare} f))
      ∗ ((∃ f : Buf (Elt F) ((rcvSlot 2).view.loc ((pe c 2 : Dev nD) : Thread nD τ)), (rcvSlot 2).view.loc ((pe c 2 : Dev nD) : Thread nD τ) ↦[(rcvSlot 2).view.set]{fullShare} f)
      ∗ (∃ f : Buf (Elt F) ((rcvSlot 3).view.loc ((pe c 2 : Dev nD) : Thread nD τ)), (rcvSlot 3).view.loc ((pe c 2 : Dev nD) : Thread nD τ) ↦[(rcvSlot 3).view.set]{fullShare} f)
      ∗ (∃ f : Buf (Elt F) ((oRows c 0).view.loc ((pe c 2 : Dev nD) : Thread nD τ)), (oRows c 0).view.loc ((pe c 2 : Dev nD) : Thread nD τ) ↦[(oRows c 0).view.set]{fullShare} f)
      ∗ (∃ f : Buf (Elt F) ((oRows c 1).view.loc ((pe c 2 : Dev nD) : Thread nD τ)), (oRows c 1).view.loc ((pe c 2 : Dev nD) : Thread nD τ) ↦[(oRows c 1).view.set]{fullShare} f))
      ∗ ((∃ f : Buf (Elt F) ((rcvSlot 0).view.loc ((pe c 1 : Dev nD) : Thread nD τ)), (rcvSlot 0).view.loc ((pe c 1 : Dev nD) : Thread nD τ) ↦[(rcvSlot 0).view.set]{fullShare} f)
      ∗ (∃ f : Buf (Elt F) ((rcvSlot 1).view.loc ((pe c 1 : Dev nD) : Thread nD τ)), (rcvSlot 1).view.loc ((pe c 1 : Dev nD) : Thread nD τ) ↦[(rcvSlot 1).view.set]{fullShare} f)
      ∗ (∃ f : Buf (Elt F) ((oRows c 0).view.loc ((pe c 1 : Dev nD) : Thread nD τ)), (oRows c 0).view.loc ((pe c 1 : Dev nD) : Thread nD τ) ↦[(oRows c 0).view.set]{fullShare} f)
      ∗ (∃ f : Buf (Elt F) ((oRows c 1).view.loc ((pe c 1 : Dev nD) : Thread nD τ)), (oRows c 1).view.loc ((pe c 1 : Dev nD) : Thread nD τ) ↦[(oRows c 1).view.set]{fullShare} f))) := by
  rw [bigSep_fin3, payload_bar_own0, payload_bar_own1, payload_bar_own2]

omit [FloatOps F] in
theorem hz2 : (![0, 0] : Fin 2 → Nat) = fun _ => 0 := funext fun a => by fin_cases a <;> rfl

/-- The credit token of a cell, for an amount. -/
def Cr (g : GSem nD τ sig) (n : ℕ) : sProp 𝕄 := cred (tallyAt g () n)
omit [FloatOps F] in
theorem cr_fold (g : GSem nD τ sig) (n : ℕ) : (cred (tallyAt g () n) : sProp 𝕄) = Cr g n := rfl
omit [FloatOps F] in
theorem crA_fold (c : Dev nD) (k : Fin 6) : (cred (tallyAt (dCell c 3 k) () Nag) : sProp 𝕄) = Cr (dCell c 3 k) Nag := rfl

/-- What a transfer cell's one duty leaves its owner after the round. -/
theorem rest_d (c : Dev nD) (a : Fin 4) (k : Fin 6) :
    (bigSep ((sched (F := F) m).duties (dCell c a k) 0 \ ∅) fun d => (sched (F := F) m).payload (dCell c a k) 0 d) = dPay m c a k := by
  rw [Finset.sdiff_empty, duties_d, bigSep_singleton, payload_d]

/-- A duty's one-shot token of round 0. -/
def Tok (g : GSem nD τ sig) (d : Fin 3) : sProp 𝕄 := dutyTok ER g 0 d
omit [FloatOps F] in
theorem tok_fold (g : GSem nD τ sig) (d : Fin 3) : (dutyTok ER g 0 d : sProp 𝕄) = Tok g d := rfl

attribute [local sl_canon] dev1_eq dev2_eq dev3_eq dev4_eq dev5_eq dev6_eq dev7_eq dev8_eq dev9_eq dev10_eq dev11_eq dev12_eq dev13_eq dev14_eq dev15_eq

attribute [local sl_rounds] duties_bar duties_d amount_bar amount_d expect_bar expect_d
  payload_bar_own0 payload_bar_own1 payload_bar_own2
theorem regPts_def {S : Shape} {e : EltTy} (t : Thread nD τ) (v : Memref sig t.2.kind .vmem S e) (q : PosShare TreeShare) (w : S.Idx → Elt F e) :
    (regPts t v q w : sProp 𝕄) = (v.view.loc t ↦[v.view.set]{q} (v.view.write (Elt F) (junk (v.view.loc t)) w Finset.univ)) := rfl
attribute [local sl_rounds] payload_d regPts_def dPay_send_00 dPay_asend_00 dPay_send_01 dPay_asend_01 dPay_send_10 dPay_asend_10 dPay_send_11 dPay_asend_11 dPay_send_20 dPay_asend_20 dPay_send_21 dPay_asend_21 dPay_recv_own_00 dPay_arecv_own_00 dPay_recv_own_01 dPay_arecv_own_01 dPay_recv_own_10 dPay_arecv_own_10 dPay_recv_own_11 dPay_arecv_own_11 dPay_recv_own_20 dPay_arecv_own_20 dPay_recv_own_21 dPay_arecv_own_21
attribute [local sl_rounds high] payload_bar_p1 payload_bar_p2 payload_bar_p3

set_option maxRecDepth 20000 in
set_option maxHeartbeats 8000000 in
theorem sound_body (c : Dev nD) :
    bodyPre' m ρ c ⊢ wp frame (wpE (defs₀ (F := F)) 𝒱₀ c none) Set.univ
      (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8) (fun _ => bodyPost m ρ c) := by
  simp only [cc0_body_eq_skeleton]; unfold cc0_body_skel
  unfold bodyPre' Φ₀ start ghost payToks creds scratches
  simp only [bigSep_fin3, bigSep_fin6', bigSep_fin32, bigSep_fin46, tok_fold]
  iintro ⟨⟨⟨⟨%K, #Hrec, HaB, ⟨Ha00, Ha01, Ha02, Ha03, Ha04, Ha05, Ha10, Ha11, Ha12, Ha13, Ha14, Ha15, Ha20, Ha21, Ha22, Ha23, Ha24, Ha25, Ha30, Ha31, Ha32, Ha33, Ha34, Ha35⟩, ⟨HtB0, HtB1, HtB2⟩, ⟨⟨HtR00, HtA00⟩, ⟨HtR01, HtA01⟩, ⟨HtR10, HtA10⟩, ⟨HtR11, HtA11⟩, ⟨HtR20, HtA20⟩, ⟨HtR21, HtA21⟩⟩,
      ⟨⟨HtS0, HtT0⟩, ⟨HtS1, HtT1⟩, ⟨HtS2, HtT2⟩, ⟨HtS3, HtT3⟩, ⟨HtS4, HtT4⟩, ⟨HtS5, HtT5⟩⟩⟩,
      ⟨HcB, ⟨HcR0, HcR1, HcR2, HcR3, HcR4, HcR5⟩, ⟨HcA0, HcA1, HcA2, HcA3, HcA4, HcA5⟩⟩, #Hlev⟩,
      ⟨⟨%f0, Hs0⟩, ⟨%f1, Hs1⟩, ⟨%f2, Hs2⟩, ⟨%f3, Hs3⟩, ⟨%f4, Hs4⟩⟩⟩,
    Ho, ⟨%d0, %g0, %hg0, Hx⟩, ⟨%d1, %g1, %hg1, Hg⟩, ⟨%d2, %g2, %hg2, Hu⟩, ⟨%d3, %g3, %hg3, Hd⟩, ⟨%d4, %g4, %hg4, Hout⟩⟩
  ihave HcA0 := (show (cred (tallyAt (dCell c 3 0) () Nag) : sProp 𝕄) ⊢ Cr (dCell c 3 0) Nag from Entails.of_eq rfl) $$ HcA0
  ihave HcA1 := (show (cred (tallyAt (dCell c 3 1) () Nag) : sProp 𝕄) ⊢ Cr (dCell c 3 1) Nag from Entails.of_eq rfl) $$ HcA1
  ihave HcA2 := (show (cred (tallyAt (dCell c 3 2) () Nag) : sProp 𝕄) ⊢ Cr (dCell c 3 2) Nag from Entails.of_eq rfl) $$ HcA2
  ihave HcA3 := (show (cred (tallyAt (dCell c 3 3) () Nag) : sProp 𝕄) ⊢ Cr (dCell c 3 3) Nag from Entails.of_eq rfl) $$ HcA3
  ihave HcA4 := (show (cred (tallyAt (dCell c 3 4) () Nag) : sProp 𝕄) ⊢ Cr (dCell c 3 4) Nag from Entails.of_eq rfl) $$ HcA4
  ihave HcA5 := (show (cred (tallyAt (dCell c 3 5) () Nag) : sProp 𝕄) ⊢ Cr (dCell c 3 5) Nag from Entails.of_eq rfl) $$ HcA5
  have hx : g0 = Xs m c := by rw [hg0]; unfold Dat.before; rw [if_pos (fetch0_0 t₀)]; rfl
  have hg : g1 = Gs m c := by rw [hg1]; unfold Dat.before; rw [if_pos (fetch0_1 t₀)]; rfl
  have hu : g2 = Us m c := by rw [hg2]; unfold Dat.before; rw [if_pos (fetch0_2 t₀)]; rfl
  have hd : g3 = Ds m c := by rw [hg3]; unfold Dat.before; rw [if_pos (fetch0_3 t₀)]; rfl
  subst hx hg hu hd
  unfold Dat.owesAt Pipeline.owesWithin
  icases Ho with ⟨%W, %hW, HO⟩
  rw [show (dats m ρ 0 c).owed t₀.castSucc = O₀ c from rfl, O₀_eq]
  ihave #HIB := (inv_bar m K c) $$ Hrec
  ihave #HRB := (reached_bar m K c) $$ Hrec
  ihave #HI00 := (inv_d m K c 0 0) $$ Hrec
  ihave #HR00 := (reached_d m K c 0 0) $$ Hrec
  ihave #HI01 := (inv_d m K c 0 1) $$ Hrec
  ihave #HR01 := (reached_d m K c 0 1) $$ Hrec
  ihave #HI02 := (inv_d m K c 0 2) $$ Hrec
  ihave #HR02 := (reached_d m K c 0 2) $$ Hrec
  ihave #HI03 := (inv_d m K c 0 3) $$ Hrec
  ihave #HR03 := (reached_d m K c 0 3) $$ Hrec
  ihave #HI04 := (inv_d m K c 0 4) $$ Hrec
  ihave #HR04 := (reached_d m K c 0 4) $$ Hrec
  ihave #HI05 := (inv_d m K c 0 5) $$ Hrec
  ihave #HR05 := (reached_d m K c 0 5) $$ Hrec
  ihave #HI10 := (inv_d m K c 1 0) $$ Hrec
  ihave #HR10 := (reached_d m K c 1 0) $$ Hrec
  ihave #HI11 := (inv_d m K c 1 1) $$ Hrec
  ihave #HR11 := (reached_d m K c 1 1) $$ Hrec
  ihave #HI12 := (inv_d m K c 1 2) $$ Hrec
  ihave #HR12 := (reached_d m K c 1 2) $$ Hrec
  ihave #HI13 := (inv_d m K c 1 3) $$ Hrec
  ihave #HR13 := (reached_d m K c 1 3) $$ Hrec
  ihave #HI14 := (inv_d m K c 1 4) $$ Hrec
  ihave #HR14 := (reached_d m K c 1 4) $$ Hrec
  ihave #HI15 := (inv_d m K c 1 5) $$ Hrec
  ihave #HR15 := (reached_d m K c 1 5) $$ Hrec
  ihave #HI20 := (inv_d m K c 2 0) $$ Hrec
  ihave #HR20 := (reached_d m K c 2 0) $$ Hrec
  ihave #HI21 := (inv_d m K c 2 1) $$ Hrec
  ihave #HR21 := (reached_d m K c 2 1) $$ Hrec
  ihave #HI22 := (inv_d m K c 2 2) $$ Hrec
  ihave #HR22 := (reached_d m K c 2 2) $$ Hrec
  ihave #HI23 := (inv_d m K c 2 3) $$ Hrec
  ihave #HR23 := (reached_d m K c 2 3) $$ Hrec
  ihave #HI24 := (inv_d m K c 2 4) $$ Hrec
  ihave #HR24 := (reached_d m K c 2 4) $$ Hrec
  ihave #HI25 := (inv_d m K c 2 5) $$ Hrec
  ihave #HR25 := (reached_d m K c 2 5) $$ Hrec
  ihave #HI30 := (inv_d m K c 3 0) $$ Hrec
  ihave #HR30 := (reached_d m K c 3 0) $$ Hrec
  ihave #HI31 := (inv_d m K c 3 1) $$ Hrec
  ihave #HR31 := (reached_d m K c 3 1) $$ Hrec
  ihave #HI32 := (inv_d m K c 3 2) $$ Hrec
  ihave #HR32 := (reached_d m K c 3 2) $$ Hrec
  ihave #HI33 := (inv_d m K c 3 3) $$ Hrec
  ihave #HR33 := (reached_d m K c 3 3) $$ Hrec
  ihave #HI34 := (inv_d m K c 3 4) $$ Hrec
  ihave #HR34 := (reached_d m K c 3 4) $$ Hrec
  ihave #HI35 := (inv_d m K c 3 5) $$ Hrec
  ihave #HR35 := (reached_d m K c 3 5) $$ Hrec
  ihave #HIBp1 := (inv_bar m K (pe c 1)) $$ Hrec
  ihave #HRBp1 := (reached_bar m K (pe c 1)) $$ Hrec
  ihave #HIr00 := (inv_d m K (pe c 1) 1 0) $$ Hrec
  ihave #HRr00 := (reached_d m K (pe c 1) 1 0) $$ Hrec
  ihave #HIa00 := (inv_d m K (pe c 1) 3 0) $$ Hrec
  ihave #HRa00 := (reached_d m K (pe c 1) 3 0) $$ Hrec
  ihave #HIr01 := (inv_d m K (pe c 1) 1 1) $$ Hrec
  ihave #HRr01 := (reached_d m K (pe c 1) 1 1) $$ Hrec
  ihave #HIa01 := (inv_d m K (pe c 1) 3 1) $$ Hrec
  ihave #HRa01 := (reached_d m K (pe c 1) 3 1) $$ Hrec
  ihave #HIBp2 := (inv_bar m K (pe c 2)) $$ Hrec
  ihave #HRBp2 := (reached_bar m K (pe c 2)) $$ Hrec
  ihave #HIr10 := (inv_d m K (pe c 2) 1 2) $$ Hrec
  ihave #HRr10 := (reached_d m K (pe c 2) 1 2) $$ Hrec
  ihave #HIa10 := (inv_d m K (pe c 2) 3 2) $$ Hrec
  ihave #HRa10 := (reached_d m K (pe c 2) 3 2) $$ Hrec
  ihave #HIr11 := (inv_d m K (pe c 2) 1 3) $$ Hrec
  ihave #HRr11 := (reached_d m K (pe c 2) 1 3) $$ Hrec
  ihave #HIa11 := (inv_d m K (pe c 2) 3 3) $$ Hrec
  ihave #HRa11 := (reached_d m K (pe c 2) 3 3) $$ Hrec
  ihave #HIBp3 := (inv_bar m K (pe c 3)) $$ Hrec
  ihave #HRBp3 := (reached_bar m K (pe c 3)) $$ Hrec
  ihave #HIr20 := (inv_d m K (pe c 3) 1 4) $$ Hrec
  ihave #HRr20 := (reached_d m K (pe c 3) 1 4) $$ Hrec
  ihave #HIa20 := (inv_d m K (pe c 3) 3 4) $$ Hrec
  ihave #HRa20 := (reached_d m K (pe c 3) 3 4) $$ Hrec
  ihave #HIr21 := (inv_d m K (pe c 3) 1 5) $$ Hrec
  ihave #HRr21 := (reached_d m K (pe c 3) 1 5) $$ Hrec
  ihave #HIa21 := (inv_d m K (pe c 3) 3 5) $$ Hrec
  ihave #HRa21 := (reached_d m K (pe c 3) 3 5) $$ Hrec
  ihave Hrs := (rcv_chain c f4) $$ Hs4
  ihave Hss := (snd_chain c f3) $$ Hs3
  icases Hss with ⟨⟨%s0, Hn0⟩, ⟨%s1, Hn1⟩, ⟨%s2, Hn2⟩, ⟨%s3, Hn3⟩, ⟨%s4, Hn4⟩, ⟨%s5, Hn5⟩⟩
  ihave Hos := (out_chain' c g4) $$ Hout
  icases Hrs with ⟨⟨%r0, Hr0⟩, ⟨%r1, Hr1⟩, ⟨%r2, Hr2⟩, ⟨%r3, Hr3⟩, ⟨%r4, Hr4⟩, ⟨%r5, Hr5⟩⟩
  icases Hos with ⟨⟨%o00, Ho00⟩, ⟨%o01, Ho01⟩, ⟨%o10, Ho10⟩, ⟨%o11, Ho11⟩, ⟨%o20, Ho20⟩, ⟨%o21, Ho21⟩, ⟨%o30, Ho30⟩, ⟨%o31, Ho31⟩⟩
  ihave Hs0 := (Entails.of_eq (whole_pts c cc0_scratch0 (f0))) $$ Hs0
  ihave Hs1 := (Entails.of_eq (whole_pts c cc0_scratch1 (f1))) $$ Hs1
  ihave Hs2 := (Entails.of_eq (whole_pts c cc0_scratch2 (f2))) $$ Hs2
  ihave Hx := (Entails.of_eq (whole_pts c cc0_stg0_0 (Xs m c))) $$ Hx
  ihave Hg := (Entails.of_eq (whole_pts c cc0_stg1_0 (Gs m c))) $$ Hg
  ihave Hu := (Entails.of_eq (whole_pts c cc0_stg2_0 (Us m c))) $$ Hu
  ihave Hd := (Entails.of_eq (whole_pts c cc0_stg3_0 (Ds m c))) $$ Hd
  have hmwB : (levAts L lv : sProp 𝕄) ⊢ MayWait (c : Thread nD τ) (.reg barS) () ((((((((((((0 + tallyAt (dCell (pe c 3) 3 5) () Nag) + tallyAt (dCell (pe c 2) 3 3) () Nag) + tallyAt (dCell (pe c 1) 3 1) () Nag) + tallyAt (dCell (pe c 3) 3 4) () Nag) + tallyAt (dCell (pe c 2) 3 2) () Nag) + tallyAt (dCell (pe c 1) 3 0) () Nag) + tallyAt (dCell (pe c 3) 1 5) () Nrs) + tallyAt (dCell (pe c 2) 1 3) () Nrs) + tallyAt (dCell (pe c 1) 1 1) () Nrs) + tallyAt (dCell (pe c 3) 1 4) () Nrs) + tallyAt (dCell (pe c 2) 1 2) () Nrs) + tallyAt (dCell (pe c 1) 1 0) () Nrs) :=
    mayWait_above c (.reg barS) _ (by rw [lv_bar]; exact above_add (above_add (above_add (above_add (above_add (above_add (above_add (above_add (above_add (above_add (above_add (above_add (above_zero _) (by rw [lv_d]; decide)) (by rw [lv_d]; decide)) (by rw [lv_d]; decide)) (by rw [lv_d]; decide)) (by rw [lv_d]; decide)) (by rw [lv_d]; decide)) (by rw [lv_d]; decide)) (by rw [lv_d]; decide)) (by rw [lv_d]; decide)) (by rw [lv_d]; decide)) (by rw [lv_d]; decide)) (by rw [lv_d]; decide))
  sl_exec_parts
  iapply (Rounds.wp_signal 𝒱₀ ER (sched m) (c : Thread nD τ) none (dst := ((pe c 1 : Dev nD) : Thread nD τ)) (κ := K (pe c 1, 0))
      (d := 0) (by rw [duties_bar]; exact Finset.mem_univ _) ((amount_bar m (pe c 1) 0).trans (by decide)) () ((((((((((((((0 + tallyAt (dCell (pe c 3) 3 5) () Nag) + tallyAt (dCell (pe c 2) 3 3) () Nag) + tallyAt (dCell (pe c 1) 3 1) () Nag) + tallyAt (dCell (pe c 3) 3 4) () Nag) + tallyAt (dCell (pe c 2) 3 2) () Nag) + tallyAt (dCell (pe c 1) 3 0) () Nag) + tallyAt (dCell (pe c 3) 1 5) () Nrs) + tallyAt (dCell (pe c 2) 1 3) () Nrs) + tallyAt (dCell (pe c 1) 1 1) () Nrs) + tallyAt (dCell (pe c 3) 1 4) () Nrs) + tallyAt (dCell (pe c 2) 1 2) () Nrs) + tallyAt (dCell (pe c 1) 1 0) () Nrs) + tallyAt (barCell (pe c 3)) () 1) + tallyAt (barCell (pe c 2)) () 1) rfl)
    $$ [HO HtB0 Hr4 Hr5 Ho10 Ho11]
  · isplitr; · iexact HIBp1
    isplitl [HO]; · iexact HO
    isplitl [HtB0]; · (unfold Tok; iexact HtB0)
    isplitl [Hr4 Hr5 Ho10 Ho11]
    · rw [payload_bar_p1]
      isplitl [Hr4]; · iexists r4; iexact Hr4
      isplitl [Hr5]; · iexists r5; iexact Hr5
      isplitl [Ho10]; · iexists o10; iexact Ho10
      iexists o11; iexact Ho11
    · iexact HRBp1
  iintro HO
  sl_exec_parts
  iapply (Rounds.wp_signal 𝒱₀ ER (sched m) (c : Thread nD τ) none (dst := ((pe c 2 : Dev nD) : Thread nD τ)) (κ := K (pe c 2, 0))
      (d := 1) (by rw [duties_bar]; exact Finset.mem_univ _) ((amount_bar m (pe c 2) 1).trans (by decide)) () (((((((((((((0 + tallyAt (dCell (pe c 3) 3 5) () Nag) + tallyAt (dCell (pe c 2) 3 3) () Nag) + tallyAt (dCell (pe c 1) 3 1) () Nag) + tallyAt (dCell (pe c 3) 3 4) () Nag) + tallyAt (dCell (pe c 2) 3 2) () Nag) + tallyAt (dCell (pe c 1) 3 0) () Nag) + tallyAt (dCell (pe c 3) 1 5) () Nrs) + tallyAt (dCell (pe c 2) 1 3) () Nrs) + tallyAt (dCell (pe c 1) 1 1) () Nrs) + tallyAt (dCell (pe c 3) 1 4) () Nrs) + tallyAt (dCell (pe c 2) 1 2) () Nrs) + tallyAt (dCell (pe c 1) 1 0) () Nrs) + tallyAt (barCell (pe c 3)) () 1) rfl)
    $$ [HO HtB1 Hr2 Hr3 Ho20 Ho21]
  · isplitr; · iexact HIBp2
    isplitl [HO]; · iexact HO
    isplitl [HtB1]; · (unfold Tok; iexact HtB1)
    isplitl [Hr2 Hr3 Ho20 Ho21]
    · rw [payload_bar_p2]
      isplitl [Hr2]; · iexists r2; iexact Hr2
      isplitl [Hr3]; · iexists r3; iexact Hr3
      isplitl [Ho20]; · iexists o20; iexact Ho20
      iexists o21; iexact Ho21
    · iexact HRBp2
  iintro HO
  sl_exec_parts
  iapply (Rounds.wp_signal 𝒱₀ ER (sched m) (c : Thread nD τ) none (dst := ((pe c 3 : Dev nD) : Thread nD τ)) (κ := K (pe c 3, 0))
      (d := 2) (by rw [duties_bar]; exact Finset.mem_univ _) ((amount_bar m (pe c 3) 2).trans (by decide)) () ((((((((((((0 + tallyAt (dCell (pe c 3) 3 5) () Nag) + tallyAt (dCell (pe c 2) 3 3) () Nag) + tallyAt (dCell (pe c 1) 3 1) () Nag) + tallyAt (dCell (pe c 3) 3 4) () Nag) + tallyAt (dCell (pe c 2) 3 2) () Nag) + tallyAt (dCell (pe c 1) 3 0) () Nag) + tallyAt (dCell (pe c 3) 1 5) () Nrs) + tallyAt (dCell (pe c 2) 1 3) () Nrs) + tallyAt (dCell (pe c 1) 1 1) () Nrs) + tallyAt (dCell (pe c 3) 1 4) () Nrs) + tallyAt (dCell (pe c 2) 1 2) () Nrs) + tallyAt (dCell (pe c 1) 1 0) () Nrs) rfl)
    $$ [HO HtB2 Hr0 Hr1 Ho30 Ho31]
  · isplitr; · iexact HIBp3
    isplitl [HO]; · iexact HO
    isplitl [HtB2]; · (unfold Tok; iexact HtB2)
    isplitl [Hr0 Hr1 Ho30 Ho31]
    · rw [payload_bar_p3]
      isplitl [Hr0]; · iexists r0; iexact Hr0
      isplitl [Hr1]; · iexists r1; iexact Hr1
      isplitl [Ho30]; · iexists o30; iexact Ho30
      iexists o31; iexact Ho31
    · iexact HRBp3
  iintro HO
  sl_exec_parts
  ihave Hp := (Entails.of_eq (bar_rest m c)) $$ HaB_pay1
  icases Hp with ⟨⟨⟨%e3s4, He3s4⟩, ⟨%e3s5, He3s5⟩, ⟨%e3o0, He3o0⟩, ⟨%e3o1, He3o1⟩⟩, ⟨⟨%e2s2, He2s2⟩, ⟨%e2s3, He2s3⟩, ⟨%e2o0, He2o0⟩, ⟨%e2o1, He2o1⟩⟩, ⟨⟨%e1s0, He1s0⟩, ⟨%e1s1, He1s1⟩, ⟨%e1o0, He1o0⟩, ⟨%e1o1, He1o1⟩⟩⟩
  have hw0 : (sndSlot (slotOf 0 0)).view.read (Elt F) (sound_body.sl.Hn0_w1 m c s0) = slotVal (sent m c 0 0) := by
    unfold sound_body.sl.Hn0_w1
    refine (slot_read 0 _ _).trans ?_
    unfold sent Vals.part16 xrO Gr Ur Dr
    sl_unfold_words
    simp only [View.readCov_unit_zero (S := S1024x2048) _ hz2, View.readCov_unit_zero (S := S2048x1024) _ hz2]
    rfl
  iapply (wp_send_rs m c _ 0 0 (dev4_eq c) (κ₁ := K (c, idx 0 0)) (κ₂ := K (pe c 1, idx 1 0)) _ e1s0 (((((((((((0 + tallyAt (dCell (pe c 3) 3 5) () Nag) + tallyAt (dCell (pe c 2) 3 3) () Nag) + tallyAt (dCell (pe c 1) 3 1) () Nag) + tallyAt (dCell (pe c 3) 3 4) () Nag) + tallyAt (dCell (pe c 2) 3 2) () Nag) + tallyAt (dCell (pe c 1) 3 0) () Nag) + tallyAt (dCell (pe c 3) 1 5) () Nrs) + tallyAt (dCell (pe c 2) 1 3) () Nrs) + tallyAt (dCell (pe c 1) 1 1) () Nrs) + tallyAt (dCell (pe c 3) 1 4) () Nrs) + tallyAt (dCell (pe c 2) 1 2) () Nrs) _ hw0)
    $$ [Hn0 He1s0 HO HtS0 HtR00]
  · isplitr; · iexact HI00
    isplitr; · iexact HIr00
    isplitl [Hn0]; · iexact Hn0
    isplitl [He1s0]; · iexact He1s0
    isplitl [HO]; · iexact HO
    isplitl [HtS0]; · (unfold Tok; iexact HtS0)
    isplitr; · iexact HR00
    isplitl [HtR00]; · (unfold Tok; iexact HtR00)
    iexact HRr00
  iintro ⟨HcS0, HO⟩
  sl_exec_parts
  have hw2 : (sndSlot (slotOf 1 0)).view.read (Elt F) (sound_body.sl.Hn2_w1 m c s2) = slotVal (sent m c 1 0) := by
    unfold sound_body.sl.Hn2_w1
    refine (slot_read 2 _ _).trans ?_
    unfold sent Vals.part16 xrO Gr Ur Dr
    sl_unfold_words
    simp only [View.readCov_unit_zero (S := S1024x2048) _ hz2, View.readCov_unit_zero (S := S2048x1024) _ hz2]
    rfl
  iapply (wp_send_rs m c _ 1 0 (dev5_eq c) (κ₁ := K (c, idx 0 2)) (κ₂ := K (pe c 2, idx 1 2)) _ e2s2 ((((((((((0 + tallyAt (dCell (pe c 3) 3 5) () Nag) + tallyAt (dCell (pe c 2) 3 3) () Nag) + tallyAt (dCell (pe c 1) 3 1) () Nag) + tallyAt (dCell (pe c 3) 3 4) () Nag) + tallyAt (dCell (pe c 2) 3 2) () Nag) + tallyAt (dCell (pe c 1) 3 0) () Nag) + tallyAt (dCell (pe c 3) 1 5) () Nrs) + tallyAt (dCell (pe c 2) 1 3) () Nrs) + tallyAt (dCell (pe c 1) 1 1) () Nrs) + tallyAt (dCell (pe c 3) 1 4) () Nrs) _ hw2)
    $$ [Hn2 He2s2 HO HtS2 HtR10]
  · isplitr; · iexact HI02
    isplitr; · iexact HIr10
    isplitl [Hn2]; · iexact Hn2
    isplitl [He2s2]; · iexact He2s2
    isplitl [HO]; · iexact HO
    isplitl [HtS2]; · (unfold Tok; iexact HtS2)
    isplitr; · iexact HR02
    isplitl [HtR10]; · (unfold Tok; iexact HtR10)
    iexact HRr10
  iintro ⟨HcS2, HO⟩
  sl_exec_parts
  have hw4 : (sndSlot (slotOf 2 0)).view.read (Elt F) (sound_body.sl.Hn4_w1 m c s4) = slotVal (sent m c 2 0) := by
    unfold sound_body.sl.Hn4_w1
    refine (slot_read 4 _ _).trans ?_
    unfold sent Vals.part16 xrO Gr Ur Dr
    sl_unfold_words
    simp only [View.readCov_unit_zero (S := S1024x2048) _ hz2, View.readCov_unit_zero (S := S2048x1024) _ hz2]
    rfl
  iapply (wp_send_rs m c _ 2 0 (dev6_eq c) (κ₁ := K (c, idx 0 4)) (κ₂ := K (pe c 3, idx 1 4)) _ e3s4 (((((((((0 + tallyAt (dCell (pe c 3) 3 5) () Nag) + tallyAt (dCell (pe c 2) 3 3) () Nag) + tallyAt (dCell (pe c 1) 3 1) () Nag) + tallyAt (dCell (pe c 3) 3 4) () Nag) + tallyAt (dCell (pe c 2) 3 2) () Nag) + tallyAt (dCell (pe c 1) 3 0) () Nag) + tallyAt (dCell (pe c 3) 1 5) () Nrs) + tallyAt (dCell (pe c 2) 1 3) () Nrs) + tallyAt (dCell (pe c 1) 1 1) () Nrs) _ hw4)
    $$ [Hn4 He3s4 HO HtS4 HtR20]
  · isplitr; · iexact HI04
    isplitr; · iexact HIr20
    isplitl [Hn4]; · iexact Hn4
    isplitl [He3s4]; · iexact He3s4
    isplitl [HO]; · iexact HO
    isplitl [HtS4]; · (unfold Tok; iexact HtS4)
    isplitr; · iexact HR04
    isplitl [HtR20]; · (unfold Tok; iexact HtR20)
    iexact HRr20
  iintro ⟨HcS4, HO⟩
  sl_exec_parts
  have hw1 : (sndSlot (slotOf 0 1)).view.read (Elt F) (sound_body.sl.Hn1_w1 m c s1) = slotVal (sent m c 0 1) := by
    unfold sound_body.sl.Hn1_w1
    refine (slot_read 1 _ _).trans ?_
    unfold sent Vals.part16 xrO Gr Ur Dr
    sl_unfold_words
    simp only [View.readCov_unit_zero (S := S1024x2048) _ hz2, View.readCov_unit_zero (S := S2048x1024) _ hz2]
    rfl
  iapply (wp_send_rs m c _ 0 1 (dev7_eq c) (κ₁ := K (c, idx 0 1)) (κ₂ := K (pe c 1, idx 1 1)) _ e1s1 ((((((((0 + tallyAt (dCell (pe c 3) 3 5) () Nag) + tallyAt (dCell (pe c 2) 3 3) () Nag) + tallyAt (dCell (pe c 1) 3 1) () Nag) + tallyAt (dCell (pe c 3) 3 4) () Nag) + tallyAt (dCell (pe c 2) 3 2) () Nag) + tallyAt (dCell (pe c 1) 3 0) () Nag) + tallyAt (dCell (pe c 3) 1 5) () Nrs) + tallyAt (dCell (pe c 2) 1 3) () Nrs) _ hw1)
    $$ [Hn1 He1s1 HO HtS1 HtR01]
  · isplitr; · iexact HI01
    isplitr; · iexact HIr01
    isplitl [Hn1]; · iexact Hn1
    isplitl [He1s1]; · iexact He1s1
    isplitl [HO]; · iexact HO
    isplitl [HtS1]; · (unfold Tok; iexact HtS1)
    isplitr; · iexact HR01
    isplitl [HtR01]; · (unfold Tok; iexact HtR01)
    iexact HRr01
  iintro ⟨HcS1, HO⟩
  sl_exec_parts
  have hw3 : (sndSlot (slotOf 1 1)).view.read (Elt F) (sound_body.sl.Hn3_w1 m c s3) = slotVal (sent m c 1 1) := by
    unfold sound_body.sl.Hn3_w1
    refine (slot_read 3 _ _).trans ?_
    unfold sent Vals.part16 xrO Gr Ur Dr
    sl_unfold_words
    simp only [View.readCov_unit_zero (S := S1024x2048) _ hz2, View.readCov_unit_zero (S := S2048x1024) _ hz2]
    rfl
  iapply (wp_send_rs m c _ 1 1 (dev8_eq c) (κ₁ := K (c, idx 0 3)) (κ₂ := K (pe c 2, idx 1 3)) _ e2s3 (((((((0 + tallyAt (dCell (pe c 3) 3 5) () Nag) + tallyAt (dCell (pe c 2) 3 3) () Nag) + tallyAt (dCell (pe c 1) 3 1) () Nag) + tallyAt (dCell (pe c 3) 3 4) () Nag) + tallyAt (dCell (pe c 2) 3 2) () Nag) + tallyAt (dCell (pe c 1) 3 0) () Nag) + tallyAt (dCell (pe c 3) 1 5) () Nrs) _ hw3)
    $$ [Hn3 He2s3 HO HtS3 HtR11]
  · isplitr; · iexact HI03
    isplitr; · iexact HIr11
    isplitl [Hn3]; · iexact Hn3
    isplitl [He2s3]; · iexact He2s3
    isplitl [HO]; · iexact HO
    isplitl [HtS3]; · (unfold Tok; iexact HtS3)
    isplitr; · iexact HR03
    isplitl [HtR11]; · (unfold Tok; iexact HtR11)
    iexact HRr11
  iintro ⟨HcS3, HO⟩
  sl_exec_parts
  have hw5 : (sndSlot (slotOf 2 1)).view.read (Elt F) (sound_body.sl.Hn5_w1 m c s5) = slotVal (sent m c 2 1) := by
    unfold sound_body.sl.Hn5_w1
    refine (slot_read 5 _ _).trans ?_
    unfold sent Vals.part16 xrO Gr Ur Dr
    sl_unfold_words
    simp only [View.readCov_unit_zero (S := S1024x2048) _ hz2, View.readCov_unit_zero (S := S2048x1024) _ hz2]
    rfl
  iapply (wp_send_rs m c _ 2 1 (dev9_eq c) (κ₁ := K (c, idx 0 5)) (κ₂ := K (pe c 3, idx 1 5)) _ e3s5 ((((((0 + tallyAt (dCell (pe c 3) 3 5) () Nag) + tallyAt (dCell (pe c 2) 3 3) () Nag) + tallyAt (dCell (pe c 1) 3 1) () Nag) + tallyAt (dCell (pe c 3) 3 4) () Nag) + tallyAt (dCell (pe c 2) 3 2) () Nag) + tallyAt (dCell (pe c 1) 3 0) () Nag) _ hw5)
    $$ [Hn5 He3s5 HO HtS5 HtR21]
  · isplitr; · iexact HI05
    isplitr; · iexact HIr21
    isplitl [Hn5]; · iexact Hn5
    isplitl [He3s5]; · iexact He3s5
    isplitl [HO]; · iexact HO
    isplitl [HtS5]; · (unfold Tok; iexact HtS5)
    isplitr; · iexact HR05
    isplitl [HtR21]; · (unfold Tok; iexact HtR21)
    iexact HRr21
  iintro ⟨HcS5, HO⟩
  sl_exec_parts
  have hmwR0 : (levAts L lv : sProp 𝕄) ⊢ MayWait (c : Thread nD τ) (.dma (semOf 1 0)) () ((((((0 + tallyAt (dCell (pe c 3) 3 5) () Nag) + tallyAt (dCell (pe c 2) 3 3) () Nag) + tallyAt (dCell (pe c 1) 3 1) () Nag) + tallyAt (dCell (pe c 3) 3 4) () Nag) + tallyAt (dCell (pe c 2) 3 2) () Nag) + tallyAt (dCell (pe c 1) 3 0) () Nag) :=
    mayWait_above c (.dma (semOf 1 0)) _ (by show Above (lv (dCell c 1 0) ()) _; rw [lv_d]; exact above_add (above_add (above_add (above_add (above_add (above_add (above_zero _) (by rw [lv_d]; decide)) (by rw [lv_d]; decide)) (by rw [lv_d]; decide)) (by rw [lv_d]; decide)) (by rw [lv_d]; decide)) (by rw [lv_d]; decide))
  have hmwR2 : (levAts L lv : sProp 𝕄) ⊢ MayWait (c : Thread nD τ) (.dma (semOf 1 2)) () ((((((0 + tallyAt (dCell (pe c 3) 3 5) () Nag) + tallyAt (dCell (pe c 2) 3 3) () Nag) + tallyAt (dCell (pe c 1) 3 1) () Nag) + tallyAt (dCell (pe c 3) 3 4) () Nag) + tallyAt (dCell (pe c 2) 3 2) () Nag) + tallyAt (dCell (pe c 1) 3 0) () Nag) :=
    mayWait_above c (.dma (semOf 1 2)) _ (by show Above (lv (dCell c 1 2) ()) _; rw [lv_d]; exact above_add (above_add (above_add (above_add (above_add (above_add (above_zero _) (by rw [lv_d]; decide)) (by rw [lv_d]; decide)) (by rw [lv_d]; decide)) (by rw [lv_d]; decide)) (by rw [lv_d]; decide)) (by rw [lv_d]; decide))
  have hmwR4 : (levAts L lv : sProp 𝕄) ⊢ MayWait (c : Thread nD τ) (.dma (semOf 1 4)) () ((((((0 + tallyAt (dCell (pe c 3) 3 5) () Nag) + tallyAt (dCell (pe c 2) 3 3) () Nag) + tallyAt (dCell (pe c 1) 3 1) () Nag) + tallyAt (dCell (pe c 3) 3 4) () Nag) + tallyAt (dCell (pe c 2) 3 2) () Nag) + tallyAt (dCell (pe c 1) 3 0) () Nag) :=
    mayWait_above c (.dma (semOf 1 4)) _ (by show Above (lv (dCell c 1 4) ()) _; rw [lv_d]; exact above_add (above_add (above_add (above_add (above_add (above_add (above_zero _) (by rw [lv_d]; decide)) (by rw [lv_d]; decide)) (by rw [lv_d]; decide)) (by rw [lv_d]; decide)) (by rw [lv_d]; decide)) (by rw [lv_d]; decide))
  have hl0 := out_load_sub c 0
  have hs0 := out_store_sub c 0
  have hl1 := out_load_sub c 1
  have hs1 := out_store_sub c 1
  sl_exec_parts
  iapply (wp_store 𝒱₀ (c : Thread nD τ) none Set.univ (m := oM) (Mk := Finset.univ) hs0) $$ Ho00; iintro Ho00
  sl_exec_parts
  have hwA0 : (oRows c 0).view.read (Elt F) ((oM.access (Rect.unit (s := S1024x1024) (k0_off3 c (BitVec.ofNat 32 (128 * (0 : Fin 2).val))) S128x1024.size (k0_off3_inb c 0)) : View sig .tc .vmem _ _).write (Elt F) o00 (k0_pay19 (sound_body.sl.r_7 m c) (sound_body.sl.v354 m c)) Finset.univ) = R m c 0 := by
    refine (out_read c 0 _ _).trans ?_
    unfold R Vals.red own32 Vals.part32 xrOwn got sent Vals.part16 xrO Gr Ur Dr
    sl_unfold_words
    simp only [View.readCov_unit_zero (S := S1024x2048) _ hz2, View.readCov_unit_zero (S := S2048x1024) _ hz2, slv0, slv1, slv2, slv3, slv4, slv5]
    rfl
  ihave Hth0 := (thirds c 0 _).1 $$ Ho00
  icases Hth0 with ⟨Ho00a, Ho00b, Ho00c⟩
  iapply (wp_send_ag m c _ 0 0 (dev10_eq c) (κ₁ := K (c, idx 2 0)) (κ₂ := K (pe c 1, idx 3 0)) _ e1o0 (((((0 + tallyAt (dCell (pe c 3) 3 5) () Nag) + tallyAt (dCell (pe c 2) 3 3) () Nag) + tallyAt (dCell (pe c 1) 3 1) () Nag) + tallyAt (dCell (pe c 3) 3 4) () Nag) + tallyAt (dCell (pe c 2) 3 2) () Nag) _ hwA0)
    $$ [Ho00a He1o0 HO HtT0 HtA00]
  · isplitr; · iexact HI20
    isplitr; · iexact HIa00
    isplitl [Ho00a]; · iexact Ho00a
    isplitl [He1o0]; · iexact He1o0
    isplitl [HO]; · iexact HO
    isplitl [HtT0]; · (unfold Tok; iexact HtT0)
    isplitr; · iexact HR20
    isplitl [HtA00]; · (unfold Tok; iexact HtA00)
    iexact HRa00
  iintro ⟨HcT0, HO⟩
  ihave HcT0 := (show (cred (tallyAt (dCell c 2 (slotOf 0 0)) () Nag) : sProp 𝕄) ⊢ Cr (dCell c 2 0) Nag from Entails.of_eq rfl) $$ HcT0
  sl_exec_parts
  iapply (wp_send_ag m c _ 1 0 (dev11_eq c) (κ₁ := K (c, idx 2 2)) (κ₂ := K (pe c 2, idx 3 2)) _ e2o0 ((((0 + tallyAt (dCell (pe c 3) 3 5) () Nag) + tallyAt (dCell (pe c 2) 3 3) () Nag) + tallyAt (dCell (pe c 1) 3 1) () Nag) + tallyAt (dCell (pe c 3) 3 4) () Nag) _ hwA0)
    $$ [Ho00b He2o0 HO HtT2 HtA10]
  · isplitr; · iexact HI22
    isplitr; · iexact HIa10
    isplitl [Ho00b]; · iexact Ho00b
    isplitl [He2o0]; · iexact He2o0
    isplitl [HO]; · iexact HO
    isplitl [HtT2]; · (unfold Tok; iexact HtT2)
    isplitr; · iexact HR22
    isplitl [HtA10]; · (unfold Tok; iexact HtA10)
    iexact HRa10
  iintro ⟨HcT2, HO⟩
  ihave HcT2 := (show (cred (tallyAt (dCell c 2 (slotOf 1 0)) () Nag) : sProp 𝕄) ⊢ Cr (dCell c 2 2) Nag from Entails.of_eq rfl) $$ HcT2
  sl_exec_parts
  iapply (wp_send_ag m c _ 2 0 (dev12_eq c) (κ₁ := K (c, idx 2 4)) (κ₂ := K (pe c 3, idx 3 4)) _ e3o0 (((0 + tallyAt (dCell (pe c 3) 3 5) () Nag) + tallyAt (dCell (pe c 2) 3 3) () Nag) + tallyAt (dCell (pe c 1) 3 1) () Nag) _ hwA0)
    $$ [Ho00c He3o0 HO HtT4 HtA20]
  · isplitr; · iexact HI24
    isplitr; · iexact HIa20
    isplitl [Ho00c]; · iexact Ho00c
    isplitl [He3o0]; · iexact He3o0
    isplitl [HO]; · iexact HO
    isplitl [HtT4]; · (unfold Tok; iexact HtT4)
    isplitr; · iexact HR24
    isplitl [HtA20]; · (unfold Tok; iexact HtA20)
    iexact HRa20
  iintro ⟨HcT4, HO⟩
  ihave HcT4 := (show (cred (tallyAt (dCell c 2 (slotOf 2 0)) () Nag) : sProp 𝕄) ⊢ Cr (dCell c 2 4) Nag from Entails.of_eq rfl) $$ HcT4
  have hmwR1 : (levAts L lv : sProp 𝕄) ⊢ MayWait (c : Thread nD τ) (.dma (semOf 1 1)) () (((0 + tallyAt (dCell (pe c 3) 3 5) () Nag) + tallyAt (dCell (pe c 2) 3 3) () Nag) + tallyAt (dCell (pe c 1) 3 1) () Nag) :=
    mayWait_above c (.dma (semOf 1 1)) _ (by show Above (lv (dCell c 1 1) ()) _; rw [lv_d]; exact above_add (above_add (above_add (above_zero _) (by rw [lv_d]; decide)) (by rw [lv_d]; decide)) (by rw [lv_d]; decide))
  have hmwR3 : (levAts L lv : sProp 𝕄) ⊢ MayWait (c : Thread nD τ) (.dma (semOf 1 3)) () (((0 + tallyAt (dCell (pe c 3) 3 5) () Nag) + tallyAt (dCell (pe c 2) 3 3) () Nag) + tallyAt (dCell (pe c 1) 3 1) () Nag) :=
    mayWait_above c (.dma (semOf 1 3)) _ (by show Above (lv (dCell c 1 3) ()) _; rw [lv_d]; exact above_add (above_add (above_add (above_zero _) (by rw [lv_d]; decide)) (by rw [lv_d]; decide)) (by rw [lv_d]; decide))
  have hmwR5 : (levAts L lv : sProp 𝕄) ⊢ MayWait (c : Thread nD τ) (.dma (semOf 1 5)) () (((0 + tallyAt (dCell (pe c 3) 3 5) () Nag) + tallyAt (dCell (pe c 2) 3 3) () Nag) + tallyAt (dCell (pe c 1) 3 1) () Nag) :=
    mayWait_above c (.dma (semOf 1 5)) _ (by show Above (lv (dCell c 1 5) ()) _; rw [lv_d]; exact above_add (above_add (above_add (above_zero _) (by rw [lv_d]; decide)) (by rw [lv_d]; decide)) (by rw [lv_d]; decide))
  sl_exec_parts
  iapply (wp_store 𝒱₀ (c : Thread nD τ) none Set.univ (m := oM) (Mk := Finset.univ) hs1) $$ Ho01; iintro Ho01
  sl_exec_parts
  have hwA1 : (oRows c 1).view.read (Elt F) ((oM.access (Rect.unit (s := S1024x1024) (k0_off3 c (BitVec.ofNat 32 (128 * (1 : Fin 2).val))) S128x1024.size (k0_off3_inb c 1)) : View sig .tc .vmem _ _).write (Elt F) o01 (k0_pay21 (sound_body.sl.r_8 m c) (sound_body.sl.v456 m c) (sound_body.sl.v468 m c)) Finset.univ) = R m c 1 := by
    refine (out_read c 1 _ _).trans ?_
    unfold R Vals.red own32 Vals.part32 xrOwn got sent Vals.part16 xrO Gr Ur Dr
    sl_unfold_words
    simp only [View.readCov_unit_zero (S := S1024x2048) _ hz2, View.readCov_unit_zero (S := S2048x1024) _ hz2, slv0, slv1, slv2, slv3, slv4, slv5]
    rfl
  ihave Hth1 := (thirds c 1 _).1 $$ Ho01
  icases Hth1 with ⟨Ho01a, Ho01b, Ho01c⟩
  iapply (wp_send_ag m c _ 0 1 (dev13_eq c) (κ₁ := K (c, idx 2 1)) (κ₂ := K (pe c 1, idx 3 1)) _ e1o1 ((0 + tallyAt (dCell (pe c 3) 3 5) () Nag) + tallyAt (dCell (pe c 2) 3 3) () Nag) _ hwA1)
    $$ [Ho01a He1o1 HO HtT1 HtA01]
  · isplitr; · iexact HI21
    isplitr; · iexact HIa01
    isplitl [Ho01a]; · iexact Ho01a
    isplitl [He1o1]; · iexact He1o1
    isplitl [HO]; · iexact HO
    isplitl [HtT1]; · (unfold Tok; iexact HtT1)
    isplitr; · iexact HR21
    isplitl [HtA01]; · (unfold Tok; iexact HtA01)
    iexact HRa01
  iintro ⟨HcT1, HO⟩
  ihave HcT1 := (show (cred (tallyAt (dCell c 2 (slotOf 0 1)) () Nag) : sProp 𝕄) ⊢ Cr (dCell c 2 1) Nag from Entails.of_eq rfl) $$ HcT1
  sl_exec_parts
  iapply (wp_send_ag m c _ 1 1 (dev14_eq c) (κ₁ := K (c, idx 2 3)) (κ₂ := K (pe c 2, idx 3 3)) _ e2o1 (0 + tallyAt (dCell (pe c 3) 3 5) () Nag) _ hwA1)
    $$ [Ho01b He2o1 HO HtT3 HtA11]
  · isplitr; · iexact HI23
    isplitr; · iexact HIa11
    isplitl [Ho01b]; · iexact Ho01b
    isplitl [He2o1]; · iexact He2o1
    isplitl [HO]; · iexact HO
    isplitl [HtT3]; · (unfold Tok; iexact HtT3)
    isplitr; · iexact HR23
    isplitl [HtA11]; · (unfold Tok; iexact HtA11)
    iexact HRa11
  iintro ⟨HcT3, HO⟩
  ihave HcT3 := (show (cred (tallyAt (dCell c 2 (slotOf 1 1)) () Nag) : sProp 𝕄) ⊢ Cr (dCell c 2 3) Nag from Entails.of_eq rfl) $$ HcT3
  sl_exec_parts
  iapply (wp_send_ag m c _ 2 1 (dev15_eq c) (κ₁ := K (c, idx 2 5)) (κ₂ := K (pe c 3, idx 3 5)) _ e3o1 0 _ hwA1)
    $$ [Ho01c He3o1 HO HtT5 HtA21]
  · isplitr; · iexact HI25
    isplitr; · iexact HIa21
    isplitl [Ho01c]; · iexact Ho01c
    isplitl [He3o1]; · iexact He3o1
    isplitl [HO]; · iexact HO
    isplitl [HtT5]; · (unfold Tok; iexact HtT5)
    isplitr; · iexact HR25
    isplitl [HtA21]; · (unfold Tok; iexact HtA21)
    iexact HRa21
  iintro ⟨HcT5, HO⟩
  ihave HcT5 := (show (cred (tallyAt (dCell c 2 (slotOf 2 1)) () Nag) : sProp 𝕄) ⊢ Cr (dCell c 2 5) Nag from Entails.of_eq rfl) $$ HcT5
  sl_exec_parts
  iapply (Rounds.wp_wait_rest_token 𝒱₀ ER (sched m) (c : Thread nD τ) none (κ := K (c, idx 3 0))
      (wpE_waitDma2_eq 𝒱₀ (c : Thread nD τ) none Set.univ) (Set.mem_univ _) () (sm := .dma (semOf 3 0)) (O := 0) (R := 0) (m := 0) (T := ∅)
      (by show 0 + (oRows c 0).view.dmaCredit = (sched m).expect (dCell c 3 0) 0
          rw [Nat.zero_add, expect_d]; exact (rows_credit c 0 (semOf 3 0)).trans Nof_three.symm)) $$ [HcA0 HO Ha30]
  · isplitr; · iexact HI30
    isplitl [HcA0]; · (unfold Cr; iexact HcA0)
    isplitl [HO]; · iexact HO
    isplitr; · rw [MayWait_zero]; iempintro
    iexact Ha30
  iintro ⟨HO, Ha30, -, Hpay⟩
  ihave Ha30_pay1 := (Entails.of_eq ((rest_d m c 3 0).trans ((dPay_arecv_own_00 m c).trans (regPts_def _ _ _ _)))) $$ Hpay
  first | sl_exec_parts | skip
  iapply (Rounds.wp_wait_rest_token 𝒱₀ ER (sched m) (c : Thread nD τ) none (κ := K (c, idx 3 2))
      (wpE_waitDma2_eq 𝒱₀ (c : Thread nD τ) none Set.univ) (Set.mem_univ _) () (sm := .dma (semOf 3 2)) (O := 0) (R := 0) (m := 0) (T := ∅)
      (by show 0 + (oRows c 0).view.dmaCredit = (sched m).expect (dCell c 3 2) 0
          rw [Nat.zero_add, expect_d]; exact (rows_credit c 0 (semOf 3 2)).trans Nof_three.symm)) $$ [HcA2 HO Ha32]
  · isplitr; · iexact HI32
    isplitl [HcA2]; · (unfold Cr; iexact HcA2)
    isplitl [HO]; · iexact HO
    isplitr; · rw [MayWait_zero]; iempintro
    iexact Ha32
  iintro ⟨HO, Ha32, -, Hpay⟩
  ihave Ha32_pay1 := (Entails.of_eq ((rest_d m c 3 2).trans ((dPay_arecv_own_10 m c).trans (regPts_def _ _ _ _)))) $$ Hpay
  first | sl_exec_parts | skip
  iapply (Rounds.wp_wait_rest_token 𝒱₀ ER (sched m) (c : Thread nD τ) none (κ := K (c, idx 3 4))
      (wpE_waitDma2_eq 𝒱₀ (c : Thread nD τ) none Set.univ) (Set.mem_univ _) () (sm := .dma (semOf 3 4)) (O := 0) (R := 0) (m := 0) (T := ∅)
      (by show 0 + (oRows c 0).view.dmaCredit = (sched m).expect (dCell c 3 4) 0
          rw [Nat.zero_add, expect_d]; exact (rows_credit c 0 (semOf 3 4)).trans Nof_three.symm)) $$ [HcA4 HO Ha34]
  · isplitr; · iexact HI34
    isplitl [HcA4]; · (unfold Cr; iexact HcA4)
    isplitl [HO]; · iexact HO
    isplitr; · rw [MayWait_zero]; iempintro
    iexact Ha34
  iintro ⟨HO, Ha34, -, Hpay⟩
  ihave Ha34_pay1 := (Entails.of_eq ((rest_d m c 3 4).trans ((dPay_arecv_own_20 m c).trans (regPts_def _ _ _ _)))) $$ Hpay
  first | sl_exec_parts | skip
  iapply (Rounds.wp_wait_rest_token 𝒱₀ ER (sched m) (c : Thread nD τ) none (κ := K (c, idx 3 1))
      (wpE_waitDma2_eq 𝒱₀ (c : Thread nD τ) none Set.univ) (Set.mem_univ _) () (sm := .dma (semOf 3 1)) (O := 0) (R := 0) (m := 0) (T := ∅)
      (by show 0 + (oRows c 1).view.dmaCredit = (sched m).expect (dCell c 3 1) 0
          rw [Nat.zero_add, expect_d]; exact (rows_credit c 1 (semOf 3 1)).trans Nof_three.symm)) $$ [HcA1 HO Ha31]
  · isplitr; · iexact HI31
    isplitl [HcA1]; · (unfold Cr; iexact HcA1)
    isplitl [HO]; · iexact HO
    isplitr; · rw [MayWait_zero]; iempintro
    iexact Ha31
  iintro ⟨HO, Ha31, -, Hpay⟩
  ihave Ha31_pay1 := (Entails.of_eq ((rest_d m c 3 1).trans ((dPay_arecv_own_01 m c).trans (regPts_def _ _ _ _)))) $$ Hpay
  first | sl_exec_parts | skip
  iapply (Rounds.wp_wait_rest_token 𝒱₀ ER (sched m) (c : Thread nD τ) none (κ := K (c, idx 3 3))
      (wpE_waitDma2_eq 𝒱₀ (c : Thread nD τ) none Set.univ) (Set.mem_univ _) () (sm := .dma (semOf 3 3)) (O := 0) (R := 0) (m := 0) (T := ∅)
      (by show 0 + (oRows c 1).view.dmaCredit = (sched m).expect (dCell c 3 3) 0
          rw [Nat.zero_add, expect_d]; exact (rows_credit c 1 (semOf 3 3)).trans Nof_three.symm)) $$ [HcA3 HO Ha33]
  · isplitr; · iexact HI33
    isplitl [HcA3]; · (unfold Cr; iexact HcA3)
    isplitl [HO]; · iexact HO
    isplitr; · rw [MayWait_zero]; iempintro
    iexact Ha33
  iintro ⟨HO, Ha33, -, Hpay⟩
  ihave Ha33_pay1 := (Entails.of_eq ((rest_d m c 3 3).trans ((dPay_arecv_own_11 m c).trans (regPts_def _ _ _ _)))) $$ Hpay
  first | sl_exec_parts | skip
  iapply (Rounds.wp_wait_rest_token 𝒱₀ ER (sched m) (c : Thread nD τ) none (κ := K (c, idx 3 5))
      (wpE_waitDma2_eq 𝒱₀ (c : Thread nD τ) none Set.univ) (Set.mem_univ _) () (sm := .dma (semOf 3 5)) (O := 0) (R := 0) (m := 0) (T := ∅)
      (by show 0 + (oRows c 1).view.dmaCredit = (sched m).expect (dCell c 3 5) 0
          rw [Nat.zero_add, expect_d]; exact (rows_credit c 1 (semOf 3 5)).trans Nof_three.symm)) $$ [HcA5 HO Ha35]
  · isplitr; · iexact HI35
    isplitl [HcA5]; · (unfold Cr; iexact HcA5)
    isplitl [HO]; · iexact HO
    isplitr; · rw [MayWait_zero]; iempintro
    iexact Ha35
  iintro ⟨HO, Ha35, -, Hpay⟩
  ihave Ha35_pay1 := (Entails.of_eq ((rest_d m c 3 5).trans ((dPay_arecv_own_21 m c).trans (regPts_def _ _ _ _)))) $$ Hpay
  first | sl_exec_parts | skip
  iapply (Rounds.wp_wait_rest_token 𝒱₀ ER (sched m) (c : Thread nD τ) none (κ := K (c, idx 2 0))
      (wpE_waitDma2_eq 𝒱₀ (c : Thread nD τ) none Set.univ) (Set.mem_univ _) () (sm := .dma (semOf 2 0)) (O := 0) (R := 0) (m := 0) (T := ∅)
      (by show 0 + (oRows c 0).view.dmaCredit = (sched m).expect (dCell c 2 0) 0
          rw [Nat.zero_add, expect_d]; exact (rows_credit c 0 (semOf 2 0)).trans Nof_two.symm)) $$ [HcT0 HO Ha20]
  · isplitr; · iexact HI20
    isplitl [HcT0]; · (unfold Cr; iexact HcT0)
    isplitl [HO]; · iexact HO
    isplitr; · rw [MayWait_zero]; iempintro
    iexact Ha20
  iintro ⟨HO, Ha20, -, Hpay⟩
  ihave Ha20_pay1 := (Entails.of_eq ((rest_d m c 2 0).trans ((dPay_asend_00 m c).trans (regPts_def _ _ _ _)))) $$ Hpay
  first | sl_exec_parts | skip
  iapply (Rounds.wp_wait_rest_token 𝒱₀ ER (sched m) (c : Thread nD τ) none (κ := K (c, idx 2 2))
      (wpE_waitDma2_eq 𝒱₀ (c : Thread nD τ) none Set.univ) (Set.mem_univ _) () (sm := .dma (semOf 2 2)) (O := 0) (R := 0) (m := 0) (T := ∅)
      (by show 0 + (oRows c 0).view.dmaCredit = (sched m).expect (dCell c 2 2) 0
          rw [Nat.zero_add, expect_d]; exact (rows_credit c 0 (semOf 2 2)).trans Nof_two.symm)) $$ [HcT2 HO Ha22]
  · isplitr; · iexact HI22
    isplitl [HcT2]; · (unfold Cr; iexact HcT2)
    isplitl [HO]; · iexact HO
    isplitr; · rw [MayWait_zero]; iempintro
    iexact Ha22
  iintro ⟨HO, Ha22, -, Hpay⟩
  ihave Ha22_pay1 := (Entails.of_eq ((rest_d m c 2 2).trans ((dPay_asend_10 m c).trans (regPts_def _ _ _ _)))) $$ Hpay
  first | sl_exec_parts | skip
  iapply (Rounds.wp_wait_rest_token 𝒱₀ ER (sched m) (c : Thread nD τ) none (κ := K (c, idx 2 4))
      (wpE_waitDma2_eq 𝒱₀ (c : Thread nD τ) none Set.univ) (Set.mem_univ _) () (sm := .dma (semOf 2 4)) (O := 0) (R := 0) (m := 0) (T := ∅)
      (by show 0 + (oRows c 0).view.dmaCredit = (sched m).expect (dCell c 2 4) 0
          rw [Nat.zero_add, expect_d]; exact (rows_credit c 0 (semOf 2 4)).trans Nof_two.symm)) $$ [HcT4 HO Ha24]
  · isplitr; · iexact HI24
    isplitl [HcT4]; · (unfold Cr; iexact HcT4)
    isplitl [HO]; · iexact HO
    isplitr; · rw [MayWait_zero]; iempintro
    iexact Ha24
  iintro ⟨HO, Ha24, -, Hpay⟩
  ihave Ha24_pay1 := (Entails.of_eq ((rest_d m c 2 4).trans ((dPay_asend_20 m c).trans (regPts_def _ _ _ _)))) $$ Hpay
  first | sl_exec_parts | skip
  iapply (Rounds.wp_wait_rest_token 𝒱₀ ER (sched m) (c : Thread nD τ) none (κ := K (c, idx 2 1))
      (wpE_waitDma2_eq 𝒱₀ (c : Thread nD τ) none Set.univ) (Set.mem_univ _) () (sm := .dma (semOf 2 1)) (O := 0) (R := 0) (m := 0) (T := ∅)
      (by show 0 + (oRows c 1).view.dmaCredit = (sched m).expect (dCell c 2 1) 0
          rw [Nat.zero_add, expect_d]; exact (rows_credit c 1 (semOf 2 1)).trans Nof_two.symm)) $$ [HcT1 HO Ha21]
  · isplitr; · iexact HI21
    isplitl [HcT1]; · (unfold Cr; iexact HcT1)
    isplitl [HO]; · iexact HO
    isplitr; · rw [MayWait_zero]; iempintro
    iexact Ha21
  iintro ⟨HO, Ha21, -, Hpay⟩
  ihave Ha21_pay1 := (Entails.of_eq ((rest_d m c 2 1).trans ((dPay_asend_01 m c).trans (regPts_def _ _ _ _)))) $$ Hpay
  first | sl_exec_parts | skip
  iapply (Rounds.wp_wait_rest_token 𝒱₀ ER (sched m) (c : Thread nD τ) none (κ := K (c, idx 2 3))
      (wpE_waitDma2_eq 𝒱₀ (c : Thread nD τ) none Set.univ) (Set.mem_univ _) () (sm := .dma (semOf 2 3)) (O := 0) (R := 0) (m := 0) (T := ∅)
      (by show 0 + (oRows c 1).view.dmaCredit = (sched m).expect (dCell c 2 3) 0
          rw [Nat.zero_add, expect_d]; exact (rows_credit c 1 (semOf 2 3)).trans Nof_two.symm)) $$ [HcT3 HO Ha23]
  · isplitr; · iexact HI23
    isplitl [HcT3]; · (unfold Cr; iexact HcT3)
    isplitl [HO]; · iexact HO
    isplitr; · rw [MayWait_zero]; iempintro
    iexact Ha23
  iintro ⟨HO, Ha23, -, Hpay⟩
  ihave Ha23_pay1 := (Entails.of_eq ((rest_d m c 2 3).trans ((dPay_asend_11 m c).trans (regPts_def _ _ _ _)))) $$ Hpay
  first | sl_exec_parts | skip
  iapply (Rounds.wp_wait_rest_token 𝒱₀ ER (sched m) (c : Thread nD τ) none (κ := K (c, idx 2 5))
      (wpE_waitDma2_eq 𝒱₀ (c : Thread nD τ) none Set.univ) (Set.mem_univ _) () (sm := .dma (semOf 2 5)) (O := 0) (R := 0) (m := 0) (T := ∅)
      (by show 0 + (oRows c 1).view.dmaCredit = (sched m).expect (dCell c 2 5) 0
          rw [Nat.zero_add, expect_d]; exact (rows_credit c 1 (semOf 2 5)).trans Nof_two.symm)) $$ [HcT5 HO Ha25]
  · isplitr; · iexact HI25
    isplitl [HcT5]; · (unfold Cr; iexact HcT5)
    isplitl [HO]; · iexact HO
    isplitr; · rw [MayWait_zero]; iempintro
    iexact Ha25
  iintro ⟨HO, Ha25, -, Hpay⟩
  ihave Ha25_pay1 := (Entails.of_eq ((rest_d m c 2 5).trans ((dPay_asend_21 m c).trans (regPts_def _ _ _ _)))) $$ Hpay
  simp only [Prog.pure_eq_ret, Prog.bind]
  rw [wp_ret]
  iapply (finish m ρ K c)
  isplitr; · iexact Hrec
  isplitl [Hs0]; · (iexists _; iexact Hs0)
  isplitl [Hs1]; · (iexists _; iexact Hs1)
  isplitl [Hs2]; · (iexists _; iexact Hs2)
  isplitl [Hx]; · iexact Hx
  isplitl [Hg]; · iexact Hg
  isplitl [Hu]; · iexact Hu
  isplitl [Hd]; · iexact Hd
  isplitl [Ha00]; · iexact Ha00
  isplitl [Ha01]; · iexact Ha01
  isplitl [Ha02]; · iexact Ha02
  isplitl [Ha03]; · iexact Ha03
  isplitl [Ha04]; · iexact Ha04
  isplitl [Ha05]; · iexact Ha05
  isplitl [Ha10]; · iexact Ha10
  isplitl [Ha11]; · iexact Ha11
  isplitl [Ha12]; · iexact Ha12
  isplitl [Ha13]; · iexact Ha13
  isplitl [Ha14]; · iexact Ha14
  isplitl [Ha15]; · iexact Ha15
  isplitl [Ha20]; · iexact Ha20
  isplitl [Ha21]; · iexact Ha21
  isplitl [Ha22]; · iexact Ha22
  isplitl [Ha23]; · iexact Ha23
  isplitl [Ha24]; · iexact Ha24
  isplitl [Ha25]; · iexact Ha25
  isplitl [Ha30]; · iexact Ha30
  isplitl [Ha31]; · iexact Ha31
  isplitl [Ha32]; · iexact Ha32
  isplitl [Ha33]; · iexact Ha33
  isplitl [Ha34]; · iexact Ha34
  isplitl [Ha35]; · iexact Ha35
  isplitl [Ha00_pay1]; · iexact Ha00_pay1
  isplitl [Ha10_pay1]; · iexact Ha10_pay1
  isplitl [Ha20_pay1]; · iexact Ha20_pay1
  isplitl [Ha30_pay1]; · iexact Ha30_pay1
  isplitl [Ha01_pay1]; · iexact Ha01_pay1
  isplitl [Ha11_pay1]; · iexact Ha11_pay1
  isplitl [Ha21_pay1]; · iexact Ha21_pay1
  isplitl [Ha31_pay1]; · iexact Ha31_pay1
  isplitl [Ha02_pay1]; · iexact Ha02_pay1
  isplitl [Ha12_pay1]; · iexact Ha12_pay1
  isplitl [Ha22_pay1]; · iexact Ha22_pay1
  isplitl [Ha32_pay1]; · iexact Ha32_pay1
  isplitl [Ha03_pay1]; · iexact Ha03_pay1
  isplitl [Ha13_pay1]; · iexact Ha13_pay1
  isplitl [Ha23_pay1]; · iexact Ha23_pay1
  isplitl [Ha33_pay1]; · iexact Ha33_pay1
  isplitl [Ha04_pay1]; · iexact Ha04_pay1
  isplitl [Ha14_pay1]; · iexact Ha14_pay1
  isplitl [Ha24_pay1]; · iexact Ha24_pay1
  isplitl [Ha34_pay1]; · iexact Ha34_pay1
  isplitl [Ha05_pay1]; · iexact Ha05_pay1
  isplitl [Ha15_pay1]; · iexact Ha15_pay1
  isplitl [Ha25_pay1]; · iexact Ha25_pay1
  isplitl [Ha35_pay1]; · iexact Ha35_pay1
  iexists _; iexact HO

end Cert.KernelIdeal.Bx

end
-- ==== Proof.Oblig.lean ====
/-
  The pipeline library's body obligation for one device, from the run of its body: the library hands the body each
  window's staging buffer whole at what the window then holds, and takes it back at what the body leaves.
-/
import proofs.«900523_g7700000000000524_dist_gated_mlp_tp_i_m1024_h2048_d1024_v7x_i4_bf16_1_alg».proof.Proof.Body

noncomputable section

namespace Cert.KernelIdeal.Ox

open Cert.KernelIdeal Cert.KernelIdeal.Gen Cert.KernelIdeal.Px

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A whole buffer owned at given contents is its points-to at some contents equal to them. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 20000 in
/-- The library's body obligation on device c: at the one point, the five staging buffers whole. -/
theorem body_obligation (c : Dev nD) : BodyObligation (dats (F := F) m ρ 0 c) (defs₀ (F := F)) 𝒱₀ () Set.univ := fun t => by
  rw [Bx.fin_N t]
  rw [bigSep_W0, bigSep_W0]
  simp only [owns_whole_eq]
  show Bx.bodyPre' m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8) (fun _ => Bx.bodyPost m ρ c)
  exact Bx.sound_body m ρ c

end Cert.KernelIdeal.Ox

end
-- ==== Proof.W.Vals.lean ====
/-
  The values the exchange moves, as pure functions of a device's argument blocks (any float instance).

  A device holds all of x, a band of 2048 columns of the gate and up projections and the matching band of
  2048 rows of the down projection. For a block of 128 rows of x its SHARE of the result rows is
  (x_rows · Wg_band) ∘ silu(x_rows · Wu_band), narrowed, times Wd_band: a partial sum of the contraction
  over the 8192 hidden columns. The owner of a row block adds its own share, kept wide, to the three
  narrowed shares it receives, and narrows the sum.
-/
import proofs.«900523_g7700000000000524_dist_gated_mlp_tp_i_m1024_h2048_d1024_v7x_i4_bf16_1_alg».proof.Proof.Gen.Kernel.Skeleton

noncomputable section

namespace Cert.Kernel.Vals

open Idealize.ShloMosaic Cert.Kernel Cert.Kernel.Gen

variable {F : FTy → Type} [FloatOps F]

/-- A device's share of one block of 128 result rows, wide: the gated product of the row block with the
    device's (narrowed) weight bands. -/
def part32 (xr : Vec F S128x1024 .f32) (wg wu : Vec F S1024x2048 .f32) (wd : Vec F S2048x1024 .f32) : FVec F S128x1024 .f32 :=
  k0_pay11 (k0_pay10 xr (k0_pay1 wg) (k0_pay2 wu)) (k0_pay3 wd)

/-- The same share narrowed, laid out as one slot of the exchange buffer. -/
def part16 (xr : Vec F S128x1024 .f32) (wg wu : Vec F S1024x2048 .f32) (wd : Vec F S2048x1024 .f32) : FVec F S1x128x1024 .bf16 :=
  k0_pay4 xr (k0_pay1 wg) (k0_pay2 wu) (k0_pay3 wd)

/-- The owner's wide share plus the three received narrow ones, in the order they are added, narrowed. -/
def red (own : FVec F S128x1024 .f32) (s0 s1 s2 : Vec F S1x128x1024 .bf16) : FVec F S128x1024 .bf16 :=
  k0_pay19 (k0_pay18 own s0 s1) s2

end Cert.Kernel.Vals

end
-- ==== Proof.W.Proto.lean ====
/-
  The exchange protocol of the tensor-parallel gated MLP on four devices, under the rounds discipline.

  Every device c enters by signalling the barrier cell of each other device once and waiting for its own three
  units. Then, for each other device j = c + off (off = 1, 2, 3) and each half g = 0, 1 of j's 256 result rows, c
  computes its share of those 128 rows, stores it in slot (off - 1) * 2 + g of its send buffer and copies the slot
  into the same slot of j's receive buffer (send cell and receive cell of that slot). For each half g of its OWN rows
  c adds the three received slots (from c - 1, c - 2, c - 3) to its own wide share, stores the narrowed sum into its
  result rows and copies those rows into the same rows of every other device's result buffer (a second set of send
  and receive cells, same slot numbering). It leaves after all twelve receives and all twelve sends have completed.

  A barrier unit from device p tells c that p is inside the kernel, and hands c what c will write on p: the two
  receive slots c's shares land in, and c's two row blocks of p's result buffer.
-/
import proofs.«900523_g7700000000000524_dist_gated_mlp_tp_i_m1024_h2048_d1024_v7x_i4_bf16_1_alg».proof.Proof.Gen.Kernel
import proofs.«900523_g7700000000000524_dist_gated_mlp_tp_i_m1024_h2048_d1024_v7x_i4_bf16_1_alg».proof.Proof.Gen.Kernel.Skeleton
import proofs.«900523_g7700000000000524_dist_gated_mlp_tp_i_m1024_h2048_d1024_v7x_i4_bf16_1_alg».proof.Proof.Gen.Kernel.Launch
import proofs.«900523_g7700000000000524_dist_gated_mlp_tp_i_m1024_h2048_d1024_v7x_i4_bf16_1_alg».proof.Proof.Gen.Kernel.Points
import proofs.«900523_g7700000000000524_dist_gated_mlp_tp_i_m1024_h2048_d1024_v7x_i4_bf16_1_alg».proof.Proof.W.Vals
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

noncomputable section

namespace Cert.Kernel.Px

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's (a barrier cell has three duties) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

/-! ## The mesh: device c + o -/

def pe (c : Dev nD) (o : ℕ) : Dev nD := ⟨(c.val + o) % 4, Nat.mod_lt _ (by decide)⟩

theorem pe_pe (c : Dev nD) (a b : ℕ) : pe (pe c a) b = pe c (a + b) := Fin.ext (by simp only [pe]; omega)
theorem pe_four (c : Dev nD) : pe c 4 = c := by revert c; decide
theorem pe_zero (c : Dev nD) : pe c 0 = c := by revert c; decide

theorem k0_dev1_eq : ∀ c : Dev nD, k0_dev1 c = (c.val + 1) % 4 := by decide +kernel
theorem k0_dev2_eq : ∀ c : Dev nD, k0_dev2 c = (c.val + 2) % 4 := by decide +kernel
theorem k0_dev3_eq : ∀ c : Dev nD, k0_dev3 c = (c.val + 3) % 4 := by decide +kernel
theorem k0_dev4_eq : ∀ c : Dev nD, k0_dev4 c = (c.val + 1) % 4 := by decide +kernel
theorem k0_dev5_eq : ∀ c : Dev nD, k0_dev5 c = (c.val + 2) % 4 := by decide +kernel
theorem k0_dev6_eq : ∀ c : Dev nD, k0_dev6 c = (c.val + 3) % 4 := by decide +kernel
theorem k0_dev7_eq : ∀ c : Dev nD, k0_dev7 c = (c.val + 1) % 4 := by decide +kernel
theorem k0_dev8_eq : ∀ c : Dev nD, k0_dev8 c = (c.val + 2) % 4 := by decide +kernel
theorem k0_dev9_eq : ∀ c : Dev nD, k0_dev9 c = (c.val + 3) % 4 := by decide +kernel
theorem k0_dev10_eq : ∀ c : Dev nD, k0_dev10 c = (c.val + 1) % 4 := by decide +kernel
theorem k0_dev11_eq : ∀ c : Dev nD, k0_dev11 c = (c.val + 2) % 4 := by decide +kernel
theorem k0_dev12_eq : ∀ c : Dev nD, k0_dev12 c = (c.val + 3) % 4 := by decide +kernel
theorem k0_dev13_eq : ∀ c : Dev nD, k0_dev13 c = (c.val + 1) % 4 := by decide +kernel
theorem k0_dev14_eq : ∀ c : Dev nD, k0_dev14 c = (c.val + 2) % 4 := by decide +kernel
theorem k0_dev15_eq : ∀ c : Dev nD, k0_dev15 c = (c.val + 3) % 4 := by decide +kernel

theorem dev1_eq (c : Dev nD) : (⟨k0_dev1 c, k0_dev1_lt c⟩ : Dev nD) = pe c 1 := Fin.ext (k0_dev1_eq c)
theorem dev2_eq (c : Dev nD) : (⟨k0_dev2 c, k0_dev2_lt c⟩ : Dev nD) = pe c 2 := Fin.ext (k0_dev2_eq c)
theorem dev3_eq (c : Dev nD) : (⟨k0_dev3 c, k0_dev3_lt c⟩ : Dev nD) = pe c 3 := Fin.ext (k0_dev3_eq c)
theorem dev4_eq (c : Dev nD) : (⟨k0_dev4 c, k0_dev4_lt c⟩ : Dev nD) = pe c 1 := Fin.ext (k0_dev4_eq c)
theorem dev5_eq (c : Dev nD) : (⟨k0_dev5 c, k0_dev5_lt c⟩ : Dev nD) = pe c 2 := Fin.ext (k0_dev5_eq c)
theorem dev6_eq (c : Dev nD) : (⟨k0_dev6 c, k0_dev6_lt c⟩ : Dev nD) = pe c 3 := Fin.ext (k0_dev6_eq c)
theorem dev7_eq (c : Dev nD) : (⟨k0_dev7 c, k0_dev7_lt c⟩ : Dev nD) = pe c 1 := Fin.ext (k0_dev7_eq c)
theorem dev8_eq (c : Dev nD) : (⟨k0_dev8 c, k0_dev8_lt c⟩ : Dev nD) = pe c 2 := Fin.ext (k0_dev8_eq c)
theorem dev9_eq (c : Dev nD) : (⟨k0_dev9 c, k0_dev9_lt c⟩ : Dev nD) = pe c 3 := Fin.ext (k0_dev9_eq c)
theorem dev10_eq (c : Dev nD) : (⟨k0_dev10 c, k0_dev10_lt c⟩ : Dev nD) = pe c 1 := Fin.ext (k0_dev10_eq c)
theorem dev11_eq (c : Dev nD) : (⟨k0_dev11 c, k0_dev11_lt c⟩ : Dev nD) = pe c 2 := Fin.ext (k0_dev11_eq c)
theorem dev12_eq (c : Dev nD) : (⟨k0_dev12 c, k0_dev12_lt c⟩ : Dev nD) = pe c 3 := Fin.ext (k0_dev12_eq c)
theorem dev13_eq (c : Dev nD) : (⟨k0_dev13 c, k0_dev13_lt c⟩ : Dev nD) = pe c 1 := Fin.ext (k0_dev13_eq c)
theorem dev14_eq (c : Dev nD) : (⟨k0_dev14 c, k0_dev14_lt c⟩ : Dev nD) = pe c 2 := Fin.ext (k0_dev14_eq c)
theorem dev15_eq (c : Dev nD) : (⟨k0_dev15 c, k0_dev15_lt c⟩ : Dev nD) = pe c 3 := Fin.ext (k0_dev15_eq c)

/-- The row offset of the x rows a device reads for the device off = 1 + r₁ places after it, half r₂. -/
theorem k0_off1_eq : ∀ (c : Dev nD) (r₁ : Fin 3) (r₂ : Fin 2),
    k0_off1 c (BitVec.ofNat 32 (1 + r₁.val)) (BitVec.ofNat 32 (128 * r₂.val)) = ![256 * ((c.val + 1 + r₁.val) % 4) + 128 * r₂.val, 0] := by decide +kernel

/-! ## The buffers, as the kernel's body names them -/

abbrev xM : Memref sig .tc .vmem S1024x1024 .f32 := Memref.whole cc0_stg0_0
abbrev gM : Memref sig .tc .vmem S1024x2048 .f32 := Memref.whole cc0_stg1_0
abbrev uM : Memref sig .tc .vmem S1024x2048 .f32 := Memref.whole cc0_stg2_0
abbrev dM : Memref sig .tc .vmem S2048x1024 .f32 := Memref.whole cc0_stg3_0
abbrev oM : Memref sig .tc .vmem S1024x1024 .bf16 := Memref.whole cc0_stg4_0
abbrev gbM : Memref sig .tc .vmem S1024x2048 .bf16 := Memref.whole cc0_scratch0
abbrev ubM : Memref sig .tc .vmem S1024x2048 .bf16 := Memref.whole cc0_scratch1
abbrev dbM : Memref sig .tc .vmem S2048x1024 .bf16 := Memref.whole cc0_scratch2
abbrev sndM : Memref sig .tc .vmem S6x128x1024 .bf16 := Memref.whole cc0_scratch3
abbrev rcvM : Memref sig .tc .vmem S6x128x1024 .bf16 := Memref.whole cc0_scratch4

theorem inb_slot : ∀ (k : Fin 6) (a : Fin 3), (![k.val, 0, 0] : Fin 3 → Nat) a + S1x128x1024.size a ≤ S6x128x1024.size a := by decide
theorem inb_s6 : ∀ (k : Fin 6) (a : Fin 1), (![k.val] : Fin 1 → Nat) a + S1.size a ≤ S6.size a := by decide

/-- The rectangle of slot k in a six-slot buffer. -/
abbrev slotRect (k : Fin 6) : Rect S6x128x1024 := Rect.unit (s := S6x128x1024) ![k.val, 0, 0] S1x128x1024.size (inb_slot k)

/-- Slot k of the send buffer and of the receive buffer, as the transfers see them: 128 × 1024. -/
abbrev sndSlot (k : Fin 6) : Memref sig .tc .vmem S128x1024 .bf16 :=
  (sndM.slice (slotRect k) (fun _ => rfl)).squeeze S128x1024 squeezes_S1x128x1024_S128x1024
abbrev rcvSlot (k : Fin 6) : Memref sig .tc .vmem S128x1024 .bf16 :=
  (rcvM.slice (slotRect k) (fun _ => rfl)).squeeze S128x1024 squeezes_S1x128x1024_S128x1024

/-- Half g of device d's 256 result rows, in a device's result buffer. -/
abbrev oRows (d : Dev nD) (g : Fin 2) : Memref sig .tc .vmem S128x1024 .bf16 :=
  oM.slice (Rect.unit (s := S1024x1024) (k0_off4 d (BitVec.ofNat 32 (128 * g.val))) S128x1024.size (k0_off4_inb d g)) (fun _ => rfl)

/-! ## The cells -/

abbrev barS : Sem sig := (SemArray.scalar (sig.barrier 0 rfl) : Sems sig S_).sem

/-- The four semaphore arrays: share sends, share receives, result-row sends, result-row receives. -/
abbrev arr : Fin 4 → DmaSems sig S6 := ![cc0_scratch5, cc0_scratch6, cc0_scratch7, cc0_scratch8]
abbrev semOf (a : Fin 4) (k : Fin 6) : DmaSem sig :=
  (((arr a).slice (Rect.unit (s := S6) ![k.val] S1.size (inb_s6 k))).squeeze S_ squeezes_S1_S_).sem

abbrev barCell (c : Dev nD) : GSem nD τ sig := ((c : Thread nD τ), .reg barS)
abbrev dCell (c : Dev nD) (a : Fin 4) (k : Fin 6) : GSem nD τ sig := ((c : Thread nD τ), .dma (semOf a k))

/-- Which array and slot a DMA semaphore of the exchange is. -/
def dec (s : SemLoc sig) : Option (Fin 4 × Fin 6) :=
  match s with
  | .dma q => if h : 5 ≤ q.val ∧ q.val < 29 then some (⟨(q.val - 5) / 6, by omega⟩, ⟨(q.val - 5) % 6, Nat.mod_lt _ (by decide)⟩) else none
  | .reg _ => none

theorem dec_semOf : ∀ (a : Fin 4) (k : Fin 6), dec (.dma (semOf a k)) = some (a, k) := by decide +kernel
theorem dec_bar : dec (.reg barS) = none := rfl
theorem semOf_ne_bar (a : Fin 4) (k : Fin 6) : (SemLoc.dma (semOf a k) : SemLoc sig) ≠ .reg barS := fun h => by cases h

/-- Slot (off - 1) * 2 + g, for off = o + 1. -/
def slotOf (o : Fin 3) (g : Fin 2) : Fin 6 := ⟨o.val * 2 + g.val, by have := o.isLt; have := g.isLt; omega⟩

/-- The transfer credit of one 128 × 1024 bf16 block: into a receive slot, and into result rows. -/
abbrev Nrs : ℕ := (rcvSlot 0).view.dmaCredit
abbrev Nag : ℕ := (oRows 0 0).view.dmaCredit
theorem Nrs_pos : 0 < Nrs := View.dmaCredit_pos _ h_S128x1024
theorem Nag_pos : 0 < Nag := View.dmaCredit_pos _ h_S128x1024
def Nof (a : Fin 4) : ℕ := if a.val < 2 then Nrs else Nag

/-! ## Contents: every value the exchange moves, as a function of the devices' argument blocks -/

/-- Device c's staged arguments: all of x, its bands of the gate, up and down projections. -/
def Xs (c : Dev nD) : (cc0_stg0_0 : Ref sig .tc).ty.Contents (Elt F) := (win0_0.blk t0_0).view.read (Elt F) (m ((c : Thread nD τ).loc main_arg0))
def Gs (c : Dev nD) : (cc0_stg1_0 : Ref sig .tc).ty.Contents (Elt F) := (win0_1.blk t0_0).view.read (Elt F) (m ((c : Thread nD τ).loc main_arg1))
def Us (c : Dev nD) : (cc0_stg2_0 : Ref sig .tc).ty.Contents (Elt F) := (win0_2.blk t0_0).view.read (Elt F) (m ((c : Thread nD τ).loc main_arg2))
def Ds (c : Dev nD) : (cc0_stg3_0 : Ref sig .tc).ty.Contents (Elt F) := (win0_3.blk t0_0).view.read (Elt F) (m ((c : Thread nD τ).loc main_arg3))

/-- The 128 rows of x that device c reads for the device o + 1 places after it, half g. -/
def xrO (c : Dev nD) (o : Fin 3) (g : Fin 2) : Vec F S128x1024 .f32 :=
  xM.view.readAt (Elt F) (Rect.unit (s := S1024x1024) (k0_off1 c (BitVec.ofNat 32 (1 + o.val)) (BitVec.ofNat 32 (128 * g.val))) S128x1024.size (k0_off1_inb c o g)).toLoadRect (Xs m c)
/-- The rows of x of device c's own half g. -/
def xrOwn (c : Dev nD) : Fin 2 → Vec F S128x1024 .f32
  | ⟨0, _⟩ => xM.view.readAt (Elt F) (Rect.unit (s := S1024x1024) (k0_off2 c) S128x1024.size (k0_off2_inb c)).toLoadRect (Xs m c)
  | ⟨_ + 1, _⟩ => xM.view.readAt (Elt F) (Rect.unit (s := S1024x1024) (k0_off3 c 128#32) S128x1024.size (k0_off3_inb c 1)).toLoadRect (Xs m c)

/-- Device c's weight bands as the body's loads of the whole staging buffers read them. -/
def Gr (c : Dev nD) : Vec F S1024x2048 .f32 :=
  gM.view.readAt (Elt F) (Rect.unit (s := S1024x2048) ![0, 0] S1024x2048.size inb_S1024x2048_S1024x2048_0_0).toLoadRect (Gs m c)
def Ur (c : Dev nD) : Vec F S1024x2048 .f32 :=
  uM.view.readAt (Elt F) (Rect.unit (s := S1024x2048) ![0, 0] S1024x2048.size inb_S1024x2048_S1024x2048_0_0).toLoadRect (Us m c)
def Dr (c : Dev nD) : Vec F S2048x1024 .f32 :=
  dM.view.readAt (Elt F) (Rect.unit (s := S2048x1024) ![0, 0] S2048x1024.size inb_S2048x1024_S2048x1024_0_0).toLoadRect (Ds m c)

/-- What c sends to the device o + 1 places after it for that device's half g: its narrowed share, one slot. -/
def sent (c : Dev nD) (o : Fin 3) (g : Fin 2) : Vec F S1x128x1024 .bf16 := Vals.part16 (xrO m c o g) (Gr m c) (Ur m c) (Dr m c)
/-- What lands in c's receive slot (o, g): the share of the device o + 1 places before c. -/
def got (c : Dev nD) (o : Fin 3) (g : Fin 2) : Vec F S1x128x1024 .bf16 := sent m (pe c (3 - o.val)) o g
/-- c's own wide share of its half g. -/
def own32 (c : Dev nD) (g : Fin 2) : FVec F S128x1024 .f32 := Vals.part32 (xrOwn m c g) (Gr m c) (Ur m c) (Dr m c)
/-- The finished rows of device c's half g. -/
def R (c : Dev nD) (g : Fin 2) : Vec F S128x1024 .bf16 := Vals.red (own32 m c g) (got m c 0 g) (got m c 1 g) (got m c 2 g)

/-- A slot's contents as the transfers see them (128 × 1024). -/
def slotVal (w : Vec F S1x128x1024 .bf16) : Vec F S128x1024 .bf16 := shapeCast S128x1024 w shapeCasts_S1x128x1024_S128x1024

/-- The whole result, the same on every device: rows 256 d + 128 g + r are row r of `R d g`. -/
def OUT : (cc0_stg4_0 : Ref sig .tc).ty.Contents (Elt F) := fun i =>
  R m ⟨(i 0).val / 256 % 4, Nat.mod_lt _ (by decide)⟩ ⟨(i 0).val / 128 % 2, Nat.mod_lt _ (by decide)⟩
    (ValueIdx.ix2 ⟨(i 0).val % 128, Nat.mod_lt _ (by decide)⟩ (i 1))

/-- Some contents of a buffer: what a region's points-to says nothing about off the region. -/
def junk (ℓ : Loc nD τ sig) : Buf (Elt F) ℓ := fun _ => Classical.choice inferInstance

/-- A region of a buffer (a view's elements) held at share q with the view reading `w`. -/
def regPts {S : Shape} {e : EltTy} (t : Thread nD τ) (v : Memref sig t.2.kind .vmem S e) (q : PosShare TreeShare) (w : S.Idx → Elt F e) : sProp 𝕄 :=
  v.view.loc t ↦[v.view.set]{q} (v.view.write (Elt F) (junk (v.view.loc t)) w Finset.univ)
/-- The same region at some contents. -/
def regAny {S : Shape} {e : EltTy} (t : Thread nD τ) (v : Memref sig t.2.kind .vmem S e) : sProp 𝕄 :=
  iprop(∃ f : Buf (Elt F) (v.view.loc t), v.view.loc t ↦[v.view.set]{fullShare} f)

/-! ## The schedule: one round; a barrier cell has three unit duties, every transfer cell one -/

/-- The share of the result rows lent to the o-th of the three copies that read them at once. -/
def lentShare (o : Fin 3) : PosShare TreeShare :=
  match o with
  | ⟨0, _⟩ => fullShare.left
  | ⟨1, _⟩ => fullShare.right.left
  | ⟨_ + 2, _⟩ => fullShare.right.right

/-- Duty d of c's barrier cell is paid by p = c + (3 - d), to which c is the device 3 - d places after... c reaches p by
    o' + 1 = 3 - d places: p hands c the two receive slots c's shares land in and c's two row blocks of p's result. -/
def barPay (c : Dev nD) (d : Fin 3) : sProp 𝕄 :=
  iprop(regAny ((pe c (3 - d.val) : Dev nD) : Thread nD τ) (rcvSlot (slotOf ⟨2 - d.val, by omega⟩ 0))
      ∗ regAny ((pe c (3 - d.val) : Dev nD) : Thread nD τ) (rcvSlot (slotOf ⟨2 - d.val, by omega⟩ 1))
      ∗ regAny ((pe c (3 - d.val) : Dev nD) : Thread nD τ) (oRows c 0)
      ∗ regAny ((pe c (3 - d.val) : Dev nD) : Thread nD τ) (oRows c 1))

/-- What a transfer cell's one duty hands its owner c: a send cell the source it lent, a receive cell what landed. -/
def dPay (c : Dev nD) (a : Fin 4) (k : Fin 6) : sProp 𝕄 :=
  let o : Fin 3 := ⟨k.val / 2, by have := k.isLt; omega⟩
  let g : Fin 2 := ⟨k.val % 2, Nat.mod_lt _ (by decide)⟩
  match a with
  | ⟨0, _⟩ => regPts (c : Thread nD τ) (sndSlot k) fullShare (slotVal (sent m c o g))
  | ⟨1, _⟩ => regPts (c : Thread nD τ) (rcvSlot k) fullShare (slotVal (got m c o g))
  | ⟨2, _⟩ => regPts (c : Thread nD τ) (oRows c g) (lentShare o) (R m c g)
  | ⟨_ + 3, _⟩ => regPts (c : Thread nD τ) (oRows (pe c (3 - o.val)) g) fullShare (R m (pe c (3 - o.val)) g)

def sched : Rounds.Schedule (GSem nD τ sig) (Fin 3) 𝕄 where
  duties g r :=
    if r = 0 ∧ g.1.2 = .tc then (if g.2 = .reg barS then Finset.univ else if (dec g.2).isSome then {0} else ∅) else ∅
  unitless _ := False
  amount g _ _ := if g.2 = .reg barS then 1 else match dec g.2 with | some (a, _) => Nof a | none => 1
  payload g _ d :=
    if g.2 = .reg barS then barPay g.1.1 d
    else match dec g.2 with | some (a, k) => dPay m g.1.1 a k | none => iprop(emp)
  amount_pos g _ _ _ := by
    by_cases h : g.2 = .reg barS
    · rw [if_pos h]; exact Nat.one_pos
    · rw [if_neg h]
      cases hd : dec g.2 with
      | none => exact Nat.one_pos
      | some ak => obtain ⟨a, k⟩ := ak; dsimp only [Nof]; split
                   · exact Nrs_pos
                   · exact Nag_pos

section Sched
variable (c : Dev nD)

theorem duties_bar : (sched (F := F) m).duties (barCell c) 0 = Finset.univ := by
  dsimp only [sched]; rw [if_pos ⟨rfl, rfl⟩, if_pos rfl]
theorem duties_d (a : Fin 4) (k : Fin 6) : (sched (F := F) m).duties (dCell c a k) 0 = {0} := by
  dsimp only [sched]; rw [if_pos ⟨rfl, rfl⟩, if_neg (semOf_ne_bar a k), dec_semOf]; rfl
theorem duties_later (g : GSem nD τ sig) : ∀ r, 1 ≤ r → (sched (F := F) m).duties g r = ∅ :=
  fun r hr => by dsimp only [sched]; rw [if_neg fun h => by omega]

theorem amount_bar (d : Fin 3) : (sched (F := F) m).amount (barCell c) 0 d = 1 := by dsimp only [sched]; exact if_pos rfl
theorem amount_d (a : Fin 4) (k : Fin 6) (d : Fin 3) : (sched (F := F) m).amount (dCell c a k) 0 d = Nof a := by
  dsimp only [sched]; rw [if_neg (semOf_ne_bar a k), dec_semOf]

theorem expect_bar : (sched (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_d (a : Fin 4) (k : Fin 6) : (sched (F := F) m).expect (dCell c a k) 0 = Nof a := by
  unfold Schedule.expect Schedule.amountOf; rw [duties_d, Finset.sum_singleton, amount_d]

theorem payload_bar (d : Fin 3) : (sched (F := F) m).payload (barCell c) 0 d = barPay c d := by dsimp only [sched]; rw [if_pos rfl]
theorem payload_d (a : Fin 4) (k : Fin 6) (d : Fin 3) : (sched (F := F) m).payload (dCell c a k) 0 d = dPay m c a k := by
  dsimp only [sched]; rw [if_neg (semOf_ne_bar a k), dec_semOf]

end Sched

/-! ## Cells by number, what each device owes at launch, the levels -/

theorem nDma : sig.nDmaSem = 29 := rfl

/-- A device's 25 cells: 0 the barrier's, 1 + 6 a + j slot j of array a. -/
def csem (k : Fin 25) : SemLoc sig := if h : k.val = 0 then .reg barS else .dma ⟨k.val + 4, by have := k.isLt; have := nDma; omega⟩
def idx (a : Fin 4) (j : Fin 6) : Fin 25 := ⟨1 + 6 * a.val + j.val, by have := a.isLt; have := j.isLt; omega⟩
theorem csem_idx : ∀ (a : Fin 4) (j : Fin 6), csem (idx a j) = .dma (semOf a j) := by decide +kernel
theorem csem_zero : csem 0 = .reg barS := rfl
abbrev kcell (ck : Dev nD × Fin 25) : GSem nD τ sig := ((ck.1 : Thread nD τ), csem ck.2)
theorem kcell_idx (c : Dev nD) (a : Fin 4) (j : Fin 6) : kcell (c, idx a j) = dCell c a j := by unfold kcell; rw [csem_idx]
theorem kcell_zero (c : Dev nD) : kcell (c, 0) = barCell c := rfl

/-- The kernel's own (scoped) semaphores, as the launch indexes them: the 24 transfer semaphores. -/
abbrev osem : Fin 24 → SemLoc sig := fun i => .dma ⟨i.val + 5, by have := i.isLt; have := nDma; omega⟩

/-- What c pays the device o + 1 places after it: a barrier unit, and for each half the credit of a share and of a
    block of result rows. -/
def tBar (c : Dev nD) (o : Fin 3) : CellTallies nD τ sig Unit := tallyAt (barCell (pe c (o.val + 1))) () 1
def tRs (c : Dev nD) (o : Fin 3) (g : Fin 2) : CellTallies nD τ sig Unit := tallyAt (dCell (pe c (o.val + 1)) 1 (slotOf o g)) () Nrs
def tAg (c : Dev nD) (o : Fin 3) (g : Fin 2) : CellTallies nD τ sig Unit := tallyAt (dCell (pe c (o.val + 1)) 3 (slotOf o g)) () Nag

/-- What is still owed after the first n payments, in program order (so that each payment peels the last summand). -/
def O15 (c : Dev nD) : CellTallies nD τ sig Unit := 0
def O14 (c : Dev nD) : CellTallies nD τ sig Unit := O15 c + tAg c 2 1
def O13 (c : Dev nD) : CellTallies nD τ sig Unit := O14 c + tAg c 1 1
def O12 (c : Dev nD) : CellTallies nD τ sig Unit := O13 c + tAg c 0 1
def O11 (c : Dev nD) : CellTallies nD τ sig Unit := O12 c + tAg c 2 0
def O10 (c : Dev nD) : CellTallies nD τ sig Unit := O11 c + tAg c 1 0
def O9 (c : Dev nD) : CellTallies nD τ sig Unit := O10 c + tAg c 0 0
def O8 (c : Dev nD) : CellTallies nD τ sig Unit := O9 c + tRs c 2 1
def O7 (c : Dev nD) : CellTallies nD τ sig Unit := O8 c + tRs c 1 1
def O6 (c : Dev nD) : CellTallies nD τ sig Unit := O7 c + tRs c 0 1
def O5 (c : Dev nD) : CellTallies nD τ sig Unit := O6 c + tRs c 2 0
def O4 (c : Dev nD) : CellTallies nD τ sig Unit := O5 c + tRs c 1 0
def O3 (c : Dev nD) : CellTallies nD τ sig Unit := O4 c + tRs c 0 0
def O2 (c : Dev nD) : CellTallies nD τ sig Unit := O3 c + tBar c 2
def O1 (c : Dev nD) : CellTallies nD τ sig Unit := O2 c + tBar c 1
def O₀ (c : Dev nD) : CellTallies nD τ sig Unit := O1 c + tBar c 0

def L (g : GSem nD τ sig) : Finset Unit := if g.1.2 = .tc then {()} else ∅
/-- Staging and send cells 0, barrier cells 1, share-receive cells 2, result-row-receive cells 3: a device waits on
    its barrier owing both kinds of receive credit, on a share-receive cell owing only result-row credit, on a
    result-row-receive cell owing nothing. -/
def lv (g : GSem nD τ sig) (_ : Unit) : ℕ :=
  if g.2 = .reg barS then 1 else match dec g.2 with | some (a, _) => (if a.val = 1 then 2 else if a.val = 3 then 3 else 0) | none => 0

theorem L_of_ne (g : GSem nD τ sig) (h : g.1.2 ≠ .tc) : L g = ∅ := if_neg h
theorem L_tc (c : Dev nD) (sm : SemLoc sig) : L ((c : Thread nD τ), sm) = {()} := if_pos rfl

/-! ## The ghost state a device starts from, and the pipeline's proof data -/

/-- Every cell's invariant under the names the launch allocated them at, and that round 0 of every cell is reached:
    persistent, so every device holds all of it. -/
def records (K : Dev nD × Fin 25 → ℕ) : sProp 𝕄 :=
  iprop((bigSep Finset.univ fun ck : Dev nD × Fin 25 => cellInv ER (sched m) (K ck) (kcell ck))
    ∗ bigSep Finset.univ fun ck : Dev nD × Fin 25 => reached ER (kcell ck) 0)

/-- The tokens of the duties c pays: a barrier duty of each other device, the receive duties its copies land on, its
    own send duties. -/
def payToks (c : Dev nD) : sProp 𝕄 :=
  iprop((bigSep Finset.univ fun o : Fin 3 => dutyTok ER (barCell (pe c (o.val + 1))) 0 o)
    ∗ (bigSep Finset.univ fun og : Fin 3 × Fin 2 => iprop(dutyTok ER (dCell (pe c (og.1.val + 1)) 1 (slotOf og.1 og.2)) 0 0
        ∗ dutyTok ER (dCell (pe c (og.1.val + 1)) 3 (slotOf og.1 og.2)) 0 0))
    ∗ (bigSep Finset.univ fun k : Fin 6 => iprop(dutyTok ER (dCell c 0 k) 0 0 ∗ dutyTok ER (dCell c 2 k) 0 0)))

def ghost (K : Dev nD × Fin 25 → ℕ) (c : Dev nD) : sProp 𝕄 :=
  iprop(records m K ∗ atPos ER (barCell c) 0 ∅ 0 ∗ (bigSep Finset.univ fun aj : Fin 4 × Fin 6 => atPos ER (dCell c aj.1 aj.2) 0 ∅ 0) ∗ payToks c)

/-- The credit tokens the launch deals c: its barrier's three units and its twelve receive cells' credit. -/
def creds (c : Dev nD) : sProp 𝕄 :=
  iprop(cred (tallyAt (barCell c) () 3) ∗ (bigSep Finset.univ fun k : Fin 6 => cred (tallyAt (dCell c 1 k) () Nrs))
    ∗ (bigSep Finset.univ fun k : Fin 6 => cred (tallyAt (dCell c 3 k) () Nag)))

def start (c : Dev nD) : sProp 𝕄 := iprop((∃ K, ghost m K c) ∗ creds c ∗ levAts L lv)

/-- The five scratch buffers at some contents. -/
def scratches (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))

def Φ₀ (c : Dev nD) : sProp 𝕄 := iprop(start m c ∗ scratches c)
/-- After the point: the scratch buffers back at some contents, the 24 own cells closed at zero. -/
def Φ₁ (c : Dev nD) : sProp 𝕄 := iprop(scratches c ∗ bigSep Finset.univ fun aj : Fin 4 × Fin 6 => semVal (dCell c aj.1 aj.2) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Xs m c
    | ⟨1, _⟩ => Gs m c
    | ⟨2, _⟩ => Us m c
    | ⟨3, _⟩ => Ds m c
    | ⟨4, _⟩ => OUT m
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## Storable payloads; the transfer rule at this schedule -/

omit [FloatOps F] in
instance regPts_storable {S : Shape} {e : EltTy} (t : Thread nD τ) (v : Memref sig t.2.kind .vmem S e) (q : PosShare TreeShare) (w : S.Idx → Elt F e) :
    BI.Storable (upEmb : UEmb _ 𝕄) (regPts (F := F) t v q w) := by unfold regPts; infer_instance
omit [FloatOps F] in
instance regAny_storable {S : Shape} {e : EltTy} (t : Thread nD τ) (v : Memref sig t.2.kind .vmem S e) :
    BI.Storable (upEmb : UEmb _ 𝕄) (regAny (F := F) t v) := by unfold regAny; infer_instance
omit [FloatOps F] in
instance barPay_storable (c : Dev nD) (d : Fin 3) : BI.Storable (upEmb : UEmb _ 𝕄) (barPay (F := F) c d) := by unfold barPay; infer_instance
instance dPay_storable (c : Dev nD) (a : Fin 4) (k : Fin 6) : BI.Storable (upEmb : UEmb _ 𝕄) (dPay (F := F) m c a k) := by
  unfold dPay; dsimp only; split <;> infer_instance

instance sched_payload_storable (g : GSem nD τ sig) (r : ℕ) (d : Fin 3) :
    BI.Storable (upEmb : UEmb _ 𝕄) ((sched (F := F) m).payload g r d) := by
  show BI.Storable upEmb (if g.2 = .reg barS then barPay g.1.1 d else match dec g.2 with | some (a, k) => dPay m g.1.1 a k | none => iprop(emp))
  (repeat' split) <;> infer_instance

/-- A copy of a 128 × 1024 block from c's region `src` (held at share q) into device n's region `dst`, paying slot s of
    c's send array `as` and of n's receive array `ar`: `Rounds.wp_send_pointsTo` at this schedule, the two payload
    entailments left to the caller. -/
theorem wp_send' (c n : Dev nD) (a₁ a₂ : Fin 4) (s : Fin 6) {src : Memref sig .tc .vmem S128x1024 .bf16}
    {dst : Memref sig (Dev.tc n : Thread nD τ).2.kind .vmem S128x1024 .bf16} {q : PosShare TreeShare} (N : ℕ)
    (hN : dst.view.amount (.dma (semOf a₂ s)) = N) (hk₁ : Nof a₁ = N) (hk₂ : Nof a₂ = N)
    {hsc : dst.view.ref.isScScratch = false} {hsrc : src.view.WordExact} {hdst : dst.view.WordExact}
    {hsem : DmaTarget.Typed .vmem (.dma (semOf a₂ s)) (.remote (Dev.tc n : Thread nD τ) dst (.dma (semOf a₁ s)) hsc)}
    {α : Type} {Q : α → sProp 𝕄} {k : PUnit → Prog (TpuEff nD τ sig (Elt F) Λ₀ .tc) α}
    {κ₁ κ₂ : ℕ} (fs : Buf (Elt F) (src.view.loc (c : Thread nD τ))) (fd : Buf (Elt F) (dst.view.loc (n : Thread nD τ)))
    (O : CellTallies nD τ sig Unit) (W : Waits sig Unit)
    (hpay₁ : (src.view.loc (c : Thread nD τ) ↦[src.view.set]{q} fs : sProp 𝕄) ⊢ dPay m c a₁ s)
    (hpay₂ : (dst.view.loc (n : Thread nD τ) ↦[dst.view.set]{fullShare} (dst.view.write (Elt F) fd (src.view.read (Elt F) fs) Finset.univ) : sProp 𝕄)
      ⊢ dPay m n a₂ s) :
    iprop(cellInv ER (sched m) κ₁ (dCell c a₁ s) ∗ cellInv ER (sched m) κ₂ (dCell n a₂ s)
        ∗ (src.view.loc (c : Thread nD τ) ↦[src.view.set]{q} fs) ∗ (dst.view.loc (n : Thread nD τ) ↦[dst.view.set]{fullShare} fd)
        ∗ owes (c : Thread nD τ) (O + tallyAt (dCell n a₂ s) () N) W
        ∗ dutyTok ER (dCell c a₁ s) 0 0 ∗ reached ER (dCell c a₁ s) 0
        ∗ dutyTok ER (dCell n a₂ s) 0 0 ∗ reached ER (dCell n a₂ s) 0)
      ⊢ iprop(((cred (tallyAt (dCell c a₁ s) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma (semOf a₁ s)) hsc) (.dma (semOf a₂ s)) hsrc hdst hsem) k) Q) :=
  Rounds.wp_send_pointsTo 𝒱₀ ER (sched m) (c : Thread nD τ) none (κ₁ := κ₁) (κ₂ := κ₂)
    (r₁ := 0) (r₂ := 0) (d₁ := 0) (d₂ := 0) (fd := fd)
    (by rw [duties_d]; exact Finset.mem_singleton_self _) (by rw [duties_d]; exact Finset.mem_singleton_self _)
    () () N hN ((amount_d m c a₁ s 0).trans hk₁) ((amount_d m n a₂ s 0).trans hk₂) O rfl (W := W)
    (by rw [payload_d]; exact hpay₁) (by rw [payload_d]; exact hpay₂)

end Cert.Kernel.Px

end
-- ==== Proof.W.Launch.lean ====
/-
  The launch of the tensor-parallel gated MLP on four devices: from the body obligation of one device's kernel to the
  run of the whole program, every array's final contents named.

  The launch element funds the exchange's 100 cells (25 on each device) at round 0 and mints one token per duty. The
  global step puts every cell's counter and round state under an invariant and deals the tokens round the mesh: a
  duty's token goes to the device that pays the duty. The launch credit a device is dealt is what the other three owe
  its barrier cell and its twelve receive cells.
-/
import proofs.«900523_g7700000000000524_dist_gated_mlp_tp_i_m1024_h2048_d1024_v7x_i4_bf16_1_alg».proof.Proof.W.Proto

noncomputable section

namespace Cert.Kernel.Lx

open Cert.Kernel Cert.Kernel.Gen Cert.Kernel.Px

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Finite conjunctions, one summand at a time -/

theorem bigSep_fin2 {M : Type} [URA M] (Φ : Fin 2 → sProp M) : bigSep Finset.univ Φ = iprop(Φ 0 ∗ Φ 1) :=
  bigSep_univ_eq_bigSepL [0, 1] (by decide) (by decide) Φ
theorem bigSep_fin3 {M : Type} [URA M] (Φ : Fin 3 → sProp M) : bigSep Finset.univ Φ = iprop(Φ 0 ∗ Φ 1 ∗ Φ 2) :=
  bigSep_univ_eq_bigSepL [0, 1, 2] (by decide) (by decide) Φ
theorem bigSep_fin4 {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ
theorem bigSep_fin6 {M : Type} [URA M] (Φ : Fin 6 → sProp M) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- The 24 transfer cells among a device's 25, as (array, slot). -/
def idxE : Fin 4 × Fin 6 ↪ Fin 25 := ⟨fun aj => idx aj.1 aj.2, by decide⟩
theorem erase_zero : (Finset.univ : Finset (Fin 25)).erase 0 = Finset.univ.map idxE := by decide

/-- A conjunction over a device's 25 cells: the barrier cell's summand, then the transfer cells' by array and slot. -/
theorem bigSep_fin25 {M : Type} [URA M] (Φ : Fin 25 → sProp M) :
    bigSep Finset.univ Φ = iprop(Φ 0 ∗ bigSep Finset.univ fun aj : Fin 4 × Fin 6 => Φ (idx aj.1 aj.2)) := by
  rw [bigSep_univ_at Φ 0, erase_zero, bigSep_map]; rfl

/-- Slot numbers as (offset, half). -/
def slotE : Fin 3 × Fin 2 ≃ Fin 6 where
  toFun og := slotOf og.1 og.2
  invFun k := (⟨k.val / 2, by omega⟩, ⟨k.val % 2, Nat.mod_lt _ (by decide)⟩)
  left_inv := by decide
  right_inv := by decide

/-- The kernel's own 24 semaphores as (array, slot). -/
def e24 : Fin 4 × Fin 6 ≃ Fin 24 where
  toFun aj := ⟨6 * aj.1.val + aj.2.val, by omega⟩
  invFun i := (⟨i.val / 6, by omega⟩, ⟨i.val % 6, Nat.mod_lt _ (by decide)⟩)
  left_inv := by decide
  right_inv := by decide
theorem osem_e24 : ∀ aj : Fin 4 × Fin 6, osem (e24 aj) = .dma (semOf aj.1 aj.2) := by decide

/-! ## The mesh's rotations -/

theorem pe_mod (c : Dev nD) (a : ℕ) : pe c a = pe c (a % 4) := Fin.ext (by simp only [pe]; omega)
theorem pe_cancel (c : Dev nD) (a b : ℕ) (h : (a + b) % 4 = 0) : pe (pe c a) b = c := by rw [pe_pe, pe_mod, h, pe_zero]

/-- Rotating the device of a (device, index) pair by an amount the index names: a permutation of the pairs. -/
def shiftE {J : Type} (f : J → ℕ) : Dev nD × J ≃ Dev nD × J where
  toFun x := (pe x.1 (f x.2), x.2)
  invFun x := (pe x.1 (4 - f x.2 % 4), x.2)
  left_inv := fun ⟨c, j⟩ => by
    show (pe (pe c (f j)) (4 - f j % 4), j) = (c, j)
    rw [pe_cancel c _ _ (by omega)]
  right_inv := fun ⟨c, j⟩ => by
    show (pe (pe c (4 - f j % 4)) (f j), j) = (c, j)
    rw [pe_cancel c _ _ (by omega)]

/-- A conjunction over all devices and an index may name, at each index, the device rotated by that index's amount. -/
theorem bigSep_shift {M : Type} [URA M] {J : Type} [Fintype J] (f : J → ℕ) (Φ : Dev nD → J → sProp M) :
    (bigSep Finset.univ fun c : Dev nD => bigSep Finset.univ fun j : J => Φ c j)
      = bigSep Finset.univ fun c : Dev nD => bigSep Finset.univ fun j : J => Φ (pe c (f j)) j :=
  (bigSep_univ_prod (fun x : Dev nD × J => Φ x.1 x.2)).symm.trans
    ((bigSep_univ_equiv (shiftE f) (fun x : Dev nD × J => Φ x.1 x.2)).trans (bigSep_univ_prod _))

/-! ## The cells and the duty tokens the launch element funds -/

/-- A device's cell numbers back from its semaphores. -/
def cnum : SemLoc sig → ℕ
  | .reg _ => 0
  | .dma q => q.val - 4
theorem cnum_csem : ∀ k : Fin 25, cnum (csem k) = k.val := by decide
theorem csem_injective : Function.Injective csem := fun k k' h => Fin.ext (by rw [← cnum_csem k, ← cnum_csem k', h])

theorem kcell_injective : Function.Injective (kcell : Dev nD × Fin 25 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def xCells : Finset (GSem nD τ sig) := Finset.univ.map ⟨kcell, kcell_injective⟩

/-- A device's own cells' duties: its barrier cell's three, and one of each transfer cell. -/
abbrev TokIx : Type := Fin 3 ⊕ (Fin 4 × Fin 6)
abbrev tokOf (x : Dev nD × TokIx) : GSem nD τ sig × ℕ × Fin 3 :=
  match x.2 with
  | .inl d => (barCell x.1, 0, d)
  | .inr aj => (dCell x.1 aj.1 aj.2, 0, 0)

theorem tokOf_injective : Function.Injective (tokOf : Dev nD × TokIx → GSem nD τ sig × ℕ × Fin 3) := by
  rintro ⟨c, j⟩ ⟨c', j'⟩ h
  have h1 : c = c' := by
    have := congrArg (fun x : GSem nD τ sig × ℕ × Fin 3 => x.1.1.1) h
    rcases j with d | aj <;> rcases j' with d' | aj' <;> exact this
  subst h1
  rcases j with d | aj <;> rcases j' with d' | aj'
  · have hd : d = d' := congrArg (fun x : GSem nD τ sig × ℕ × Fin 3 => x.2.2) h
    rw [hd]
  · exact absurd (congrArg (fun x : GSem nD τ sig × ℕ × Fin 3 => x.1.2) h) (fun h' => by cases h')
  · exact absurd (congrArg (fun x : GSem nD τ sig × ℕ × Fin 3 => x.1.2) h) (fun h' => by cases h')
  · have h2 : (SemLoc.dma (semOf aj.1 aj.2) : SemLoc sig) = .dma (semOf aj'.1 aj'.2) :=
      congrArg (fun x : GSem nD τ sig × ℕ × Fin 3 => x.1.2) h
    have h3 := congrArg dec h2
    rw [dec_semOf, dec_semOf] at h3
    have h4 : (aj.1, aj.2) = (aj'.1, aj'.2) := Option.some.inj h3
    have h5 : aj = aj' := Prod.ext (congrArg Prod.fst h4) (congrArg Prod.snd h4)
    rw [h5]

def xToks : Finset (GSem nD τ sig × ℕ × Fin 3) := Finset.univ.map ⟨tokOf, tokOf_injective⟩

/-- The launch element: the pipeline's staging cells and the exchange's cells. -/
def u₀ : UU :=
  (initOf (Pipeline.cells cfgs cellOf_inj) (Pipeline.launchToks cfgs cellOf_inj), initOf xCells xToks)

/-- The duty tokens of device c's own cells. -/
def toks (c : Dev nD) : sProp 𝕄 :=
  iprop((bigSep Finset.univ fun d : Fin 3 => dutyTok ER (barCell c) 0 d)
    ∗ bigSep Finset.univ fun aj : Fin 4 × Fin 6 => dutyTok ER (dCell c aj.1 aj.2) 0 0)

/-- What the launch element deals device c. -/
def G (c : Dev nD) : sProp 𝕄 :=
  iprop((bigSep Finset.univ fun k : Fin 25 => roundState ER (sched m) (kcell (c, k)) 0)
    ∗ (bigSep Finset.univ fun k : Fin 25 => iprop(atPos ER (kcell (c, k)) 0 ∅ 0 ∗ reached ER (kcell (c, k)) 0)) ∗ toks c)

/-- What the global step makes of it. -/
def G' (c : Dev nD) : sProp 𝕄 := iprop(∃ K, ghost m K c)

theorem fund_x : BI.own (ER (initOf xCells xToks)) ⊢ (|==> bigSep Finset.univ (G m) : sProp 𝕄) := by
  have hX (Φ : GSem nD τ sig → sProp 𝕄) :
      bigSep xCells Φ = bigSep Finset.univ fun c : Dev nD => bigSep Finset.univ fun k : Fin 25 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_univ_sum]; rfl
  iintro HX
  imod (Rounds.fund ER (sched m) xCells xToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell under an invariant, the tokens dealt round the mesh -/

/-- A conjunction over device c's 25 cells, the barrier cell's summand first, then the transfer cells' by name. -/
theorem bigSep_cells {M : Type} [URA M] (c : Dev nD) (Φ : GSem nD τ sig → sProp M) :
    (bigSep Finset.univ fun k : Fin 25 => Φ (kcell (c, k)))
      = iprop(Φ (barCell c) ∗ bigSep Finset.univ fun aj : Fin 4 × Fin 6 => Φ (dCell c aj.1 aj.2)) := by
  have e : (bigSep Finset.univ fun aj : Fin 4 × Fin 6 => Φ (kcell (c, idx aj.1 aj.2)))
      = bigSep Finset.univ fun aj : Fin 4 × Fin 6 => Φ (dCell c aj.1 aj.2) :=
    bigSep_congr fun aj _ => by rw [kcell_idx]
  rw [bigSep_fin25, e]; rfl

/-- The kernel's own 24 semaphores are its transfer cells' counters. -/
theorem ownSems0_eq (c : Dev nD) : (Pipeline.ownSems0 (Ix := Unit) (Name := ℕ) (U := UU) (Lvl := ℕ) (Val := Elt F) (τ := τ) osem c : sProp 𝕄)
    = bigSep Finset.univ fun aj : Fin 4 × Fin 6 => semVal (dCell c aj.1 aj.2) 0 := by
  unfold Pipeline.ownSems0
  rw [bigSep_univ_equiv e24 (fun i : Fin 24 => (semVal ((c : Thread nD τ), osem i) 0 : sProp 𝕄))]
  exact bigSep_congr fun aj _ => by rw [osem_e24]
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 25 => semVal (kcell (c, k)) 0 : sProp 𝕄) := by
  rw [ownSems0_eq, unscopedSems0_eq, bigSep_cells c (fun g => (semVal g 0 : sProp 𝕄))]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 25 => iprop(∃ κ : ℕ, cellInv ER (sched m) κ (kcell (c, k))))
          ∗ (bigSep Finset.univ fun k : Fin 25 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 25 => semVal (kcell (c, k)) 0) ∗ bigSep Finset.univ fun k : Fin 25 => roundState ER (sched m) (kcell (c, k)) 0)
      ⊢ (|={Set.univ}=> bigSep Finset.univ fun k : Fin 25 => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

instance records_persistent (K : Dev nD × Fin 25 → ℕ) : BI.Persistent (records m K) := by unfold records; infer_instance

/-- What stays with device c: its positions, and the tokens of the duties it pays. -/
def linear (c : Dev nD) : sProp 𝕄 :=
  iprop((bigSep Finset.univ fun k : Fin 25 => atPos ER (kcell (c, k)) 0 ∅ 0) ∗ payToks c)

theorem ghost_intro (K : Dev nD × Fin 25 → ℕ) (c : Dev nD) : iprop(records m K ∗ linear c) ⊢ G' m c := by
  unfold linear G' ghost
  rw [bigSep_cells c (fun g => (atPos ER g 0 ∅ 0 : sProp 𝕄))]
  iintro ⟨HR, ⟨HaB, HaD⟩, Htok⟩
  iexists K
  isplitl [HR]; · iexact HR
  isplitl [HaB]; · iexact HaB
  isplitl [HaD]; · iexact HaD
  iexact Htok

/-- A device's own tokens, array by array. -/
theorem toks_eq (c : Dev nD) : (toks c : sProp 𝕄) = iprop((bigSep Finset.univ fun d : Fin 3 => dutyTok ER (barCell c) 0 d)
    ∗ (bigSep Finset.univ fun k : Fin 6 => dutyTok ER (dCell c 0 k) 0 0) ∗ (bigSep Finset.univ fun k : Fin 6 => dutyTok ER (dCell c 1 k) 0 0)
    ∗ (bigSep Finset.univ fun k : Fin 6 => dutyTok ER (dCell c 2 k) 0 0) ∗ (bigSep Finset.univ fun k : Fin 6 => dutyTok ER (dCell c 3 k) 0 0)) := by
  unfold toks; rw [bigSep_univ_prod, bigSep_fin4]

/-- The tokens dealt round the mesh: duty d of a barrier cell goes to the device 3 - d places after the owner — the
    owner is d + 1 places after it —, and the duty of the receive cell of slot (o, g) to the device o + 1 places
    before the owner; the send cells' tokens stay. -/
theorem toks_around : (bigSep Finset.univ fun c : Dev nD => (toks c : sProp 𝕄)) ⊢ bigSep Finset.univ fun c : Dev nD => payToks c := by
  have hB := bigSep_shift (M := 𝕄) (fun d : Fin 3 => d.val + 1) (fun c d => dutyTok ER (barCell c) 0 d)
  have hR (a : Fin 4) : (bigSep Finset.univ fun c : Dev nD => bigSep Finset.univ fun k : Fin 6 => (dutyTok ER (dCell c a k) 0 0 : sProp 𝕄))
      = bigSep Finset.univ fun c : Dev nD => bigSep Finset.univ fun og : Fin 3 × Fin 2 =>
          dutyTok ER (dCell (pe c (og.1.val + 1)) a (slotOf og.1 og.2)) 0 0 :=
    (bigSep_congr fun c _ => bigSep_univ_equiv slotE (fun k : Fin 6 => (dutyTok ER (dCell c a k) 0 0 : sProp 𝕄))).trans
      (bigSep_shift (fun og : Fin 3 × Fin 2 => og.1.val + 1) (fun c og => dutyTok ER (dCell c a (slotOf og.1 og.2)) 0 0))
  simp only [toks_eq, payToks, bigSep_sep']
  rw [hB, hR 1, hR 3]
  iintro ⟨HB, H0, H1, H2, H3⟩
  isplitl [HB]; · iexact HB
  isplitl [H1 H3]
  · isplitl [H1] <;> iassumption
  isplitl [H0] <;> iassumption

theorem inv_at (K : Dev nD × Fin 25 → ℕ) (ck : Dev nD × Fin 25) :
    (bigSep Finset.univ fun ck : Dev nD × Fin 25 => (cellInv ER (sched m) (K ck) (kcell ck) : sProp 𝕄)) ⊢ cellInv ER (sched m) (K ck) (kcell ck) :=
  bigSep_elim (Finset.mem_univ ck)

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 25 => iprop(∃ κ : ℕ, cellInv ER (sched m) κ (kcell (c, k))))
          ∗ (bigSep Finset.univ fun k : Fin 25 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 25 => iprop(∃ κ : ℕ, cellInv ER (sched m) κ (kcell ck))),
    bigSep_congr (s := Finset.univ) (fun (c : Dev nD) _ => bigSep_sep' Finset.univ (fun k : Fin 25 => (atPos ER (kcell (c, k)) 0 ∅ 0 : sProp 𝕄)) (fun k => reached ER (kcell (c, k)) 0)),
    bigSep_sep', ← bigSep_univ_prod (fun ck : Dev nD × Fin 25 => (reached ER (kcell ck) 0 : sProp 𝕄))]
  iintro ⟨HI, ⟨Hat, #HR⟩, Htok⟩
  ihave HK := (BI.bigSep_exists_pi Finset.univ (fun (ck : Dev nD × Fin 25) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 25 => (atPos ER (kcell (c, k)) 0 ∅ 0 : sProp 𝕄)) payToks).symm).trans
      (bigSep_mono fun c _ => show _ ⊢ linear c from Entails.of_eq (by unfold linear; rfl)))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- Every device owing the barrier cell of the device o + 1 places after it one unit, each device is dealt one unit on
    its own barrier cell. -/
theorem lc_bar (c : Dev nD) (o : Fin 3) :
    (Pipeline.launchCred (fun d => tBar d o) c : sProp 𝕄) ⊢ cred (tallyAt (barCell c) () 1) :=
  Pipeline.launchCred_tallyAt (.reg barS) (fun d => pe d (o.val + 1)) (fun d => pe d (3 - o.val))
    (fun c => pe_cancel c _ _ (by omega)) (fun d => pe_cancel d _ _ (by omega)) () 1 c
/-- Likewise each device is dealt the credit of a share on its receive cell of slot (o, g). -/
theorem lc_rs (c : Dev nD) (o : Fin 3) (g : Fin 2) (k : Fin 6) (hk : slotOf o g = k) :
    (Pipeline.launchCred (fun d => tRs d o g) c : sProp 𝕄) ⊢ cred (tallyAt (dCell c 1 k) () Nrs) := by
  subst hk
  exact Pipeline.launchCred_tallyAt (.dma (semOf 1 (slotOf o g))) (fun d => pe d (o.val + 1)) (fun d => pe d (3 - o.val))
    (fun c => pe_cancel c _ _ (by omega)) (fun d => pe_cancel d _ _ (by omega)) () Nrs c
/-- Likewise each device is dealt the credit of a block of result rows on its result-row receive cell of slot (o, g). -/
theorem lc_ag (c : Dev nD) (o : Fin 3) (g : Fin 2) (k : Fin 6) (hk : slotOf o g = k) :
    (Pipeline.launchCred (fun d => tAg d o g) c : sProp 𝕄) ⊢ cred (tallyAt (dCell c 3 k) () Nag) := by
  subst hk
  exact Pipeline.launchCred_tallyAt (.dma (semOf 3 (slotOf o g))) (fun d => pe d (o.val + 1)) (fun d => pe d (3 - o.val))
    (fun c => pe_cancel c _ _ (by omega)) (fun d => pe_cancel d _ _ (by omega)) () Nag c

theorem cred_three (g : GSem nD τ sig) :
    iprop(cred (tallyAt g () 1) ∗ cred (tallyAt g () 1) ∗ cred (tallyAt g () 1)) ⊢ (cred (tallyAt g () 3) : sProp 𝕄) := by
  have e : (tallyAt g () 3 : CellTallies nD τ sig Unit) = tallyAt g () 1 + (tallyAt g () 1 + tallyAt g () 1) := by
    rw [tallyAt_add, tallyAt_add]
  rw [e]
  exact (sep_mono_right (cred_add _ _).2).trans (cred_add _ _).2

/-- The launch credit of device c: the fifteen tallies every device owes, each met on c by the device that owes it c. -/
theorem creds_intro (c : Dev nD) : (Pipeline.launchCred O₀ c : sProp 𝕄) ⊢ creds c := by
  have e0 : (Pipeline.launchCred O₀ c : sProp 𝕄) = iprop(Pipeline.launchCred O1 c ∗ Pipeline.launchCred (fun d => tBar d 0) c) := Pipeline.launchCred_add O1 (fun d => tBar d 0) c
  have e1 : (Pipeline.launchCred O1 c : sProp 𝕄) = iprop(Pipeline.launchCred O2 c ∗ Pipeline.launchCred (fun d => tBar d 1) c) := Pipeline.launchCred_add O2 (fun d => tBar d 1) c
  have e2 : (Pipeline.launchCred O2 c : sProp 𝕄) = iprop(Pipeline.launchCred O3 c ∗ Pipeline.launchCred (fun d => tBar d 2) c) := Pipeline.launchCred_add O3 (fun d => tBar d 2) c
  have e3 : (Pipeline.launchCred O3 c : sProp 𝕄) = iprop(Pipeline.launchCred O4 c ∗ Pipeline.launchCred (fun d => tRs d 0 0) c) := Pipeline.launchCred_add O4 (fun d => tRs d 0 0) c
  have e4 : (Pipeline.launchCred O4 c : sProp 𝕄) = iprop(Pipeline.launchCred O5 c ∗ Pipeline.launchCred (fun d => tRs d 1 0) c) := Pipeline.launchCred_add O5 (fun d => tRs d 1 0) c
  have e5 : (Pipeline.launchCred O5 c : sProp 𝕄) = iprop(Pipeline.launchCred O6 c ∗ Pipeline.launchCred (fun d => tRs d 2 0) c) := Pipeline.launchCred_add O6 (fun d => tRs d 2 0) c
  have e6 : (Pipeline.launchCred O6 c : sProp 𝕄) = iprop(Pipeline.launchCred O7 c ∗ Pipeline.launchCred (fun d => tRs d 0 1) c) := Pipeline.launchCred_add O7 (fun d => tRs d 0 1) c
  have e7 : (Pipeline.launchCred O7 c : sProp 𝕄) = iprop(Pipeline.launchCred O8 c ∗ Pipeline.launchCred (fun d => tRs d 1 1) c) := Pipeline.launchCred_add O8 (fun d => tRs d 1 1) c
  have e8 : (Pipeline.launchCred O8 c : sProp 𝕄) = iprop(Pipeline.launchCred O9 c ∗ Pipeline.launchCred (fun d => tRs d 2 1) c) := Pipeline.launchCred_add O9 (fun d => tRs d 2 1) c
  have e9 : (Pipeline.launchCred O9 c : sProp 𝕄) = iprop(Pipeline.launchCred O10 c ∗ Pipeline.launchCred (fun d => tAg d 0 0) c) := Pipeline.launchCred_add O10 (fun d => tAg d 0 0) c
  have e10 : (Pipeline.launchCred O10 c : sProp 𝕄) = iprop(Pipeline.launchCred O11 c ∗ Pipeline.launchCred (fun d => tAg d 1 0) c) := Pipeline.launchCred_add O11 (fun d => tAg d 1 0) c
  have e11 : (Pipeline.launchCred O11 c : sProp 𝕄) = iprop(Pipeline.launchCred O12 c ∗ Pipeline.launchCred (fun d => tAg d 2 0) c) := Pipeline.launchCred_add O12 (fun d => tAg d 2 0) c
  have e12 : (Pipeline.launchCred O12 c : sProp 𝕄) = iprop(Pipeline.launchCred O13 c ∗ Pipeline.launchCred (fun d => tAg d 0 1) c) := Pipeline.launchCred_add O13 (fun d => tAg d 0 1) c
  have e13 : (Pipeline.launchCred O13 c : sProp 𝕄) = iprop(Pipeline.launchCred O14 c ∗ Pipeline.launchCred (fun d => tAg d 1 1) c) := Pipeline.launchCred_add O14 (fun d => tAg d 1 1) c
  have e14 : (Pipeline.launchCred O14 c : sProp 𝕄) = iprop(Pipeline.launchCred O15 c ∗ Pipeline.launchCred (fun d => tAg d 2 1) c) := Pipeline.launchCred_add O15 (fun d => tAg d 2 1) c
  rw [e0, e1, e2, e3, e4, e5, e6, e7, e8, e9, e10, e11, e12, e13, e14]
  iintro ⟨⟨⟨⟨⟨⟨⟨⟨⟨⟨⟨⟨⟨⟨⟨-, A14⟩, A13⟩, A12⟩, A11⟩, A10⟩, A9⟩, A8⟩, A7⟩, A6⟩, A5⟩, A4⟩, A3⟩, A2⟩, A1⟩, A0⟩
  ihave B0 := (lc_bar (F := F) c 0) $$ A0
  ihave B1 := (lc_bar (F := F) c 1) $$ A1
  ihave B2 := (lc_bar (F := F) c 2) $$ A2
  ihave R0 := (lc_rs (F := F) c 0 0 0 rfl) $$ A3
  ihave R2 := (lc_rs (F := F) c 1 0 2 rfl) $$ A4
  ihave R4 := (lc_rs (F := F) c 2 0 4 rfl) $$ A5
  ihave R1 := (lc_rs (F := F) c 0 1 1 rfl) $$ A6
  ihave R3 := (lc_rs (F := F) c 1 1 3 rfl) $$ A7
  ihave R5 := (lc_rs (F := F) c 2 1 5 rfl) $$ A8
  ihave Q0 := (lc_ag (F := F) c 0 0 0 rfl) $$ A9
  ihave Q2 := (lc_ag (F := F) c 1 0 2 rfl) $$ A10
  ihave Q4 := (lc_ag (F := F) c 2 0 4 rfl) $$ A11
  ihave Q1 := (lc_ag (F := F) c 0 1 1 rfl) $$ A12
  ihave Q3 := (lc_ag (F := F) c 1 1 3 rfl) $$ A13
  ihave Q5 := (lc_ag (F := F) c 2 1 5 rfl) $$ A14
  unfold creds
  rw [bigSep_fin6, bigSep_fin6]
  isplitl [B0 B1 B2]
  · iapply (cred_three (F := F) (barCell c))
    isplitl [B0]; · iexact B0
    isplitl [B1] <;> iassumption
  isplitl [R0 R1 R2 R3 R4 R5]
  · isplitl [R0]; · iexact R0
    isplitl [R1]; · iexact R1
    isplitl [R2]; · iexact R2
    isplitl [R3]; · iexact R3
    isplitl [R4] <;> iassumption
  isplitl [Q0]; · iexact Q0
  isplitl [Q1]; · iexact Q1
  isplitl [Q2]; · iexact Q2
  isplitl [Q3]; · iexact Q3
  isplitl [Q4] <;> iassumption

/-! ## The levels: a staging cell sits below everything a device owes -/

theorem lv_bar (c : Dev nD) : lv (barCell c) () = 1 := by dsimp only [lv]; exact if_pos rfl
theorem lv_d (c : Dev nD) (a : Fin 4) (k : Fin 6) : lv (dCell c a k) () = if a.val = 1 then 2 else if a.val = 3 then 3 else 0 := by
  dsimp only [lv]; rw [if_neg (semOf_ne_bar a k), dec_semOf]
theorem dec_stage (q : DmaSem sig) (hq : q.val < 5) : dec (.dma q) = none := by
  unfold dec; exact dif_neg (fun h => by omega)
theorem lv_stage (c : Dev nD) (q : DmaSem sig) (hq : q.val < 5) : lv ((c : Thread nD τ), .dma q) () = 0 := by
  dsimp only [lv]; rw [if_neg (fun h => by cases h), dec_stage q hq]

/-- Whatever a device owes at launch it owes a barrier cell, a share-receive cell or a result-row-receive cell of
    another device. -/
theorem O₀_cases (c : Dev nD) {P : GSem nD τ sig → Prop}
    (hB : ∀ o : Fin 3, P (barCell (pe c (o.val + 1))))
    (hR : ∀ (o : Fin 3) (g : Fin 2), P (dCell (pe c (o.val + 1)) 1 (slotOf o g)))
    (hA : ∀ (o : Fin 3) (g : Fin 2), P (dCell (pe c (o.val + 1)) 3 (slotOf o g)))
    {g : GSem nD τ sig} {u : Unit} (h : 0 < O₀ c g u) : P g := by
  unfold O₀ O1 O2 O3 O4 O5 O6 O7 O8 O9 O10 O11 O12 O13 O14 O15 at h
  repeat (rcases Pipeline.add_pos_cases h with h | h; swap; · rw [(Pipeline.tallyAt_pos h).1]; first | exact hB _ | exact hR _ _ | exact hA _ _)
  exact absurd h (Nat.lt_irrefl 0)

theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => O₀_cases c (P := fun g => u ∈ L g) (fun _ => by rw [L_tc]; exact Finset.mem_singleton_self _)
        (fun _ _ => by rw [L_tc]; exact Finset.mem_singleton_self _) (fun _ _ => by rw [L_tc]; exact Finset.mem_singleton_self _) hg)
      (fun p hp => by rw [Finset.mem_singleton.mp hp]; exact Nat.le_of_eq (lv_stage c q hq))
      (fun g u hg => O₀_cases c (P := fun g => 0 < lv g u) (fun _ => by rw [lv_bar]; decide)
        (fun _ _ => by rw [lv_d]; decide) (fun _ _ => by rw [lv_d]; decide) hg)
  · rw [MayWait_zero]; iintro -; iempintro

/-! ## The launch theorem's side conditions -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratches
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scratches
  iintro ⟨Hr, Hz⟩
  isplitr; · iempintro
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters: given the body
    obligation of each device's kernel, every weakly fair execution of @main terminates, and every final state has
    each device's five arrays at the contents `finalA` names. -/
theorem run_main (hbody : ∀ c, BodyObligation (dats (F := F) m ρ 0 c) (defs₀ (F := F)) 𝒱₀ () Set.univ) :
    θ_run defs (onTc (τ := τ) (main (F := F))) (Px.s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_x m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.Kernel.Lx.run_main' depends on axioms: [propext, Classical.choice, Quot.sound] -/
#guard_msgs in #print axioms run_main

/-! ## What the arrays hold after the run -/

/-- The four argument arrays hold what they held. -/
theorem finalA_in0 (c : Dev nD) : finalA m ρ c (0 : Fin 5) = (Px.s₀ m ρ).mem (win0_0.arr.view.loc (c : Thread nD τ)) :=
  (dats (F := F) m ρ 0 c).arrAt_in (0 : Fin 5) rfl _
theorem finalA_in1 (c : Dev nD) : finalA m ρ c (1 : Fin 5) = (Px.s₀ m ρ).mem (win0_1.arr.view.loc (c : Thread nD τ)) :=
  (dats (F := F) m ρ 0 c).arrAt_in (1 : Fin 5) rfl _
theorem finalA_in2 (c : Dev nD) : finalA m ρ c (2 : Fin 5) = (Px.s₀ m ρ).mem (win0_2.arr.view.loc (c : Thread nD τ)) :=
  (dats (F := F) m ρ 0 c).arrAt_in (2 : Fin 5) rfl _
theorem finalA_in3 (c : Dev nD) : finalA m ρ c (3 : Fin 5) = (Px.s₀ m ρ).mem (win0_3.arr.view.loc (c : Thread nD τ)) :=
  (dats (F := F) m ρ 0 c).arrAt_in (3 : Fin 5) rfl _

/-- The result array, read through the one block of its window (the whole array), holds the result `OUT`. -/
theorem finalA_out (c : Dev nD) : (win0_4.blk t0_0).view.read (Elt F) (finalA m ρ c (4 : Fin 5)) = OUT m := by
  have hN : cfg0.N = t0_0.val + 1 := N_0
  have h := (dats (F := F) m ρ 0 c).arrAt_succ (4 : Fin 5) t0_0
  rw [flush0_4 t0_0, if_pos rfl] at h
  have h' : (dats (F := F) m ρ 0 c).arrAt (4 : Fin 5) cfg0.N = _ :=
    (congrArg (fun n => (dats (F := F) m ρ 0 c).arrAt (4 : Fin 5) n) hN).trans h
  unfold finalA
  rw [h']
  exact View.read_write_univ _ _

/-- Reading the result array through its window's one block is reading the array. -/
theorem read_result_whole (c : Dev nD) (f : Buf (Elt F) (win0_4.arr.view.loc (c : Thread nD τ))) :
    (win0_4.blk t0_0).view.read (Elt F) f = f :=
  Memref.read_access_unit_zero (Elt F) main_v1 (funext fun a => Nat.zero_mul _) _ f

/-- The result array holds `OUT`, the same on every device. -/
theorem finalA_out_eq (c : Dev nD) : finalA m ρ c (4 : Fin 5) = OUT m :=
  (read_result_whole c (finalA m ρ c (4 : Fin 5))).symm.trans (finalA_out m ρ c)

/-- A device's staged arguments are its argument arrays: each window's one block is the whole array. -/
theorem Xs_eq (c : Dev nD) : Xs m c = m ((c : Thread nD τ).loc main_arg0) :=
  Memref.read_access_unit_zero (Elt F) main_arg0 (funext fun a => Nat.zero_mul _) _ _
theorem Gs_eq (c : Dev nD) : Gs m c = m ((c : Thread nD τ).loc main_arg1) :=
  Memref.read_access_unit_zero (Elt F) main_arg1 (funext fun a => Nat.zero_mul _) _ _
theorem Us_eq (c : Dev nD) : Us m c = m ((c : Thread nD τ).loc main_arg2) :=
  Memref.read_access_unit_zero (Elt F) main_arg2 (funext fun a => Nat.zero_mul _) _ _
theorem Ds_eq (c : Dev nD) : Ds m c = m ((c : Thread nD τ).loc main_arg3) :=
  Memref.read_access_unit_zero (Elt F) main_arg3 (funext fun a => Nat.zero_mul _) _ _

/-- The run with every array named: every final state has, on each device, the result array at `OUT` and the four
    argument arrays as they were. -/
theorem run_named (hbody : ∀ c, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c : Thread nD τ).loc main_v1) = OUT m
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono
    (fun r h c => ⟨(h c (4 : Fin 5)).trans (finalA_out_eq m ρ c), (h c (0 : Fin 5)).trans (finalA_in0 m ρ c),
      (h c (1 : Fin 5)).trans (finalA_in1 m ρ c), (h c (2 : Fin 5)).trans (finalA_in2 m ρ c), (h c (3 : Fin 5)).trans (finalA_in3 m ρ c)⟩)
    (run_main m ρ hbody)

/-- info: 'Cert.Kernel.Lx.finalA_out' depends on axioms: [propext, Classical.choice, Quot.sound] -/
#guard_msgs in #print axioms finalA_out

end Cert.Kernel.Lx

end
-- ==== Proof.W.Regions.lean ====
/-
  Regions of the exchange's buffers: cutting a whole buffer into the element sets its views cover, putting the
  pieces back, and reading the result buffer.

  A region is the element set of a view, held at a share at some contents; contents matter only on the region, and
  on the region they are what the view reads. The 1024 result rows are the eight blocks of 128 rows (device d, half
  g at rows 256 d + 128 g); a six-slot buffer is its six slots. Each family partitions its buffer's index set, which
  is shown by arithmetic on the row (slot) coordinate alone, so a points-to of the whole buffer is the separating
  conjunction of the regions, at one contents or, joined, at some contents.
-/
import proofs.«900523_g7700000000000524_dist_gated_mlp_tp_i_m1024_h2048_d1024_v7x_i4_bf16_1_alg».proof.Proof.W.Proto

noncomputable section

namespace Cert.Kernel.Rx

open Cert.Kernel Cert.Kernel.Gen Cert.Kernel.Px

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## Regions of an arbitrary view -/

section Generic

variable {sp : Space} {S S' : Shape} {e : EltTy}

/-- Contents that read the same through a view hold the same values on the view's elements, so the two
    regions are one assertion. -/
theorem pts_congr_read (t : Thread nD τ) (v : View sig t.2.kind sp S e) (q : PosShare TreeShare)
    (f g : Buf (Elt F) (v.loc t)) (h : v.read (Elt F) f = v.read (Elt F) g) :
    (v.loc t ↦[v.set]{q} f : sProp 𝕄) = v.loc t ↦[v.set]{q} g := by
  refine pointsTo_congr fun i hi => ?_
  obtain ⟨y, rfl⟩ := View.exists_emb_of_mem_set v hi
  have hy := congrFun h y
  rw [View.read_apply, View.read_apply] at hy
  exact (cast_inj _).mp hy

/-- A full share is its left half, and the two halves of its right half. -/
theorem pts_thirds (ℓ : Loc nD τ sig) (I : Finset (Idx ℓ)) (f : Buf (Elt F) ℓ) :
    (ℓ ↦[I]{fullShare} f : sProp 𝕄)
      = iprop((ℓ ↦[I]{fullShare.left} f) ∗ (ℓ ↦[I]{fullShare.right.left} f) ∗ (ℓ ↦[I]{fullShare.right.right} f)) := by
  have h1 : (ℓ ↦[I]{fullShare} f : sProp 𝕄) ⊣⊢ iprop((ℓ ↦[I]{fullShare.left} f) ∗ ℓ ↦[I]{fullShare.right} f) :=
    pointsTo_share (PosShare.mem_left_op_right fullShare)
  have h2 : (ℓ ↦[I]{fullShare.right} f : sProp 𝕄) ⊣⊢ iprop((ℓ ↦[I]{fullShare.right.left} f) ∗ ℓ ↦[I]{fullShare.right.right} f) :=
    pointsTo_share (PosShare.mem_left_op_right fullShare.right)
  rw [BI.equiv_iff.mp ⟨h1.1, h1.2⟩, BI.equiv_iff.mp ⟨h2.1, h2.2⟩]

/-- A buffer held whole is the regions of a family of element sets that partition its index set. -/
theorem pts_partition {T : Type} [Fintype T] [DecidableEq T] (ℓ : Loc nD τ sig) (K : T → Finset (Idx ℓ))
    (hd : ∀ t t', t ≠ t' → Disjoint (K t) (K t')) (hc : ∀ i, ∃ t, i ∈ K t)
    (q : PosShare TreeShare) (f : Buf (Elt F) ℓ) :
    (ℓ ↦{q} f : sProp 𝕄) = bigSep Finset.univ fun t => ℓ ↦[K t]{q} f := by
  rw [← pointsTo_biUnion Finset.univ K (fun t _ t' _ h => hd t t' h)]
  congr 1
  refine (Finset.eq_univ_iff_forall.mpr fun i => ?_).symm
  obtain ⟨t, ht⟩ := hc i
  exact Finset.mem_biUnion.mpr ⟨t, Finset.mem_univ t, ht⟩

/-- Regions of pairwise disjoint element sets, each at some contents, join into their union at some contents. -/
theorem pts_join_any {T : Type} [DecidableEq T] (ℓ : Loc nD τ sig) (K : T → Finset (Idx ℓ)) (q : PosShare TreeShare)
    (f₀ : Buf (Elt F) ℓ) (s : Finset T) (hd : ∀ t ∈ s, ∀ t' ∈ s, t ≠ t' → Disjoint (K t) (K t')) :
    bigSep s (fun t => (iprop(∃ f : Buf (Elt F) ℓ, ℓ ↦[K t]{q} f) : sProp 𝕄))
      ⊢ (iprop(∃ g : Buf (Elt F) ℓ, ℓ ↦[s.biUnion K]{q} g) : sProp 𝕄) := by
  classical
  induction s using Finset.induction_on with
  | empty =>
    iintro -
    iexists f₀
    rw [Finset.biUnion_empty, pointsTo_empty]; iempintro
  | insert t s ht ih =>
    rw [bigSep_insert ht, Finset.biUnion_insert]
    have hd' : Disjoint (K t) (s.biUnion K) :=
      (Finset.disjoint_biUnion_right _ _ _).mpr fun t' ht' =>
        hd t (Finset.mem_insert_self _ _) t' (Finset.mem_insert_of_mem ht') (fun e => ht (e ▸ ht'))
    refine (show iprop((∃ f : Buf (Elt F) ℓ, ℓ ↦[K t]{q} f) ∗ bigSep s (fun t => (iprop(∃ f : Buf (Elt F) ℓ, ℓ ↦[K t]{q} f) : sProp 𝕄))) ⊢ _ from ?_)
    iintro ⟨Ht, HS⟩
    icases Ht with ⟨%f, Ht⟩
    ihave H := (ih fun t₁ h₁ t₂ h₂ => hd t₁ (Finset.mem_insert_of_mem h₁) t₂ (Finset.mem_insert_of_mem h₂)) $$ HS
    icases H with ⟨%g, HS⟩
    iexists (s.biUnion K).piecewise g f
    iapply (pointsTo_join hd')
    isplitl [Ht]; · iexact Ht
    iexact HS

/-- Writing through a view re-indexed by another shape is writing the re-indexed payload through the view. -/
theorem write_reshape_univ {κ : Kind} {Val : EltTy → Type} (v : View sig κ sp S e) (h : S'.numel = S.numel)
    (f : v.ty.Contents Val) (w : S'.Idx → Val e) :
    (v.reshape S' h).write Val f w Finset.univ = v.write Val f (fun x => w (Shape.reshapeEquiv h.symm x)) Finset.univ := by
  funext i
  by_cases hi : i ∈ v.set
  · obtain ⟨x, rfl⟩ := View.exists_emb_of_mem_set v hi
    have hx : (v.reshape S' h).emb (Shape.reshapeEquiv h.symm x) = v.emb x := by
      rw [View.emb_reshape, Function.Embedding.trans_apply, Equiv.coe_toEmbedding, ← Shape.reshapeEquiv_symm h,
        Equiv.apply_symm_apply]
    have h1 := View.write_emb_of_mem (v := v.reshape S' h) f w (M := Finset.univ) (Finset.mem_univ (Shape.reshapeEquiv h.symm x))
    rw [hx] at h1
    rw [h1, View.write_emb_of_mem _ _ (Finset.mem_univ x)]
  · rw [View.write_of_not_mem _ _ _ (by rw [View.setOn_univ, View.set_reshape]; exact hi),
      View.write_of_not_mem _ _ _ (by rw [View.setOn_univ]; exact hi)]

/-- What is stored through a unit-stride rectangle of a view is read back through the same rectangle, however
    the two spell its offsets. -/
theorem read_write_unit_congr {κ : Kind} {Val : EltTy → Type} (v : View sig κ sp S e) {off off' size : Fin S.rank → Nat}
    (h : off = off') (p : ∀ a, off a + size a ≤ S.size a) (p' : ∀ a, off' a + size a ≤ S.size a)
    (f : v.ty.Contents Val) (w : (⟨S.rank, size⟩ : Shape).Idx → Val e) :
    (v.slice (Rect.unit off' size p')).read Val ((v.slice (Rect.unit off size p)).write Val f w Finset.univ) = w := by
  subst h; exact View.read_write_univ (v := v.slice (Rect.unit off size p)) f w

/-- The elements a load at a rectangle reads are the rectangle's slice of the view. -/
theorem setOn_rect {κ : Kind} (v : View sig κ sp S e) (r : Rect S) : v.setOn r.toLoadRect.set = (v.slice r).set :=
  (v.set_slice r).symm

/-- The elements under a unit-stride rectangle of a view do not depend on how its offsets are spelt. -/
theorem set_slice_unit_congr {κ : Kind} (v : View sig κ sp S e) {off off' size : Fin S.rank → Nat}
    (h : off = off') (p : ∀ a, off a + size a ≤ S.size a) (p' : ∀ a, off' a + size a ≤ S.size a) :
    (v.slice (Rect.unit off size p)).set = (v.slice (Rect.unit off' size p')).set := by
  subst h; rfl

/-- Regions that partition a buffer's index set, each at some contents, join into the whole buffer at some contents. -/
theorem pts_join_any_univ {T : Type} [Fintype T] [DecidableEq T] (ℓ : Loc nD τ sig) (K : T → Finset (Idx ℓ))
    (hd : ∀ t t', t ≠ t' → Disjoint (K t) (K t')) (hc : ∀ i, ∃ t, i ∈ K t) (q : PosShare TreeShare) (f₀ : Buf (Elt F) ℓ) :
    bigSep Finset.univ (fun t => (iprop(∃ f : Buf (Elt F) ℓ, ℓ ↦[K t]{q} f) : sProp 𝕄))
      ⊢ (iprop(∃ g : Buf (Elt F) ℓ, ℓ ↦{q} g) : sProp 𝕄) := by
  have h := pts_join_any (F := F) ℓ K q f₀ Finset.univ (fun t _ t' _ hne => hd t t' hne)
  have hu : Finset.univ.biUnion K = Finset.univ := Finset.eq_univ_iff_forall.mpr fun i => by
    obtain ⟨t, ht⟩ := hc i
    exact Finset.mem_biUnion.mpr ⟨t, Finset.mem_univ t, ht⟩
  rw [hu] at h
  exact h

/-- A separating conjunction over four devices and two halves, spelt out in order. -/
theorem bigSep_4x2 (Φ : Fin 4 × Fin 2 → sProp 𝕄) :
    bigSep Finset.univ Φ
      = iprop(Φ (0, 0) ∗ Φ (0, 1) ∗ Φ (1, 0) ∗ Φ (1, 1) ∗ Φ (2, 0) ∗ Φ (2, 1) ∗ Φ (3, 0) ∗ Φ (3, 1)) := by
  rw [show (Finset.univ : Finset (Fin 4 × Fin 2)) = {(0, 0), (0, 1), (1, 0), (1, 1), (2, 0), (2, 1), (3, 0), (3, 1)} by decide,
    bigSep_insert (by decide), bigSep_insert (by decide), bigSep_insert (by decide), bigSep_insert (by decide),
    bigSep_insert (by decide), bigSep_insert (by decide), bigSep_insert (by decide), bigSep_singleton] <;> rfl

/-- A separating conjunction over six slots, spelt out in order. -/
theorem bigSep_fin6 (Φ : Fin 6 → sProp 𝕄) :
    bigSep Finset.univ Φ = iprop(Φ 0 ∗ Φ 1 ∗ Φ 2 ∗ Φ 3 ∗ Φ 4 ∗ Φ 5) := by
  rw [show (Finset.univ : Finset (Fin 6)) = {0, 1, 2, 3, 4, 5} by decide,
    bigSep_insert (by decide), bigSep_insert (by decide), bigSep_insert (by decide), bigSep_insert (by decide),
    bigSep_insert (by decide), bigSep_singleton] <;> rfl

end Generic

/-! ## Regions at the names the protocol uses -/

section Regions

variable {S : Shape} {e : EltTy}

/-- A region at contents the view reads as `w` is the region "reading `w`". -/
theorem regPts_of_read (t : Thread nD τ) (v : Memref sig t.2.kind .vmem S e) (q : PosShare TreeShare)
    (f : Buf (Elt F) (v.view.loc t)) (w : S.Idx → Elt F e) (h : v.view.read (Elt F) f = w) :
    (v.view.loc t ↦[v.view.set]{q} f : sProp 𝕄) = regPts t v q w := by
  unfold regPts
  exact pts_congr_read t v.view q f _ (h.trans (View.read_write_univ (v := v.view) (junk (v.view.loc t)) w).symm)

/-- So is the region at contents `w` was written into through the view. -/
theorem regPts_write (t : Thread nD τ) (v : Memref sig t.2.kind .vmem S e) (q : PosShare TreeShare)
    (f : Buf (Elt F) (v.view.loc t)) (w : S.Idx → Elt F e) :
    (v.view.loc t ↦[v.view.set]{q} (v.view.write (Elt F) f w Finset.univ) : sProp 𝕄) = regPts t v q w :=
  regPts_of_read t v q _ w (View.read_write_univ (v := v.view) f w)

/-- A fully held region at any contents is the region at some contents. -/
theorem regAny_of_pts (t : Thread nD τ) (v : Memref sig t.2.kind .vmem S e) (f : Buf (Elt F) (v.view.loc t)) :
    (v.view.loc t ↦[v.view.set]{fullShare} f : sProp 𝕄) ⊢ regAny t v := by
  unfold regAny
  iintro H
  iexists f
  iexact H

theorem regPts_any (t : Thread nD τ) (v : Memref sig t.2.kind .vmem S e) (w : S.Idx → Elt F e) :
    regPts t v fullShare w ⊢ regAny t v :=
  regAny_of_pts t v _

/-- A region reading `w` is the region at the view's own reading of its contents. -/
theorem regPts_read (t : Thread nD τ) (v : Memref sig t.2.kind .vmem S e) (q : PosShare TreeShare)
    (f : Buf (Elt F) (v.view.loc t)) :
    (v.view.loc t ↦[v.view.set]{q} f : sProp 𝕄) = regPts t v q (v.view.read (Elt F) f) :=
  regPts_of_read t v q f _ rfl

theorem lentShare_zero : lentShare 0 = fullShare.left := rfl
theorem lentShare_one : lentShare 1 = fullShare.right.left := rfl
theorem lentShare_two : lentShare 2 = fullShare.right.right := rfl

/-- The full share of a region is the three shares lent to the three copies that read it at once. -/
theorem shares_eq (t : Thread nD τ) (v : Memref sig t.2.kind .vmem S e) (w : S.Idx → Elt F e) :
    regPts t v fullShare w
      = iprop(regPts t v (lentShare 0) w ∗ regPts t v (lentShare 1) w ∗ regPts t v (lentShare 2) w) := by
  rw [lentShare_zero, lentShare_one, lentShare_two]
  unfold regPts
  exact pts_thirds _ _ _

theorem shares (t : Thread nD τ) (v : Memref sig t.2.kind .vmem S e) (w : S.Idx → Elt F e) :
    regPts t v fullShare w
      ⊣⊢ iprop(regPts t v (lentShare 0) w ∗ regPts t v (lentShare 1) w ∗ regPts t v (lentShare 2) w) :=
  .of_eq (shares_eq t v w)

end Regions

/-! ## The element sets: slots and row blocks -/

/-- A slot's view covers the slot's rectangle of the six-slot buffer. -/
theorem sndSlot_set (k : Fin 6) : (sndSlot k).view.set = (slotRect k).set :=
  (View.set_reshape _ _).trans (View.set_slice_whole _ _)
theorem rcvSlot_set (k : Fin 6) : (rcvSlot k).view.set = (slotRect k).set :=
  (View.set_reshape _ _).trans (View.set_slice_whole _ _)

/-- What a load through the whole receive (send) buffer at a slot's rectangle reads is the slot's region. -/
theorem rcv_load_set (k : Fin 6) : rcvM.view.setOn (slotRect k).toLoadRect.set = (rcvSlot k).view.set :=
  (setOn_rect _ _).trans (View.set_reshape _ _).symm
theorem snd_load_set (k : Fin 6) : sndM.view.setOn (slotRect k).toLoadRect.set = (sndSlot k).view.set :=
  (setOn_rect _ _).trans (View.set_reshape _ _).symm
theorem rcv_load_sub (k : Fin 6) : rcvM.view.setOn (slotRect k).toLoadRect.set ⊆ (rcvSlot k).view.set :=
  (rcv_load_set k).subset
theorem snd_load_sub (k : Fin 6) : sndM.view.setOn (slotRect k).toLoadRect.set ⊆ (sndSlot k).view.set :=
  (snd_load_set k).subset

/-- What a store through the whole send (receive) buffer at a slot's rectangle writes is the slot's region. -/
theorem snd_store_set (k : Fin 6) :
    (sndM.access (slotRect k) : View sig .tc .vmem _ _).setOn Finset.univ = (sndSlot k).view.set :=
  (View.setOn_univ _).trans (View.set_reshape _ _).symm
theorem rcv_store_set (k : Fin 6) :
    (rcvM.access (slotRect k) : View sig .tc .vmem _ _).setOn Finset.univ = (rcvSlot k).view.set :=
  (View.setOn_univ _).trans (View.set_reshape _ _).symm
theorem snd_store_sub (k : Fin 6) :
    (sndM.access (slotRect k) : View sig .tc .vmem _ _).setOn Finset.univ ⊆ (sndSlot k).view.set :=
  (snd_store_set k).subset
theorem rcv_store_sub (k : Fin 6) :
    (rcvM.access (slotRect k) : View sig .tc .vmem _ _).setOn Finset.univ ⊆ (rcvSlot k).view.set :=
  (rcv_store_set k).subset

/-- The two spellings of a device's own row offsets agree. -/
theorem off3_eq_off4 (c : Dev nD) (g : Fin 2) :
    k0_off3 c (BitVec.ofNat 32 (128 * g.val)) = k0_off4 c (BitVec.ofNat 32 (128 * g.val)) :=
  (k0_off3_eq c g).trans (k0_off4_eq c g).symm

/-- What a store (a load) through the whole result buffer at a device's own rows touches is those rows' region. -/
theorem out_store_set (c : Dev nD) (g : Fin 2) :
    (oM.access (Rect.unit (s := S1024x1024) (k0_off3 c (BitVec.ofNat 32 (128 * g.val))) S128x1024.size (k0_off3_inb c g)) :
        View sig .tc .vmem _ _).setOn Finset.univ = (oRows c g).view.set :=
  (View.setOn_univ _).trans (set_slice_unit_congr oM.view (off3_eq_off4 c g) _ _)
theorem out_load_set (c : Dev nD) (g : Fin 2) :
    oM.view.setOn (Rect.unit (s := S1024x1024) (k0_off3 c (BitVec.ofNat 32 (128 * g.val))) S128x1024.size (k0_off3_inb c g)).toLoadRect.set
      = (oRows c g).view.set :=
  (setOn_rect _ _).trans (set_slice_unit_congr oM.view (off3_eq_off4 c g) _ _)
theorem out_store_sub (c : Dev nD) (g : Fin 2) :
    (oM.access (Rect.unit (s := S1024x1024) (k0_off3 c (BitVec.ofNat 32 (128 * g.val))) S128x1024.size (k0_off3_inb c g)) :
        View sig .tc .vmem _ _).setOn Finset.univ ⊆ (oRows c g).view.set :=
  (out_store_set c g).subset
theorem out_load_sub (c : Dev nD) (g : Fin 2) :
    oM.view.setOn (Rect.unit (s := S1024x1024) (k0_off3 c (BitVec.ofNat 32 (128 * g.val))) S128x1024.size (k0_off3_inb c g)).toLoadRect.set
      ⊆ (oRows c g).view.set :=
  (out_load_set c g).subset

/-! ## Values through a slot and through a device's own rows -/

/-- The [1,128,1024] value stored through the send buffer's slot rectangle, read back through the slot's
    [128,1024] view, is the value re-indexed. -/
theorem slot_read (k : Fin 6) (f : (cc0_scratch3 : Ref sig .tc).ty.Contents (Elt F)) (w : Vec F S1x128x1024 .bf16) :
    (sndSlot k).view.read (Elt F) ((sndM.access (slotRect k) : View sig .tc .vmem _ _).write (Elt F) f w Finset.univ)
      = slotVal w := by
  unfold slotVal
  rw [Memref.read_squeeze_slice sndM (slotRect k) (fun _ => rfl) squeezes_S1x128x1024_S128x1024
    shapeCasts_S1x128x1024_S128x1024, View.readAt_rect, View.read_write_univ]

/-- A [128,1024] value written through a receive slot's view, loaded through the buffer at the slot's rectangle, is
    the value re-indexed [1,128,1024]. -/
theorem slot_load (k : Fin 6) (f : (cc0_scratch4 : Ref sig .tc).ty.Contents (Elt F)) (v : Vec F S128x1024 .bf16) :
    rcvM.view.readAt (Elt F) (slotRect k).toLoadRect ((rcvSlot k).view.write (Elt F) f v Finset.univ)
      = shapeCast S1x128x1024 v shapeCasts_S128x1024_S1x128x1024 := by
  rw [View.readAt_rect,
    show (rcvSlot k).view.write (Elt F) f v Finset.univ = _ from
      write_reshape_univ (rcvM.view.slice (slotRect k)) squeezes_S1x128x1024_S128x1024.numel_eq f v,
    View.read_write_univ]
  rfl

/-- So a slot's contents as the transfers carry them load back as the value that was sent. -/
theorem slot_load_val (k : Fin 6) (f : (cc0_scratch4 : Ref sig .tc).ty.Contents (Elt F)) (w : Vec F S1x128x1024 .bf16) :
    rcvM.view.readAt (Elt F) (slotRect k).toLoadRect ((rcvSlot k).view.write (Elt F) f (slotVal w) Finset.univ) = w :=
  (slot_load k f (slotVal w)).trans (shapeCast_shapeCast w shapeCasts_S1x128x1024_S128x1024 shapeCasts_S128x1024_S1x128x1024)

/-- The rows a device stores through the result buffer at its own offsets read back through its rows' view. -/
theorem out_read (c : Dev nD) (g : Fin 2) (f : (cc0_stg4_0 : Ref sig .tc).ty.Contents (Elt F)) (w : Vec F S128x1024 .bf16) :
    (oRows c g).view.read (Elt F)
        ((oM.access (Rect.unit (s := S1024x1024) (k0_off3 c (BitVec.ofNat 32 (128 * g.val))) S128x1024.size (k0_off3_inb c g)) :
          View sig .tc .vmem _ _).write (Elt F) f w Finset.univ) = w :=
  read_write_unit_congr oM.view (off3_eq_off4 c g) _ _ f w

/-! ## Arithmetic of the row blocks and of the slots -/

theorem mem_slotRect (k : Fin 6) (i : S6x128x1024.Idx) : i ∈ (slotRect k).set ↔ (i 0).val = k.val := by
  rw [Rect.mem_set_unit]
  have h1 : (i 1).val < 128 := (i 1).isLt
  have h2 : (i 2).val < 1024 := (i 2).isLt
  constructor
  · intro h
    have h0 := h 0
    have e0 : (![k.val, 0, 0] : Fin 3 → ℕ) 0 = k.val := rfl
    have s0 : S1x128x1024.size 0 = 1 := rfl
    rw [e0, s0] at h0
    omega
  · intro h a
    match a with
    | ⟨0, _⟩ => exact ⟨by show k.val ≤ (i 0).val; omega, by show (i 0).val < k.val + 1; omega⟩
    | ⟨1, _⟩ => exact ⟨Nat.zero_le _, by show (i 1).val < 0 + 128; omega⟩
    | ⟨2, _⟩ => exact ⟨Nat.zero_le _, by show (i 2).val < 0 + 1024; omega⟩

theorem slots_disjoint (k k' : Fin 6) (h : k ≠ k') : Disjoint (slotRect k).set (slotRect k').set :=
  Finset.disjoint_left.mpr fun i h1 h2 =>
    h (Fin.ext (((mem_slotRect k i).mp h1).symm.trans ((mem_slotRect k' i).mp h2)))

theorem slots_cover (i : S6x128x1024.Idx) : ∃ k : Fin 6, i ∈ (slotRect k).set :=
  ⟨⟨(i 0).val, (i 0).isLt⟩, (mem_slotRect _ i).mpr rfl⟩

theorem off4_zero (d : Dev nD) (g : Fin 2) : k0_off4 d (BitVec.ofNat 32 (128 * g.val)) 0 = 256 * d.val + 128 * g.val := by
  rw [k0_off4_eq]; rfl
theorem off4_one (d : Dev nD) (g : Fin 2) : k0_off4 d (BitVec.ofNat 32 (128 * g.val)) 1 = 0 := by
  rw [k0_off4_eq]; rfl

/-- The rows of device d's half g are rows 256 d + 128 g … + 127, at every column. -/
theorem mem_oRows (d : Dev nD) (g : Fin 2) (i : S1024x1024.Idx) :
    i ∈ (oRows d g).view.set ↔ 256 * d.val + 128 * g.val ≤ (i 0).val ∧ (i 0).val < 256 * d.val + 128 * g.val + 128 := by
  rw [show (oRows d g).view.set
      = (Rect.unit (s := S1024x1024) (k0_off4 d (BitVec.ofNat 32 (128 * g.val))) S128x1024.size (k0_off4_inb d g)).set
    from View.set_slice_whole _ _]
  rw [Rect.mem_set_unit, Fin.forall_fin_two, off4_zero, off4_one]
  have h1 : (i 1).val < 1024 := (i 1).isLt
  have s0 : S128x1024.size 0 = 128 := rfl
  have s1 : S128x1024.size 1 = 1024 := rfl
  rw [s0, s1]
  constructor
  · intro h; exact h.1
  · intro h; exact ⟨h, Nat.zero_le _, by omega⟩

theorem pe_val (c : Dev nD) (o : ℕ) : (pe c o).val = (c.val + o) % 4 := rfl

/-- Seen from device c, the blocks of the devices c, c + 1, c + 2, c + 3 are pairwise disjoint -/
theorem rows_disjoint (c : Dev nD) (og og' : Fin 4 × Fin 2) (h : og ≠ og') :
    Disjoint (oRows (pe c og.1.val) og.2).view.set (oRows (pe c og'.1.val) og'.2).view.set :=
  Finset.disjoint_left.mpr fun i h1 h2 => h (by
    have h1 := (mem_oRows _ _ i).mp h1
    have h2 := (mem_oRows _ _ i).mp h2
    rw [pe_val] at h1 h2
    have hc : c.val < 4 := c.isLt
    have ho : og.1.val < 4 := og.1.isLt
    have ho' : og'.1.val < 4 := og'.1.isLt
    have hg : og.2.val < 2 := og.2.isLt
    have hg' : og'.2.val < 2 := og'.2.isLt
    exact Prod.ext (Fin.ext (by omega)) (Fin.ext (by omega)))

/-- and cover every row. -/
theorem rows_cover (c : Dev nD) (i : S1024x1024.Idx) :
    ∃ og : Fin 4 × Fin 2, i ∈ (oRows (pe c og.1.val) og.2).view.set := by
  have hc : c.val < 4 := c.isLt
  have hx : (i 0).val < 1024 := (i 0).isLt
  refine ⟨(⟨((i 0).val / 256 + 4 - c.val) % 4, Nat.mod_lt _ (by decide)⟩, ⟨(i 0).val / 128 % 2, Nat.mod_lt _ (by decide)⟩), ?_⟩
  refine (mem_oRows _ _ i).mpr ?_
  show 256 * (pe c (((i 0).val / 256 + 4 - c.val) % 4)).val + 128 * ((i 0).val / 128 % 2) ≤ (i 0).val
    ∧ (i 0).val < 256 * (pe c (((i 0).val / 256 + 4 - c.val) % 4)).val + 128 * ((i 0).val / 128 % 2) + 128
  rw [pe_val]
  omega

/-! ## The result buffer -/

/-- The element of the whole result at row 256 d + 128 g + r is row r of device d's half g. -/
theorem OUT_apply (i : S1024x1024.Idx) (d : Dev nD) (g : Fin 2) (y : S128x1024.Idx)
    (h0 : (i 0).val = 256 * d.val + 128 * g.val + (y 0).val) (h1 : (i 1).val = (y 1).val) : OUT m i = R m d g y := by
  have hd : d.val < 4 := d.isLt
  have hg : g.val < 2 := g.isLt
  have hy : (y 0).val < 128 := (y 0).isLt
  have key : ∀ (d' : Dev nD) (g' : Fin 2) (y' : S128x1024.Idx), d' = d → g' = g → y' = y → R m d' g' y' = R m d g y := by
    rintro _ _ _ rfl rfl rfl; rfl
  unfold OUT
  exact key _ _ _ (Fin.ext (by show (i 0).val / 256 % 4 = d.val; omega)) (Fin.ext (by show (i 0).val / 128 % 2 = g.val; omega))
    (Shape.idx_ext₂ (by show (i 0).val % 128 = (y 0).val; omega) (by show (i 1).val = (y 1).val; exact h1))

/-- Read through the rows of device d's half g, the whole result is that half's finished rows. -/
theorem OUT_rows (d : Dev nD) (g : Fin 2) : (oRows d g).view.read (Elt F) (OUT m) = R m d g := by
  funext y
  have e0 : (((oRows d g).view.emb y) 0).val = k0_off4 d (BitVec.ofNat 32 (128 * g.val)) 0 + 1 * (y 0).val := rfl
  have e1 : (((oRows d g).view.emb y) 1).val = k0_off4 d (BitVec.ofNat 32 (128 * g.val)) 1 + 1 * (y 1).val := rfl
  rw [off4_zero] at e0
  rw [off4_one] at e1
  rw [View.read_apply]
  exact (cast_eq _ _).trans (OUT_apply m _ d g y (by omega) (by omega))

/-- The whole result buffer at any contents is its eight row blocks, seen from device c, each at some contents. -/
theorem out_split (c : Dev nD) (f : Buf (Elt F) ((c : Thread nD τ).loc cc0_stg4_0)) :
    ((c : Thread nD τ).loc cc0_stg4_0 ↦{fullShare} f : sProp 𝕄)
      ⊢ bigSep Finset.univ fun og : Fin 4 × Fin 2 => regAny (c : Thread nD τ) (oRows (pe c og.1.val) og.2) := by
  rw [pts_partition ((c : Thread nD τ).loc cc0_stg4_0) (fun og : Fin 4 × Fin 2 => (oRows (pe c og.1.val) og.2).view.set)
    (rows_disjoint c) (rows_cover c) fullShare f]
  exact bigSep_mono fun og _ => regAny_of_pts (c : Thread nD τ) (oRows (pe c og.1.val) og.2) f

/-- The same at the values: each block reads its rows of the contents. -/
theorem out_split_vals (c : Dev nD) (q : PosShare TreeShare) (f : Buf (Elt F) ((c : Thread nD τ).loc cc0_stg4_0)) :
    ((c : Thread nD τ).loc cc0_stg4_0 ↦{q} f : sProp 𝕄)
      = bigSep Finset.univ fun og : Fin 4 × Fin 2 =>
          regPts (c : Thread nD τ) (oRows (pe c og.1.val) og.2) q ((oRows (pe c og.1.val) og.2).view.read (Elt F) f) := by
  rw [pts_partition ((c : Thread nD τ).loc cc0_stg4_0) (fun og : Fin 4 × Fin 2 => (oRows (pe c og.1.val) og.2).view.set)
    (rows_disjoint c) (rows_cover c) q f]
  exact bigSep_congr fun og _ => regPts_read (c : Thread nD τ) (oRows (pe c og.1.val) og.2) q f

/-- The eight row blocks, each reading its device's finished rows, are the whole result. -/
theorem out_join (c : Dev nD) :
    (bigSep Finset.univ fun og : Fin 4 × Fin 2 =>
        regPts (c : Thread nD τ) (oRows (pe c og.1.val) og.2) fullShare (R m (pe c og.1.val) og.2))
      ⊢ ((c : Thread nD τ).loc cc0_stg4_0 ↦{fullShare} OUT m : sProp 𝕄) := by
  rw [out_split_vals c fullShare (OUT m)]
  exact Entails.of_eq (bigSep_congr fun og _ => by rw [OUT_rows])

/-! ## The six-slot buffers -/

theorem snd_split (c : Dev nD) (f : Buf (Elt F) ((c : Thread nD τ).loc cc0_scratch3)) :
    ((c : Thread nD τ).loc cc0_scratch3 ↦{fullShare} f : sProp 𝕄)
      ⊢ bigSep Finset.univ fun k : Fin 6 => regAny (c : Thread nD τ) (sndSlot k) := by
  rw [pts_partition ((c : Thread nD τ).loc cc0_scratch3) (fun k : Fin 6 => (sndSlot k).view.set)
    (fun k k' h => by rw [sndSlot_set, sndSlot_set]; exact slots_disjoint k k' h)
    (fun i => by obtain ⟨k, hk⟩ := slots_cover i; exact ⟨k, by rw [sndSlot_set]; exact hk⟩) fullShare f]
  exact bigSep_mono fun k _ => regAny_of_pts (c : Thread nD τ) (sndSlot k) f

theorem rcv_split (c : Dev nD) (f : Buf (Elt F) ((c : Thread nD τ).loc cc0_scratch4)) :
    ((c : Thread nD τ).loc cc0_scratch4 ↦{fullShare} f : sProp 𝕄)
      ⊢ bigSep Finset.univ fun k : Fin 6 => regAny (c : Thread nD τ) (rcvSlot k) := by
  rw [pts_partition ((c : Thread nD τ).loc cc0_scratch4) (fun k : Fin 6 => (rcvSlot k).view.set)
    (fun k k' h => by rw [rcvSlot_set, rcvSlot_set]; exact slots_disjoint k k' h)
    (fun i => by obtain ⟨k, hk⟩ := slots_cover i; exact ⟨k, by rw [rcvSlot_set]; exact hk⟩) fullShare f]
  exact bigSep_mono fun k _ => regAny_of_pts (c : Thread nD τ) (rcvSlot k) f

theorem snd_join (c : Dev nD) :
    (bigSep Finset.univ fun k : Fin 6 => regAny (F := F) (c : Thread nD τ) (sndSlot k))
      ⊢ (iprop(∃ f : Buf (Elt F) ((c : Thread nD τ).loc cc0_scratch3), (c : Thread nD τ).loc cc0_scratch3 ↦{fullShare} f) : sProp 𝕄) :=
  pts_join_any_univ ((c : Thread nD τ).loc cc0_scratch3) (fun k : Fin 6 => (sndSlot k).view.set)
    (fun k k' h => by rw [sndSlot_set, sndSlot_set]; exact slots_disjoint k k' h)
    (fun i => by obtain ⟨k, hk⟩ := slots_cover i; exact ⟨k, by rw [sndSlot_set]; exact hk⟩) fullShare (junk _)

theorem rcv_join (c : Dev nD) :
    (bigSep Finset.univ fun k : Fin 6 => regAny (F := F) (c : Thread nD τ) (rcvSlot k))
      ⊢ (iprop(∃ f : Buf (Elt F) ((c : Thread nD τ).loc cc0_scratch4), (c : Thread nD τ).loc cc0_scratch4 ↦{fullShare} f) : sProp 𝕄) :=
  pts_join_any_univ ((c : Thread nD τ).loc cc0_scratch4) (fun k : Fin 6 => (rcvSlot k).view.set)
    (fun k k' h => by rw [rcvSlot_set, rcvSlot_set]; exact slots_disjoint k k' h)
    (fun i => by obtain ⟨k, hk⟩ := slots_cover i; exact ⟨k, by rw [rcvSlot_set]; exact hk⟩) fullShare (junk _)

/-! ## Stores and loads through the whole buffers, at the regions' names -/

/-- After a device's rows are stored through the result buffer at its own offsets, the rows' region reads them. -/
theorem out_stored (c : Dev nD) (g : Fin 2) (q : PosShare TreeShare) (f : Buf (Elt F) ((c : Thread nD τ).loc cc0_stg4_0))
    (w : Vec F S128x1024 .bf16) :
    ((c : Thread nD τ).loc cc0_stg4_0 ↦[(oRows c g).view.set]{q}
        ((oM.access (Rect.unit (s := S1024x1024) (k0_off3 c (BitVec.ofNat 32 (128 * g.val))) S128x1024.size (k0_off3_inb c g)) :
          View sig .tc .vmem _ _).write (Elt F) f w Finset.univ) : sProp 𝕄)
      = regPts (c : Thread nD τ) (oRows c g) q w :=
  regPts_of_read (c : Thread nD τ) (oRows c g) q _ w (out_read c g f w)

/-- After a share is stored through the send buffer at a slot's rectangle, the slot's region reads it re-indexed. -/
theorem snd_stored (c : Dev nD) (k : Fin 6) (q : PosShare TreeShare) (f : Buf (Elt F) ((c : Thread nD τ).loc cc0_scratch3))
    (w : Vec F S1x128x1024 .bf16) :
    ((c : Thread nD τ).loc cc0_scratch3 ↦[(sndSlot k).view.set]{q}
        ((sndM.access (slotRect k) : View sig .tc .vmem _ _).write (Elt F) f w Finset.univ) : sProp 𝕄)
      = regPts (c : Thread nD τ) (sndSlot k) q (slotVal w) :=
  regPts_of_read (c : Thread nD τ) (sndSlot k) q _ (slotVal w) (slot_read k f w)

/-- Rows written through a device's rows' view load back through the result buffer at the device's own offsets. -/
theorem out_load_val (c : Dev nD) (g : Fin 2) (f : (cc0_stg4_0 : Ref sig .tc).ty.Contents (Elt F)) (v : Vec F S128x1024 .bf16) :
    oM.view.readAt (Elt F)
        (Rect.unit (s := S1024x1024) (k0_off3 c (BitVec.ofNat 32 (128 * g.val))) S128x1024.size (k0_off3_inb c g)).toLoadRect
        ((oRows c g).view.write (Elt F) f v Finset.univ) = v :=
  read_write_unit_congr oM.view (off3_eq_off4 c g).symm _ _ f v

end Cert.Kernel.Rx

end
-- ==== Proof.W.Pays.lean ====
/-
  What the schedule's payloads are at the cells a device meets.

  Slot (o, g) — for the device o + 1 places away and half g — is slot 2 o + g, so halving a slot number gives o back
  and its parity gives g. A send cell's payload is the slot (the rows) its owner lent; a receive cell's payload is what
  landed there, which is what the device o + 1 places before its owner sent: and o + 1 places after c, then 3 - o
  places further, is c again on a ring of four.
-/
import proofs.«900523_g7700000000000524_dist_gated_mlp_tp_i_m1024_h2048_d1024_v7x_i4_bf16_1_alg».proof.Proof.W.Regions

noncomputable section

namespace Cert.Kernel.Dx

open Cert.Kernel Cert.Kernel.Gen Cert.Kernel.Px Cert.Kernel.Rx

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## Slot numbers and the ring -/

theorem slotOf_div (o : Fin 3) (g : Fin 2) (h : (slotOf o g).val / 2 < 3) : (⟨(slotOf o g).val / 2, h⟩ : Fin 3) = o :=
  Fin.ext (by show (o.val * 2 + g.val) / 2 = o.val; have := g.isLt; omega)

theorem slotOf_mod (o : Fin 3) (g : Fin 2) (h : (slotOf o g).val % 2 < 2) : (⟨(slotOf o g).val % 2, h⟩ : Fin 2) = g :=
  Fin.ext (by show (o.val * 2 + g.val) % 2 = g.val; have := g.isLt; omega)

/-- o + 1 places on, then 3 - o places on, is once round the ring. -/
theorem pe_back (c : Dev nD) (o : Fin 3) : pe (pe c (o.val + 1)) (3 - o.val) = c := by
  rw [pe_pe, show o.val + 1 + (3 - o.val) = 4 by have := o.isLt; omega, pe_four]

/-- What lands in slot (o, g) of the device o + 1 places after c is what c sent. -/
theorem got_pe (c : Dev nD) (o : Fin 3) (g : Fin 2) : got m (pe c (o.val + 1)) o g = sent m c o g := by
  unfold got; rw [pe_back]

/-! ## The payloads, for any o and g -/

theorem dPay_send (c : Dev nD) (o : Fin 3) (g : Fin 2) :
    dPay m c 0 (slotOf o g) = regPts (c : Thread nD τ) (sndSlot (slotOf o g)) fullShare (slotVal (sent m c o g)) := by
  show regPts (c : Thread nD τ) (sndSlot (slotOf o g)) fullShare
    (slotVal (sent m c ⟨(slotOf o g).val / 2, _⟩ ⟨(slotOf o g).val % 2, _⟩)) = _
  rw [slotOf_div, slotOf_mod]

theorem dPay_recv_own (c : Dev nD) (o : Fin 3) (g : Fin 2) :
    dPay m c 1 (slotOf o g) = regPts (c : Thread nD τ) (rcvSlot (slotOf o g)) fullShare (slotVal (got m c o g)) := by
  show regPts (c : Thread nD τ) (rcvSlot (slotOf o g)) fullShare
    (slotVal (got m c ⟨(slotOf o g).val / 2, _⟩ ⟨(slotOf o g).val % 2, _⟩)) = _
  rw [slotOf_div, slotOf_mod]

theorem dPay_recv (c : Dev nD) (o : Fin 3) (g : Fin 2) :
    dPay m (pe c (o.val + 1)) 1 (slotOf o g)
      = regPts ((pe c (o.val + 1) : Dev nD) : Thread nD τ) (rcvSlot (slotOf o g)) fullShare (slotVal (sent m c o g)) := by
  rw [dPay_recv_own, got_pe]

theorem dPay_asend (c : Dev nD) (o : Fin 3) (g : Fin 2) :
    dPay m c 2 (slotOf o g) = regPts (c : Thread nD τ) (oRows c g) (lentShare o) (R m c g) := by
  show regPts (c : Thread nD τ) (oRows c ⟨(slotOf o g).val % 2, _⟩) (lentShare ⟨(slotOf o g).val / 2, _⟩)
    (R m c ⟨(slotOf o g).val % 2, _⟩) = _
  rw [slotOf_div, slotOf_mod]

theorem dPay_arecv_own (c : Dev nD) (o : Fin 3) (g : Fin 2) :
    dPay m c 3 (slotOf o g)
      = regPts (c : Thread nD τ) (oRows (pe c (3 - o.val)) g) fullShare (R m (pe c (3 - o.val)) g) := by
  show regPts (c : Thread nD τ) (oRows (pe c (3 - (⟨(slotOf o g).val / 2, _⟩ : Fin 3).val)) ⟨(slotOf o g).val % 2, _⟩) fullShare
    (R m (pe c (3 - (⟨(slotOf o g).val / 2, _⟩ : Fin 3).val)) ⟨(slotOf o g).val % 2, _⟩) = _
  rw [slotOf_div, slotOf_mod]

theorem dPay_arecv (c : Dev nD) (o : Fin 3) (g : Fin 2) :
    dPay m (pe c (o.val + 1)) 3 (slotOf o g)
      = regPts ((pe c (o.val + 1) : Dev nD) : Thread nD τ) (oRows c g) fullShare (R m c g) := by
  rw [dPay_arecv_own, pe_back]

/-! ## The same at each slot, numerals written out -/

section Literal
variable (c : Dev nD)

theorem dPay_send_00 : dPay m c 0 0 = regPts (c : Thread nD τ) (sndSlot 0) fullShare (slotVal (sent m c 0 0)) := dPay_send m c 0 0
theorem dPay_send_01 : dPay m c 0 1 = regPts (c : Thread nD τ) (sndSlot 1) fullShare (slotVal (sent m c 0 1)) := dPay_send m c 0 1
theorem dPay_send_10 : dPay m c 0 2 = regPts (c : Thread nD τ) (sndSlot 2) fullShare (slotVal (sent m c 1 0)) := dPay_send m c 1 0
theorem dPay_send_11 : dPay m c 0 3 = regPts (c : Thread nD τ) (sndSlot 3) fullShare (slotVal (sent m c 1 1)) := dPay_send m c 1 1
theorem dPay_send_20 : dPay m c 0 4 = regPts (c : Thread nD τ) (sndSlot 4) fullShare (slotVal (sent m c 2 0)) := dPay_send m c 2 0
theorem dPay_send_21 : dPay m c 0 5 = regPts (c : Thread nD τ) (sndSlot 5) fullShare (slotVal (sent m c 2 1)) := dPay_send m c 2 1

theorem dPay_recv_00 : dPay m (pe c 1) 1 0 = regPts ((pe c 1 : Dev nD) : Thread nD τ) (rcvSlot 0) fullShare (slotVal (sent m c 0 0)) := dPay_recv m c 0 0
theorem dPay_recv_01 : dPay m (pe c 1) 1 1 = regPts ((pe c 1 : Dev nD) : Thread nD τ) (rcvSlot 1) fullShare (slotVal (sent m c 0 1)) := dPay_recv m c 0 1
theorem dPay_recv_10 : dPay m (pe c 2) 1 2 = regPts ((pe c 2 : Dev nD) : Thread nD τ) (rcvSlot 2) fullShare (slotVal (sent m c 1 0)) := dPay_recv m c 1 0
theorem dPay_recv_11 : dPay m (pe c 2) 1 3 = regPts ((pe c 2 : Dev nD) : Thread nD τ) (rcvSlot 3) fullShare (slotVal (sent m c 1 1)) := dPay_recv m c 1 1
theorem dPay_recv_20 : dPay m (pe c 3) 1 4 = regPts ((pe c 3 : Dev nD) : Thread nD τ) (rcvSlot 4) fullShare (slotVal (sent m c 2 0)) := dPay_recv m c 2 0
theorem dPay_recv_21 : dPay m (pe c 3) 1 5 = regPts ((pe c 3 : Dev nD) : Thread nD τ) (rcvSlot 5) fullShare (slotVal (sent m c 2 1)) := dPay_recv m c 2 1

theorem dPay_recv_own_00 : dPay m c 1 0 = regPts (c : Thread nD τ) (rcvSlot 0) fullShare (slotVal (got m c 0 0)) := dPay_recv_own m c 0 0
theorem dPay_recv_own_01 : dPay m c 1 1 = regPts (c : Thread nD τ) (rcvSlot 1) fullShare (slotVal (got m c 0 1)) := dPay_recv_own m c 0 1
theorem dPay_recv_own_10 : dPay m c 1 2 = regPts (c : Thread nD τ) (rcvSlot 2) fullShare (slotVal (got m c 1 0)) := dPay_recv_own m c 1 0
theorem dPay_recv_own_11 : dPay m c 1 3 = regPts (c : Thread nD τ) (rcvSlot 3) fullShare (slotVal (got m c 1 1)) := dPay_recv_own m c 1 1
theorem dPay_recv_own_20 : dPay m c 1 4 = regPts (c : Thread nD τ) (rcvSlot 4) fullShare (slotVal (got m c 2 0)) := dPay_recv_own m c 2 0
theorem dPay_recv_own_21 : dPay m c 1 5 = regPts (c : Thread nD τ) (rcvSlot 5) fullShare (slotVal (got m c 2 1)) := dPay_recv_own m c 2 1

theorem dPay_asend_00 : dPay m c 2 0 = regPts (c : Thread nD τ) (oRows c 0) (lentShare 0) (R m c 0) := dPay_asend m c 0 0
theorem dPay_asend_01 : dPay m c 2 1 = regPts (c : Thread nD τ) (oRows c 1) (lentShare 0) (R m c 1) := dPay_asend m c 0 1
theorem dPay_asend_10 : dPay m c 2 2 = regPts (c : Thread nD τ) (oRows c 0) (lentShare 1) (R m c 0) := dPay_asend m c 1 0
theorem dPay_asend_11 : dPay m c 2 3 = regPts (c : Thread nD τ) (oRows c 1) (lentShare 1) (R m c 1) := dPay_asend m c 1 1
theorem dPay_asend_20 : dPay m c 2 4 = regPts (c : Thread nD τ) (oRows c 0) (lentShare 2) (R m c 0) := dPay_asend m c 2 0
theorem dPay_asend_21 : dPay m c 2 5 = regPts (c : Thread nD τ) (oRows c 1) (lentShare 2) (R m c 1) := dPay_asend m c 2 1

theorem dPay_arecv_00 : dPay m (pe c 1) 3 0 = regPts ((pe c 1 : Dev nD) : Thread nD τ) (oRows c 0) fullShare (R m c 0) := dPay_arecv m c 0 0
theorem dPay_arecv_01 : dPay m (pe c 1) 3 1 = regPts ((pe c 1 : Dev nD) : Thread nD τ) (oRows c 1) fullShare (R m c 1) := dPay_arecv m c 0 1
theorem dPay_arecv_10 : dPay m (pe c 2) 3 2 = regPts ((pe c 2 : Dev nD) : Thread nD τ) (oRows c 0) fullShare (R m c 0) := dPay_arecv m c 1 0
theorem dPay_arecv_11 : dPay m (pe c 2) 3 3 = regPts ((pe c 2 : Dev nD) : Thread nD τ) (oRows c 1) fullShare (R m c 1) := dPay_arecv m c 1 1
theorem dPay_arecv_20 : dPay m (pe c 3) 3 4 = regPts ((pe c 3 : Dev nD) : Thread nD τ) (oRows c 0) fullShare (R m c 0) := dPay_arecv m c 2 0
theorem dPay_arecv_21 : dPay m (pe c 3) 3 5 = regPts ((pe c 3 : Dev nD) : Thread nD τ) (oRows c 1) fullShare (R m c 1) := dPay_arecv m c 2 1

theorem dPay_arecv_own_00 : dPay m c 3 0 = regPts (c : Thread nD τ) (oRows (pe c 3) 0) fullShare (R m (pe c 3) 0) := dPay_arecv_own m c 0 0
theorem dPay_arecv_own_01 : dPay m c 3 1 = regPts (c : Thread nD τ) (oRows (pe c 3) 1) fullShare (R m (pe c 3) 1) := dPay_arecv_own m c 0 1
theorem dPay_arecv_own_10 : dPay m c 3 2 = regPts (c : Thread nD τ) (oRows (pe c 2) 0) fullShare (R m (pe c 2) 0) := dPay_arecv_own m c 1 0
theorem dPay_arecv_own_11 : dPay m c 3 3 = regPts (c : Thread nD τ) (oRows (pe c 2) 1) fullShare (R m (pe c 2) 1) := dPay_arecv_own m c 1 1
theorem dPay_arecv_own_20 : dPay m c 3 4 = regPts (c : Thread nD τ) (oRows (pe c 1) 0) fullShare (R m (pe c 1) 0) := dPay_arecv_own m c 2 0
theorem dPay_arecv_own_21 : dPay m c 3 5 = regPts (c : Thread nD τ) (oRows (pe c 1) 1) fullShare (R m (pe c 1) 1) := dPay_arecv_own m c 2 1

end Literal

end Cert.Kernel.Dx

end
-- ==== Proof.W.Joins.lean ====
/-
  The row blocks and the slots as explicit chains: the whole result buffer is its eight row blocks in the order
  own half 0, own half 1, then the halves of the devices 1, 2 and 3 places on; a six-slot buffer is its six slots in
  order. The own blocks are named by the device itself, being zero places on.
-/
import proofs.«900523_g7700000000000524_dist_gated_mlp_tp_i_m1024_h2048_d1024_v7x_i4_bf16_1_alg».proof.Proof.W.Pays

noncomputable section

namespace Cert.Kernel.Dx

open Cert.Kernel Cert.Kernel.Gen Cert.Kernel.Px Cert.Kernel.Rx

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-- The whole result buffer at any contents is its eight row blocks in order, each at some contents. -/
theorem out_chain' (c : Dev nD) (f : Buf (Elt F) ((c : Thread nD τ).loc cc0_stg4_0)) :
    ((c : Thread nD τ).loc cc0_stg4_0 ↦{fullShare} f : sProp 𝕄)
      ⊢ iprop((∃ f : Buf (Elt F) ((oRows c 0).view.loc (c : Thread nD τ)), (oRows c 0).view.loc (c : Thread nD τ) ↦[(oRows c 0).view.set]{fullShare} f)
        ∗ (∃ f : Buf (Elt F) ((oRows c 1).view.loc (c : Thread nD τ)), (oRows c 1).view.loc (c : Thread nD τ) ↦[(oRows c 1).view.set]{fullShare} f)
        ∗ (∃ f : Buf (Elt F) ((oRows (pe c 1) 0).view.loc (c : Thread nD τ)), (oRows (pe c 1) 0).view.loc (c : Thread nD τ) ↦[(oRows (pe c 1) 0).view.set]{fullShare} f)
        ∗ (∃ f : Buf (Elt F) ((oRows (pe c 1) 1).view.loc (c : Thread nD τ)), (oRows (pe c 1) 1).view.loc (c : Thread nD τ) ↦[(oRows (pe c 1) 1).view.set]{fullShare} f)
        ∗ (∃ f : Buf (Elt F) ((oRows (pe c 2) 0).view.loc (c : Thread nD τ)), (oRows (pe c 2) 0).view.loc (c : Thread nD τ) ↦[(oRows (pe c 2) 0).view.set]{fullShare} f)
        ∗ (∃ f : Buf (Elt F) ((oRows (pe c 2) 1).view.loc (c : Thread nD τ)), (oRows (pe c 2) 1).view.loc (c : Thread nD τ) ↦[(oRows (pe c 2) 1).view.set]{fullShare} f)
        ∗ (∃ f : Buf (Elt F) ((oRows (pe c 3) 0).view.loc (c : Thread nD τ)), (oRows (pe c 3) 0).view.loc (c : Thread nD τ) ↦[(oRows (pe c 3) 0).view.set]{fullShare} f)
        ∗ (∃ f : Buf (Elt F) ((oRows (pe c 3) 1).view.loc (c : Thread nD τ)), (oRows (pe c 3) 1).view.loc (c : Thread nD τ) ↦[(oRows (pe c 3) 1).view.set]{fullShare} f)) := by
  have h := out_split (F := F) c f
  rw [bigSep_4x2] at h
  have h' : ((c : Thread nD τ).loc cc0_stg4_0 ↦{fullShare} f : sProp 𝕄)
      ⊢ iprop(regAny (c : Thread nD τ) (oRows (pe c 0) 0)
        ∗ regAny (c : Thread nD τ) (oRows (pe c 0) 1)
        ∗ regAny (c : Thread nD τ) (oRows (pe c 1) 0)
        ∗ regAny (c : Thread nD τ) (oRows (pe c 1) 1)
        ∗ regAny (c : Thread nD τ) (oRows (pe c 2) 0)
        ∗ regAny (c : Thread nD τ) (oRows (pe c 2) 1)
        ∗ regAny (c : Thread nD τ) (oRows (pe c 3) 0)
        ∗ regAny (c : Thread nD τ) (oRows (pe c 3) 1)) := h
  rw [pe_zero] at h'
  exact h'

/-- The eight row blocks in order, each reading its device's finished rows, are the whole result. -/
theorem out_join' (c : Dev nD) :
    (iprop(regPts (c : Thread nD τ) (oRows c 0) fullShare (R m c 0)
        ∗ regPts (c : Thread nD τ) (oRows c 1) fullShare (R m c 1)
        ∗ regPts (c : Thread nD τ) (oRows (pe c 1) 0) fullShare (R m (pe c 1) 0)
        ∗ regPts (c : Thread nD τ) (oRows (pe c 1) 1) fullShare (R m (pe c 1) 1)
        ∗ regPts (c : Thread nD τ) (oRows (pe c 2) 0) fullShare (R m (pe c 2) 0)
        ∗ regPts (c : Thread nD τ) (oRows (pe c 2) 1) fullShare (R m (pe c 2) 1)
        ∗ regPts (c : Thread nD τ) (oRows (pe c 3) 0) fullShare (R m (pe c 3) 0)
        ∗ regPts (c : Thread nD τ) (oRows (pe c 3) 1) fullShare (R m (pe c 3) 1)) : sProp 𝕄)
      ⊢ ((c : Thread nD τ).loc cc0_stg4_0 ↦{fullShare} OUT m : sProp 𝕄) := by
  have h := out_join (F := F) m c
  rw [bigSep_4x2] at h
  have h' : (iprop(regPts (c : Thread nD τ) (oRows (pe c 0) 0) fullShare (R m (pe c 0) 0)
        ∗ regPts (c : Thread nD τ) (oRows (pe c 0) 1) fullShare (R m (pe c 0) 1)
        ∗ regPts (c : Thread nD τ) (oRows (pe c 1) 0) fullShare (R m (pe c 1) 0)
        ∗ regPts (c : Thread nD τ) (oRows (pe c 1) 1) fullShare (R m (pe c 1) 1)
        ∗ regPts (c : Thread nD τ) (oRows (pe c 2) 0) fullShare (R m (pe c 2) 0)
        ∗ regPts (c : Thread nD τ) (oRows (pe c 2) 1) fullShare (R m (pe c 2) 1)
        ∗ regPts (c : Thread nD τ) (oRows (pe c 3) 0) fullShare (R m (pe c 3) 0)
        ∗ regPts (c : Thread nD τ) (oRows (pe c 3) 1) fullShare (R m (pe c 3) 1)) : sProp 𝕄)
      ⊢ ((c : Thread nD τ).loc cc0_stg4_0 ↦{fullShare} OUT m : sProp 𝕄) := h
  rw [pe_zero] at h'
  exact h'

/-- The six send slots in order, each at some contents, are the send buffer at some contents. -/
theorem snd_join' (c : Dev nD) :
    (iprop(regAny (c : Thread nD τ) (sndSlot 0) ∗ regAny (c : Thread nD τ) (sndSlot 1) ∗ regAny (c : Thread nD τ) (sndSlot 2)
        ∗ regAny (c : Thread nD τ) (sndSlot 3) ∗ regAny (c : Thread nD τ) (sndSlot 4) ∗ regAny (c : Thread nD τ) (sndSlot 5)) : sProp 𝕄)
      ⊢ (iprop(∃ f : Buf (Elt F) ((c : Thread nD τ).loc cc0_scratch3), (c : Thread nD τ).loc cc0_scratch3 ↦{fullShare} f) : sProp 𝕄) := by
  have h := snd_join (F := F) c
  rw [bigSep_fin6] at h
  exact h

/-- The six receive slots in order, each at some contents, are the receive buffer at some contents. -/
theorem rcv_join' (c : Dev nD) :
    (iprop(regAny (c : Thread nD τ) (rcvSlot 0) ∗ regAny (c : Thread nD τ) (rcvSlot 1) ∗ regAny (c : Thread nD τ) (rcvSlot 2)
        ∗ regAny (c : Thread nD τ) (rcvSlot 3) ∗ regAny (c : Thread nD τ) (rcvSlot 4) ∗ regAny (c : Thread nD τ) (rcvSlot 5)) : sProp 𝕄)
      ⊢ (iprop(∃ f : Buf (Elt F) ((c : Thread nD τ).loc cc0_scratch4), (c : Thread nD τ).loc cc0_scratch4 ↦{fullShare} f) : sProp 𝕄) := by
  have h := rcv_join (F := F) c
  rw [bigSep_fin6] at h
  exact h

/-- The send and receive buffers at any contents are their six slots in order, each at some contents. -/
theorem snd_chain' (c : Dev nD) (f : Buf (Elt F) ((c : Thread nD τ).loc cc0_scratch3)) :
    ((c : Thread nD τ).loc cc0_scratch3 ↦{fullShare} f : sProp 𝕄)
      ⊢ iprop(regAny (c : Thread nD τ) (sndSlot 0) ∗ regAny (c : Thread nD τ) (sndSlot 1) ∗ regAny (c : Thread nD τ) (sndSlot 2)
        ∗ regAny (c : Thread nD τ) (sndSlot 3) ∗ regAny (c : Thread nD τ) (sndSlot 4) ∗ regAny (c : Thread nD τ) (sndSlot 5)) := by
  have h := snd_split (F := F) c f
  rw [bigSep_fin6] at h
  exact h

theorem rcv_chain' (c : Dev nD) (f : Buf (Elt F) ((c : Thread nD τ).loc cc0_scratch4)) :
    ((c : Thread nD τ).loc cc0_scratch4 ↦{fullShare} f : sProp 𝕄)
      ⊢ iprop(regAny (c : Thread nD τ) (rcvSlot 0) ∗ regAny (c : Thread nD τ) (rcvSlot 1) ∗ regAny (c : Thread nD τ) (rcvSlot 2)
        ∗ regAny (c : Thread nD τ) (rcvSlot 3) ∗ regAny (c : Thread nD τ) (rcvSlot 4) ∗ regAny (c : Thread nD τ) (rcvSlot 5)) := by
  have h := rcv_split (F := F) c f
  rw [bigSep_fin6] at h
  exact h

/-- A region fully held at any contents is the three shares lent to the three copies that read it at once. -/
theorem thirds_pts {S : Shape} {e : EltTy} (t : Thread nD τ) (v : Memref sig t.2.kind .vmem S e) (f : Buf (Elt F) (v.view.loc t)) :
    (v.view.loc t ↦[v.view.set]{fullShare} f : sProp 𝕄)
      ⊣⊢ iprop((v.view.loc t ↦[v.view.set]{lentShare 0} f) ∗ (v.view.loc t ↦[v.view.set]{lentShare 1} f)
        ∗ (v.view.loc t ↦[v.view.set]{lentShare 2} f)) := by
  rw [lentShare_zero, lentShare_one, lentShare_two]
  exact .of_eq (pts_thirds _ _ _)

theorem thirds (c : Dev nD) (g : Fin 2) (f : Buf (Elt F) ((oRows c g).view.loc (c : Thread nD τ))) :
    ((oRows c g).view.loc (c : Thread nD τ) ↦[(oRows c g).view.set]{fullShare} f : sProp 𝕄)
      ⊣⊢ iprop(((oRows c g).view.loc (c : Thread nD τ) ↦[(oRows c g).view.set]{lentShare 0} f)
        ∗ ((oRows c g).view.loc (c : Thread nD τ) ↦[(oRows c g).view.set]{lentShare 1} f)
        ∗ ((oRows c g).view.loc (c : Thread nD τ) ↦[(oRows c g).view.set]{lentShare 2} f)) :=
  thirds_pts (c : Thread nD τ) (oRows c g) f

/-- The region of a whole buffer's memref is the whole buffer. -/
theorem whole_of (c : Dev nD) (b : Ref sig .tc) (f : Buf (Elt F) ((Memref.whole b).view.loc (c : Thread nD τ))) :
    ((Memref.whole b).view.loc (c : Thread nD τ) ↦[(Memref.whole b).view.set]{fullShare} f : sProp 𝕄)
      = ((c : Thread nD τ).loc b ↦{fullShare} f) :=
  congrArg (fun I => ((c : Thread nD τ).loc b ↦[I]{fullShare} f : sProp 𝕄)) (View.set_whole b)

end Cert.Kernel.Dx

end
-- ==== Proof.W.Sends.lean ====
/-
  The two copies of the exchange as rules at the schedule: a share into a peer's receive slot, finished rows into a
  peer's result rows.
-/
import proofs.«900523_g7700000000000524_dist_gated_mlp_tp_i_m1024_h2048_d1024_v7x_i4_bf16_1_alg».proof.Proof.W.Joins

noncomputable section

namespace Cert.Kernel.Sx

open Cert.Kernel Cert.Kernel.Gen Cert.Kernel.Px Cert.Kernel.Rx Cert.Kernel.Dx

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Credits: a view's transfer credit is its buffer's, at its shape and element type -/

/-- Views of one buffer at one shape and element type have one transfer credit. -/
theorem credit_eq_of_buf {κ : Kind} {sp : Space} {s : Shape} {e : EltTy} (v v' : View sig κ sp s e) (h : v.buf = v'.buf) :
    v.dmaCredit = v'.dmaCredit :=
  congrArg (fun b => sig.dmaCredit κ (κ.table sp) b s e) h

theorem rcvSlot_buf (k : Fin 6) : (rcvSlot k).view.buf = cc0_scratch4.idx :=
  (View.buf_reshape _ _).trans ((View.buf_slice _ _).trans (View.buf_whole _))

theorem oRows_buf (d : Dev nD) (g : Fin 2) : (oRows d g).view.buf = cc0_stg4_0.idx :=
  (View.buf_slice _ _).trans (View.buf_whole _)

/-- A copy into any receive slot credits what a copy into slot 0 does. -/
theorem rcv_credit (k : Fin 6) (sm : DmaSem sig) : (rcvSlot k).view.amount (.dma sm) = Nrs :=
  (View.amount_dma _ sm).trans (credit_eq_of_buf _ _ ((rcvSlot_buf k).trans (rcvSlot_buf 0).symm))

/-- A copy into any block of result rows credits what a copy into device 0's first block does. -/
theorem rows_credit (d : Dev nD) (g : Fin 2) (sm : DmaSem sig) : (oRows d g).view.amount (.dma sm) = Nag :=
  (View.amount_dma _ sm).trans (credit_eq_of_buf _ _ ((oRows_buf d g).trans (oRows_buf 0 0).symm))

theorem Nof_zero : Nof 0 = Nrs := if_pos (by decide)
theorem Nof_one : Nof 1 = Nrs := if_pos (by decide)
theorem Nof_two : Nof 2 = Nag := if_neg (by decide)
theorem Nof_three : Nof 3 = Nag := if_neg (by decide)

/-- The copy of slot (o, g) of the send buffer into the same slot of the receive buffer of the device o + 1 places on. -/
theorem wp_send_rs (c n : Dev nD) (o : Fin 3) (g : Fin 2) (hn : n = pe c (o.val + 1))
    {hsc : ((rcvSlot (slotOf o g)) : Memref sig (Dev.tc n : Thread nD τ).2.kind .vmem S128x1024 .bf16).view.ref.isScScratch = false}
    {hsrc : (sndSlot (slotOf o g)).view.WordExact} {hdst : (rcvSlot (slotOf o g)).view.WordExact}
    {hsem : DmaTarget.Typed .vmem (.dma (semOf 1 (slotOf o g))) (.remote (Dev.tc n : Thread nD τ) (rcvSlot (slotOf o g)) (.dma (semOf 0 (slotOf o g))) hsc)}
    {α : Type} {Q : α → sProp 𝕄} {k : PUnit → Prog (TpuEff nD τ sig (Elt F) Λ₀ .tc) α} {κ₁ κ₂ : ℕ}
    (fs : Buf (Elt F) ((sndSlot (slotOf o g)).view.loc (c : Thread nD τ)))
    (fd : Buf (Elt F) ((rcvSlot (slotOf o g)).view.loc ((pe c (o.val + 1) : Dev nD) : Thread nD τ)))
    (O : CellTallies nD τ sig Unit) (W : Waits sig Unit)
    (hw : (sndSlot (slotOf o g)).view.read (Elt F) fs = slotVal (sent m c o g)) :
    iprop(cellInv ER (sched m) κ₁ (dCell c 0 (slotOf o g)) ∗ cellInv ER (sched m) κ₂ (dCell (pe c (o.val + 1)) 1 (slotOf o g))
        ∗ ((sndSlot (slotOf o g)).view.loc (c : Thread nD τ) ↦[(sndSlot (slotOf o g)).view.set]{fullShare} fs)
        ∗ ((rcvSlot (slotOf o g)).view.loc ((pe c (o.val + 1) : Dev nD) : Thread nD τ) ↦[(rcvSlot (slotOf o g)).view.set]{fullShare} fd)
        ∗ owes (c : Thread nD τ) (O + tallyAt (dCell (pe c (o.val + 1)) 1 (slotOf o g)) () Nrs) W
        ∗ dutyTok ER (dCell c 0 (slotOf o g)) 0 0 ∗ reached ER (dCell c 0 (slotOf o g)) 0
        ∗ dutyTok ER (dCell (pe c (o.val + 1)) 1 (slotOf o g)) 0 0 ∗ reached ER (dCell (pe c (o.val + 1)) 1 (slotOf o g)) 0)
      ⊢ iprop(((cred (tallyAt (dCell c 0 (slotOf o g)) () Nrs) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sndSlot (slotOf o g)) (.remote (Dev.tc n : Thread nD τ) (rcvSlot (slotOf o g)) (.dma (semOf 0 (slotOf o g))) hsc) (.dma (semOf 1 (slotOf o g))) hsrc hdst hsem) k) Q) := by
  subst hn
  exact wp_send' m c (pe c (o.val + 1)) 0 1 (slotOf o g) (src := sndSlot (slotOf o g)) (dst := rcvSlot (slotOf o g))
    (q := fullShare) Nrs (rcv_credit (slotOf o g) (semOf 1 (slotOf o g))) Nof_zero Nof_one
    (hsc := hsc) (hsrc := hsrc) (hdst := hdst) (hsem := hsem) (Q := Q) (k := k) (κ₁ := κ₁) (κ₂ := κ₂) fs fd O W
    (by rw [dPay_send]; exact Entails.of_eq (regPts_of_read (c : Thread nD τ) (sndSlot (slotOf o g)) fullShare fs _ hw))
    (by rw [dPay_recv, hw]
        exact Entails.of_eq (regPts_write ((pe c (o.val + 1) : Dev nD) : Thread nD τ) (rcvSlot (slotOf o g)) fullShare fd _))

/-- The copy of c's finished rows of half g into the same rows of the result buffer of the device o + 1 places on. -/
theorem wp_send_ag (c n : Dev nD) (o : Fin 3) (g : Fin 2) (hn : n = pe c (o.val + 1))
    {hsc : ((oRows c g) : Memref sig (Dev.tc n : Thread nD τ).2.kind .vmem S128x1024 .bf16).view.ref.isScScratch = false}
    {hsrc : (oRows c g).view.WordExact} {hdst : (oRows c g).view.WordExact}
    {hsem : DmaTarget.Typed .vmem (.dma (semOf 3 (slotOf o g))) (.remote (Dev.tc n : Thread nD τ) (oRows c g) (.dma (semOf 2 (slotOf o g))) hsc)}
    {α : Type} {Q : α → sProp 𝕄} {k : PUnit → Prog (TpuEff nD τ sig (Elt F) Λ₀ .tc) α} {κ₁ κ₂ : ℕ}
    (fs : Buf (Elt F) ((oRows c g).view.loc (c : Thread nD τ)))
    (fd : Buf (Elt F) ((oRows c g).view.loc ((pe c (o.val + 1) : Dev nD) : Thread nD τ)))
    (O : CellTallies nD τ sig Unit) (W : Waits sig Unit)
    (hw : (oRows c g).view.read (Elt F) fs = R m c g) :
    iprop(cellInv ER (sched m) κ₁ (dCell c 2 (slotOf o g)) ∗ cellInv ER (sched m) κ₂ (dCell (pe c (o.val + 1)) 3 (slotOf o g))
        ∗ ((oRows c g).view.loc (c : Thread nD τ) ↦[(oRows c g).view.set]{lentShare o} fs)
        ∗ ((oRows c g).view.loc ((pe c (o.val + 1) : Dev nD) : Thread nD τ) ↦[(oRows c g).view.set]{fullShare} fd)
        ∗ owes (c : Thread nD τ) (O + tallyAt (dCell (pe c (o.val + 1)) 3 (slotOf o g)) () Nag) W
        ∗ dutyTok ER (dCell c 2 (slotOf o g)) 0 0 ∗ reached ER (dCell c 2 (slotOf o g)) 0
        ∗ dutyTok ER (dCell (pe c (o.val + 1)) 3 (slotOf o g)) 0 0 ∗ reached ER (dCell (pe c (o.val + 1)) 3 (slotOf o g)) 0)
      ⊢ iprop(((cred (tallyAt (dCell c 2 (slotOf o g)) () Nag) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oRows c g) (.remote (Dev.tc n : Thread nD τ) (oRows c g) (.dma (semOf 2 (slotOf o g))) hsc) (.dma (semOf 3 (slotOf o g))) hsrc hdst hsem) k) Q) := by
  subst hn
  exact wp_send' m c (pe c (o.val + 1)) 2 3 (slotOf o g) (src := oRows c g) (dst := oRows c g)
    (q := lentShare o) Nag (rows_credit c g (semOf 3 (slotOf o g))) Nof_two Nof_three
    (hsc := hsc) (hsrc := hsrc) (hdst := hdst) (hsem := hsem) (Q := Q) (k := k) (κ₁ := κ₁) (κ₂ := κ₂) fs fd O W
    (by rw [dPay_asend]; exact Entails.of_eq (regPts_of_read (c : Thread nD τ) (oRows c g) (lentShare o) fs _ hw))
    (by rw [dPay_arecv, hw]
        exact Entails.of_eq (regPts_write ((pe c (o.val + 1) : Dev nD) : Thread nD τ) (oRows c g) fullShare fd _))

end Cert.Kernel.Sx

end
-- ==== Proof.W.Closing.lean ====
/-
  Leaving the exchange: a device's twenty-four transfer cells close.

  After round 0 no round of a transfer cell has a duty, so its owner, standing at round 1 having taken nothing, closes
  it and keeps its counter at zero. Every cell's invariant is in the persistent records, so it is there for each of the
  twenty-four cells at once; the twenty-four updates combine into one.
-/
import proofs.«900523_g7700000000000524_dist_gated_mlp_tp_i_m1024_h2048_d1024_v7x_i4_bf16_1_alg».proof.Proof.W.Sends

noncomputable section

namespace Cert.Kernel.Cx

open Cert.Kernel Cert.Kernel.Gen Cert.Kernel.Px Cert.Kernel.Rx Cert.Kernel.Dx

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

instance records_persistent (K : Dev nD × Fin 25 → ℕ) : BI.Persistent (records (F := F) m K) := by
  unfold records; infer_instance

/-- The records hold the invariant of each transfer cell of each device. -/
theorem records_inv (K : Dev nD × Fin 25 → ℕ) (c : Dev nD) (a : Fin 4) (j : Fin 6) :
    records (F := F) m K ⊢ cellInv ER (sched m) (K (c, idx a j)) (dCell c a j) := by
  unfold records
  rw [← kcell_idx c a j]
  have h : (bigSep Finset.univ fun ck : Dev nD × Fin 25 => cellInv ER (sched (F := F) m) (K ck) (kcell ck))
      ⊢ cellInv ER (sched (F := F) m) (K (c, idx a j)) (kcell (c, idx a j)) :=
    bigSep_elim (Finset.mem_univ (c, idx a j))
  iintro ⟨H, -⟩
  iapply h
  iexact H

/-- A separating conjunction over four arrays of six slots, spelt out in order. -/
theorem bigSep_4x6 (Φ : Fin 4 × Fin 6 → sProp 𝕄) :
    bigSep Finset.univ Φ
      = iprop(Φ (0, 0) ∗ Φ (0, 1) ∗ Φ (0, 2) ∗ Φ (0, 3) ∗ Φ (0, 4) ∗ Φ (0, 5) ∗ Φ (1, 0) ∗ Φ (1, 1) ∗ Φ (1, 2) ∗ Φ (1, 3) ∗ Φ (1, 4) ∗ Φ (1, 5) ∗ Φ (2, 0) ∗ Φ (2, 1) ∗ Φ (2, 2) ∗ Φ (2, 3) ∗ Φ (2, 4) ∗ Φ (2, 5) ∗ Φ (3, 0) ∗ Φ (3, 1) ∗ Φ (3, 2) ∗ Φ (3, 3) ∗ Φ (3, 4) ∗ Φ (3, 5)) :=
  bigSep_univ_eq_bigSepL [(0, 0), (0, 1), (0, 2), (0, 3), (0, 4), (0, 5), (1, 0), (1, 1), (1, 2), (1, 3), (1, 4), (1, 5), (2, 0), (2, 1), (2, 2), (2, 3), (2, 4), (2, 5), (3, 0), (3, 1), (3, 2), (3, 3), (3, 4), (3, 5)] (by decide) (by decide) Φ

/-- A device's twenty-four transfer cells, each at round 1 with nothing taken, close: their counters read zero. -/
theorem close_all (K : Dev nD × Fin 25 → ℕ) (c : Dev nD) :
    iprop(records m K ∗ bigSep Finset.univ fun aj : Fin 4 × Fin 6 => atPos ER (dCell c aj.1 aj.2) 1 ∅ 0)
      ⊢ |={Set.univ}=> (bigSep Finset.univ fun aj : Fin 4 × Fin 6 => semVal (dCell c aj.1 aj.2) 0 : sProp 𝕄) := by
  have hI : records (F := F) m K
      ⊢ bigSep Finset.univ fun aj : Fin 4 × Fin 6 => cellInv ER (sched (F := F) m) (K (c, idx aj.1 aj.2)) (dCell c aj.1 aj.2) :=
    bigSep_intro_persistent fun aj _ => records_inv m K c aj.1 aj.2
  refine (sep_mono_left hI).trans ?_
  rw [← bigSep_sep']
  exact (bigSep_mono fun aj _ =>
      cell_close ER (sched (F := F) m) (Set.mem_univ (K (c, idx aj.1 aj.2))) (fun h => h) (R := 1)
        (duties_later m (dCell c aj.1 aj.2))).trans (bigSep_fupd _ _)

/-- The same with the twenty-four positions as an explicit chain, in the order (0,0), (0,1), …, (3,5). -/
theorem close_chain (K : Dev nD × Fin 25 → ℕ) (c : Dev nD) :
    iprop(records m K
        ∗ atPos ER (dCell c 0 0) 1 ∅ 0
        ∗ atPos ER (dCell c 0 1) 1 ∅ 0
        ∗ atPos ER (dCell c 0 2) 1 ∅ 0
        ∗ atPos ER (dCell c 0 3) 1 ∅ 0
        ∗ atPos ER (dCell c 0 4) 1 ∅ 0
        ∗ atPos ER (dCell c 0 5) 1 ∅ 0
        ∗ atPos ER (dCell c 1 0) 1 ∅ 0
        ∗ atPos ER (dCell c 1 1) 1 ∅ 0
        ∗ atPos ER (dCell c 1 2) 1 ∅ 0
        ∗ atPos ER (dCell c 1 3) 1 ∅ 0
        ∗ atPos ER (dCell c 1 4) 1 ∅ 0
        ∗ atPos ER (dCell c 1 5) 1 ∅ 0
        ∗ atPos ER (dCell c 2 0) 1 ∅ 0
        ∗ atPos ER (dCell c 2 1) 1 ∅ 0
        ∗ atPos ER (dCell c 2 2) 1 ∅ 0
        ∗ atPos ER (dCell c 2 3) 1 ∅ 0
        ∗ atPos ER (dCell c 2 4) 1 ∅ 0
        ∗ atPos ER (dCell c 2 5) 1 ∅ 0
        ∗ atPos ER (dCell c 3 0) 1 ∅ 0
        ∗ atPos ER (dCell c 3 1) 1 ∅ 0
        ∗ atPos ER (dCell c 3 2) 1 ∅ 0
        ∗ atPos ER (dCell c 3 3) 1 ∅ 0
        ∗ atPos ER (dCell c 3 4) 1 ∅ 0
        ∗ atPos ER (dCell c 3 5) 1 ∅ 0)
      ⊢ |={Set.univ}=> (bigSep Finset.univ fun aj : Fin 4 × Fin 6 => semVal (dCell c aj.1 aj.2) 0 : sProp 𝕄) := by
  have h := close_all (F := F) m K c
  rw [bigSep_4x6] at h
  exact h

end Cert.Kernel.Cx

end
-- ==== Proof.W.ValSimp.lean ====
/-
  A slot's contents, written through the slot's view and loaded through the whole receive buffer at the slot's
  rectangle, are the value that was sent: the same fact as for the named views, at the views' own terms.
-/
import proofs.«900523_g7700000000000524_dist_gated_mlp_tp_i_m1024_h2048_d1024_v7x_i4_bf16_1_alg».proof.Proof.W.Closing

noncomputable section

namespace Cert.Kernel.Vx

open Cert.Kernel Cert.Kernel.Gen Cert.Kernel.Px Cert.Kernel.Rx

open Idealize.ShloMosaic
open Idealize.ShloMosaic.TcCoe

variable {F : FTy → Type} [FloatOps F]

theorem slv0 (h : S128x1024.numel = (slotRect 0).shape.numel) (f : (cc0_scratch4 : Ref sig .tc).ty.Contents (Elt F))
    (w : Vec F S1x128x1024 .bf16) :
    View.readAt (Elt F) (View.whole cc0_scratch4 : View sig .tc .vmem S6x128x1024 .bf16)
        (Rect.unit (s := S6x128x1024) ![0, 0, 0] ![1, 128, 1024] inb_S6x128x1024_S1x128x1024_0_0_0).toLoadRect
        (View.write (Elt F) (((View.whole cc0_scratch4 : View sig .tc .vmem S6x128x1024 .bf16).slice (slotRect 0)).reshape S128x1024 h)
          f (slotVal w) Finset.univ) = w :=
  slot_load_val 0 f w

theorem slv1 (h : S128x1024.numel = (slotRect 1).shape.numel) (f : (cc0_scratch4 : Ref sig .tc).ty.Contents (Elt F))
    (w : Vec F S1x128x1024 .bf16) :
    View.readAt (Elt F) (View.whole cc0_scratch4 : View sig .tc .vmem S6x128x1024 .bf16)
        (Rect.unit (s := S6x128x1024) ![1, 0, 0] ![1, 128, 1024] inb_S6x128x1024_S1x128x1024_1_0_0).toLoadRect
        (View.write (Elt F) (((View.whole cc0_scratch4 : View sig .tc .vmem S6x128x1024 .bf16).slice (slotRect 1)).reshape S128x1024 h)
          f (slotVal w) Finset.univ) = w :=
  slot_load_val 1 f w

theorem slv2 (h : S128x1024.numel = (slotRect 2).shape.numel) (f : (cc0_scratch4 : Ref sig .tc).ty.Contents (Elt F))
    (w : Vec F S1x128x1024 .bf16) :
    View.readAt (Elt F) (View.whole cc0_scratch4 : View sig .tc .vmem S6x128x1024 .bf16)
        (Rect.unit (s := S6x128x1024) ![2, 0, 0] ![1, 128, 1024] inb_S6x128x1024_S1x128x1024_2_0_0).toLoadRect
        (View.write (Elt F) (((View.whole cc0_scratch4 : View sig .tc .vmem S6x128x1024 .bf16).slice (slotRect 2)).reshape S128x1024 h)
          f (slotVal w) Finset.univ) = w :=
  slot_load_val 2 f w

theorem slv3 (h : S128x1024.numel = (slotRect 3).shape.numel) (f : (cc0_scratch4 : Ref sig .tc).ty.Contents (Elt F))
    (w : Vec F S1x128x1024 .bf16) :
    View.readAt (Elt F) (View.whole cc0_scratch4 : View sig .tc .vmem S6x128x1024 .bf16)
        (Rect.unit (s := S6x128x1024) ![3, 0, 0] ![1, 128, 1024] inb_S6x128x1024_S1x128x1024_3_0_0).toLoadRect
        (View.write (Elt F) (((View.whole cc0_scratch4 : View sig .tc .vmem S6x128x1024 .bf16).slice (slotRect 3)).reshape S128x1024 h)
          f (slotVal w) Finset.univ) = w :=
  slot_load_val 3 f w

theorem slv4 (h : S128x1024.numel = (slotRect 4).shape.numel) (f : (cc0_scratch4 : Ref sig .tc).ty.Contents (Elt F))
    (w : Vec F S1x128x1024 .bf16) :
    View.readAt (Elt F) (View.whole cc0_scratch4 : View sig .tc .vmem S6x128x1024 .bf16)
        (Rect.unit (s := S6x128x1024) ![4, 0, 0] ![1, 128, 1024] inb_S6x128x1024_S1x128x1024_4_0_0).toLoadRect
        (View.write (Elt F) (((View.whole cc0_scratch4 : View sig .tc .vmem S6x128x1024 .bf16).slice (slotRect 4)).reshape S128x1024 h)
          f (slotVal w) Finset.univ) = w :=
  slot_load_val 4 f w

theorem slv5 (h : S128x1024.numel = (slotRect 5).shape.numel) (f : (cc0_scratch4 : Ref sig .tc).ty.Contents (Elt F))
    (w : Vec F S1x128x1024 .bf16) :
    View.readAt (Elt F) (View.whole cc0_scratch4 : View sig .tc .vmem S6x128x1024 .bf16)
        (Rect.unit (s := S6x128x1024) ![5, 0, 0] ![1, 128, 1024] inb_S6x128x1024_S1x128x1024_5_0_0).toLoadRect
        (View.write (Elt F) (((View.whole cc0_scratch4 : View sig .tc .vmem S6x128x1024 .bf16).slice (slotRect 5)).reshape S128x1024 h)
          f (slotVal w) Finset.univ) = w :=
  slot_load_val 5 f w

end Cert.Kernel.Vx

end
-- ==== Proof.W.Finish.lean ====
/-
  What the body's last step leaves is what the pipeline takes back.

  The twenty-four transfer cells close at zero. The three weight scratch buffers are whole; the six send slots and
  the six receive slots join into their buffers; the own row blocks, each held as three thirds, and the six row
  blocks that landed join into the whole result, which is `OUT`.
-/
import proofs.«900523_g7700000000000524_dist_gated_mlp_tp_i_m1024_h2048_d1024_v7x_i4_bf16_1_alg».proof.Proof.W.ValSimp

noncomputable section

namespace Cert.Kernel.Bx

open Cert.Kernel Cert.Kernel.Gen Cert.Kernel.Px Cert.Kernel.Rx Cert.Kernel.Dx Cert.Kernel.Sx Cert.Kernel.Cx Cert.Kernel.Vx

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def bodyPost (c : Dev nD) : sProp 𝕄 :=
  iprop(Φ₁ c ∗ (dats m ρ 0 c).owesAt () t₀.succ ∗ stg c cc0_stg0_0 (Xs m c) ∗ stg c cc0_stg1_0 (Gs m c)
    ∗ stg c cc0_stg2_0 (Us m c) ∗ stg c cc0_stg3_0 (Ds m c) ∗ stg c cc0_stg4_0 (OUT m))

theorem finish (K : Dev nD × Fin 25 → ℕ) (c : Dev nD) :
    iprop(records m K
      ∗ (∃ f : Buf (Elt F) ((Memref.whole cc0_scratch0).view.loc (c : Thread nD τ)), (Memref.whole cc0_scratch0).view.loc (c : Thread nD τ) ↦[(Memref.whole cc0_scratch0).view.set]{fullShare} f)
      ∗ (∃ f : Buf (Elt F) ((Memref.whole cc0_scratch1).view.loc (c : Thread nD τ)), (Memref.whole cc0_scratch1).view.loc (c : Thread nD τ) ↦[(Memref.whole cc0_scratch1).view.set]{fullShare} f)
      ∗ (∃ f : Buf (Elt F) ((Memref.whole cc0_scratch2).view.loc (c : Thread nD τ)), (Memref.whole cc0_scratch2).view.loc (c : Thread nD τ) ↦[(Memref.whole cc0_scratch2).view.set]{fullShare} f)
      ∗ ((Memref.whole cc0_stg0_0).view.loc (c : Thread nD τ) ↦[(Memref.whole cc0_stg0_0).view.set]{fullShare} Xs m c)
      ∗ ((Memref.whole cc0_stg1_0).view.loc (c : Thread nD τ) ↦[(Memref.whole cc0_stg1_0).view.set]{fullShare} Gs m c)
      ∗ ((Memref.whole cc0_stg2_0).view.loc (c : Thread nD τ) ↦[(Memref.whole cc0_stg2_0).view.set]{fullShare} Us m c)
      ∗ ((Memref.whole cc0_stg3_0).view.loc (c : Thread nD τ) ↦[(Memref.whole cc0_stg3_0).view.set]{fullShare} Ds m c)
      ∗ atPos ER (dCell c 0 0) 1 ∅ 0
      ∗ atPos ER (dCell c 0 1) 1 ∅ 0
      ∗ atPos ER (dCell c 0 2) 1 ∅ 0
      ∗ atPos ER (dCell c 0 3) 1 ∅ 0
      ∗ atPos ER (dCell c 0 4) 1 ∅ 0
      ∗ atPos ER (dCell c 0 5) 1 ∅ 0
      ∗ atPos ER (dCell c 1 0) 1 ∅ 0
      ∗ atPos ER (dCell c 1 1) 1 ∅ 0
      ∗ atPos ER (dCell c 1 2) 1 ∅ 0
      ∗ atPos ER (dCell c 1 3) 1 ∅ 0
      ∗ atPos ER (dCell c 1 4) 1 ∅ 0
      ∗ atPos ER (dCell c 1 5) 1 ∅ 0
      ∗ atPos ER (dCell c 2 0) 1 ∅ 0
      ∗ atPos ER (dCell c 2 1) 1 ∅ 0
      ∗ atPos ER (dCell c 2 2) 1 ∅ 0
      ∗ atPos ER (dCell c 2 3) 1 ∅ 0
      ∗ atPos ER (dCell c 2 4) 1 ∅ 0
      ∗ atPos ER (dCell c 2 5) 1 ∅ 0
      ∗ atPos ER (dCell c 3 0) 1 ∅ 0
      ∗ atPos ER (dCell c 3 1) 1 ∅ 0
      ∗ atPos ER (dCell c 3 2) 1 ∅ 0
      ∗ atPos ER (dCell c 3 3) 1 ∅ 0
      ∗ atPos ER (dCell c 3 4) 1 ∅ 0
      ∗ atPos ER (dCell c 3 5) 1 ∅ 0
      ∗ ((sndSlot 0).view.loc (c : Thread nD τ) ↦[(sndSlot 0).view.set]{fullShare} ((sndSlot 0).view.write (Elt F) (junk ((sndSlot 0).view.loc (c : Thread nD τ))) (slotVal (sent m c 0 0)) Finset.univ))
      ∗ ((rcvSlot 0).view.loc (c : Thread nD τ) ↦[(rcvSlot 0).view.set]{fullShare} ((rcvSlot 0).view.write (Elt F) (junk ((rcvSlot 0).view.loc (c : Thread nD τ))) (slotVal (got m c 0 0)) Finset.univ))
      ∗ ((oRows c 0).view.loc (c : Thread nD τ) ↦[(oRows c 0).view.set]{lentShare 0} ((oRows c 0).view.write (Elt F) (junk ((oRows c 0).view.loc (c : Thread nD τ))) (R m c 0) Finset.univ))
      ∗ ((oRows (pe c 3) 0).view.loc (c : Thread nD τ) ↦[(oRows (pe c 3) 0).view.set]{fullShare} ((oRows (pe c 3) 0).view.write (Elt F) (junk ((oRows (pe c 3) 0).view.loc (c : Thread nD τ))) (R m (pe c 3) 0) Finset.univ))
      ∗ ((sndSlot 1).view.loc (c : Thread nD τ) ↦[(sndSlot 1).view.set]{fullShare} ((sndSlot 1).view.write (Elt F) (junk ((sndSlot 1).view.loc (c : Thread nD τ))) (slotVal (sent m c 0 1)) Finset.univ))
      ∗ ((rcvSlot 1).view.loc (c : Thread nD τ) ↦[(rcvSlot 1).view.set]{fullShare} ((rcvSlot 1).view.write (Elt F) (junk ((rcvSlot 1).view.loc (c : Thread nD τ))) (slotVal (got m c 0 1)) Finset.univ))
      ∗ ((oRows c 1).view.loc (c : Thread nD τ) ↦[(oRows c 1).view.set]{lentShare 0} ((oRows c 1).view.write (Elt F) (junk ((oRows c 1).view.loc (c : Thread nD τ))) (R m c 1) Finset.univ))
      ∗ ((oRows (pe c 3) 1).view.loc (c : Thread nD τ) ↦[(oRows (pe c 3) 1).view.set]{fullShare} ((oRows (pe c 3) 1).view.write (Elt F) (junk ((oRows (pe c 3) 1).view.loc (c : Thread nD τ))) (R m (pe c 3) 1) Finset.univ))
      ∗ ((sndSlot 2).view.loc (c : Thread nD τ) ↦[(sndSlot 2).view.set]{fullShare} ((sndSlot 2).view.write (Elt F) (junk ((sndSlot 2).view.loc (c : Thread nD τ))) (slotVal (sent m c 1 0)) Finset.univ))
      ∗ ((rcvSlot 2).view.loc (c : Thread nD τ) ↦[(rcvSlot 2).view.set]{fullShare} ((rcvSlot 2).view.write (Elt F) (junk ((rcvSlot 2).view.loc (c : Thread nD τ))) (slotVal (got m c 1 0)) Finset.univ))
      ∗ ((oRows c 0).view.loc (c : Thread nD τ) ↦[(oRows c 0).view.set]{lentShare 1} ((oRows c 0).view.write (Elt F) (junk ((oRows c 0).view.loc (c : Thread nD τ))) (R m c 0) Finset.univ))
      ∗ ((oRows (pe c 2) 0).view.loc (c : Thread nD τ) ↦[(oRows (pe c 2) 0).view.set]{fullShare} ((oRows (pe c 2) 0).view.write (Elt F) (junk ((oRows (pe c 2) 0).view.loc (c : Thread nD τ))) (R m (pe c 2) 0) Finset.univ))
      ∗ ((sndSlot 3).view.loc (c : Thread nD τ) ↦[(sndSlot 3).view.set]{fullShare} ((sndSlot 3).view.write (Elt F) (junk ((sndSlot 3).view.loc (c : Thread nD τ))) (slotVal (sent m c 1 1)) Finset.univ))
      ∗ ((rcvSlot 3).view.loc (c : Thread nD τ) ↦[(rcvSlot 3).view.set]{fullShare} ((rcvSlot 3).view.write (Elt F) (junk ((rcvSlot 3).view.loc (c : Thread nD τ))) (slotVal (got m c 1 1)) Finset.univ))
      ∗ ((oRows c 1).view.loc (c : Thread nD τ) ↦[(oRows c 1).view.set]{lentShare 1} ((oRows c 1).view.write (Elt F) (junk ((oRows c 1).view.loc (c : Thread nD τ))) (R m c 1) Finset.univ))
      ∗ ((oRows (pe c 2) 1).view.loc (c : Thread nD τ) ↦[(oRows (pe c 2) 1).view.set]{fullShare} ((oRows (pe c 2) 1).view.write (Elt F) (junk ((oRows (pe c 2) 1).view.loc (c : Thread nD τ))) (R m (pe c 2) 1) Finset.univ))
      ∗ ((sndSlot 4).view.loc (c : Thread nD τ) ↦[(sndSlot 4).view.set]{fullShare} ((sndSlot 4).view.write (Elt F) (junk ((sndSlot 4).view.loc (c : Thread nD τ))) (slotVal (sent m c 2 0)) Finset.univ))
      ∗ ((rcvSlot 4).view.loc (c : Thread nD τ) ↦[(rcvSlot 4).view.set]{fullShare} ((rcvSlot 4).view.write (Elt F) (junk ((rcvSlot 4).view.loc (c : Thread nD τ))) (slotVal (got m c 2 0)) Finset.univ))
      ∗ ((oRows c 0).view.loc (c : Thread nD τ) ↦[(oRows c 0).view.set]{lentShare 2} ((oRows c 0).view.write (Elt F) (junk ((oRows c 0).view.loc (c : Thread nD τ))) (R m c 0) Finset.univ))
      ∗ ((oRows (pe c 1) 0).view.loc (c : Thread nD τ) ↦[(oRows (pe c 1) 0).view.set]{fullShare} ((oRows (pe c 1) 0).view.write (Elt F) (junk ((oRows (pe c 1) 0).view.loc (c : Thread nD τ))) (R m (pe c 1) 0) Finset.univ))
      ∗ ((sndSlot 5).view.loc (c : Thread nD τ) ↦[(sndSlot 5).view.set]{fullShare} ((sndSlot 5).view.write (Elt F) (junk ((sndSlot 5).view.loc (c : Thread nD τ))) (slotVal (sent m c 2 1)) Finset.univ))
      ∗ ((rcvSlot 5).view.loc (c : Thread nD τ) ↦[(rcvSlot 5).view.set]{fullShare} ((rcvSlot 5).view.write (Elt F) (junk ((rcvSlot 5).view.loc (c : Thread nD τ))) (slotVal (got m c 2 1)) Finset.univ))
      ∗ ((oRows c 1).view.loc (c : Thread nD τ) ↦[(oRows c 1).view.set]{lentShare 2} ((oRows c 1).view.write (Elt F) (junk ((oRows c 1).view.loc (c : Thread nD τ))) (R m c 1) Finset.univ))
      ∗ ((oRows (pe c 1) 1).view.loc (c : Thread nD τ) ↦[(oRows (pe c 1) 1).view.set]{fullShare} ((oRows (pe c 1) 1).view.write (Elt F) (junk ((oRows (pe c 1) 1).view.loc (c : Thread nD τ))) (R m (pe c 1) 1) Finset.univ))
      ∗ (∃ W : Waits sig Unit, owes (c : Thread nD τ) 0 W))
      ⊢ |={Set.univ}=> bodyPost m ρ c := by
  iintro ⟨#Hrec, ⟨%z0, Hs0⟩, ⟨%z1, Hs1⟩, ⟨%z2, Hs2⟩, Hx, Hg, Hu, Hd, Ha00, Ha01, Ha02, Ha03, Ha04, Ha05, Ha10, Ha11, Ha12, Ha13, Ha14, Ha15, Ha20, Ha21, Ha22, Ha23, Ha24, Ha25, Ha30, Ha31, Ha32, Ha33, Ha34, Ha35, Ha00_pay1, Ha10_pay1, Ha20_pay1, Ha30_pay1, Ha01_pay1, Ha11_pay1, Ha21_pay1, Ha31_pay1, Ha02_pay1, Ha12_pay1, Ha22_pay1, Ha32_pay1, Ha03_pay1, Ha13_pay1, Ha23_pay1, Ha33_pay1, Ha04_pay1, Ha14_pay1, Ha24_pay1, Ha34_pay1, Ha05_pay1, Ha15_pay1, Ha25_pay1, Ha35_pay1, ⟨%W', HO⟩⟩
  imod (close_chain m K c) $$ [Ha00 Ha01 Ha02 Ha03 Ha04 Ha05 Ha10 Ha11 Ha12 Ha13 Ha14 Ha15 Ha20 Ha21 Ha22 Ha23 Ha24 Ha25 Ha30 Ha31 Ha32 Ha33 Ha34 Ha35] with Hz
  · isplitr; · iexact Hrec
    isplitl [Ha00]; · iexact Ha00
    isplitl [Ha01]; · iexact Ha01
    isplitl [Ha02]; · iexact Ha02
    isplitl [Ha03]; · iexact Ha03
    isplitl [Ha04]; · iexact Ha04
    isplitl [Ha05]; · iexact Ha05
    isplitl [Ha10]; · iexact Ha10
    isplitl [Ha11]; · iexact Ha11
    isplitl [Ha12]; · iexact Ha12
    isplitl [Ha13]; · iexact Ha13
    isplitl [Ha14]; · iexact Ha14
    isplitl [Ha15]; · iexact Ha15
    isplitl [Ha20]; · iexact Ha20
    isplitl [Ha21]; · iexact Ha21
    isplitl [Ha22]; · iexact Ha22
    isplitl [Ha23]; · iexact Ha23
    isplitl [Ha24]; · iexact Ha24
    isplitl [Ha25]; · iexact Ha25
    isplitl [Ha30]; · iexact Ha30
    isplitl [Ha31]; · iexact Ha31
    isplitl [Ha32]; · iexact Ha32
    isplitl [Ha33]; · iexact Ha33
    isplitl [Ha34]; · iexact Ha34
    iexact Ha35
  imodintro
  unfold bodyPost Φ₁ scratches Dat.owesAt Pipeline.owesWithin
  rw [show (dats m ρ 0 c).owed t₀.succ = 0 from rfl]
  isplitl [Hs0 Hs1 Hs2 Ha00_pay1 Ha01_pay1 Ha02_pay1 Ha03_pay1 Ha04_pay1 Ha05_pay1 Ha10_pay1 Ha11_pay1 Ha12_pay1 Ha13_pay1 Ha14_pay1 Ha15_pay1 Hz]
  · isplitl [Hs0 Hs1 Hs2 Ha00_pay1 Ha01_pay1 Ha02_pay1 Ha03_pay1 Ha04_pay1 Ha05_pay1 Ha10_pay1 Ha11_pay1 Ha12_pay1 Ha13_pay1 Ha14_pay1 Ha15_pay1]
    · skip
      isplitl [Hs0]
      · iexists _
        iapply (Entails.of_eq (whole_of c cc0_scratch0 _)); iexact Hs0
      isplitl [Hs1]
      · iexists _
        iapply (Entails.of_eq (whole_of c cc0_scratch1 _)); iexact Hs1
      isplitl [Hs2]
      · iexists _
        iapply (Entails.of_eq (whole_of c cc0_scratch2 _)); iexact Hs2
      isplitl [Ha00_pay1 Ha01_pay1 Ha02_pay1 Ha03_pay1 Ha04_pay1 Ha05_pay1]
      · iapply (snd_join' c)
        isplitl [Ha00_pay1]
        · iapply (regAny_of_pts (c : Thread nD τ) (sndSlot 0) _); iexact Ha00_pay1
        isplitl [Ha01_pay1]
        · iapply (regAny_of_pts (c : Thread nD τ) (sndSlot 1) _); iexact Ha01_pay1
        isplitl [Ha02_pay1]
        · iapply (regAny_of_pts (c : Thread nD τ) (sndSlot 2) _); iexact Ha02_pay1
        isplitl [Ha03_pay1]
        · iapply (regAny_of_pts (c : Thread nD τ) (sndSlot 3) _); iexact Ha03_pay1
        isplitl [Ha04_pay1]
        · iapply (regAny_of_pts (c : Thread nD τ) (sndSlot 4) _); iexact Ha04_pay1
        iapply (regAny_of_pts (c : Thread nD τ) (sndSlot 5) _); iexact Ha05_pay1
      · iapply (rcv_join' c)
        isplitl [Ha10_pay1]
        · iapply (regAny_of_pts (c : Thread nD τ) (rcvSlot 0) _); iexact Ha10_pay1
        isplitl [Ha11_pay1]
        · iapply (regAny_of_pts (c : Thread nD τ) (rcvSlot 1) _); iexact Ha11_pay1
        isplitl [Ha12_pay1]
        · iapply (regAny_of_pts (c : Thread nD τ) (rcvSlot 2) _); iexact Ha12_pay1
        isplitl [Ha13_pay1]
        · iapply (regAny_of_pts (c : Thread nD τ) (rcvSlot 3) _); iexact Ha13_pay1
        isplitl [Ha14_pay1]
        · iapply (regAny_of_pts (c : Thread nD τ) (rcvSlot 4) _); iexact Ha14_pay1
        iapply (regAny_of_pts (c : Thread nD τ) (rcvSlot 5) _); iexact Ha15_pay1
    · iexact Hz
  isplitl [HO]
  · iexists _
    isplitr
    rotate_left
    · iexact HO
    · ipureintro; exact fun _ _ => Or.inl trivial
  isplitl [Hx]
  · iexists _
    isplitr
    · ipureintro; rfl
    · iapply (Entails.of_eq (whole_of c cc0_stg0_0 _)); iexact Hx
  isplitl [Hg]
  · iexists _
    isplitr
    · ipureintro; rfl
    · iapply (Entails.of_eq (whole_of c cc0_stg1_0 _)); iexact Hg
  isplitl [Hu]
  · iexists _
    isplitr
    · ipureintro; rfl
    · iapply (Entails.of_eq (whole_of c cc0_stg2_0 _)); iexact Hu
  isplitl [Hd]
  · iexists _
    isplitr
    · ipureintro; rfl
    · iapply (Entails.of_eq (whole_of c cc0_stg3_0 _)); iexact Hd
  iexists _
  isplitr
  · ipureintro; rfl
  iapply (out_join' m c)
  unfold regPts
  isplitl [Ha20_pay1 Ha22_pay1 Ha24_pay1]
  · iapply (thirds c 0 _).2
    isplitl [Ha20_pay1]; · iexact Ha20_pay1
    isplitl [Ha22_pay1]; · iexact Ha22_pay1
    iexact Ha24_pay1
  isplitl [Ha21_pay1 Ha23_pay1 Ha25_pay1]
  · iapply (thirds c 1 _).2
    isplitl [Ha21_pay1]; · iexact Ha21_pay1
    isplitl [Ha23_pay1]; · iexact Ha23_pay1
    iexact Ha25_pay1
  isplitl [Ha34_pay1]; · iexact Ha34_pay1
  isplitl [Ha35_pay1]; · iexact Ha35_pay1
  isplitl [Ha32_pay1]; · iexact Ha32_pay1
  isplitl [Ha33_pay1]; · iexact Ha33_pay1
  isplitl [Ha30_pay1]; · iexact Ha30_pay1
  iexact Ha31_pay1

end Cert.Kernel.Bx

end
-- ==== Proof.W.ValsEq.lean ====
/-
  The body computes a device's narrowed share at six places and the owner's sum at two, each time spelling the
  same arithmetic again: the row block narrowed, its products with the narrowed gate and up bands into zero, the
  gate `u · logistic u`, the product with the narrowed down band into zero, the result narrowed and laid out as
  one slot. Whatever the float instance, each spelling is the same term as the first, so the six shares are one
  function of the row block and the three bands, and the owner's sum written in two steps is the sum written in
  three.
-/
import proofs.«900523_g7700000000000524_dist_gated_mlp_tp_i_m1024_h2048_d1024_v7x_i4_bf16_1_alg».proof.Proof.W.Vals

noncomputable section

namespace Cert.Kernel.Vals

open Idealize.ShloMosaic Cert.Kernel Cert.Kernel.Gen

variable {F : FTy → Type} [FloatOps F]

/-- A share narrowed first and laid out as a slot afterwards is the share. -/
theorem e6 (x : Vec F S128x1024 .f32) (g u : Vec F S1024x2048 .bf16) (d : Vec F S2048x1024 .bf16) :
    k0_pay6 (k0_pay5 x g u d) = k0_pay4 x g u d := rfl

/-- A share whose row block is narrowed and multiplied with the gate band beforehand is the share. -/
theorem e9 (x : Vec F S128x1024 .f32) (g u : Vec F S1024x2048 .bf16) (d : Vec F S2048x1024 .bf16) :
    k0_pay9 (k0_pay7 x) (k0_pay8 x g) u d = k0_pay4 x g u d := rfl

theorem e12 (x : Vec F S128x1024 .f32) (g u : Vec F S1024x2048 .bf16) (d : Vec F S2048x1024 .bf16) :
    k0_pay12 x g u d = k0_pay4 x g u d := rfl

/-- A share whose two products with the gate and up bands, and the gate, are computed beforehand is the share. -/
theorem e16 (x : Vec F S128x1024 .f32) (g u : Vec F S1024x2048 .bf16) (d : Vec F S2048x1024 .bf16) :
    k0_pay16 (k0_pay14 x g) (k0_pay15 x u) d = k0_pay4 x g u d := rfl

theorem e17 (x : Vec F S128x1024 .f32) (g u : Vec F S1024x2048 .bf16) (d : Vec F S2048x1024 .bf16) :
    k0_pay17 x g u d = k0_pay4 x g u d := rfl

/-- The owner's sum with the first received share added together with the wide share, and the other two
    afterwards, is the sum with two added first and the third afterwards: the same additions in the same order. -/
theorem e21 (x : Vec F S128x1024 .f32) (g u : Vec F S1024x2048 .bf16) (d : Vec F S2048x1024 .bf16)
    (s0 s1 s2 : Vec F S1x128x1024 .bf16) :
    k0_pay21 (k0_pay20 x g u d s0) s1 s2 = k0_pay19 (k0_pay18 (k0_pay11 (k0_pay10 x g u) d) s0 s1) s2 := rfl

end Cert.Kernel.Vals

end
-- ==== Proof.W.Body.lean ====
/-
  One device's body, from the state the launch hands it to the state it hands back.

  The device first pays the three barrier units (handing each peer the two receive slots and the two row blocks
  that peer will write) and takes its own three, which bring the same from its peers. It casts its weight bands,
  computes the six shares it owes and copies each into its peer's slot; the landing's contents are the share itself,
  because a slot read back through its own view is what was stored there. For each half of its own rows it adds the
  three shares received to its own wide share, stores the narrowed sum and copies it, at a third of the rows' share
  each, into the three peers. After the twelve receives and twelve sends it holds every slot again, its own rows at
  the three thirds, and the other six row blocks as they landed: together the whole result.
-/
import proofs.«900523_g7700000000000524_dist_gated_mlp_tp_i_m1024_h2048_d1024_v7x_i4_bf16_1_alg».proof.Proof.W.Finish
import proofs.«900523_g7700000000000524_dist_gated_mlp_tp_i_m1024_h2048_d1024_v7x_i4_bf16_1_alg».proof.Proof.W.ValsEq

noncomputable section

namespace Cert.Kernel.Bx

open Cert.Kernel Cert.Kernel.Gen Cert.Kernel.Px Cert.Kernel.Rx Cert.Kernel.Dx Cert.Kernel.Sx Cert.Kernel.Cx Cert.Kernel.Vx

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin6' (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
omit [FloatOps F] in
theorem bigSep_fin32 (Φ : Fin 3 × Fin 2 → sProp 𝕄) :
    bigSep Finset.univ Φ = iprop(Φ (0, 0) ∗ Φ (0, 1) ∗ Φ (1, 0) ∗ Φ (1, 1) ∗ Φ (2, 0) ∗ Φ (2, 1)) :=
  bigSep_univ_eq_bigSepL [(0, 0), (0, 1), (1, 0), (1, 1), (2, 0), (2, 1)] (by decide) (by decide) Φ

instance records_persistent (K : Dev nD × Fin 25 → ℕ) : BI.Persistent (records (F := F) m K) := by unfold records; infer_instance

theorem inv_at (K : Dev nD × Fin 25 → ℕ) (ck : Dev nD × Fin 25) : records m K ⊢ (cellInv ER (sched m) (K ck) (kcell ck) : sProp 𝕄) := by
  unfold records
  exact sep_elim_left.trans (bigSep_elim (s := Finset.univ) (Φ := fun ck : Dev nD × Fin 25 => (cellInv ER (sched m) (K ck) (kcell ck) : sProp 𝕄)) (Finset.mem_univ ck))
theorem reached_at (K : Dev nD × Fin 25 → ℕ) (ck : Dev nD × Fin 25) : records m K ⊢ (reached ER (kcell ck) 0 : sProp 𝕄) := by
  unfold records
  exact sep_elim_right.trans (bigSep_elim (s := Finset.univ) (Φ := fun ck : Dev nD × Fin 25 => (reached ER (kcell ck) 0 : sProp 𝕄)) (Finset.mem_univ ck))

omit [FloatOps F] in
theorem bigSep_fin46 (Φ : Fin 4 × Fin 6 → sProp 𝕄) :
    bigSep Finset.univ Φ = iprop(Φ (0, 0) ∗ Φ (0, 1) ∗ Φ (0, 2) ∗ Φ (0, 3) ∗ Φ (0, 4) ∗ Φ (0, 5) ∗ Φ (1, 0) ∗ Φ (1, 1) ∗ Φ (1, 2) ∗ Φ (1, 3) ∗ Φ (1, 4) ∗ Φ (1, 5) ∗ Φ (2, 0) ∗ Φ (2, 1) ∗ Φ (2, 2) ∗ Φ (2, 3) ∗ Φ (2, 4) ∗ Φ (2, 5) ∗ Φ (3, 0) ∗ Φ (3, 1) ∗ Φ (3, 2) ∗ Φ (3, 3) ∗ Φ (3, 4) ∗ Φ (3, 5)) :=
  bigSep_univ_eq_bigSepL [(0, 0), (0, 1), (0, 2), (0, 3), (0, 4), (0, 5), (1, 0), (1, 1), (1, 2), (1, 3), (1, 4), (1, 5), (2, 0), (2, 1), (2, 2), (2, 3), (2, 4), (2, 5), (3, 0), (3, 1), (3, 2), (3, 3), (3, 4), (3, 5)] (by decide) (by decide) Φ

def bodyPre' (c : Dev nD) : sProp 𝕄 :=
  iprop(Φ₀ m c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

theorem inv_bar (K : Dev nD × Fin 25 → ℕ) (c : Dev nD) : records m K ⊢ (cellInv ER (sched m) (K (c, 0)) (barCell c) : sProp 𝕄) := inv_at m K (c, 0)
theorem inv_d (K : Dev nD × Fin 25 → ℕ) (c : Dev nD) (a : Fin 4) (j : Fin 6) : records m K ⊢ (cellInv ER (sched m) (K (c, idx a j)) (dCell c a j) : sProp 𝕄) :=
  (inv_at m K (c, idx a j)).trans (Entails.of_eq (by rw [kcell_idx]))
theorem reached_bar (K : Dev nD × Fin 25 → ℕ) (c : Dev nD) : records m K ⊢ (reached ER (barCell c) 0 : sProp 𝕄) := reached_at m K (c, 0)
theorem reached_d (K : Dev nD × Fin 25 → ℕ) (c : Dev nD) (a : Fin 4) (j : Fin 6) : records m K ⊢ (reached ER (dCell c a j) 0 : sProp 𝕄) :=
  (reached_at m K (c, idx a j)).trans (Entails.of_eq (by rw [kcell_idx]))

theorem O₀_eq (c : Dev nD) : O₀ c = ((((((((((((((((0 + tallyAt (dCell (pe c 3) 3 5) () Nag) + tallyAt (dCell (pe c 2) 3 3) () Nag) + tallyAt (dCell (pe c 1) 3 1) () Nag) + tallyAt (dCell (pe c 3) 3 4) () Nag) + tallyAt (dCell (pe c 2) 3 2) () Nag) + tallyAt (dCell (pe c 1) 3 0) () Nag) + tallyAt (dCell (pe c 3) 1 5) () Nrs) + tallyAt (dCell (pe c 2) 1 3) () Nrs) + tallyAt (dCell (pe c 1) 1 1) () Nrs) + tallyAt (dCell (pe c 3) 1 4) () Nrs) + tallyAt (dCell (pe c 2) 1 2) () Nrs) + tallyAt (dCell (pe c 1) 1 0) () Nrs) + tallyAt (barCell (pe c 3)) () 1) + tallyAt (barCell (pe c 2)) () 1) + tallyAt (barCell (pe c 1)) () 1) : CellTallies nD τ sig Unit) := rfl

theorem payload_bar_p1 (c : Dev nD) : (sched (F := F) m).payload (barCell (pe c 1)) 0 0
    = iprop((∃ f : Buf (Elt F) ((rcvSlot 4).view.loc (c : Thread nD τ)), (rcvSlot 4).view.loc (c : Thread nD τ) ↦[(rcvSlot 4).view.set]{fullShare} f)
      ∗ (∃ f : Buf (Elt F) ((rcvSlot 5).view.loc (c : Thread nD τ)), (rcvSlot 5).view.loc (c : Thread nD τ) ↦[(rcvSlot 5).view.set]{fullShare} f)
      ∗ (∃ f : Buf (Elt F) ((oRows (pe c 1) 0).view.loc (c : Thread nD τ)), (oRows (pe c 1) 0).view.loc (c : Thread nD τ) ↦[(oRows (pe c 1) 0).view.set]{fullShare} f)
      ∗ (∃ f : Buf (Elt F) ((oRows (pe c 1) 1).view.loc (c : Thread nD τ)), (oRows (pe c 1) 1).view.loc (c : Thread nD τ) ↦[(oRows (pe c 1) 1).view.set]{fullShare} f)) := by
  rw [payload_bar]; unfold barPay regAny; rw [pe_pe, show 1 + (3 - (0 : Fin 3).val) = 4 from rfl, pe_four]; rfl
theorem payload_bar_p2 (c : Dev nD) : (sched (F := F) m).payload (barCell (pe c 2)) 0 1
    = iprop((∃ f : Buf (Elt F) ((rcvSlot 2).view.loc (c : Thread nD τ)), (rcvSlot 2).view.loc (c : Thread nD τ) ↦[(rcvSlot 2).view.set]{fullShare} f)
      ∗ (∃ f : Buf (Elt F) ((rcvSlot 3).view.loc (c : Thread nD τ)), (rcvSlot 3).view.loc (c : Thread nD τ) ↦[(rcvSlot 3).view.set]{fullShare} f)
      ∗ (∃ f : Buf (Elt F) ((oRows (pe c 2) 0).view.loc (c : Thread nD τ)), (oRows (pe c 2) 0).view.loc (c : Thread nD τ) ↦[(oRows (pe c 2) 0).view.set]{fullShare} f)
      ∗ (∃ f : Buf (Elt F) ((oRows (pe c 2) 1).view.loc (c : Thread nD τ)), (oRows (pe c 2) 1).view.loc (c : Thread nD τ) ↦[(oRows (pe c 2) 1).view.set]{fullShare} f)) := by
  rw [payload_bar]; unfold barPay regAny; rw [pe_pe, show 2 + (3 - (1 : Fin 3).val) = 4 from rfl, pe_four]; rfl
theorem payload_bar_p3 (c : Dev nD) : (sched (F := F) m).payload (barCell (pe c 3)) 0 2
    = iprop((∃ f : Buf (Elt F) ((rcvSlot 0).view.loc (c : Thread nD τ)), (rcvSlot 0).view.loc (c : Thread nD τ) ↦[(rcvSlot 0).view.set]{fullShare} f)
      ∗ (∃ f : Buf (Elt F) ((rcvSlot 1).view.loc (c : Thread nD τ)), (rcvSlot 1).view.loc (c : Thread nD τ) ↦[(rcvSlot 1).view.set]{fullShare} f)
      ∗ (∃ f : Buf (Elt F) ((oRows (pe c 3) 0).view.loc (c : Thread nD τ)), (oRows (pe c 3) 0).view.loc (c : Thread nD τ) ↦[(oRows (pe c 3) 0).view.set]{fullShare} f)
      ∗ (∃ f : Buf (Elt F) ((oRows (pe c 3) 1).view.loc (c : Thread nD τ)), (oRows (pe c 3) 1).view.loc (c : Thread nD τ) ↦[(oRows (pe c 3) 1).view.set]{fullShare} f)) := by
  rw [payload_bar]; unfold barPay regAny; rw [pe_pe, show 3 + (3 - (2 : Fin 3).val) = 4 from rfl, pe_four]; rfl
theorem payload_bar_own0 (c : Dev nD) : (sched (F := F) m).payload (barCell c) 0 0
    = iprop((∃ f : Buf (Elt F) ((rcvSlot 4).view.loc ((pe c 3 : Dev nD) : Thread nD τ)), (rcvSlot 4).view.loc ((pe c 3 : Dev nD) : Thread nD τ) ↦[(rcvSlot 4).view.set]{fullShare} f)
      ∗ (∃ f : Buf (Elt F) ((rcvSlot 5).view.loc ((pe c 3 : Dev nD) : Thread nD τ)), (rcvSlot 5).view.loc ((pe c 3 : Dev nD) : Thread nD τ) ↦[(rcvSlot 5).view.set]{fullShare} f)
      ∗ (∃ f : Buf (Elt F) ((oRows c 0).view.loc ((pe c 3 : Dev nD) : Thread nD τ)), (oRows c 0).view.loc ((pe c 3 : Dev nD) : Thread nD τ) ↦[(oRows c 0).view.set]{fullShare} f)
      ∗ (∃ f : Buf (Elt F) ((oRows c 1).view.loc ((pe c 3 : Dev nD) : Thread nD τ)), (oRows c 1).view.loc ((pe c 3 : Dev nD) : Thread nD τ) ↦[(oRows c 1).view.set]{fullShare} f)) := by
  rw [payload_bar]; unfold barPay regAny; rfl
theorem payload_bar_own1 (c : Dev nD) : (sched (F := F) m).payload (barCell c) 0 1
    = iprop((∃ f : Buf (Elt F) ((rcvSlot 2).view.loc ((pe c 2 : Dev nD) : Thread nD τ)), (rcvSlot 2).view.loc ((pe c 2 : Dev nD) : Thread nD τ) ↦[(rcvSlot 2).view.set]{fullShare} f)
      ∗ (∃ f : Buf (Elt F) ((rcvSlot 3).view.loc ((pe c 2 : Dev nD) : Thread nD τ)), (rcvSlot 3).view.loc ((pe c 2 : Dev nD) : Thread nD τ) ↦[(rcvSlot 3).view.set]{fullShare} f)
      ∗ (∃ f : Buf (Elt F) ((oRows c 0).view.loc ((pe c 2 : Dev nD) : Thread nD τ)), (oRows c 0).view.loc ((pe c 2 : Dev nD) : Thread nD τ) ↦[(oRows c 0).view.set]{fullShare} f)
      ∗ (∃ f : Buf (Elt F) ((oRows c 1).view.loc ((pe c 2 : Dev nD) : Thread nD τ)), (oRows c 1).view.loc ((pe c 2 : Dev nD) : Thread nD τ) ↦[(oRows c 1).view.set]{fullShare} f)) := by
  rw [payload_bar]; unfold barPay regAny; rfl
theorem payload_bar_own2 (c : Dev nD) : (sched (F := F) m).payload (barCell c) 0 2
    = iprop((∃ f : Buf (Elt F) ((rcvSlot 0).view.loc ((pe c 1 : Dev nD) : Thread nD τ)), (rcvSlot 0).view.loc ((pe c 1 : Dev nD) : Thread nD τ) ↦[(rcvSlot 0).view.set]{fullShare} f)
      ∗ (∃ f : Buf (Elt F) ((rcvSlot 1).view.loc ((pe c 1 : Dev nD) : Thread nD τ)), (rcvSlot 1).view.loc ((pe c 1 : Dev nD) : Thread nD τ) ↦[(rcvSlot 1).view.set]{fullShare} f)
      ∗ (∃ f : Buf (Elt F) ((oRows c 0).view.loc ((pe c 1 : Dev nD) : Thread nD τ)), (oRows c 0).view.loc ((pe c 1 : Dev nD) : Thread nD τ) ↦[(oRows c 0).view.set]{fullShare} f)
      ∗ (∃ f : Buf (Elt F) ((oRows c 1).view.loc ((pe c 1 : Dev nD) : Thread nD τ)), (oRows c 1).view.loc ((pe c 1 : Dev nD) : Thread nD τ) ↦[(oRows c 1).view.set]{fullShare} f)) := by
  rw [payload_bar]; unfold barPay regAny; rfl

/-! ## Levels: what a device still owes lies above the cell it waits on -/

theorem lv_bar (c : Dev nD) : lv (barCell c) () = 1 := by dsimp only [lv]; exact if_pos rfl
theorem lv_d (c : Dev nD) (a : Fin 4) (k : Fin 6) : lv (dCell c a k) () = (if a.val = 1 then 2 else if a.val = 3 then 3 else 0) := by
  dsimp only [lv]; rw [if_neg (semOf_ne_bar a k), dec_semOf]

def Above (n : ℕ) (O : CellTallies nD τ sig Unit) : Prop := ∀ (g : GSem nD τ sig) (i : Unit), 0 < O g i → i ∈ L g ∧ n < lv g i
theorem above_zero (n : ℕ) : Above n 0 := fun g i h => absurd h (Nat.lt_irrefl 0)
theorem above_add {n : ℕ} {O : CellTallies nD τ sig Unit} {c' : Dev nD} {s : SemLoc sig} {k : ℕ} (h : Above n O) (hl : n < lv ((c' : Thread nD τ), s) ()) :
    Above n (O + tallyAt ((c' : Thread nD τ), s) () k) := fun g i hg => by
  rcases Pipeline.add_pos_cases hg with h1 | h2
  · exact h g i h1
  · rw [tallyAt_apply] at h2
    by_cases hh : g = ((c' : Thread nD τ), s) ∧ i = ()
    · rw [hh.1, L_tc]; exact ⟨Finset.mem_singleton.mpr rfl, hl⟩
    · rw [if_neg hh] at h2; exact absurd h2 (Nat.lt_irrefl 0)
theorem mayWait_above (c : Dev nD) (s : SemLoc sig) (O : CellTallies nD τ sig Unit) (h : Above (lv ((c : Thread nD τ), s) ()) O) :
    (levAts L lv : sProp 𝕄) ⊢ MayWait (c : Thread nD τ) s () O :=
  Pipeline.mayWait_of_levAts (by rw [L_tc]; exact Finset.mem_singleton_self _) h

omit [FloatOps F] in
theorem whole_pts (c : Dev nD) (b : Ref sig .tc) (f : Buf (Elt F) ((c : Thread nD τ).loc b)) :
    (((c : Thread nD τ).loc b) ↦{fullShare} f : sProp 𝕄)
      = ((Memref.whole b).view.loc (c : Thread nD τ) ↦[(Memref.whole b).view.set]{fullShare} f) := by
  rw [View.set_whole]

theorem rcv_chain (c : Dev nD) (f : Buf (Elt F) ((c : Thread nD τ).loc cc0_scratch4)) :
    (((c : Thread nD τ).loc cc0_scratch4) ↦{fullShare} f : sProp 𝕄) ⊢ iprop((∃ f : Buf (Elt F) ((rcvSlot 0).view.loc (c : Thread nD τ)), (rcvSlot 0).view.loc (c : Thread nD τ) ↦[(rcvSlot 0).view.set]{fullShare} f)
      ∗ (∃ f : Buf (Elt F) ((rcvSlot 1).view.loc (c : Thread nD τ)), (rcvSlot 1).view.loc (c : Thread nD τ) ↦[(rcvSlot 1).view.set]{fullShare} f)
      ∗ (∃ f : Buf (Elt F) ((rcvSlot 2).view.loc (c : Thread nD τ)), (rcvSlot 2).view.loc (c : Thread nD τ) ↦[(rcvSlot 2).view.set]{fullShare} f)
      ∗ (∃ f : Buf (Elt F) ((rcvSlot 3).view.loc (c : Thread nD τ)), (rcvSlot 3).view.loc (c : Thread nD τ) ↦[(rcvSlot 3).view.set]{fullShare} f)
      ∗ (∃ f : Buf (Elt F) ((rcvSlot 4).view.loc (c : Thread nD τ)), (rcvSlot 4).view.loc (c : Thread nD τ) ↦[(rcvSlot 4).view.set]{fullShare} f)
      ∗ (∃ f : Buf (Elt F) ((rcvSlot 5).view.loc (c : Thread nD τ)), (rcvSlot 5).view.loc (c : Thread nD τ) ↦[(rcvSlot 5).view.set]{fullShare} f)) :=
  (rcv_split c f).trans (Entails.of_eq (Rx.bigSep_fin6 _))
theorem out_chain (c : Dev nD) (f : Buf (Elt F) ((c : Thread nD τ).loc cc0_stg4_0)) :
    (((c : Thread nD τ).loc cc0_stg4_0) ↦{fullShare} f : sProp 𝕄) ⊢ iprop((∃ f : Buf (Elt F) ((oRows (pe c 0) 0).view.loc (c : Thread nD τ)), (oRows (pe c 0) 0).view.loc (c : Thread nD τ) ↦[(oRows (pe c 0) 0).view.set]{fullShare} f)
      ∗ (∃ f : Buf (Elt F) ((oRows (pe c 0) 1).view.loc (c : Thread nD τ)), (oRows (pe c 0) 1).view.loc (c : Thread nD τ) ↦[(oRows (pe c 0) 1).view.set]{fullShare} f)
      ∗ (∃ f : Buf (Elt F) ((oRows (pe c 1) 0).view.loc (c : Thread nD τ)), (oRows (pe c 1) 0).view.loc (c : Thread nD τ) ↦[(oRows (pe c 1) 0).view.set]{fullShare} f)
      ∗ (∃ f : Buf (Elt F) ((oRows (pe c 1) 1).view.loc (c : Thread nD τ)), (oRows (pe c 1) 1).view.loc (c : Thread nD τ) ↦[(oRows (pe c 1) 1).view.set]{fullShare} f)
      ∗ (∃ f : Buf (Elt F) ((oRows (pe c 2) 0).view.loc (c : Thread nD τ)), (oRows (pe c 2) 0).view.loc (c : Thread nD τ) ↦[(oRows (pe c 2) 0).view.set]{fullShare} f)
      ∗ (∃ f : Buf (Elt F) ((oRows (pe c 2) 1).view.loc (c : Thread nD τ)), (oRows (pe c 2) 1).view.loc (c : Thread nD τ) ↦[(oRows (pe c 2) 1).view.set]{fullShare} f)
      ∗ (∃ f : Buf (Elt F) ((oRows (pe c 3) 0).view.loc (c : Thread nD τ)), (oRows (pe c 3) 0).view.loc (c : Thread nD τ) ↦[(oRows (pe c 3) 0).view.set]{fullShare} f)
      ∗ (∃ f : Buf (Elt F) ((oRows (pe c 3) 1).view.loc (c : Thread nD τ)), (oRows (pe c 3) 1).view.loc (c : Thread nD τ) ↦[(oRows (pe c 3) 1).view.set]{fullShare} f)) :=
  (out_split c f).trans (Entails.of_eq (bigSep_4x2 _))

theorem snd_chain (c : Dev nD) (f : Buf (Elt F) ((c : Thread nD τ).loc cc0_scratch3)) :
    (((c : Thread nD τ).loc cc0_scratch3) ↦{fullShare} f : sProp 𝕄) ⊢ iprop((∃ f : Buf (Elt F) ((sndSlot 0).view.loc (c : Thread nD τ)), (sndSlot 0).view.loc (c : Thread nD τ) ↦[(sndSlot 0).view.set]{fullShare} f)
      ∗ (∃ f : Buf (Elt F) ((sndSlot 1).view.loc (c : Thread nD τ)), (sndSlot 1).view.loc (c : Thread nD τ) ↦[(sndSlot 1).view.set]{fullShare} f)
      ∗ (∃ f : Buf (Elt F) ((sndSlot 2).view.loc (c : Thread nD τ)), (sndSlot 2).view.loc (c : Thread nD τ) ↦[(sndSlot 2).view.set]{fullShare} f)
      ∗ (∃ f : Buf (Elt F) ((sndSlot 3).view.loc (c : Thread nD τ)), (sndSlot 3).view.loc (c : Thread nD τ) ↦[(sndSlot 3).view.set]{fullShare} f)
      ∗ (∃ f : Buf (Elt F) ((sndSlot 4).view.loc (c : Thread nD τ)), (sndSlot 4).view.loc (c : Thread nD τ) ↦[(sndSlot 4).view.set]{fullShare} f)
      ∗ (∃ f : Buf (Elt F) ((sndSlot 5).view.loc (c : Thread nD τ)), (sndSlot 5).view.loc (c : Thread nD τ) ↦[(sndSlot 5).view.set]{fullShare} f)) :=
  (snd_split c f).trans (Entails.of_eq (Rx.bigSep_fin6 _))

theorem pe13 (c : Dev nD) : pe (pe c 1) 3 = c := by revert c; decide
theorem pe22 (c : Dev nD) : pe (pe c 2) 2 = c := by revert c; decide
theorem pe31 (c : Dev nD) : pe (pe c 3) 1 = c := by revert c; decide

theorem bar_rest (c : Dev nD) : (bigSep Finset.univ fun d : Fin 3 => (sched (F := F) m).payload (barCell c) 0 d)
    = iprop(((∃ f : Buf (Elt F) ((rcvSlot 4).view.loc ((pe c 3 : Dev nD) : Thread nD τ)), (rcvSlot 4).view.loc ((pe c 3 : Dev nD) : Thread nD τ) ↦[(rcvSlot 4).view.set]{fullShare} f)
      ∗ (∃ f : Buf (Elt F) ((rcvSlot 5).view.loc ((pe c 3 : Dev nD) : Thread nD τ)), (rcvSlot 5).view.loc ((pe c 3 : Dev nD) : Thread nD τ) ↦[(rcvSlot 5).view.set]{fullShare} f)
      ∗ (∃ f : Buf (Elt F) ((oRows c 0).view.loc ((pe c 3 : Dev nD) : Thread nD τ)), (oRows c 0).view.loc ((pe c 3 : Dev nD) : Thread nD τ) ↦[(oRows c 0).view.set]{fullShare} f)
      ∗ (∃ f : Buf (Elt F) ((oRows c 1).view.loc ((pe c 3 : Dev nD) : Thread nD τ)), (oRows c 1).view.loc ((pe c 3 : Dev nD) : Thread nD τ) ↦[(oRows c 1).view.set]{fullShare} f))
      ∗ ((∃ f : Buf (Elt F) ((rcvSlot 2).view.loc ((pe c 2 : Dev nD) : Thread nD τ)), (rcvSlot 2).view.loc ((pe c 2 : Dev nD) : Thread nD τ) ↦[(rcvSlot 2).view.set]{fullShare} f)
      ∗ (∃ f : Buf (Elt F) ((rcvSlot 3).view.loc ((pe c 2 : Dev nD) : Thread nD τ)), (rcvSlot 3).view.loc ((pe c 2 : Dev nD) : Thread nD τ) ↦[(rcvSlot 3).view.set]{fullShare} f)
      ∗ (∃ f : Buf (Elt F) ((oRows c 0).view.loc ((pe c 2 : Dev nD) : Thread nD τ)), (oRows c 0).view.loc ((pe c 2 : Dev nD) : Thread nD τ) ↦[(oRows c 0).view.set]{fullShare} f)
      ∗ (∃ f : Buf (Elt F) ((oRows c 1).view.loc ((pe c 2 : Dev nD) : Thread nD τ)), (oRows c 1).view.loc ((pe c 2 : Dev nD) : Thread nD τ) ↦[(oRows c 1).view.set]{fullShare} f))
      ∗ ((∃ f : Buf (Elt F) ((rcvSlot 0).view.loc ((pe c 1 : Dev nD) : Thread nD τ)), (rcvSlot 0).view.loc ((pe c 1 : Dev nD) : Thread nD τ) ↦[(rcvSlot 0).view.set]{fullShare} f)
      ∗ (∃ f : Buf (Elt F) ((rcvSlot 1).view.loc ((pe c 1 : Dev nD) : Thread nD τ)), (rcvSlot 1).view.loc ((pe c 1 : Dev nD) : Thread nD τ) ↦[(rcvSlot 1).view.set]{fullShare} f)
      ∗ (∃ f : Buf (Elt F) ((oRows c 0).view.loc ((pe c 1 : Dev nD) : Thread nD τ)), (oRows c 0).view.loc ((pe c 1 : Dev nD) : Thread nD τ) ↦[(oRows c 0).view.set]{fullShare} f)
      ∗ (∃ f : Buf (Elt F) ((oRows c 1).view.loc ((pe c 1 : Dev nD) : Thread nD τ)), (oRows c 1).view.loc ((pe c 1 : Dev nD) : Thread nD τ) ↦[(oRows c 1).view.set]{fullShare} f))) := by
  rw [bigSep_fin3, payload_bar_own0, payload_bar_own1, payload_bar_own2]

omit [FloatOps F] in
theorem hz2 : (![0, 0] : Fin 2 → Nat) = fun _ => 0 := funext fun a => by fin_cases a <;> rfl

/-- The credit token of a cell, for an amount. -/
def Cr (g : GSem nD τ sig) (n : ℕ) : sProp 𝕄 := cred (tallyAt g () n)
omit [FloatOps F] in
theorem cr_fold (g : GSem nD τ sig) (n : ℕ) : (cred (tallyAt g () n) : sProp 𝕄) = Cr g n := rfl
omit [FloatOps F] in
theorem crA_fold (c : Dev nD) (k : Fin 6) : (cred (tallyAt (dCell c 3 k) () Nag) : sProp 𝕄) = Cr (dCell c 3 k) Nag := rfl

/-- What a transfer cell's one duty leaves its owner after the round. -/
theorem rest_d (c : Dev nD) (a : Fin 4) (k : Fin 6) :
    (bigSep ((sched (F := F) m).duties (dCell c a k) 0 \ ∅) fun d => (sched (F := F) m).payload (dCell c a k) 0 d) = dPay m c a k := by
  rw [Finset.sdiff_empty, duties_d, bigSep_singleton, payload_d]

/-- A duty's one-shot token of round 0. -/
def Tok (g : GSem nD τ sig) (d : Fin 3) : sProp 𝕄 := dutyTok ER g 0 d
omit [FloatOps F] in
theorem tok_fold (g : GSem nD τ sig) (d : Fin 3) : (dutyTok ER g 0 d : sProp 𝕄) = Tok g d := rfl

attribute [local sl_canon] dev1_eq dev2_eq dev3_eq dev4_eq dev5_eq dev6_eq dev7_eq dev8_eq dev9_eq dev10_eq dev11_eq dev12_eq dev13_eq dev14_eq dev15_eq

attribute [local sl_rounds] duties_bar duties_d amount_bar amount_d expect_bar expect_d
  payload_bar_own0 payload_bar_own1 payload_bar_own2
theorem regPts_def {S : Shape} {e : EltTy} (t : Thread nD τ) (v : Memref sig t.2.kind .vmem S e) (q : PosShare TreeShare) (w : S.Idx → Elt F e) :
    (regPts t v q w : sProp 𝕄) = (v.view.loc t ↦[v.view.set]{q} (v.view.write (Elt F) (junk (v.view.loc t)) w Finset.univ)) := rfl
attribute [local sl_rounds] payload_d regPts_def dPay_send_00 dPay_asend_00 dPay_send_01 dPay_asend_01 dPay_send_10 dPay_asend_10 dPay_send_11 dPay_asend_11 dPay_send_20 dPay_asend_20 dPay_send_21 dPay_asend_21 dPay_recv_own_00 dPay_arecv_own_00 dPay_recv_own_01 dPay_arecv_own_01 dPay_recv_own_10 dPay_arecv_own_10 dPay_recv_own_11 dPay_arecv_own_11 dPay_recv_own_20 dPay_arecv_own_20 dPay_recv_own_21 dPay_arecv_own_21
attribute [local sl_rounds high] payload_bar_p1 payload_bar_p2 payload_bar_p3

set_option maxRecDepth 20000 in
set_option maxHeartbeats 8000000 in
theorem sound_body (c : Dev nD) :
    bodyPre' m ρ c ⊢ wp frame (wpE (defs₀ (F := F)) 𝒱₀ c none) Set.univ
      (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8) (fun _ => bodyPost m ρ c) := by
  simp only [cc0_body_eq_skeleton]; unfold cc0_body_skel
  unfold bodyPre' Φ₀ start ghost payToks creds scratches
  simp only [bigSep_fin3, bigSep_fin6', bigSep_fin32, bigSep_fin46, tok_fold]
  iintro ⟨⟨⟨⟨%K, #Hrec, HaB, ⟨Ha00, Ha01, Ha02, Ha03, Ha04, Ha05, Ha10, Ha11, Ha12, Ha13, Ha14, Ha15, Ha20, Ha21, Ha22, Ha23, Ha24, Ha25, Ha30, Ha31, Ha32, Ha33, Ha34, Ha35⟩, ⟨HtB0, HtB1, HtB2⟩, ⟨⟨HtR00, HtA00⟩, ⟨HtR01, HtA01⟩, ⟨HtR10, HtA10⟩, ⟨HtR11, HtA11⟩, ⟨HtR20, HtA20⟩, ⟨HtR21, HtA21⟩⟩,
      ⟨⟨HtS0, HtT0⟩, ⟨HtS1, HtT1⟩, ⟨HtS2, HtT2⟩, ⟨HtS3, HtT3⟩, ⟨HtS4, HtT4⟩, ⟨HtS5, HtT5⟩⟩⟩,
      ⟨HcB, ⟨HcR0, HcR1, HcR2, HcR3, HcR4, HcR5⟩, ⟨HcA0, HcA1, HcA2, HcA3, HcA4, HcA5⟩⟩, #Hlev⟩,
      ⟨⟨%f0, Hs0⟩, ⟨%f1, Hs1⟩, ⟨%f2, Hs2⟩, ⟨%f3, Hs3⟩, ⟨%f4, Hs4⟩⟩⟩,
    Ho, ⟨%d0, %g0, %hg0, Hx⟩, ⟨%d1, %g1, %hg1, Hg⟩, ⟨%d2, %g2, %hg2, Hu⟩, ⟨%d3, %g3, %hg3, Hd⟩, ⟨%d4, %g4, %hg4, Hout⟩⟩
  ihave HcA0 := (show (cred (tallyAt (dCell c 3 0) () Nag) : sProp 𝕄) ⊢ Cr (dCell c 3 0) Nag from Entails.of_eq rfl) $$ HcA0
  ihave HcA1 := (show (cred (tallyAt (dCell c 3 1) () Nag) : sProp 𝕄) ⊢ Cr (dCell c 3 1) Nag from Entails.of_eq rfl) $$ HcA1
  ihave HcA2 := (show (cred (tallyAt (dCell c 3 2) () Nag) : sProp 𝕄) ⊢ Cr (dCell c 3 2) Nag from Entails.of_eq rfl) $$ HcA2
  ihave HcA3 := (show (cred (tallyAt (dCell c 3 3) () Nag) : sProp 𝕄) ⊢ Cr (dCell c 3 3) Nag from Entails.of_eq rfl) $$ HcA3
  ihave HcA4 := (show (cred (tallyAt (dCell c 3 4) () Nag) : sProp 𝕄) ⊢ Cr (dCell c 3 4) Nag from Entails.of_eq rfl) $$ HcA4
  ihave HcA5 := (show (cred (tallyAt (dCell c 3 5) () Nag) : sProp 𝕄) ⊢ Cr (dCell c 3 5) Nag from Entails.of_eq rfl) $$ HcA5
  have hx : g0 = Xs m c := by rw [hg0]; unfold Dat.before; rw [if_pos (fetch0_0 t₀)]; rfl
  have hg : g1 = Gs m c := by rw [hg1]; unfold Dat.before; rw [if_pos (fetch0_1 t₀)]; rfl
  have hu : g2 = Us m c := by rw [hg2]; unfold Dat.before; rw [if_pos (fetch0_2 t₀)]; rfl
  have hd : g3 = Ds m c := by rw [hg3]; unfold Dat.before; rw [if_pos (fetch0_3 t₀)]; rfl
  subst hx hg hu hd
  unfold Dat.owesAt Pipeline.owesWithin
  icases Ho with ⟨%W, %hW, HO⟩
  rw [show (dats m ρ 0 c).owed t₀.castSucc = O₀ c from rfl, O₀_eq]
  ihave #HIB := (inv_bar m K c) $$ Hrec
  ihave #HRB := (reached_bar m K c) $$ Hrec
  ihave #HI00 := (inv_d m K c 0 0) $$ Hrec
  ihave #HR00 := (reached_d m K c 0 0) $$ Hrec
  ihave #HI01 := (inv_d m K c 0 1) $$ Hrec
  ihave #HR01 := (reached_d m K c 0 1) $$ Hrec
  ihave #HI02 := (inv_d m K c 0 2) $$ Hrec
  ihave #HR02 := (reached_d m K c 0 2) $$ Hrec
  ihave #HI03 := (inv_d m K c 0 3) $$ Hrec
  ihave #HR03 := (reached_d m K c 0 3) $$ Hrec
  ihave #HI04 := (inv_d m K c 0 4) $$ Hrec
  ihave #HR04 := (reached_d m K c 0 4) $$ Hrec
  ihave #HI05 := (inv_d m K c 0 5) $$ Hrec
  ihave #HR05 := (reached_d m K c 0 5) $$ Hrec
  ihave #HI10 := (inv_d m K c 1 0) $$ Hrec
  ihave #HR10 := (reached_d m K c 1 0) $$ Hrec
  ihave #HI11 := (inv_d m K c 1 1) $$ Hrec
  ihave #HR11 := (reached_d m K c 1 1) $$ Hrec
  ihave #HI12 := (inv_d m K c 1 2) $$ Hrec
  ihave #HR12 := (reached_d m K c 1 2) $$ Hrec
  ihave #HI13 := (inv_d m K c 1 3) $$ Hrec
  ihave #HR13 := (reached_d m K c 1 3) $$ Hrec
  ihave #HI14 := (inv_d m K c 1 4) $$ Hrec
  ihave #HR14 := (reached_d m K c 1 4) $$ Hrec
  ihave #HI15 := (inv_d m K c 1 5) $$ Hrec
  ihave #HR15 := (reached_d m K c 1 5) $$ Hrec
  ihave #HI20 := (inv_d m K c 2 0) $$ Hrec
  ihave #HR20 := (reached_d m K c 2 0) $$ Hrec
  ihave #HI21 := (inv_d m K c 2 1) $$ Hrec
  ihave #HR21 := (reached_d m K c 2 1) $$ Hrec
  ihave #HI22 := (inv_d m K c 2 2) $$ Hrec
  ihave #HR22 := (reached_d m K c 2 2) $$ Hrec
  ihave #HI23 := (inv_d m K c 2 3) $$ Hrec
  ihave #HR23 := (reached_d m K c 2 3) $$ Hrec
  ihave #HI24 := (inv_d m K c 2 4) $$ Hrec
  ihave #HR24 := (reached_d m K c 2 4) $$ Hrec
  ihave #HI25 := (inv_d m K c 2 5) $$ Hrec
  ihave #HR25 := (reached_d m K c 2 5) $$ Hrec
  ihave #HI30 := (inv_d m K c 3 0) $$ Hrec
  ihave #HR30 := (reached_d m K c 3 0) $$ Hrec
  ihave #HI31 := (inv_d m K c 3 1) $$ Hrec
  ihave #HR31 := (reached_d m K c 3 1) $$ Hrec
  ihave #HI32 := (inv_d m K c 3 2) $$ Hrec
  ihave #HR32 := (reached_d m K c 3 2) $$ Hrec
  ihave #HI33 := (inv_d m K c 3 3) $$ Hrec
  ihave #HR33 := (reached_d m K c 3 3) $$ Hrec
  ihave #HI34 := (inv_d m K c 3 4) $$ Hrec
  ihave #HR34 := (reached_d m K c 3 4) $$ Hrec
  ihave #HI35 := (inv_d m K c 3 5) $$ Hrec
  ihave #HR35 := (reached_d m K c 3 5) $$ Hrec
  ihave #HIBp1 := (inv_bar m K (pe c 1)) $$ Hrec
  ihave #HRBp1 := (reached_bar m K (pe c 1)) $$ Hrec
  ihave #HIr00 := (inv_d m K (pe c 1) 1 0) $$ Hrec
  ihave #HRr00 := (reached_d m K (pe c 1) 1 0) $$ Hrec
  ihave #HIa00 := (inv_d m K (pe c 1) 3 0) $$ Hrec
  ihave #HRa00 := (reached_d m K (pe c 1) 3 0) $$ Hrec
  ihave #HIr01 := (inv_d m K (pe c 1) 1 1) $$ Hrec
  ihave #HRr01 := (reached_d m K (pe c 1) 1 1) $$ Hrec
  ihave #HIa01 := (inv_d m K (pe c 1) 3 1) $$ Hrec
  ihave #HRa01 := (reached_d m K (pe c 1) 3 1) $$ Hrec
  ihave #HIBp2 := (inv_bar m K (pe c 2)) $$ Hrec
  ihave #HRBp2 := (reached_bar m K (pe c 2)) $$ Hrec
  ihave #HIr10 := (inv_d m K (pe c 2) 1 2) $$ Hrec
  ihave #HRr10 := (reached_d m K (pe c 2) 1 2) $$ Hrec
  ihave #HIa10 := (inv_d m K (pe c 2) 3 2) $$ Hrec
  ihave #HRa10 := (reached_d m K (pe c 2) 3 2) $$ Hrec
  ihave #HIr11 := (inv_d m K (pe c 2) 1 3) $$ Hrec
  ihave #HRr11 := (reached_d m K (pe c 2) 1 3) $$ Hrec
  ihave #HIa11 := (inv_d m K (pe c 2) 3 3) $$ Hrec
  ihave #HRa11 := (reached_d m K (pe c 2) 3 3) $$ Hrec
  ihave #HIBp3 := (inv_bar m K (pe c 3)) $$ Hrec
  ihave #HRBp3 := (reached_bar m K (pe c 3)) $$ Hrec
  ihave #HIr20 := (inv_d m K (pe c 3) 1 4) $$ Hrec
  ihave #HRr20 := (reached_d m K (pe c 3) 1 4) $$ Hrec
  ihave #HIa20 := (inv_d m K (pe c 3) 3 4) $$ Hrec
  ihave #HRa20 := (reached_d m K (pe c 3) 3 4) $$ Hrec
  ihave #HIr21 := (inv_d m K (pe c 3) 1 5) $$ Hrec
  ihave #HRr21 := (reached_d m K (pe c 3) 1 5) $$ Hrec
  ihave #HIa21 := (inv_d m K (pe c 3) 3 5) $$ Hrec
  ihave #HRa21 := (reached_d m K (pe c 3) 3 5) $$ Hrec
  ihave Hrs := (rcv_chain c f4) $$ Hs4
  ihave Hss := (snd_chain c f3) $$ Hs3
  icases Hss with ⟨⟨%s0, Hn0⟩, ⟨%s1, Hn1⟩, ⟨%s2, Hn2⟩, ⟨%s3, Hn3⟩, ⟨%s4, Hn4⟩, ⟨%s5, Hn5⟩⟩
  ihave Hos := (out_chain' c g4) $$ Hout
  icases Hrs with ⟨⟨%r0, Hr0⟩, ⟨%r1, Hr1⟩, ⟨%r2, Hr2⟩, ⟨%r3, Hr3⟩, ⟨%r4, Hr4⟩, ⟨%r5, Hr5⟩⟩
  icases Hos with ⟨⟨%o00, Ho00⟩, ⟨%o01, Ho01⟩, ⟨%o10, Ho10⟩, ⟨%o11, Ho11⟩, ⟨%o20, Ho20⟩, ⟨%o21, Ho21⟩, ⟨%o30, Ho30⟩, ⟨%o31, Ho31⟩⟩
  ihave Hs0 := (Entails.of_eq (whole_pts c cc0_scratch0 (f0))) $$ Hs0
  ihave Hs1 := (Entails.of_eq (whole_pts c cc0_scratch1 (f1))) $$ Hs1
  ihave Hs2 := (Entails.of_eq (whole_pts c cc0_scratch2 (f2))) $$ Hs2
  ihave Hx := (Entails.of_eq (whole_pts c cc0_stg0_0 (Xs m c))) $$ Hx
  ihave Hg := (Entails.of_eq (whole_pts c cc0_stg1_0 (Gs m c))) $$ Hg
  ihave Hu := (Entails.of_eq (whole_pts c cc0_stg2_0 (Us m c))) $$ Hu
  ihave Hd := (Entails.of_eq (whole_pts c cc0_stg3_0 (Ds m c))) $$ Hd
  have hmwB : (levAts L lv : sProp 𝕄) ⊢ MayWait (c : Thread nD τ) (.reg barS) () ((((((((((((0 + tallyAt (dCell (pe c 3) 3 5) () Nag) + tallyAt (dCell (pe c 2) 3 3) () Nag) + tallyAt (dCell (pe c 1) 3 1) () Nag) + tallyAt (dCell (pe c 3) 3 4) () Nag) + tallyAt (dCell (pe c 2) 3 2) () Nag) + tallyAt (dCell (pe c 1) 3 0) () Nag) + tallyAt (dCell (pe c 3) 1 5) () Nrs) + tallyAt (dCell (pe c 2) 1 3) () Nrs) + tallyAt (dCell (pe c 1) 1 1) () Nrs) + tallyAt (dCell (pe c 3) 1 4) () Nrs) + tallyAt (dCell (pe c 2) 1 2) () Nrs) + tallyAt (dCell (pe c 1) 1 0) () Nrs) :=
    mayWait_above c (.reg barS) _ (by rw [lv_bar]; exact above_add (above_add (above_add (above_add (above_add (above_add (above_add (above_add (above_add (above_add (above_add (above_add (above_zero _) (by rw [lv_d]; decide)) (by rw [lv_d]; decide)) (by rw [lv_d]; decide)) (by rw [lv_d]; decide)) (by rw [lv_d]; decide)) (by rw [lv_d]; decide)) (by rw [lv_d]; decide)) (by rw [lv_d]; decide)) (by rw [lv_d]; decide)) (by rw [lv_d]; decide)) (by rw [lv_d]; decide)) (by rw [lv_d]; decide))
  sl_exec_parts
  iapply (Rounds.wp_signal 𝒱₀ ER (sched m) (c : Thread nD τ) none (dst := ((pe c 1 : Dev nD) : Thread nD τ)) (κ := K (pe c 1, 0))
      (d := 0) (by rw [duties_bar]; exact Finset.mem_univ _) ((amount_bar m (pe c 1) 0).trans (by decide)) () ((((((((((((((0 + tallyAt (dCell (pe c 3) 3 5) () Nag) + tallyAt (dCell (pe c 2) 3 3) () Nag) + tallyAt (dCell (pe c 1) 3 1) () Nag) + tallyAt (dCell (pe c 3) 3 4) () Nag) + tallyAt (dCell (pe c 2) 3 2) () Nag) + tallyAt (dCell (pe c 1) 3 0) () Nag) + tallyAt (dCell (pe c 3) 1 5) () Nrs) + tallyAt (dCell (pe c 2) 1 3) () Nrs) + tallyAt (dCell (pe c 1) 1 1) () Nrs) + tallyAt (dCell (pe c 3) 1 4) () Nrs) + tallyAt (dCell (pe c 2) 1 2) () Nrs) + tallyAt (dCell (pe c 1) 1 0) () Nrs) + tallyAt (barCell (pe c 3)) () 1) + tallyAt (barCell (pe c 2)) () 1) rfl)
    $$ [HO HtB0 Hr4 Hr5 Ho10 Ho11]
  · isplitr; · iexact HIBp1
    isplitl [HO]; · iexact HO
    isplitl [HtB0]; · (unfold Tok; iexact HtB0)
    isplitl [Hr4 Hr5 Ho10 Ho11]
    · rw [payload_bar_p1]
      isplitl [Hr4]; · iexists r4; iexact Hr4
      isplitl [Hr5]; · iexists r5; iexact Hr5
      isplitl [Ho10]; · iexists o10; iexact Ho10
      iexists o11; iexact Ho11
    · iexact HRBp1
  iintro HO
  sl_exec_parts
  iapply (Rounds.wp_signal 𝒱₀ ER (sched m) (c : Thread nD τ) none (dst := ((pe c 2 : Dev nD) : Thread nD τ)) (κ := K (pe c 2, 0))
      (d := 1) (by rw [duties_bar]; exact Finset.mem_univ _) ((amount_bar m (pe c 2) 1).trans (by decide)) () (((((((((((((0 + tallyAt (dCell (pe c 3) 3 5) () Nag) + tallyAt (dCell (pe c 2) 3 3) () Nag) + tallyAt (dCell (pe c 1) 3 1) () Nag) + tallyAt (dCell (pe c 3) 3 4) () Nag) + tallyAt (dCell (pe c 2) 3 2) () Nag) + tallyAt (dCell (pe c 1) 3 0) () Nag) + tallyAt (dCell (pe c 3) 1 5) () Nrs) + tallyAt (dCell (pe c 2) 1 3) () Nrs) + tallyAt (dCell (pe c 1) 1 1) () Nrs) + tallyAt (dCell (pe c 3) 1 4) () Nrs) + tallyAt (dCell (pe c 2) 1 2) () Nrs) + tallyAt (dCell (pe c 1) 1 0) () Nrs) + tallyAt (barCell (pe c 3)) () 1) rfl)
    $$ [HO HtB1 Hr2 Hr3 Ho20 Ho21]
  · isplitr; · iexact HIBp2
    isplitl [HO]; · iexact HO
    isplitl [HtB1]; · (unfold Tok; iexact HtB1)
    isplitl [Hr2 Hr3 Ho20 Ho21]
    · rw [payload_bar_p2]
      isplitl [Hr2]; · iexists r2; iexact Hr2
      isplitl [Hr3]; · iexists r3; iexact Hr3
      isplitl [Ho20]; · iexists o20; iexact Ho20
      iexists o21; iexact Ho21
    · iexact HRBp2
  iintro HO
  sl_exec_parts
  iapply (Rounds.wp_signal 𝒱₀ ER (sched m) (c : Thread nD τ) none (dst := ((pe c 3 : Dev nD) : Thread nD τ)) (κ := K (pe c 3, 0))
      (d := 2) (by rw [duties_bar]; exact Finset.mem_univ _) ((amount_bar m (pe c 3) 2).trans (by decide)) () ((((((((((((0 + tallyAt (dCell (pe c 3) 3 5) () Nag) + tallyAt (dCell (pe c 2) 3 3) () Nag) + tallyAt (dCell (pe c 1) 3 1) () Nag) + tallyAt (dCell (pe c 3) 3 4) () Nag) + tallyAt (dCell (pe c 2) 3 2) () Nag) + tallyAt (dCell (pe c 1) 3 0) () Nag) + tallyAt (dCell (pe c 3) 1 5) () Nrs) + tallyAt (dCell (pe c 2) 1 3) () Nrs) + tallyAt (dCell (pe c 1) 1 1) () Nrs) + tallyAt (dCell (pe c 3) 1 4) () Nrs) + tallyAt (dCell (pe c 2) 1 2) () Nrs) + tallyAt (dCell (pe c 1) 1 0) () Nrs) rfl)
    $$ [HO HtB2 Hr0 Hr1 Ho30 Ho31]
  · isplitr; · iexact HIBp3
    isplitl [HO]; · iexact HO
    isplitl [HtB2]; · (unfold Tok; iexact HtB2)
    isplitl [Hr0 Hr1 Ho30 Ho31]
    · rw [payload_bar_p3]
      isplitl [Hr0]; · iexists r0; iexact Hr0
      isplitl [Hr1]; · iexists r1; iexact Hr1
      isplitl [Ho30]; · iexists o30; iexact Ho30
      iexists o31; iexact Ho31
    · iexact HRBp3
  iintro HO
  sl_exec_parts
  ihave Hp := (Entails.of_eq (bar_rest m c)) $$ HaB_pay1
  icases Hp with ⟨⟨⟨%e3s4, He3s4⟩, ⟨%e3s5, He3s5⟩, ⟨%e3o0, He3o0⟩, ⟨%e3o1, He3o1⟩⟩, ⟨⟨%e2s2, He2s2⟩, ⟨%e2s3, He2s3⟩, ⟨%e2o0, He2o0⟩, ⟨%e2o1, He2o1⟩⟩, ⟨⟨%e1s0, He1s0⟩, ⟨%e1s1, He1s1⟩, ⟨%e1o0, He1o0⟩, ⟨%e1o1, He1o1⟩⟩⟩
  have hw0 : (sndSlot (slotOf 0 0)).view.read (Elt F) (sound_body.sl.Hn0_w1 m c s0) = slotVal (sent m c 0 0) := by
    unfold sound_body.sl.Hn0_w1
    refine (slot_read 0 _ _).trans ?_
    unfold sent Vals.part16 xrO Gr Ur Dr
    sl_unfold_words
    simp only [View.readCov_unit_zero (S := S1024x2048) _ hz2, View.readCov_unit_zero (S := S2048x1024) _ hz2]
    rfl
  iapply (wp_send_rs m c _ 0 0 (dev4_eq c) (κ₁ := K (c, idx 0 0)) (κ₂ := K (pe c 1, idx 1 0)) _ e1s0 (((((((((((0 + tallyAt (dCell (pe c 3) 3 5) () Nag) + tallyAt (dCell (pe c 2) 3 3) () Nag) + tallyAt (dCell (pe c 1) 3 1) () Nag) + tallyAt (dCell (pe c 3) 3 4) () Nag) + tallyAt (dCell (pe c 2) 3 2) () Nag) + tallyAt (dCell (pe c 1) 3 0) () Nag) + tallyAt (dCell (pe c 3) 1 5) () Nrs) + tallyAt (dCell (pe c 2) 1 3) () Nrs) + tallyAt (dCell (pe c 1) 1 1) () Nrs) + tallyAt (dCell (pe c 3) 1 4) () Nrs) + tallyAt (dCell (pe c 2) 1 2) () Nrs) _ hw0)
    $$ [Hn0 He1s0 HO HtS0 HtR00]
  · isplitr; · iexact HI00
    isplitr; · iexact HIr00
    isplitl [Hn0]; · iexact Hn0
    isplitl [He1s0]; · iexact He1s0
    isplitl [HO]; · iexact HO
    isplitl [HtS0]; · (unfold Tok; iexact HtS0)
    isplitr; · iexact HR00
    isplitl [HtR00]; · (unfold Tok; iexact HtR00)
    iexact HRr00
  iintro ⟨HcS0, HO⟩
  sl_exec_parts
  have hw2 : (sndSlot (slotOf 1 0)).view.read (Elt F) (sound_body.sl.Hn2_w1 m c s2) = slotVal (sent m c 1 0) := by
    unfold sound_body.sl.Hn2_w1
    refine (slot_read 2 _ _).trans ?_
    unfold sent Vals.part16 xrO Gr Ur Dr
    sl_unfold_words
    simp only [View.readCov_unit_zero (S := S1024x2048) _ hz2, View.readCov_unit_zero (S := S2048x1024) _ hz2]
    rfl
  iapply (wp_send_rs m c _ 1 0 (dev5_eq c) (κ₁ := K (c, idx 0 2)) (κ₂ := K (pe c 2, idx 1 2)) _ e2s2 ((((((((((0 + tallyAt (dCell (pe c 3) 3 5) () Nag) + tallyAt (dCell (pe c 2) 3 3) () Nag) + tallyAt (dCell (pe c 1) 3 1) () Nag) + tallyAt (dCell (pe c 3) 3 4) () Nag) + tallyAt (dCell (pe c 2) 3 2) () Nag) + tallyAt (dCell (pe c 1) 3 0) () Nag) + tallyAt (dCell (pe c 3) 1 5) () Nrs) + tallyAt (dCell (pe c 2) 1 3) () Nrs) + tallyAt (dCell (pe c 1) 1 1) () Nrs) + tallyAt (dCell (pe c 3) 1 4) () Nrs) _ hw2)
    $$ [Hn2 He2s2 HO HtS2 HtR10]
  · isplitr; · iexact HI02
    isplitr; · iexact HIr10
    isplitl [Hn2]; · iexact Hn2
    isplitl [He2s2]; · iexact He2s2
    isplitl [HO]; · iexact HO
    isplitl [HtS2]; · (unfold Tok; iexact HtS2)
    isplitr; · iexact HR02
    isplitl [HtR10]; · (unfold Tok; iexact HtR10)
    iexact HRr10
  iintro ⟨HcS2, HO⟩
  sl_exec_parts
  have hw4 : (sndSlot (slotOf 2 0)).view.read (Elt F) (sound_body.sl.Hn4_w1 m c s4) = slotVal (sent m c 2 0) := by
    unfold sound_body.sl.Hn4_w1
    refine (slot_read 4 _ _).trans ?_
    unfold sent Vals.part16 xrO Gr Ur Dr
    sl_unfold_words
    simp only [View.readCov_unit_zero (S := S1024x2048) _ hz2, View.readCov_unit_zero (S := S2048x1024) _ hz2]
    rfl
  iapply (wp_send_rs m c _ 2 0 (dev6_eq c) (κ₁ := K (c, idx 0 4)) (κ₂ := K (pe c 3, idx 1 4)) _ e3s4 (((((((((0 + tallyAt (dCell (pe c 3) 3 5) () Nag) + tallyAt (dCell (pe c 2) 3 3) () Nag) + tallyAt (dCell (pe c 1) 3 1) () Nag) + tallyAt (dCell (pe c 3) 3 4) () Nag) + tallyAt (dCell (pe c 2) 3 2) () Nag) + tallyAt (dCell (pe c 1) 3 0) () Nag) + tallyAt (dCell (pe c 3) 1 5) () Nrs) + tallyAt (dCell (pe c 2) 1 3) () Nrs) + tallyAt (dCell (pe c 1) 1 1) () Nrs) _ hw4)
    $$ [Hn4 He3s4 HO HtS4 HtR20]
  · isplitr; · iexact HI04
    isplitr; · iexact HIr20
    isplitl [Hn4]; · iexact Hn4
    isplitl [He3s4]; · iexact He3s4
    isplitl [HO]; · iexact HO
    isplitl [HtS4]; · (unfold Tok; iexact HtS4)
    isplitr; · iexact HR04
    isplitl [HtR20]; · (unfold Tok; iexact HtR20)
    iexact HRr20
  iintro ⟨HcS4, HO⟩
  sl_exec_parts
  have hw1 : (sndSlot (slotOf 0 1)).view.read (Elt F) (sound_body.sl.Hn1_w1 m c s1) = slotVal (sent m c 0 1) := by
    unfold sound_body.sl.Hn1_w1
    refine (slot_read 1 _ _).trans ?_
    unfold sent Vals.part16 xrO Gr Ur Dr
    sl_unfold_words
    simp only [View.readCov_unit_zero (S := S1024x2048) _ hz2, View.readCov_unit_zero (S := S2048x1024) _ hz2]
    rfl
  iapply (wp_send_rs m c _ 0 1 (dev7_eq c) (κ₁ := K (c, idx 0 1)) (κ₂ := K (pe c 1, idx 1 1)) _ e1s1 ((((((((0 + tallyAt (dCell (pe c 3) 3 5) () Nag) + tallyAt (dCell (pe c 2) 3 3) () Nag) + tallyAt (dCell (pe c 1) 3 1) () Nag) + tallyAt (dCell (pe c 3) 3 4) () Nag) + tallyAt (dCell (pe c 2) 3 2) () Nag) + tallyAt (dCell (pe c 1) 3 0) () Nag) + tallyAt (dCell (pe c 3) 1 5) () Nrs) + tallyAt (dCell (pe c 2) 1 3) () Nrs) _ hw1)
    $$ [Hn1 He1s1 HO HtS1 HtR01]
  · isplitr; · iexact HI01
    isplitr; · iexact HIr01
    isplitl [Hn1]; · iexact Hn1
    isplitl [He1s1]; · iexact He1s1
    isplitl [HO]; · iexact HO
    isplitl [HtS1]; · (unfold Tok; iexact HtS1)
    isplitr; · iexact HR01
    isplitl [HtR01]; · (unfold Tok; iexact HtR01)
    iexact HRr01
  iintro ⟨HcS1, HO⟩
  sl_exec_parts
  have hw3 : (sndSlot (slotOf 1 1)).view.read (Elt F) (sound_body.sl.Hn3_w1 m c s3) = slotVal (sent m c 1 1) := by
    unfold sound_body.sl.Hn3_w1
    refine (slot_read 3 _ _).trans ?_
    unfold sent Vals.part16 xrO Gr Ur Dr
    sl_unfold_words
    simp only [View.readCov_unit_zero (S := S1024x2048) _ hz2, View.readCov_unit_zero (S := S2048x1024) _ hz2]
    rfl
  iapply (wp_send_rs m c _ 1 1 (dev8_eq c) (κ₁ := K (c, idx 0 3)) (κ₂ := K (pe c 2, idx 1 3)) _ e2s3 (((((((0 + tallyAt (dCell (pe c 3) 3 5) () Nag) + tallyAt (dCell (pe c 2) 3 3) () Nag) + tallyAt (dCell (pe c 1) 3 1) () Nag) + tallyAt (dCell (pe c 3) 3 4) () Nag) + tallyAt (dCell (pe c 2) 3 2) () Nag) + tallyAt (dCell (pe c 1) 3 0) () Nag) + tallyAt (dCell (pe c 3) 1 5) () Nrs) _ hw3)
    $$ [Hn3 He2s3 HO HtS3 HtR11]
  · isplitr; · iexact HI03
    isplitr; · iexact HIr11
    isplitl [Hn3]; · iexact Hn3
    isplitl [He2s3]; · iexact He2s3
    isplitl [HO]; · iexact HO
    isplitl [HtS3]; · (unfold Tok; iexact HtS3)
    isplitr; · iexact HR03
    isplitl [HtR11]; · (unfold Tok; iexact HtR11)
    iexact HRr11
  iintro ⟨HcS3, HO⟩
  sl_exec_parts
  have hw5 : (sndSlot (slotOf 2 1)).view.read (Elt F) (sound_body.sl.Hn5_w1 m c s5) = slotVal (sent m c 2 1) := by
    unfold sound_body.sl.Hn5_w1
    refine (slot_read 5 _ _).trans ?_
    unfold sent Vals.part16 xrO Gr Ur Dr
    sl_unfold_words
    simp only [View.readCov_unit_zero (S := S1024x2048) _ hz2, View.readCov_unit_zero (S := S2048x1024) _ hz2]
    rfl
  iapply (wp_send_rs m c _ 2 1 (dev9_eq c) (κ₁ := K (c, idx 0 5)) (κ₂ := K (pe c 3, idx 1 5)) _ e3s5 ((((((0 + tallyAt (dCell (pe c 3) 3 5) () Nag) + tallyAt (dCell (pe c 2) 3 3) () Nag) + tallyAt (dCell (pe c 1) 3 1) () Nag) + tallyAt (dCell (pe c 3) 3 4) () Nag) + tallyAt (dCell (pe c 2) 3 2) () Nag) + tallyAt (dCell (pe c 1) 3 0) () Nag) _ hw5)
    $$ [Hn5 He3s5 HO HtS5 HtR21]
  · isplitr; · iexact HI05
    isplitr; · iexact HIr21
    isplitl [Hn5]; · iexact Hn5
    isplitl [He3s5]; · iexact He3s5
    isplitl [HO]; · iexact HO
    isplitl [HtS5]; · (unfold Tok; iexact HtS5)
    isplitr; · iexact HR05
    isplitl [HtR21]; · (unfold Tok; iexact HtR21)
    iexact HRr21
  iintro ⟨HcS5, HO⟩
  sl_exec_parts
  have hmwR0 : (levAts L lv : sProp 𝕄) ⊢ MayWait (c : Thread nD τ) (.dma (semOf 1 0)) () ((((((0 + tallyAt (dCell (pe c 3) 3 5) () Nag) + tallyAt (dCell (pe c 2) 3 3) () Nag) + tallyAt (dCell (pe c 1) 3 1) () Nag) + tallyAt (dCell (pe c 3) 3 4) () Nag) + tallyAt (dCell (pe c 2) 3 2) () Nag) + tallyAt (dCell (pe c 1) 3 0) () Nag) :=
    mayWait_above c (.dma (semOf 1 0)) _ (by show Above (lv (dCell c 1 0) ()) _; rw [lv_d]; exact above_add (above_add (above_add (above_add (above_add (above_add (above_zero _) (by rw [lv_d]; decide)) (by rw [lv_d]; decide)) (by rw [lv_d]; decide)) (by rw [lv_d]; decide)) (by rw [lv_d]; decide)) (by rw [lv_d]; decide))
  have hmwR2 : (levAts L lv : sProp 𝕄) ⊢ MayWait (c : Thread nD τ) (.dma (semOf 1 2)) () ((((((0 + tallyAt (dCell (pe c 3) 3 5) () Nag) + tallyAt (dCell (pe c 2) 3 3) () Nag) + tallyAt (dCell (pe c 1) 3 1) () Nag) + tallyAt (dCell (pe c 3) 3 4) () Nag) + tallyAt (dCell (pe c 2) 3 2) () Nag) + tallyAt (dCell (pe c 1) 3 0) () Nag) :=
    mayWait_above c (.dma (semOf 1 2)) _ (by show Above (lv (dCell c 1 2) ()) _; rw [lv_d]; exact above_add (above_add (above_add (above_add (above_add (above_add (above_zero _) (by rw [lv_d]; decide)) (by rw [lv_d]; decide)) (by rw [lv_d]; decide)) (by rw [lv_d]; decide)) (by rw [lv_d]; decide)) (by rw [lv_d]; decide))
  have hmwR4 : (levAts L lv : sProp 𝕄) ⊢ MayWait (c : Thread nD τ) (.dma (semOf 1 4)) () ((((((0 + tallyAt (dCell (pe c 3) 3 5) () Nag) + tallyAt (dCell (pe c 2) 3 3) () Nag) + tallyAt (dCell (pe c 1) 3 1) () Nag) + tallyAt (dCell (pe c 3) 3 4) () Nag) + tallyAt (dCell (pe c 2) 3 2) () Nag) + tallyAt (dCell (pe c 1) 3 0) () Nag) :=
    mayWait_above c (.dma (semOf 1 4)) _ (by show Above (lv (dCell c 1 4) ()) _; rw [lv_d]; exact above_add (above_add (above_add (above_add (above_add (above_add (above_zero _) (by rw [lv_d]; decide)) (by rw [lv_d]; decide)) (by rw [lv_d]; decide)) (by rw [lv_d]; decide)) (by rw [lv_d]; decide)) (by rw [lv_d]; decide))
  have hl0 := out_load_sub c 0
  have hs0 := out_store_sub c 0
  have hl1 := out_load_sub c 1
  have hs1 := out_store_sub c 1
  sl_exec_parts
  iapply (wp_store 𝒱₀ (c : Thread nD τ) none Set.univ (m := oM) (Mk := Finset.univ) hs0) $$ Ho00; iintro Ho00
  sl_exec_parts
  have hwA0 : (oRows c 0).view.read (Elt F) ((oM.access (Rect.unit (s := S1024x1024) (k0_off3 c (BitVec.ofNat 32 (128 * (0 : Fin 2).val))) S128x1024.size (k0_off3_inb c 0)) : View sig .tc .vmem _ _).write (Elt F) o00 (k0_pay19 (sound_body.sl.r_7 m c) (sound_body.sl.v354 m c)) Finset.univ) = R m c 0 := by
    refine (out_read c 0 _ _).trans ?_
    unfold R Vals.red own32 Vals.part32 xrOwn got sent Vals.part16 xrO Gr Ur Dr
    sl_unfold_words
    simp only [View.readCov_unit_zero (S := S1024x2048) _ hz2, View.readCov_unit_zero (S := S2048x1024) _ hz2, slv0, slv1, slv2, slv3, slv4, slv5]
    rfl
  ihave Hth0 := (thirds c 0 _).1 $$ Ho00
  icases Hth0 with ⟨Ho00a, Ho00b, Ho00c⟩
  iapply (wp_send_ag m c _ 0 0 (dev10_eq c) (κ₁ := K (c, idx 2 0)) (κ₂ := K (pe c 1, idx 3 0)) _ e1o0 (((((0 + tallyAt (dCell (pe c 3) 3 5) () Nag) + tallyAt (dCell (pe c 2) 3 3) () Nag) + tallyAt (dCell (pe c 1) 3 1) () Nag) + tallyAt (dCell (pe c 3) 3 4) () Nag) + tallyAt (dCell (pe c 2) 3 2) () Nag) _ hwA0)
    $$ [Ho00a He1o0 HO HtT0 HtA00]
  · isplitr; · iexact HI20
    isplitr; · iexact HIa00
    isplitl [Ho00a]; · iexact Ho00a
    isplitl [He1o0]; · iexact He1o0
    isplitl [HO]; · iexact HO
    isplitl [HtT0]; · (unfold Tok; iexact HtT0)
    isplitr; · iexact HR20
    isplitl [HtA00]; · (unfold Tok; iexact HtA00)
    iexact HRa00
  iintro ⟨HcT0, HO⟩
  ihave HcT0 := (show (cred (tallyAt (dCell c 2 (slotOf 0 0)) () Nag) : sProp 𝕄) ⊢ Cr (dCell c 2 0) Nag from Entails.of_eq rfl) $$ HcT0
  sl_exec_parts
  iapply (wp_send_ag m c _ 1 0 (dev11_eq c) (κ₁ := K (c, idx 2 2)) (κ₂ := K (pe c 2, idx 3 2)) _ e2o0 ((((0 + tallyAt (dCell (pe c 3) 3 5) () Nag) + tallyAt (dCell (pe c 2) 3 3) () Nag) + tallyAt (dCell (pe c 1) 3 1) () Nag) + tallyAt (dCell (pe c 3) 3 4) () Nag) _ hwA0)
    $$ [Ho00b He2o0 HO HtT2 HtA10]
  · isplitr; · iexact HI22
    isplitr; · iexact HIa10
    isplitl [Ho00b]; · iexact Ho00b
    isplitl [He2o0]; · iexact He2o0
    isplitl [HO]; · iexact HO
    isplitl [HtT2]; · (unfold Tok; iexact HtT2)
    isplitr; · iexact HR22
    isplitl [HtA10]; · (unfold Tok; iexact HtA10)
    iexact HRa10
  iintro ⟨HcT2, HO⟩
  ihave HcT2 := (show (cred (tallyAt (dCell c 2 (slotOf 1 0)) () Nag) : sProp 𝕄) ⊢ Cr (dCell c 2 2) Nag from Entails.of_eq rfl) $$ HcT2
  sl_exec_parts
  iapply (wp_send_ag m c _ 2 0 (dev12_eq c) (κ₁ := K (c, idx 2 4)) (κ₂ := K (pe c 3, idx 3 4)) _ e3o0 (((0 + tallyAt (dCell (pe c 3) 3 5) () Nag) + tallyAt (dCell (pe c 2) 3 3) () Nag) + tallyAt (dCell (pe c 1) 3 1) () Nag) _ hwA0)
    $$ [Ho00c He3o0 HO HtT4 HtA20]
  · isplitr; · iexact HI24
    isplitr; · iexact HIa20
    isplitl [Ho00c]; · iexact Ho00c
    isplitl [He3o0]; · iexact He3o0
    isplitl [HO]; · iexact HO
    isplitl [HtT4]; · (unfold Tok; iexact HtT4)
    isplitr; · iexact HR24
    isplitl [HtA20]; · (unfold Tok; iexact HtA20)
    iexact HRa20
  iintro ⟨HcT4, HO⟩
  ihave HcT4 := (show (cred (tallyAt (dCell c 2 (slotOf 2 0)) () Nag) : sProp 𝕄) ⊢ Cr (dCell c 2 4) Nag from Entails.of_eq rfl) $$ HcT4
  have hmwR1 : (levAts L lv : sProp 𝕄) ⊢ MayWait (c : Thread nD τ) (.dma (semOf 1 1)) () (((0 + tallyAt (dCell (pe c 3) 3 5) () Nag) + tallyAt (dCell (pe c 2) 3 3) () Nag) + tallyAt (dCell (pe c 1) 3 1) () Nag) :=
    mayWait_above c (.dma (semOf 1 1)) _ (by show Above (lv (dCell c 1 1) ()) _; rw [lv_d]; exact above_add (above_add (above_add (above_zero _) (by rw [lv_d]; decide)) (by rw [lv_d]; decide)) (by rw [lv_d]; decide))
  have hmwR3 : (levAts L lv : sProp 𝕄) ⊢ MayWait (c : Thread nD τ) (.dma (semOf 1 3)) () (((0 + tallyAt (dCell (pe c 3) 3 5) () Nag) + tallyAt (dCell (pe c 2) 3 3) () Nag) + tallyAt (dCell (pe c 1) 3 1) () Nag) :=
    mayWait_above c (.dma (semOf 1 3)) _ (by show Above (lv (dCell c 1 3) ()) _; rw [lv_d]; exact above_add (above_add (above_add (above_zero _) (by rw [lv_d]; decide)) (by rw [lv_d]; decide)) (by rw [lv_d]; decide))
  have hmwR5 : (levAts L lv : sProp 𝕄) ⊢ MayWait (c : Thread nD τ) (.dma (semOf 1 5)) () (((0 + tallyAt (dCell (pe c 3) 3 5) () Nag) + tallyAt (dCell (pe c 2) 3 3) () Nag) + tallyAt (dCell (pe c 1) 3 1) () Nag) :=
    mayWait_above c (.dma (semOf 1 5)) _ (by show Above (lv (dCell c 1 5) ()) _; rw [lv_d]; exact above_add (above_add (above_add (above_zero _) (by rw [lv_d]; decide)) (by rw [lv_d]; decide)) (by rw [lv_d]; decide))
  sl_exec_parts
  iapply (wp_store 𝒱₀ (c : Thread nD τ) none Set.univ (m := oM) (Mk := Finset.univ) hs1) $$ Ho01; iintro Ho01
  sl_exec_parts
  have hwA1 : (oRows c 1).view.read (Elt F) ((oM.access (Rect.unit (s := S1024x1024) (k0_off3 c (BitVec.ofNat 32 (128 * (1 : Fin 2).val))) S128x1024.size (k0_off3_inb c 1)) : View sig .tc .vmem _ _).write (Elt F) o01 (k0_pay21 (sound_body.sl.r_8 m c) (sound_body.sl.v456 m c) (sound_body.sl.v468 m c)) Finset.univ) = R m c 1 := by
    refine (out_read c 1 _ _).trans ?_
    unfold R Vals.red own32 Vals.part32 xrOwn got sent Vals.part16 xrO Gr Ur Dr
    sl_unfold_words
    simp only [View.readCov_unit_zero (S := S1024x2048) _ hz2, View.readCov_unit_zero (S := S2048x1024) _ hz2, slv0, slv1, slv2, slv3, slv4, slv5]
    rfl
  ihave Hth1 := (thirds c 1 _).1 $$ Ho01
  icases Hth1 with ⟨Ho01a, Ho01b, Ho01c⟩
  iapply (wp_send_ag m c _ 0 1 (dev13_eq c) (κ₁ := K (c, idx 2 1)) (κ₂ := K (pe c 1, idx 3 1)) _ e1o1 ((0 + tallyAt (dCell (pe c 3) 3 5) () Nag) + tallyAt (dCell (pe c 2) 3 3) () Nag) _ hwA1)
    $$ [Ho01a He1o1 HO HtT1 HtA01]
  · isplitr; · iexact HI21
    isplitr; · iexact HIa01
    isplitl [Ho01a]; · iexact Ho01a
    isplitl [He1o1]; · iexact He1o1
    isplitl [HO]; · iexact HO
    isplitl [HtT1]; · (unfold Tok; iexact HtT1)
    isplitr; · iexact HR21
    isplitl [HtA01]; · (unfold Tok; iexact HtA01)
    iexact HRa01
  iintro ⟨HcT1, HO⟩
  ihave HcT1 := (show (cred (tallyAt (dCell c 2 (slotOf 0 1)) () Nag) : sProp 𝕄) ⊢ Cr (dCell c 2 1) Nag from Entails.of_eq rfl) $$ HcT1
  sl_exec_parts
  iapply (wp_send_ag m c _ 1 1 (dev14_eq c) (κ₁ := K (c, idx 2 3)) (κ₂ := K (pe c 2, idx 3 3)) _ e2o1 (0 + tallyAt (dCell (pe c 3) 3 5) () Nag) _ hwA1)
    $$ [Ho01b He2o1 HO HtT3 HtA11]
  · isplitr; · iexact HI23
    isplitr; · iexact HIa11
    isplitl [Ho01b]; · iexact Ho01b
    isplitl [He2o1]; · iexact He2o1
    isplitl [HO]; · iexact HO
    isplitl [HtT3]; · (unfold Tok; iexact HtT3)
    isplitr; · iexact HR23
    isplitl [HtA11]; · (unfold Tok; iexact HtA11)
    iexact HRa11
  iintro ⟨HcT3, HO⟩
  ihave HcT3 := (show (cred (tallyAt (dCell c 2 (slotOf 1 1)) () Nag) : sProp 𝕄) ⊢ Cr (dCell c 2 3) Nag from Entails.of_eq rfl) $$ HcT3
  sl_exec_parts
  iapply (wp_send_ag m c _ 2 1 (dev15_eq c) (κ₁ := K (c, idx 2 5)) (κ₂ := K (pe c 3, idx 3 5)) _ e3o1 0 _ hwA1)
    $$ [Ho01c He3o1 HO HtT5 HtA21]
  · isplitr; · iexact HI25
    isplitr; · iexact HIa21
    isplitl [Ho01c]; · iexact Ho01c
    isplitl [He3o1]; · iexact He3o1
    isplitl [HO]; · iexact HO
    isplitl [HtT5]; · (unfold Tok; iexact HtT5)
    isplitr; · iexact HR25
    isplitl [HtA21]; · (unfold Tok; iexact HtA21)
    iexact HRa21
  iintro ⟨HcT5, HO⟩
  ihave HcT5 := (show (cred (tallyAt (dCell c 2 (slotOf 2 1)) () Nag) : sProp 𝕄) ⊢ Cr (dCell c 2 5) Nag from Entails.of_eq rfl) $$ HcT5
  sl_exec_parts
  iapply (Rounds.wp_wait_rest_token 𝒱₀ ER (sched m) (c : Thread nD τ) none (κ := K (c, idx 3 0))
      (wpE_waitDma2_eq 𝒱₀ (c : Thread nD τ) none Set.univ) (Set.mem_univ _) () (sm := .dma (semOf 3 0)) (O := 0) (R := 0) (m := 0) (T := ∅)
      (by show 0 + (oRows c 0).view.dmaCredit = (sched m).expect (dCell c 3 0) 0
          rw [Nat.zero_add, expect_d]; exact (rows_credit c 0 (semOf 3 0)).trans Nof_three.symm)) $$ [HcA0 HO Ha30]
  · isplitr; · iexact HI30
    isplitl [HcA0]; · (unfold Cr; iexact HcA0)
    isplitl [HO]; · iexact HO
    isplitr; · rw [MayWait_zero]; iempintro
    iexact Ha30
  iintro ⟨HO, Ha30, -, Hpay⟩
  ihave Ha30_pay1 := (Entails.of_eq ((rest_d m c 3 0).trans ((dPay_arecv_own_00 m c).trans (regPts_def _ _ _ _)))) $$ Hpay
  first | sl_exec_parts | skip
  iapply (Rounds.wp_wait_rest_token 𝒱₀ ER (sched m) (c : Thread nD τ) none (κ := K (c, idx 3 2))
      (wpE_waitDma2_eq 𝒱₀ (c : Thread nD τ) none Set.univ) (Set.mem_univ _) () (sm := .dma (semOf 3 2)) (O := 0) (R := 0) (m := 0) (T := ∅)
      (by show 0 + (oRows c 0).view.dmaCredit = (sched m).expect (dCell c 3 2) 0
          rw [Nat.zero_add, expect_d]; exact (rows_credit c 0 (semOf 3 2)).trans Nof_three.symm)) $$ [HcA2 HO Ha32]
  · isplitr; · iexact HI32
    isplitl [HcA2]; · (unfold Cr; iexact HcA2)
    isplitl [HO]; · iexact HO
    isplitr; · rw [MayWait_zero]; iempintro
    iexact Ha32
  iintro ⟨HO, Ha32, -, Hpay⟩
  ihave Ha32_pay1 := (Entails.of_eq ((rest_d m c 3 2).trans ((dPay_arecv_own_10 m c).trans (regPts_def _ _ _ _)))) $$ Hpay
  first | sl_exec_parts | skip
  iapply (Rounds.wp_wait_rest_token 𝒱₀ ER (sched m) (c : Thread nD τ) none (κ := K (c, idx 3 4))
      (wpE_waitDma2_eq 𝒱₀ (c : Thread nD τ) none Set.univ) (Set.mem_univ _) () (sm := .dma (semOf 3 4)) (O := 0) (R := 0) (m := 0) (T := ∅)
      (by show 0 + (oRows c 0).view.dmaCredit = (sched m).expect (dCell c 3 4) 0
          rw [Nat.zero_add, expect_d]; exact (rows_credit c 0 (semOf 3 4)).trans Nof_three.symm)) $$ [HcA4 HO Ha34]
  · isplitr; · iexact HI34
    isplitl [HcA4]; · (unfold Cr; iexact HcA4)
    isplitl [HO]; · iexact HO
    isplitr; · rw [MayWait_zero]; iempintro
    iexact Ha34
  iintro ⟨HO, Ha34, -, Hpay⟩
  ihave Ha34_pay1 := (Entails.of_eq ((rest_d m c 3 4).trans ((dPay_arecv_own_20 m c).trans (regPts_def _ _ _ _)))) $$ Hpay
  first | sl_exec_parts | skip
  iapply (Rounds.wp_wait_rest_token 𝒱₀ ER (sched m) (c : Thread nD τ) none (κ := K (c, idx 3 1))
      (wpE_waitDma2_eq 𝒱₀ (c : Thread nD τ) none Set.univ) (Set.mem_univ _) () (sm := .dma (semOf 3 1)) (O := 0) (R := 0) (m := 0) (T := ∅)
      (by show 0 + (oRows c 1).view.dmaCredit = (sched m).expect (dCell c 3 1) 0
          rw [Nat.zero_add, expect_d]; exact (rows_credit c 1 (semOf 3 1)).trans Nof_three.symm)) $$ [HcA1 HO Ha31]
  · isplitr; · iexact HI31
    isplitl [HcA1]; · (unfold Cr; iexact HcA1)
    isplitl [HO]; · iexact HO
    isplitr; · rw [MayWait_zero]; iempintro
    iexact Ha31
  iintro ⟨HO, Ha31, -, Hpay⟩
  ihave Ha31_pay1 := (Entails.of_eq ((rest_d m c 3 1).trans ((dPay_arecv_own_01 m c).trans (regPts_def _ _ _ _)))) $$ Hpay
  first | sl_exec_parts | skip
  iapply (Rounds.wp_wait_rest_token 𝒱₀ ER (sched m) (c : Thread nD τ) none (κ := K (c, idx 3 3))
      (wpE_waitDma2_eq 𝒱₀ (c : Thread nD τ) none Set.univ) (Set.mem_univ _) () (sm := .dma (semOf 3 3)) (O := 0) (R := 0) (m := 0) (T := ∅)
      (by show 0 + (oRows c 1).view.dmaCredit = (sched m).expect (dCell c 3 3) 0
          rw [Nat.zero_add, expect_d]; exact (rows_credit c 1 (semOf 3 3)).trans Nof_three.symm)) $$ [HcA3 HO Ha33]
  · isplitr; · iexact HI33
    isplitl [HcA3]; · (unfold Cr; iexact HcA3)
    isplitl [HO]; · iexact HO
    isplitr; · rw [MayWait_zero]; iempintro
    iexact Ha33
  iintro ⟨HO, Ha33, -, Hpay⟩
  ihave Ha33_pay1 := (Entails.of_eq ((rest_d m c 3 3).trans ((dPay_arecv_own_11 m c).trans (regPts_def _ _ _ _)))) $$ Hpay
  first | sl_exec_parts | skip
  iapply (Rounds.wp_wait_rest_token 𝒱₀ ER (sched m) (c : Thread nD τ) none (κ := K (c, idx 3 5))
      (wpE_waitDma2_eq 𝒱₀ (c : Thread nD τ) none Set.univ) (Set.mem_univ _) () (sm := .dma (semOf 3 5)) (O := 0) (R := 0) (m := 0) (T := ∅)
      (by show 0 + (oRows c 1).view.dmaCredit = (sched m).expect (dCell c 3 5) 0
          rw [Nat.zero_add, expect_d]; exact (rows_credit c 1 (semOf 3 5)).trans Nof_three.symm)) $$ [HcA5 HO Ha35]
  · isplitr; · iexact HI35
    isplitl [HcA5]; · (unfold Cr; iexact HcA5)
    isplitl [HO]; · iexact HO
    isplitr; · rw [MayWait_zero]; iempintro
    iexact Ha35
  iintro ⟨HO, Ha35, -, Hpay⟩
  ihave Ha35_pay1 := (Entails.of_eq ((rest_d m c 3 5).trans ((dPay_arecv_own_21 m c).trans (regPts_def _ _ _ _)))) $$ Hpay
  first | sl_exec_parts | skip
  iapply (Rounds.wp_wait_rest_token 𝒱₀ ER (sched m) (c : Thread nD τ) none (κ := K (c, idx 2 0))
      (wpE_waitDma2_eq 𝒱₀ (c : Thread nD τ) none Set.univ) (Set.mem_univ _) () (sm := .dma (semOf 2 0)) (O := 0) (R := 0) (m := 0) (T := ∅)
      (by show 0 + (oRows c 0).view.dmaCredit = (sched m).expect (dCell c 2 0) 0
          rw [Nat.zero_add, expect_d]; exact (rows_credit c 0 (semOf 2 0)).trans Nof_two.symm)) $$ [HcT0 HO Ha20]
  · isplitr; · iexact HI20
    isplitl [HcT0]; · (unfold Cr; iexact HcT0)
    isplitl [HO]; · iexact HO
    isplitr; · rw [MayWait_zero]; iempintro
    iexact Ha20
  iintro ⟨HO, Ha20, -, Hpay⟩
  ihave Ha20_pay1 := (Entails.of_eq ((rest_d m c 2 0).trans ((dPay_asend_00 m c).trans (regPts_def _ _ _ _)))) $$ Hpay
  first | sl_exec_parts | skip
  iapply (Rounds.wp_wait_rest_token 𝒱₀ ER (sched m) (c : Thread nD τ) none (κ := K (c, idx 2 2))
      (wpE_waitDma2_eq 𝒱₀ (c : Thread nD τ) none Set.univ) (Set.mem_univ _) () (sm := .dma (semOf 2 2)) (O := 0) (R := 0) (m := 0) (T := ∅)
      (by show 0 + (oRows c 0).view.dmaCredit = (sched m).expect (dCell c 2 2) 0
          rw [Nat.zero_add, expect_d]; exact (rows_credit c 0 (semOf 2 2)).trans Nof_two.symm)) $$ [HcT2 HO Ha22]
  · isplitr; · iexact HI22
    isplitl [HcT2]; · (unfold Cr; iexact HcT2)
    isplitl [HO]; · iexact HO
    isplitr; · rw [MayWait_zero]; iempintro
    iexact Ha22
  iintro ⟨HO, Ha22, -, Hpay⟩
  ihave Ha22_pay1 := (Entails.of_eq ((rest_d m c 2 2).trans ((dPay_asend_10 m c).trans (regPts_def _ _ _ _)))) $$ Hpay
  first | sl_exec_parts | skip
  iapply (Rounds.wp_wait_rest_token 𝒱₀ ER (sched m) (c : Thread nD τ) none (κ := K (c, idx 2 4))
      (wpE_waitDma2_eq 𝒱₀ (c : Thread nD τ) none Set.univ) (Set.mem_univ _) () (sm := .dma (semOf 2 4)) (O := 0) (R := 0) (m := 0) (T := ∅)
      (by show 0 + (oRows c 0).view.dmaCredit = (sched m).expect (dCell c 2 4) 0
          rw [Nat.zero_add, expect_d]; exact (rows_credit c 0 (semOf 2 4)).trans Nof_two.symm)) $$ [HcT4 HO Ha24]
  · isplitr; · iexact HI24
    isplitl [HcT4]; · (unfold Cr; iexact HcT4)
    isplitl [HO]; · iexact HO
    isplitr; · rw [MayWait_zero]; iempintro
    iexact Ha24
  iintro ⟨HO, Ha24, -, Hpay⟩
  ihave Ha24_pay1 := (Entails.of_eq ((rest_d m c 2 4).trans ((dPay_asend_20 m c).trans (regPts_def _ _ _ _)))) $$ Hpay
  first | sl_exec_parts | skip
  iapply (Rounds.wp_wait_rest_token 𝒱₀ ER (sched m) (c : Thread nD τ) none (κ := K (c, idx 2 1))
      (wpE_waitDma2_eq 𝒱₀ (c : Thread nD τ) none Set.univ) (Set.mem_univ _) () (sm := .dma (semOf 2 1)) (O := 0) (R := 0) (m := 0) (T := ∅)
      (by show 0 + (oRows c 1).view.dmaCredit = (sched m).expect (dCell c 2 1) 0
          rw [Nat.zero_add, expect_d]; exact (rows_credit c 1 (semOf 2 1)).trans Nof_two.symm)) $$ [HcT1 HO Ha21]
  · isplitr; · iexact HI21
    isplitl [HcT1]; · (unfold Cr; iexact HcT1)
    isplitl [HO]; · iexact HO
    isplitr; · rw [MayWait_zero]; iempintro
    iexact Ha21
  iintro ⟨HO, Ha21, -, Hpay⟩
  ihave Ha21_pay1 := (Entails.of_eq ((rest_d m c 2 1).trans ((dPay_asend_01 m c).trans (regPts_def _ _ _ _)))) $$ Hpay
  first | sl_exec_parts | skip
  iapply (Rounds.wp_wait_rest_token 𝒱₀ ER (sched m) (c : Thread nD τ) none (κ := K (c, idx 2 3))
      (wpE_waitDma2_eq 𝒱₀ (c : Thread nD τ) none Set.univ) (Set.mem_univ _) () (sm := .dma (semOf 2 3)) (O := 0) (R := 0) (m := 0) (T := ∅)
      (by show 0 + (oRows c 1).view.dmaCredit = (sched m).expect (dCell c 2 3) 0
          rw [Nat.zero_add, expect_d]; exact (rows_credit c 1 (semOf 2 3)).trans Nof_two.symm)) $$ [HcT3 HO Ha23]
  · isplitr; · iexact HI23
    isplitl [HcT3]; · (unfold Cr; iexact HcT3)
    isplitl [HO]; · iexact HO
    isplitr; · rw [MayWait_zero]; iempintro
    iexact Ha23
  iintro ⟨HO, Ha23, -, Hpay⟩
  ihave Ha23_pay1 := (Entails.of_eq ((rest_d m c 2 3).trans ((dPay_asend_11 m c).trans (regPts_def _ _ _ _)))) $$ Hpay
  first | sl_exec_parts | skip
  iapply (Rounds.wp_wait_rest_token 𝒱₀ ER (sched m) (c : Thread nD τ) none (κ := K (c, idx 2 5))
      (wpE_waitDma2_eq 𝒱₀ (c : Thread nD τ) none Set.univ) (Set.mem_univ _) () (sm := .dma (semOf 2 5)) (O := 0) (R := 0) (m := 0) (T := ∅)
      (by show 0 + (oRows c 1).view.dmaCredit = (sched m).expect (dCell c 2 5) 0
          rw [Nat.zero_add, expect_d]; exact (rows_credit c 1 (semOf 2 5)).trans Nof_two.symm)) $$ [HcT5 HO Ha25]
  · isplitr; · iexact HI25
    isplitl [HcT5]; · (unfold Cr; iexact HcT5)
    isplitl [HO]; · iexact HO
    isplitr; · rw [MayWait_zero]; iempintro
    iexact Ha25
  iintro ⟨HO, Ha25, -, Hpay⟩
  ihave Ha25_pay1 := (Entails.of_eq ((rest_d m c 2 5).trans ((dPay_asend_21 m c).trans (regPts_def _ _ _ _)))) $$ Hpay
  simp only [Prog.pure_eq_ret, Prog.bind]
  rw [wp_ret]
  iapply (finish m ρ K c)
  isplitr; · iexact Hrec
  isplitl [Hs0]; · (iexists _; iexact Hs0)
  isplitl [Hs1]; · (iexists _; iexact Hs1)
  isplitl [Hs2]; · (iexists _; iexact Hs2)
  isplitl [Hx]; · iexact Hx
  isplitl [Hg]; · iexact Hg
  isplitl [Hu]; · iexact Hu
  isplitl [Hd]; · iexact Hd
  isplitl [Ha00]; · iexact Ha00
  isplitl [Ha01]; · iexact Ha01
  isplitl [Ha02]; · iexact Ha02
  isplitl [Ha03]; · iexact Ha03
  isplitl [Ha04]; · iexact Ha04
  isplitl [Ha05]; · iexact Ha05
  isplitl [Ha10]; · iexact Ha10
  isplitl [Ha11]; · iexact Ha11
  isplitl [Ha12]; · iexact Ha12
  isplitl [Ha13]; · iexact Ha13
  isplitl [Ha14]; · iexact Ha14
  isplitl [Ha15]; · iexact Ha15
  isplitl [Ha20]; · iexact Ha20
  isplitl [Ha21]; · iexact Ha21
  isplitl [Ha22]; · iexact Ha22
  isplitl [Ha23]; · iexact Ha23
  isplitl [Ha24]; · iexact Ha24
  isplitl [Ha25]; · iexact Ha25
  isplitl [Ha30]; · iexact Ha30
  isplitl [Ha31]; · iexact Ha31
  isplitl [Ha32]; · iexact Ha32
  isplitl [Ha33]; · iexact Ha33
  isplitl [Ha34]; · iexact Ha34
  isplitl [Ha35]; · iexact Ha35
  isplitl [Ha00_pay1]; · iexact Ha00_pay1
  isplitl [Ha10_pay1]; · iexact Ha10_pay1
  isplitl [Ha20_pay1]; · iexact Ha20_pay1
  isplitl [Ha30_pay1]; · iexact Ha30_pay1
  isplitl [Ha01_pay1]; · iexact Ha01_pay1
  isplitl [Ha11_pay1]; · iexact Ha11_pay1
  isplitl [Ha21_pay1]; · iexact Ha21_pay1
  isplitl [Ha31_pay1]; · iexact Ha31_pay1
  isplitl [Ha02_pay1]; · iexact Ha02_pay1
  isplitl [Ha12_pay1]; · iexact Ha12_pay1
  isplitl [Ha22_pay1]; · iexact Ha22_pay1
  isplitl [Ha32_pay1]; · iexact Ha32_pay1
  isplitl [Ha03_pay1]; · iexact Ha03_pay1
  isplitl [Ha13_pay1]; · iexact Ha13_pay1
  isplitl [Ha23_pay1]; · iexact Ha23_pay1
  isplitl [Ha33_pay1]; · iexact Ha33_pay1
  isplitl [Ha04_pay1]; · iexact Ha04_pay1
  isplitl [Ha14_pay1]; · iexact Ha14_pay1
  isplitl [Ha24_pay1]; · iexact Ha24_pay1
  isplitl [Ha34_pay1]; · iexact Ha34_pay1
  isplitl [Ha05_pay1]; · iexact Ha05_pay1
  isplitl [Ha15_pay1]; · iexact Ha15_pay1
  isplitl [Ha25_pay1]; · iexact Ha25_pay1
  isplitl [Ha35_pay1]; · iexact Ha35_pay1
  iexists _; iexact HO

end Cert.Kernel.Bx

end
-- ==== Proof.W.Oblig.lean ====
/-
  The pipeline library's body obligation for one device, from the run of its body: the library hands the body each
  window's staging buffer whole at what the window then holds, and takes it back at what the body leaves.
-/
import proofs.«900523_g7700000000000524_dist_gated_mlp_tp_i_m1024_h2048_d1024_v7x_i4_bf16_1_alg».proof.Proof.W.Body

noncomputable section

namespace Cert.Kernel.Ox

open Cert.Kernel Cert.Kernel.Gen Cert.Kernel.Px

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A whole buffer owned at given contents is its points-to at some contents equal to them. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 20000 in
/-- The library's body obligation on device c: at the one point, the five staging buffers whole. -/
theorem body_obligation (c : Dev nD) : BodyObligation (dats (F := F) m ρ 0 c) (defs₀ (F := F)) 𝒱₀ () Set.univ := fun t => by
  rw [Bx.fin_N t]
  rw [bigSep_W0, bigSep_W0]
  simp only [owns_whole_eq]
  show Bx.bodyPre' m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8) (fun _ => Bx.bodyPost m ρ c)
  exact Bx.sound_body m ρ c

end Cert.Kernel.Ox

end
-- ==== Proof.RefVal.lean ====
/-
  The reference program's result as one function of its four whole arrays, at the extended reals.

  The reference computes, for x : [1024, 1024], the gate and up projections Wg, Wu : [1024, 8192] and the
  down projection Wd : [8192, 1024],
      result = ((x · Wg) ∘ (u / (1 + e^(-u)))) · Wd      with u = x · Wu,
  every product a plain sum at the extended reals and the final narrowing the identity. `refVal` is that
  composed term; `refVal_apply` reads one entry of it as a sum over the 8192 hidden columns whose terms are
  built from the two contractions over the 1024 input columns (`colDot`); `ref_run` says every weakly fair
  execution of the reference ends with its result at `refVal` of the argument arrays and the arguments
  unchanged, and `frame_ri` keeps only the arguments.
-/
import proofs.«900523_g7700000000000524_dist_gated_mlp_tp_i_m1024_h2048_d1024_v7x_i4_bf16_1_alg».proof.Defs
import proofs.«900523_g7700000000000524_dist_gated_mlp_tp_i_m1024_h2048_d1024_v7x_i4_bf16_1_alg».proof.Proof.Gen.ReferenceIdeal.Run
import proofs.«900523_g7700000000000524_dist_gated_mlp_tp_i_m1024_h2048_d1024_v7x_i4_bf16_1_alg».proof.Proof.Gen.ReferenceIdeal.Read
import proofs.«900523_g7700000000000524_dist_gated_mlp_tp_i_m1024_h2048_d1024_v7x_i4_bf16_1_alg».proof.Proof.Gen.Pre_finite_inputs_ReferenceIdeal

noncomputable section

open scoped BigOperators

namespace Cert.ReferenceIdeal.RefVal

open Idealize.ShloMosaic Idealize.ShloMosaic.TcCoe Idealize.SL.Sem Idealize.ShloMosaic.StableHlo Idealize.ShloMosaic.ValueIdx
open Cert.ReferenceIdeal Cert.ReferenceIdeal.Gen

/-- The reference's result as a function of its four argument arrays. -/
def refVal (X : Vec Ideal S1024x1024 .f32) (Wg Wu : Vec Ideal S1024x8192 .f32) (Wd : Vec Ideal S8192x1024 .f32) :
    Vec Ideal S1024x1024 .bf16 :=
  Read.val_main_v9 (F := Ideal) X Wg Wu Wd

/-- One entry of x · W for a projection W of 8192 columns: the contraction over the 1024 input columns. -/
def colDot (X : Vec Ideal S1024x1024 .f32) (W : Vec Ideal S1024x8192 .f32) (R : Fin 1024) (k : Fin 8192) : EReal :=
  ∑ c : Fin 1024, X (ix2 R c) * W (ix2 c k)

/-- The term of hidden column `k` in entry (R, q) of the result. -/
def term (X : Vec Ideal S1024x1024 .f32) (Wg Wu : Vec Ideal S1024x8192 .f32) (Wd : Vec Ideal S8192x1024 .f32)
    (R q : Fin 1024) (k : Fin 8192) : EReal :=
  (colDot X Wg R k * Ideal.div (colDot X Wu R k) (Ideal.ofBits .f32 0x3F800000#32 + Ideal.exp (-(colDot X Wu R k))))
    * Wd (ix2 k q)

/-- Entry (R, q) of the reference's result is the sum of its 8192 terms. -/
theorem refVal_apply (X : Vec Ideal S1024x1024 .f32) (Wg Wu : Vec Ideal S1024x8192 .f32) (Wd : Vec Ideal S8192x1024 .f32)
    (R q : Fin 1024) :
    refVal X Wg Wu Wd (ix2 R q) = ∑ k : Fin 8192, term X Wg Wu Wd R q k := by
  have e8l : ∀ k : Fin 8192, Read.lidx_main_v8 (ix2 R q) k = ix2 R k := fun k => funext fun a => Fin.ext (by
    match a with | ⟨0, _⟩ => rfl | ⟨1, _⟩ => rfl)
  have e8r : ∀ k : Fin 8192, Read.ridx_main_v8 (ix2 R q) k = ix2 k q := fun k => funext fun a => Fin.ext (by
    match a with | ⟨0, _⟩ => rfl | ⟨1, _⟩ => rfl)
  have e0l : ∀ (k : Fin 8192) (c : Fin 1024), Read.lidx_main_v0 (ix2 R k) c = ix2 R c := fun k c => funext fun a => Fin.ext (by
    match a with | ⟨0, _⟩ => rfl | ⟨1, _⟩ => rfl)
  have e0r : ∀ (k : Fin 8192) (c : Fin 1024), Read.ridx_main_v0 (ix2 R k) c = ix2 c k := fun k c => funext fun a => Fin.ext (by
    match a with | ⟨0, _⟩ => rfl | ⟨1, _⟩ => rfl)
  have e1l : ∀ (k : Fin 8192) (c : Fin 1024), Read.lidx_main_v1 (ix2 R k) c = ix2 R c := fun k c => funext fun a => Fin.ext (by
    match a with | ⟨0, _⟩ => rfl | ⟨1, _⟩ => rfl)
  have e1r : ∀ (k : Fin 8192) (c : Fin 1024), Read.ridx_main_v1 (ix2 R k) c = ix2 c k := fun k c => funext fun a => Fin.ext (by
    match a with | ⟨0, _⟩ => rfl | ⟨1, _⟩ => rfl)
  unfold refVal
  rw [Read.val_main_v9_apply, Read.val_main_v8_apply, Ideal.truncf_def]
  refine Finset.sum_congr rfl fun k _ => ?_
  rw [e8l k, e8r k, Read.val_main_v7_apply, Read.val_main_v6_apply, Read.val_main_v5_apply, Read.val_main_v4_apply,
    Read.val_main_cst_apply, Read.val_main_v3_apply, Read.val_main_v2_apply, Read.val_main_v0_apply, Read.val_main_v1_apply]
  simp only [e0l, e0r, e1l, e1r, Ideal.mulf_def, Ideal.hostDivf_def, Ideal.addf_def, Ideal.ofBits_def,
    Ideal.hostUnary_exp_def, Ideal.hostNegf_def, Ideal.negf_def]
  rfl

/-- Every weakly fair execution of the reference terminates with its result at `refVal` of the argument arrays and
    the arguments unchanged. -/
theorem ref_run (m' : (ℓ : Loc nD τ sig) → Buf (Elt Ideal) ℓ) (g' : Dev nD → PrngReg) :
    θ_run (Cert.ReferenceIdeal.defs (F := Ideal)) (onTc (τ := τ) (Cert.ReferenceIdeal.main (F := Ideal))) ⟨m', fun _ => 0, g'⟩ (fun r =>
      r.2.mem (((0 : Dev nD).tc : Thread nD τ).loc main_v9) = refVal (m' (((0 : Dev nD).tc : Thread nD τ).loc main_arg0)) (m' (((0 : Dev nD).tc : Thread nD τ).loc main_arg1)) (m' (((0 : Dev nD).tc : Thread nD τ).loc main_arg2)) (m' (((0 : Dev nD).tc : Thread nD τ).loc main_arg3))
      ∧ r.2.mem (((0 : Dev nD).tc : Thread nD τ).loc main_arg0) = m' (((0 : Dev nD).tc : Thread nD τ).loc main_arg0)
      ∧ r.2.mem (((0 : Dev nD).tc : Thread nD τ).loc main_arg1) = m' (((0 : Dev nD).tc : Thread nD τ).loc main_arg1)
      ∧ r.2.mem (((0 : Dev nD).tc : Thread nD τ).loc main_arg2) = m' (((0 : Dev nD).tc : Thread nD τ).loc main_arg2)
      ∧ r.2.mem (((0 : Dev nD).tc : Thread nD τ).loc main_arg3) = m' (((0 : Dev nD).tc : Thread nD τ).loc main_arg3)) :=
  (θ_run (Cert.ReferenceIdeal.defs (F := Ideal)) _ _).mono
    (fun _ h => ⟨(h 0).1.trans (Read.val_main_v9_eq (F := Ideal) _ _ _ _), (h 0).2⟩)
    (Cert.ReferenceIdeal.Value.run (F := Ideal) m' g')

/-- The reference runs and leaves its argument arrays unchanged: its run with the result dropped. -/
theorem frame_ri : Cert.frame_ReferenceIdeal :=
  fun m ρ _ => (θ_run (Cert.ReferenceIdeal.defs (F := Ideal)) _ _).mono (fun _ h c => (h c).2)
    (Cert.ReferenceIdeal.Value.run (F := Ideal) m ρ)

end Cert.ReferenceIdeal.RefVal

end
-- ==== Proof.SumSplit.lean ====
/-
  The laws of the extended reals the value claim rests on, none of which needs a finite entry.

  A sum over the 8192 hidden columns is the sum, over the four bands of 2048 consecutive columns, of
  the sum over each band (`sum_bands`, for any sizes); four band sums added starting from band `j` and
  going DOWN cyclically (j, j-1, j-2, j-3 modulo four) are the sum over the four bands, because
  addition is commutative and associative (`four_cyclic`). At one element, the gate `u · logistic u`
  is the quotient `u / (1 + e^(-u))`: the divisor is at least one, so it is not zero, and a division by
  a divisor that is not zero is the product with the inverse (`gate_eq`).
-/
import Idealize.ShloMosaic.Lib.IdealHost

open scoped BigOperators

namespace Cert.KernelIdeal.SumSplit

open Idealize.ShloMosaic

/-- Column `l` of band `d`, of `m` bands of `n` columns, is a column of the whole. -/
theorem band_lt {m n : ℕ} (d : Fin m) (l : Fin n) : d.val * n + l.val < m * n :=
  calc d.val * n + l.val < d.val * n + n := Nat.add_lt_add_left l.isLt _
    _ = (d.val + 1) * n := (Nat.succ_mul _ _).symm
    _ ≤ m * n := Nat.mul_le_mul_right _ d.isLt

/-- A sum over `m · n` columns is the sum over the `m` bands of the sums over each band's `n` columns. -/
theorem sum_bands {M : Type} [AddCommMonoid M] (m n N : ℕ) (h : N = m * n) (T : Fin N → M) :
    ∑ k : Fin N, T k = ∑ d : Fin m, ∑ l : Fin n, T ⟨d.val * n + l.val, h ▸ band_lt d l⟩ := by
  subst h
  rw [← Equiv.sum_comp finProdFinEquiv T, Fintype.sum_prod_type]
  refine Finset.sum_congr rfl fun d _ => Finset.sum_congr rfl fun l _ => congrArg T (Fin.ext ?_)
  show l.val + n * d.val = d.val * n + l.val
  rw [Nat.mul_comm, Nat.add_comm]

/-- Four terms added from `j` downwards cyclically are the sum of the four. -/
theorem four_cyclic {M : Type} [AddCommMonoid M] (P : Fin 4 → M) (j : Fin 4) :
    P j + P (j + 3) + P (j + 2) + P (j + 1) = ∑ d : Fin 4, P d := by
  rw [Fin.sum_univ_four]
  match j with
  | ⟨0, _⟩ => show P 0 + P 3 + P 2 + P 1 = _; abel
  | ⟨1, _⟩ => show P 1 + P 0 + P 3 + P 2 = _; abel
  | ⟨2, _⟩ => show P 2 + P 1 + P 0 + P 3 = _; abel
  | ⟨3, _⟩ => show P 3 + P 2 + P 1 + P 0 = _; abel

/-- The exponential of an extended real is not negative. -/
theorem exp_nonneg (x : EReal) : 0 ≤ Ideal.exp x := by
  induction x using EReal.rec with
  | bot => exact le_refl _
  | top => exact le_top
  | coe r => exact EReal.coe_nonneg.mpr (Real.exp_pos r).le

/-- One plus an exponential is not zero. -/
theorem one_add_exp_ne_zero (x : EReal) : (1 : EReal) + Ideal.exp x ≠ 0 := by
  have h1 : (1 : EReal) ≤ 1 + Ideal.exp x := le_add_of_nonneg_right (exp_nonneg x)
  intro e; rw [e] at h1; exact absurd h1 (by simp)

/-- The gate at one element: `u · logistic u = u / (1 + e^(-u))`, the one written as the f32 pattern of 1.0. -/
theorem gate_eq (u : EReal) :
    u * Ideal.logistic u = Ideal.div u (Ideal.ofBits .f32 0x3F800000#32 + Ideal.exp (-u)) := by
  rw [Ideal.ofBits_one_f32]
  exact Ideal.mul_one_div (one_add_exp_ne_zero (-u))

end Cert.KernelIdeal.SumSplit
-- ==== Proof.KernelAt.lean ====
/-
  The values the exchange moves, read at one entry as explicit sums, at the extended reals.

  At the extended reals a change of float format and a shape cast to the same shape are the identity, and
  a matrix product into a zero accumulator is the plain sum over the contraction index. So a device's share
  of a block of 128 result rows is, at entry (r, q),
      Σ_l ( (Σ_c x[r,c]·wg[c,l]) · (u · logistic u) ) · wd[l,q]     with u = Σ_c x[r,c]·wu[c,l],
  l over the device's 2048 hidden columns and c over the 1024 input columns (`share`), whether the share is
  kept wide or narrowed into a slot of the exchange buffer; and the owner's result is its own share plus
  the three received ones, added in the order they arrive.
-/
import proofs.«900523_g7700000000000524_dist_gated_mlp_tp_i_m1024_h2048_d1024_v7x_i4_bf16_1_alg».proof.Proof.Vals
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.KernelAt

open Idealize.ShloMosaic Idealize.ShloMosaic.ValueIdx Cert.KernelIdeal Cert.KernelIdeal.Gen

/-! ## The two matrix products at an entry -/

theorem lhs_up_0 (i : S128x2048.Idx) (q : dot_S128x1024_S1024x2048_S128x2048_1_0_0_1_n_n.contr.Idx) :
    (dot_S128x1024_S1024x2048_S128x2048_1_0_0_1_n_n.lhsIdx i q 0).val = (i 0).val := by
  unfold DotDims.lhsIdx
  rw [dif_neg (show ¬(0 : Fin S128x1024.rank) ∈ dot_S128x1024_S1024x2048_S128x2048_1_0_0_1_n_n.lhsBatch by decide), dif_pos (show (0 : Fin S128x1024.rank) ∈ dot_S128x1024_S1024x2048_S128x2048_1_0_0_1_n_n.lhsNonContracting by decide)]
  rfl
theorem lhs_up_1 (i : S128x2048.Idx) (q : dot_S128x1024_S1024x2048_S128x2048_1_0_0_1_n_n.contr.Idx) :
    (dot_S128x1024_S1024x2048_S128x2048_1_0_0_1_n_n.lhsIdx i q 1).val = (q ⟨0, by decide⟩).val :=
  dot_S128x1024_S1024x2048_S128x2048_1_0_0_1_n_n.lhsIdx_val_of_single rfl i q
theorem rhs_up_0 (i : S128x2048.Idx) (q : dot_S128x1024_S1024x2048_S128x2048_1_0_0_1_n_n.contr.Idx) :
    (dot_S128x1024_S1024x2048_S128x2048_1_0_0_1_n_n.rhsIdx i q 0).val = (q ⟨0, by decide⟩).val :=
  dot_S128x1024_S1024x2048_S128x2048_1_0_0_1_n_n.rhsIdx_val_of_single rfl i q
theorem rhs_up_1 (i : S128x2048.Idx) (q : dot_S128x1024_S1024x2048_S128x2048_1_0_0_1_n_n.contr.Idx) :
    (dot_S128x1024_S1024x2048_S128x2048_1_0_0_1_n_n.rhsIdx i q 1).val = (i 1).val := by
  unfold DotDims.rhsIdx
  rw [dif_neg (show ¬(1 : Fin S1024x2048.rank) ∈ dot_S128x1024_S1024x2048_S128x2048_1_0_0_1_n_n.rhsBatch by decide), dif_pos (show (1 : Fin S1024x2048.rank) ∈ dot_S128x1024_S1024x2048_S128x2048_1_0_0_1_n_n.rhsNonContracting by decide)]
  rfl

/-- The product of a block of 128 rows with a band of 2048 columns, into zero: at (r, l) the sum over the 1024
    input columns. -/
theorem matmul_up_apply {φ₁ φ₂ : FTy} (a : FVec Ideal S128x1024 φ₁) (b : FVec Ideal S1024x2048 φ₂) (r : Fin 128) (l : Fin 2048) :
    matmul dot_S128x1024_S1024x2048_S128x2048_1_0_0_1_n_n none a b (constant (F := Ideal) S128x2048 .f32 0x00000000#32) (ix2 r l)
      = ∑ c : Fin 1024, a (ix2 r c) * b (ix2 c l) := by
  simp only [matmul]
  rw [Ideal.matmul_constant_zero_apply, ← Equiv.sum_comp (contrEquiv1 dot_S128x1024_S1024x2048_S128x2048_1_0_0_1_n_n 1024 rfl rfl).symm]
  refine Finset.sum_congr rfl fun c _ => ?_
  have hk := contrEquiv1_symm_val dot_S128x1024_S1024x2048_S128x2048_1_0_0_1_n_n 1024 rfl rfl c
  have el : dot_S128x1024_S1024x2048_S128x2048_1_0_0_1_n_n.lhsIdx (ix2 r l) ((contrEquiv1 dot_S128x1024_S1024x2048_S128x2048_1_0_0_1_n_n 1024 rfl rfl).symm c) = ix2 r c := funext fun ax => Fin.ext (by
    match ax with
    | ⟨0, _⟩ => exact lhs_up_0 _ _
    | ⟨1, _⟩ => exact (lhs_up_1 _ _).trans hk)
  have er : dot_S128x1024_S1024x2048_S128x2048_1_0_0_1_n_n.rhsIdx (ix2 r l) ((contrEquiv1 dot_S128x1024_S1024x2048_S128x2048_1_0_0_1_n_n 1024 rfl rfl).symm c) = ix2 c l := funext fun ax => Fin.ext (by
    match ax with
    | ⟨0, _⟩ => exact (rhs_up_0 _ _).trans hk
    | ⟨1, _⟩ => exact rhs_up_1 _ _)
  rw [el, er]

theorem lhs_down_0 (i : S128x1024.Idx) (q : dot_S128x2048_S2048x1024_S128x1024_1_0_0_1_n_n.contr.Idx) :
    (dot_S128x2048_S2048x1024_S128x1024_1_0_0_1_n_n.lhsIdx i q 0).val = (i 0).val := by
  unfold DotDims.lhsIdx
  rw [dif_neg (show ¬(0 : Fin S128x2048.rank) ∈ dot_S128x2048_S2048x1024_S128x1024_1_0_0_1_n_n.lhsBatch by decide), dif_pos (show (0 : Fin S128x2048.rank) ∈ dot_S128x2048_S2048x1024_S128x1024_1_0_0_1_n_n.lhsNonContracting by decide)]
  rfl
theorem lhs_down_1 (i : S128x1024.Idx) (q : dot_S128x2048_S2048x1024_S128x1024_1_0_0_1_n_n.contr.Idx) :
    (dot_S128x2048_S2048x1024_S128x1024_1_0_0_1_n_n.lhsIdx i q 1).val = (q ⟨0, by decide⟩).val :=
  dot_S128x2048_S2048x1024_S128x1024_1_0_0_1_n_n.lhsIdx_val_of_single rfl i q
theorem rhs_down_0 (i : S128x1024.Idx) (q : dot_S128x2048_S2048x1024_S128x1024_1_0_0_1_n_n.contr.Idx) :
    (dot_S128x2048_S2048x1024_S128x1024_1_0_0_1_n_n.rhsIdx i q 0).val = (q ⟨0, by decide⟩).val :=
  dot_S128x2048_S2048x1024_S128x1024_1_0_0_1_n_n.rhsIdx_val_of_single rfl i q
theorem rhs_down_1 (i : S128x1024.Idx) (q : dot_S128x2048_S2048x1024_S128x1024_1_0_0_1_n_n.contr.Idx) :
    (dot_S128x2048_S2048x1024_S128x1024_1_0_0_1_n_n.rhsIdx i q 1).val = (i 1).val := by
  unfold DotDims.rhsIdx
  rw [dif_neg (show ¬(1 : Fin S2048x1024.rank) ∈ dot_S128x2048_S2048x1024_S128x1024_1_0_0_1_n_n.rhsBatch by decide), dif_pos (show (1 : Fin S2048x1024.rank) ∈ dot_S128x2048_S2048x1024_S128x1024_1_0_0_1_n_n.rhsNonContracting by decide)]
  rfl

/-- The product of a block of 128 gated rows with a band of 2048 rows of the down projection, into zero: at (r, q)
    the sum over the band's 2048 hidden columns. -/
theorem matmul_down_apply {φ₁ φ₂ : FTy} (a : FVec Ideal S128x2048 φ₁) (b : FVec Ideal S2048x1024 φ₂) (r : Fin 128) (q : Fin 1024) :
    matmul dot_S128x2048_S2048x1024_S128x1024_1_0_0_1_n_n none a b (constant (F := Ideal) S128x1024 .f32 0x00000000#32) (ix2 r q)
      = ∑ l : Fin 2048, a (ix2 r l) * b (ix2 l q) := by
  simp only [matmul]
  rw [Ideal.matmul_constant_zero_apply, ← Equiv.sum_comp (contrEquiv1 dot_S128x2048_S2048x1024_S128x1024_1_0_0_1_n_n 2048 rfl rfl).symm]
  refine Finset.sum_congr rfl fun l _ => ?_
  have hk := contrEquiv1_symm_val dot_S128x2048_S2048x1024_S128x1024_1_0_0_1_n_n 2048 rfl rfl l
  have el : dot_S128x2048_S2048x1024_S128x1024_1_0_0_1_n_n.lhsIdx (ix2 r q) ((contrEquiv1 dot_S128x2048_S2048x1024_S128x1024_1_0_0_1_n_n 2048 rfl rfl).symm l) = ix2 r l := funext fun ax => Fin.ext (by
    match ax with
    | ⟨0, _⟩ => exact lhs_down_0 _ _
    | ⟨1, _⟩ => exact (lhs_down_1 _ _).trans hk)
  have er : dot_S128x2048_S2048x1024_S128x1024_1_0_0_1_n_n.rhsIdx (ix2 r q) ((contrEquiv1 dot_S128x2048_S2048x1024_S128x1024_1_0_0_1_n_n 2048 rfl rfl).symm l) = ix2 l q := funext fun ax => Fin.ext (by
    match ax with
    | ⟨0, _⟩ => exact (rhs_down_0 _ _).trans hk
    | ⟨1, _⟩ => exact rhs_down_1 _ _)
  rw [el, er]

/-! ## The payloads at an entry -/

/-- A narrowed band of the gate projection is the band. -/
theorem pay1_apply (w : Vec Ideal S1024x2048 .f32) (i : S1024x2048.Idx) : k0_pay1 (F := Ideal) w i = w i := by
  unfold k0_pay1
  simp only [shapeCast_self]
  rfl
/-- A narrowed band of the up projection is the band. -/
theorem pay2_apply (w : Vec Ideal S1024x2048 .f32) (i : S1024x2048.Idx) : k0_pay2 (F := Ideal) w i = w i := by
  unfold k0_pay2
  simp only [shapeCast_self]
  rfl
/-- A narrowed band of the down projection is the band. -/
theorem pay3_apply (w : Vec Ideal S2048x1024 .f32) (i : S2048x1024.Idx) : k0_pay3 (F := Ideal) w i = w i := by
  unfold k0_pay3
  simp only [shapeCast_self]
  rfl

/-- The logistic function of a vector at an entry is the logistic function of the entry. -/
theorem logistic_apply {s : Shape} {φ : FTy} (v : FVec Ideal s φ) (i : s.Idx) : logistic v i = Ideal.logistic (v i) := rfl

/-- The gated product of a row block with a device's bands at (r, l): the gate entry times `u · logistic u`. -/
def gated (xr : Vec Ideal S128x1024 .f32) (g u : Vec Ideal S1024x2048 .bf16) (r : Fin 128) (l : Fin 2048) : EReal :=
  (∑ c : Fin 1024, xr (ix2 r c) * g (ix2 c l))
    * ((∑ c : Fin 1024, xr (ix2 r c) * u (ix2 c l)) * Ideal.logistic (∑ c : Fin 1024, xr (ix2 r c) * u (ix2 c l)))

theorem pay10_apply (xr : Vec Ideal S128x1024 .f32) (g u : Vec Ideal S1024x2048 .bf16) (r : Fin 128) (l : Fin 2048) :
    k0_pay10 (F := Ideal) xr g u (ix2 r l) = gated xr g u r l := by
  unfold k0_pay10
  simp only [shapeCast_self]
  rw [mulf_apply, mulf_apply, logistic_apply, matmul_up_apply, matmul_up_apply]
  rfl

theorem pay11_apply (v : FVec Ideal S128x2048 .f32) (d : Vec Ideal S2048x1024 .bf16) (r : Fin 128) (q : Fin 1024) :
    k0_pay11 (F := Ideal) v d (ix2 r q) = ∑ l : Fin 2048, v (ix2 r l) * d (ix2 l q) := by
  unfold k0_pay11
  show matmul dot_S128x2048_S2048x1024_S128x1024_1_0_0_1_n_n none (truncf .bf16 v bitsLt_bf16_f32) d
    (constant (F := Ideal) S128x1024 .f32 0x00000000#32) (ix2 r q) = _
  rw [matmul_down_apply]
  rfl

theorem pay4_apply (xr : Vec Ideal S128x1024 .f32) (g u : Vec Ideal S1024x2048 .bf16) (d : Vec Ideal S2048x1024 .bf16)
    (r : Fin 128) (q : Fin 1024) :
    k0_pay4 (F := Ideal) xr g u d (ix3 (0 : Fin 1) r q) = ∑ l : Fin 2048, gated xr g u r l * d (ix2 l q) := by
  unfold k0_pay4
  simp only [shapeCast_self]
  rw [shapeCast_ab_1ab_apply, truncf_apply, matmul_down_apply]
  refine Finset.sum_congr rfl fun l _ => ?_
  rw [truncf_apply, mulf_apply, mulf_apply, logistic_apply, matmul_up_apply, matmul_up_apply]
  rfl

/-- A device's share of a block of 128 result rows at entry (r, q). -/
def share (xr : Vec Ideal S128x1024 .f32) (wg wu : Vec Ideal S1024x2048 .f32) (wd : Vec Ideal S2048x1024 .f32)
    (r : Fin 128) (q : Fin 1024) : EReal :=
  ∑ l : Fin 2048,
    ((∑ c : Fin 1024, xr (ix2 r c) * wg (ix2 c l))
      * ((∑ c : Fin 1024, xr (ix2 r c) * wu (ix2 c l)) * Ideal.logistic (∑ c : Fin 1024, xr (ix2 r c) * wu (ix2 c l))))
    * wd (ix2 l q)

/-- The wide share at an entry. -/
theorem part32_apply (xr : Vec Ideal S128x1024 .f32) (wg wu : Vec Ideal S1024x2048 .f32) (wd : Vec Ideal S2048x1024 .f32)
    (r : Fin 128) (q : Fin 1024) :
    Vals.part32 (F := Ideal) xr wg wu wd (ix2 r q) = share xr wg wu wd r q := by
  unfold Vals.part32 share
  rw [pay11_apply]
  refine Finset.sum_congr rfl fun l _ => ?_
  rw [pay10_apply, pay3_apply]
  unfold gated
  simp only [pay1_apply, pay2_apply]

/-- The narrowed share, in its slot of the exchange buffer, at an entry: the same sum. -/
theorem part16_apply (xr : Vec Ideal S128x1024 .f32) (wg wu : Vec Ideal S1024x2048 .f32) (wd : Vec Ideal S2048x1024 .f32)
    (r : Fin 128) (q : Fin 1024) :
    Vals.part16 (F := Ideal) xr wg wu wd (ix3 (0 : Fin 1) r q) = share xr wg wu wd r q := by
  unfold Vals.part16 share
  rw [pay4_apply]
  refine Finset.sum_congr rfl fun l _ => ?_
  rw [pay3_apply]
  unfold gated
  simp only [pay1_apply, pay2_apply]

/-- The owner's result at an entry: its own share plus the three received ones, in the order they are added. -/
theorem red_apply (own : FVec Ideal S128x1024 .f32) (s0 s1 s2 : Vec Ideal S1x128x1024 .bf16) (r : Fin 128) (q : Fin 1024) :
    Vals.red (F := Ideal) own s0 s1 s2 (ix2 r q)
      = own (ix2 r q) + s0 (ix3 (0 : Fin 1) r q) + s1 (ix3 (0 : Fin 1) r q) + s2 (ix3 (0 : Fin 1) r q) := by
  unfold Vals.red k0_pay19 k0_pay18
  dsimp only
  rw [truncf_apply, addf_apply, addf_apply, addf_apply, extf_apply, extf_apply, extf_apply,
    shapeCast_1ab_ab_apply, shapeCast_1ab_ab_apply, shapeCast_1ab_ab_apply]

end Cert.KernelIdeal.KernelAt

end
-- ==== Proof.ValueIdeal.lean ====
/-
  The owner's result for a block of 128 rows is the reference's result on those rows.

  Device d holds band d of the gate and up projections (columns 2048·d … 2048·d + 2047 of the 8192) and band
  d of the down projection (the same rows of it). Its share of a row block is therefore the part of the
  reference's sum over the 8192 hidden columns that runs over band d: the contractions over the 1024 input
  columns are the reference's own, entry by entry, and the gate `u · logistic u` is the reference's quotient
  `u / (1 + e^(-u))` (the divisor is not zero). The owner j adds the shares of devices j, j-1, j-2, j-3 (modulo
  four): the four bands, each once, and addition is commutative and associative, so the total is the sum over
  all 8192 columns. No entry needs to be finite.
-/
import proofs.«900523_g7700000000000524_dist_gated_mlp_tp_i_m1024_h2048_d1024_v7x_i4_bf16_1_alg».proof.Proof.Vals
import proofs.«900523_g7700000000000524_dist_gated_mlp_tp_i_m1024_h2048_d1024_v7x_i4_bf16_1_alg».proof.Proof.RefVal
import proofs.«900523_g7700000000000524_dist_gated_mlp_tp_i_m1024_h2048_d1024_v7x_i4_bf16_1_alg».proof.Proof.SumSplit
import proofs.«900523_g7700000000000524_dist_gated_mlp_tp_i_m1024_h2048_d1024_v7x_i4_bf16_1_alg».proof.Proof.KernelAt
import Idealize.ShloMosaic.Lib.Layout

noncomputable section

open scoped BigOperators

namespace Cert.KernelIdeal.ValueIdeal

open Idealize.ShloMosaic Idealize.ShloMosaic.ValueIdx Cert.KernelIdeal
open Cert.ReferenceIdeal.RefVal (refVal colDot term refVal_apply)

/-- Band `d` of a projection of 8192 columns: its columns 2048·d … 2048·d + 2047. -/
abbrev band (d : Fin 4) (W : Vec Ideal Cert.ReferenceIdeal.S1024x8192 .f32) : Vec Ideal S1024x2048 .f32 :=
  Layout.block ⟨2, ![1024, 2048]⟩ ⟨2, ![1024, 8192]⟩ 1 4 d W
/-- Band `d` of the down projection: its rows 2048·d … 2048·d + 2047. -/
abbrev bandR (d : Fin 4) (W : Vec Ideal Cert.ReferenceIdeal.S8192x1024 .f32) : Vec Ideal S2048x1024 .f32 :=
  Layout.block ⟨2, ![2048, 1024]⟩ ⟨2, ![8192, 1024]⟩ 0 4 d W

/-- Column `l` of band `d` is column 2048·d + l of the whole. -/
theorem band_apply (h : Layout.Tiles ⟨2, ![1024, 2048]⟩ ⟨2, ![1024, 8192]⟩ 1 4) (d : Fin 4)
    (W : (⟨2, ![1024, 8192]⟩ : Shape).Idx → EReal) (c : Fin 1024) (l : Fin 2048) :
    Layout.block ⟨2, ![1024, 2048]⟩ ⟨2, ![1024, 8192]⟩ 1 4 d W h (ix2 c l)
      = W (ix2 c ⟨d.val * 2048 + l.val, SumSplit.band_lt d l⟩) :=
  congrArg W (funext fun a => Fin.ext (by match a with | ⟨0, _⟩ => rfl | ⟨1, _⟩ => rfl))

/-- Row `l` of band `d` of the down projection is row 2048·d + l of the whole. -/
theorem bandR_apply (h : Layout.Tiles ⟨2, ![2048, 1024]⟩ ⟨2, ![8192, 1024]⟩ 0 4) (d : Fin 4)
    (W : (⟨2, ![8192, 1024]⟩ : Shape).Idx → EReal) (l : Fin 2048) (q : Fin 1024) :
    Layout.block ⟨2, ![2048, 1024]⟩ ⟨2, ![8192, 1024]⟩ 0 4 d W h (ix2 l q)
      = W (ix2 ⟨d.val * 2048 + l.val, SumSplit.band_lt d l⟩ q) :=
  congrArg W (funext fun a => Fin.ext (by match a with | ⟨0, _⟩ => rfl | ⟨1, _⟩ => rfl))

/-- Device `d`'s share of the row block (j, g) at entry (r, q) is the reference's sum over band `d`. -/
theorem share_band (X' : Vec Ideal Cert.ReferenceIdeal.S1024x1024 .f32) (Wg' Wu' : Vec Ideal Cert.ReferenceIdeal.S1024x8192 .f32)
    (Wd' : Vec Ideal Cert.ReferenceIdeal.S8192x1024 .f32) (j : Fin 4) (g : Fin 2) (xr : Vec Ideal S128x1024 .f32)
    (hxr : ∀ (r : Fin 128) (k : Fin 1024), xr (ix2 r k) = X' (ix2 ⟨256 * j.val + 128 * g.val + r.val, by omega⟩ k))
    (d : Fin 4) (r : Fin 128) (q : Fin 1024) :
    KernelAt.share xr (band d Wg') (band d Wu') (bandR d Wd') r q
      = ∑ l : Fin 2048, term X' Wg' Wu' Wd' ⟨256 * j.val + 128 * g.val + r.val, by omega⟩ q ⟨d.val * 2048 + l.val, SumSplit.band_lt d l⟩ := by
  unfold KernelAt.share term colDot
  refine Finset.sum_congr rfl fun l _ => ?_
  simp only [band, bandR, hxr, band_apply, bandR_apply]
  rw [SumSplit.gate_eq]

/-- The owner's result for row block (j, g), entry by entry, is the reference's result on rows
    256·j + 128·g … + 127: its own wide share plus the narrowed shares of the devices one, two and three before it. -/
theorem block_value (X' : Vec Ideal Cert.ReferenceIdeal.S1024x1024 .f32) (Wg' Wu' : Vec Ideal Cert.ReferenceIdeal.S1024x8192 .f32)
    (Wd' : Vec Ideal Cert.ReferenceIdeal.S8192x1024 .f32) (j : Fin 4) (g : Fin 2) (xr : Vec Ideal S128x1024 .f32)
    (hxr : ∀ (r : Fin 128) (k : Fin 1024), xr (ix2 r k) = X' (ix2 ⟨256 * j.val + 128 * g.val + r.val, by omega⟩ k))
    (r : Fin 128) (q : Fin 1024) :
    Vals.red (F := Ideal) (Vals.part32 (F := Ideal) xr (band j Wg') (band j Wu') (bandR j Wd'))
        (Vals.part16 (F := Ideal) xr (band (j + 3) Wg') (band (j + 3) Wu') (bandR (j + 3) Wd'))
        (Vals.part16 (F := Ideal) xr (band (j + 2) Wg') (band (j + 2) Wu') (bandR (j + 2) Wd'))
        (Vals.part16 (F := Ideal) xr (band (j + 1) Wg') (band (j + 1) Wu') (bandR (j + 1) Wd')) (ix2 r q)
      = refVal X' Wg' Wu' Wd' (ix2 ⟨256 * j.val + 128 * g.val + r.val, by omega⟩ q) := by
  rw [KernelAt.red_apply, KernelAt.part32_apply, KernelAt.part16_apply, KernelAt.part16_apply, KernelAt.part16_apply,
    share_band X' Wg' Wu' Wd' j g xr hxr j, share_band X' Wg' Wu' Wd' j g xr hxr (j + 3),
    share_band X' Wg' Wu' Wd' j g xr hxr (j + 2), share_band X' Wg' Wu' Wd' j g xr hxr (j + 1),
    refVal_apply, SumSplit.sum_bands 4 2048 8192 rfl]
  exact SumSplit.four_cyclic
    (fun d : Fin 4 => ∑ l : Fin 2048, term X' Wg' Wu' Wd' ⟨256 * j.val + 128 * g.val + r.val, by omega⟩ q ⟨d.val * 2048 + l.val, SumSplit.band_lt d l⟩) j

end Cert.KernelIdeal.ValueIdeal

end
-- ==== Proof.Bridge.lean ====
/-
  The result the exchange leaves on every device is the reference's result.

  Every device stages all of x and its own bands of the three projections: a window whose one block is the whole
  array stages the array, and a load of a whole staged band reads the band. The 128 rows of x a device reads for the device o + 1 places after it, half g, are rows
  256·(c + 1 + o mod 4) + 128·g … of x; read from the device 3 - o places after d they are rows 256·d + 128·g … —
  the rows device d itself reads for its own half g. So the four shares device d adds for its half g are shares of
  ONE block of rows, computed with the bands of devices d, d-1, d-2, d-3 (modulo four), and their sum is the
  reference's result on those rows. Row R of the whole result is row R mod 128 of half (R / 128) mod 2 of device
  (R / 256) mod 4, and 256·((R / 256) mod 4) + 128·((R / 128) mod 2) + R mod 128 = R below 1024.
-/
import proofs.«900523_g7700000000000524_dist_gated_mlp_tp_i_m1024_h2048_d1024_v7x_i4_bf16_1_alg».proof.Proof.Proto
import proofs.«900523_g7700000000000524_dist_gated_mlp_tp_i_m1024_h2048_d1024_v7x_i4_bf16_1_alg».proof.Proof.RefVal
import proofs.«900523_g7700000000000524_dist_gated_mlp_tp_i_m1024_h2048_d1024_v7x_i4_bf16_1_alg».proof.Proof.ValueIdeal

noncomputable section

namespace Cert.KernelIdeal.Bridge

open Idealize.ShloMosaic Idealize.ShloMosaic.TcCoe Idealize.SL.Sem Idealize.ShloMosaic.ValueIdx
open Cert.KernelIdeal Cert.KernelIdeal.Gen Cert.KernelIdeal.Px Cert.KernelIdeal.ValueIdeal

variable (m : (ℓ : Loc nD τ sig) → Buf (Elt Ideal) ℓ)

/-! ## What a device stages -/

theorem Xs_eq (c : Dev nD) : Xs (F := Ideal) m c = m ((c : Thread nD τ).loc main_arg0) :=
  Memref.read_access_unit_zero (Elt Ideal) main_arg0 (funext fun _ => Nat.zero_mul _) _ _
theorem Gs_eq (c : Dev nD) : Gs (F := Ideal) m c = m ((c : Thread nD τ).loc main_arg1) :=
  Memref.read_access_unit_zero (Elt Ideal) main_arg1 (funext fun _ => Nat.zero_mul _) _ _
theorem Us_eq (c : Dev nD) : Us (F := Ideal) m c = m ((c : Thread nD τ).loc main_arg2) :=
  Memref.read_access_unit_zero (Elt Ideal) main_arg2 (funext fun _ => Nat.zero_mul _) _ _
theorem Ds_eq (c : Dev nD) : Ds (F := Ideal) m c = m ((c : Thread nD τ).loc main_arg3) :=
  Memref.read_access_unit_zero (Elt Ideal) main_arg3 (funext fun _ => Nat.zero_mul _) _ _

/-- A load of a whole staged band reads the band. -/
theorem zero_off : (![0, 0] : Fin 2 → Nat) = fun _ => 0 := funext fun a => by
  match a with | ⟨0, _⟩ => rfl | ⟨1, _⟩ => rfl
theorem Gr_eq (c : Dev nD) : Gr (F := Ideal) m c = Gs (F := Ideal) m c :=
  Memref.readAt_unit_zero (Elt Ideal) cc0_stg1_0 zero_off _ _
theorem Ur_eq (c : Dev nD) : Ur (F := Ideal) m c = Us (F := Ideal) m c :=
  Memref.readAt_unit_zero (Elt Ideal) cc0_stg2_0 zero_off _ _
theorem Dr_eq (c : Dev nD) : Dr (F := Ideal) m c = Ds (F := Ideal) m c :=
  Memref.readAt_unit_zero (Elt Ideal) cc0_stg3_0 zero_off _ _

/-! ## The rows of x a device reads -/

/-- 128 consecutive rows of x from row `R0`. -/
def rowsFrom (X : Vec Ideal S1024x1024 .f32) (R0 : Nat) (hR : R0 + 128 ≤ 1024) : Vec Ideal S128x1024 .f32 :=
  fun i : S128x1024.Idx => X (ix2 ⟨R0 + (i 0).val, by have := idx2_lt0 i; omega⟩ ⟨(i 1).val, idx2_lt1 i⟩)

/-- A load of 128 whole rows from row `R0` through the staged x reads those rows. -/
theorem readRows (X : Vec Ideal S1024x1024 .f32) (off : Fin 2 → Nat)
    (inb : ∀ a, off a + S128x1024.size a ≤ S1024x1024.size a) (R0 : Nat) (hoff : off = ![R0, 0]) (hR : R0 + 128 ≤ 1024) :
    xM.view.readAt (Elt Ideal) (Rect.unit (s := S1024x1024) off S128x1024.size inb).toLoadRect X = rowsFrom X R0 hR := by
  subst hoff
  funext i
  exact congrArg X (funext fun a => Fin.ext (by
    match a with
    | ⟨0, _⟩ => show R0 + 1 * (i 0).val = R0 + (i 0).val; rw [Nat.one_mul]
    | ⟨1, _⟩ => show 0 + 1 * (i 1).val = (i 1).val; rw [Nat.one_mul, Nat.zero_add]))

theorem rowsFrom_congr (X : Vec Ideal S1024x1024 .f32) {R0 R1 : Nat} (h : R0 = R1) (h0 : R0 + 128 ≤ 1024) (h1 : R1 + 128 ≤ 1024) :
    rowsFrom X R0 h0 = rowsFrom X R1 h1 := by subst h; rfl

/-- Rows 256·d + 128·g … + 127 of x: the rows of half `g` of device `d`'s result rows. -/
def rows (X : Vec Ideal S1024x1024 .f32) (d : Fin 4) (g : Fin 2) : Vec Ideal S128x1024 .f32 :=
  rowsFrom X (256 * d.val + 128 * g.val) (by omega)

theorem rows_apply (X : Vec Ideal S1024x1024 .f32) (d : Fin 4) (g : Fin 2) (r : Fin 128) (k : Fin 1024) :
    rows X d g (ix2 r k) = X (ix2 ⟨256 * d.val + 128 * g.val + r.val, by omega⟩ k) := rfl

/-- What device `p` reads for the device `o + 1` places after it is that device's rows. -/
theorem xrO_eq (d p : Dev nD) (o : Fin 3) (g : Fin 2) (hp : pe d (3 - o.val) = p) :
    xrO (F := Ideal) m p o g = rows (Xs (F := Ideal) m p) d g := by
  have hd : d.val < 4 := d.isLt
  have hp4 : p.val < 4 := p.isLt
  have hv : (p.val + 1 + o.val) % 4 = d.val := by
    have h := congrArg Fin.val hp
    simp only [pe] at h
    omega
  unfold xrO rows
  rw [readRows (Xs (F := Ideal) m p) _ _ (256 * ((p.val + 1 + o.val) % 4) + 128 * g.val) (k0_off1_eq p o g) (by omega)]
  exact rowsFrom_congr _ (by rw [hv]) _ _

/-- What device `d` reads for its own half `g`. -/
theorem xrOwn_eq (d : Dev nD) (g : Fin 2) : xrOwn (F := Ideal) m d g = rows (Xs (F := Ideal) m d) d g := by
  have hd : d.val < 4 := d.isLt
  have h3 : k0_off3 d 128#32 = ![256 * d.val + 128, 0] := k0_off3_eq d 1
  match g with
  | ⟨0, _⟩ =>
    show xM.view.readAt (Elt Ideal) (Rect.unit (s := S1024x1024) (k0_off2 d) S128x1024.size (k0_off2_inb d)).toLoadRect (Xs (F := Ideal) m d)
      = rowsFrom (Xs (F := Ideal) m d) (256 * d.val + 128 * 0) (by omega)
    rw [readRows (Xs (F := Ideal) m d) _ _ (256 * d.val) (k0_off2_eq d) (by omega)]
    exact rowsFrom_congr _ (by omega) _ _
  | ⟨1, _⟩ =>
    show xM.view.readAt (Elt Ideal) (Rect.unit (s := S1024x1024) (k0_off3 d 128#32) S128x1024.size (k0_off3_inb d 1)).toLoadRect (Xs (F := Ideal) m d)
      = rowsFrom (Xs (F := Ideal) m d) (256 * d.val + 128 * 1) (by omega)
    rw [readRows (Xs (F := Ideal) m d) _ _ (256 * d.val + 128) h3 (by omega)]

/-! ## The whole result -/

theorem pe_three (d : Dev nD) : pe d (3 - (0 : Fin 3).val) = d + 3 := by revert d; decide
theorem pe_two (d : Dev nD) : pe d (3 - (1 : Fin 3).val) = d + 2 := by revert d; decide
theorem pe_one (d : Dev nD) : pe d (3 - (2 : Fin 3).val) = d + 1 := by revert d; decide

/-- The whole result is the reference's, for any whole arrays the devices' staged arguments are the copies and bands of. -/
theorem OUT_eq (X' : Vec Ideal Cert.ReferenceIdeal.S1024x1024 .f32) (Wg' Wu' : Vec Ideal Cert.ReferenceIdeal.S1024x8192 .f32)
    (Wd' : Vec Ideal Cert.ReferenceIdeal.S8192x1024 .f32)
    (hX : ∀ c : Dev nD, Xs (F := Ideal) m c = X') (hG : ∀ c : Dev nD, Gs (F := Ideal) m c = band c Wg')
    (hU : ∀ c : Dev nD, Us (F := Ideal) m c = band c Wu') (hD : ∀ c : Dev nD, Ds (F := Ideal) m c = bandR c Wd') :
    Px.OUT (F := Ideal) m = Cert.ReferenceIdeal.RefVal.refVal X' Wg' Wu' Wd' := by
  have hgot : ∀ (d p : Dev nD) (o : Fin 3) (g : Fin 2), pe d (3 - o.val) = p →
      got (F := Ideal) m d o g = Vals.part16 (F := Ideal) (rows X' d g) (band p Wg') (band p Wu') (bandR p Wd') := by
    intro d p o g hp
    unfold got sent
    rw [hp, xrO_eq m d p o g hp, Gr_eq, Ur_eq, Dr_eq, hX, hG, hU, hD]
  have hown : ∀ (d : Dev nD) (g : Fin 2),
      own32 (F := Ideal) m d g = Vals.part32 (F := Ideal) (rows X' d g) (band d Wg') (band d Wu') (bandR d Wd') := by
    intro d g
    unfold own32
    rw [xrOwn_eq m d g, Gr_eq, Ur_eq, Dr_eq, hX, hG, hU, hD]
  refine funext fun (i : S1024x1024.Idx) => ?_
  obtain ⟨row, q, rfl⟩ : ∃ (row : Fin 1024) (q : Fin 1024), i = ix2 row q := ⟨i 0, i 1, eq_ix2 i⟩
  show Px.R (F := Ideal) m ⟨row.val / 256 % 4, Nat.mod_lt _ (by decide)⟩ ⟨row.val / 128 % 2, Nat.mod_lt _ (by decide)⟩
      (ix2 ⟨row.val % 128, Nat.mod_lt _ (by decide)⟩ q) = _
  unfold Px.R
  rw [hown, hgot _ _ 0 _ (pe_three _), hgot _ _ 1 _ (pe_two _), hgot _ _ 2 _ (pe_one _),
    block_value X' Wg' Wu' Wd' ⟨row.val / 256 % 4, Nat.mod_lt _ (by decide)⟩ ⟨row.val / 128 % 2, Nat.mod_lt _ (by decide)⟩
      (rows X' ⟨row.val / 256 % 4, Nat.mod_lt _ (by decide)⟩ ⟨row.val / 128 % 2, Nat.mod_lt _ (by decide)⟩)
      (rows_apply X' ⟨row.val / 256 % 4, Nat.mod_lt _ (by decide)⟩ ⟨row.val / 128 % 2, Nat.mod_lt _ (by decide)⟩)
      ⟨row.val % 128, Nat.mod_lt _ (by decide)⟩ q]
  exact congrArg (Cert.ReferenceIdeal.RefVal.refVal X' Wg' Wu' Wd')
    (congrArg (fun t : Fin 1024 => ix2 t q) (Fin.ext (by
      show 256 * (row.val / 256 % 4) + 128 * (row.val / 128 % 2) + row.val % 128 = row.val
      have := row.isLt
      omega)))

/-- From memories where each device holds its copy of x and its bands of the projections, the result every device
    ends with is the reference's result of the whole arrays. -/
theorem OUT_eq_ref (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 2048]⟩ ⟨2, ![1024, 8192]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 2048]⟩ ⟨2, ![1024, 8192]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg3))) :
    Cert.KernelIdeal.Px.OUT (F := Ideal) m = Cert.ReferenceIdeal.RefVal.refVal (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)) :=
  OUT_eq m _ _ _ _ (fun c => (Xs_eq m c).trans (hagree c).1) (fun c => (Gs_eq m c).trans (hagree c).2.1)
    (fun c => (Us_eq m c).trans (hagree c).2.2.1) (fun c => (Ds_eq m c).trans (hagree c).2.2.2)

end Cert.KernelIdeal.Bridge

end
-- ==== Proof.lean ====
/-
  The claims of this certificate: the tensor-parallel gated MLP on four devices against the one-device reference.

  Each device holds all of x and a band of 2048 hidden columns of the three projections. It computes, for every block
  of 128 result rows, its share of the contraction over the 8192 hidden columns; the shares of a block are sent to
  the block's owner, which adds the three it receives to its own and sends the finished rows to every other device.
  One theorem carries everything: from any memory with zero counters the program runs, on every device the result
  array ends holding the one function `OUT` of the devices' argument blocks, and the argument arrays end as they
  were. The two frames are that run with the result dropped, at the word-level and at the ideal instance. For the
  algebraic claim, when each device's blocks are its parts of the reference's whole arrays, `OUT` is the
  reference's result: a sum over the hidden columns split into the four devices' bands, in any order at the ideal
  instance. The reference's own frame and run are read off its generated run.
-/
import proofs.«900523_g7700000000000524_dist_gated_mlp_tp_i_m1024_h2048_d1024_v7x_i4_bf16_1_alg».proof.Defs
import proofs.«900523_g7700000000000524_dist_gated_mlp_tp_i_m1024_h2048_d1024_v7x_i4_bf16_1_alg».proof.Proof.Gen.Kernel
import proofs.«900523_g7700000000000524_dist_gated_mlp_tp_i_m1024_h2048_d1024_v7x_i4_bf16_1_alg».proof.Proof.Gen.Kernel.Skeleton
import proofs.«900523_g7700000000000524_dist_gated_mlp_tp_i_m1024_h2048_d1024_v7x_i4_bf16_1_alg».proof.Proof.Gen.Kernel.Launch
import proofs.«900523_g7700000000000524_dist_gated_mlp_tp_i_m1024_h2048_d1024_v7x_i4_bf16_1_alg».proof.Proof.Gen.Kernel.Points
import proofs.«900523_g7700000000000524_dist_gated_mlp_tp_i_m1024_h2048_d1024_v7x_i4_bf16_1_alg».proof.Proof.Gen.Kernel.Frame
import proofs.«900523_g7700000000000524_dist_gated_mlp_tp_i_m1024_h2048_d1024_v7x_i4_bf16_1_alg».proof.Proof.Gen.KernelIdeal
import proofs.«900523_g7700000000000524_dist_gated_mlp_tp_i_m1024_h2048_d1024_v7x_i4_bf16_1_alg».proof.Proof.Gen.KernelIdeal.Skeleton
import proofs.«900523_g7700000000000524_dist_gated_mlp_tp_i_m1024_h2048_d1024_v7x_i4_bf16_1_alg».proof.Proof.Gen.KernelIdeal.Launch
import proofs.«900523_g7700000000000524_dist_gated_mlp_tp_i_m1024_h2048_d1024_v7x_i4_bf16_1_alg».proof.Proof.Gen.KernelIdeal.Points
import proofs.«900523_g7700000000000524_dist_gated_mlp_tp_i_m1024_h2048_d1024_v7x_i4_bf16_1_alg».proof.Proof.Gen.KernelIdeal.Frame
import proofs.«900523_g7700000000000524_dist_gated_mlp_tp_i_m1024_h2048_d1024_v7x_i4_bf16_1_alg».proof.Proof.Gen.ReferenceIdeal
import proofs.«900523_g7700000000000524_dist_gated_mlp_tp_i_m1024_h2048_d1024_v7x_i4_bf16_1_alg».proof.Proof.Gen.Pre_finite_inputs_Kernel
import proofs.«900523_g7700000000000524_dist_gated_mlp_tp_i_m1024_h2048_d1024_v7x_i4_bf16_1_alg».proof.Proof.Gen.Pre_finite_inputs_ReferenceIdeal
import proofs.«900523_g7700000000000524_dist_gated_mlp_tp_i_m1024_h2048_d1024_v7x_i4_bf16_1_alg».proof.Proof.Launch
import proofs.«900523_g7700000000000524_dist_gated_mlp_tp_i_m1024_h2048_d1024_v7x_i4_bf16_1_alg».proof.Proof.Oblig
import proofs.«900523_g7700000000000524_dist_gated_mlp_tp_i_m1024_h2048_d1024_v7x_i4_bf16_1_alg».proof.Proof.W.Launch
import proofs.«900523_g7700000000000524_dist_gated_mlp_tp_i_m1024_h2048_d1024_v7x_i4_bf16_1_alg».proof.Proof.W.Oblig
import proofs.«900523_g7700000000000524_dist_gated_mlp_tp_i_m1024_h2048_d1024_v7x_i4_bf16_1_alg».proof.Proof.RefVal
import proofs.«900523_g7700000000000524_dist_gated_mlp_tp_i_m1024_h2048_d1024_v7x_i4_bf16_1_alg».proof.Proof.Bridge
import Idealize.ShloMosaic.Adequacy
import Idealize.ShloMosaic.Init

noncomputable section

namespace Cert.Proof

open Idealize.ShloMosaic Idealize.SL.Sem

/-- The word-level kernel runs and leaves its argument arrays unchanged: its run, the result dropped. -/
theorem frame_kernel : Cert.frame_Kernel := fun m g _ =>
  (θ_run (Cert.Kernel.defs (F := Bits)) _ _).mono (fun _ h c => (h c).2)
    (Cert.Kernel.Lx.run_named (F := Bits) m g (Cert.Kernel.Ox.body_obligation m g))

/-- The same at the ideal instance. -/
theorem frame_kernelIdeal : Cert.frame_KernelIdeal := fun m g _ =>
  (θ_run (Cert.KernelIdeal.defs (F := Ideal)) _ _).mono (fun _ h c => (h c).2)
    (Cert.KernelIdeal.Lx.run_named (F := Ideal) m g (Cert.KernelIdeal.Ox.body_obligation m g))

/-- At the ideal instance, from memories where each device's blocks are its parts of the reference's whole arrays, every
    device's result ends at the reference's result of the whole arrays. -/
theorem algebraic : Cert.algebraic_KernelIdeal_ReferenceIdeal := fun m g m' g' _ hagree =>
  ⟨Cert.ReferenceIdeal.RefVal.refVal
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)),
    (θ_run (Cert.KernelIdeal.defs (F := Ideal)) _ _).mono
      (fun _ h c => ⟨(h c).1.trans (Cert.KernelIdeal.Bridge.OUT_eq_ref m m' hagree), (h c).2⟩)
      (Cert.KernelIdeal.Lx.run_named (F := Ideal) m g (Cert.KernelIdeal.Ox.body_obligation m g)),
    Cert.ReferenceIdeal.RefVal.ref_run m' g'⟩

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    frame_kernel, frame_kernelIdeal, Cert.ReferenceIdeal.RefVal.frame_ri, trivial, algebraic⟩

end Cert.Proof

end
